-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_t" .f32 0x40555555#32 ((16777216 / 5033165 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S1000x128 : Shape := ⟨2, ![1000, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8192x128 .f32) (main_arg1 : IVec S8192 32) (main_arg2 : FVec F S1000x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S1000x128 .f32 := Host.absf main_arg2
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg1 main_v9
  let main_c_3 : IVec S_ 1 := constantI S_ 1 1#1
  let main_v11 : IVec S_ 1 := (fun x v => Host.reduce IntOp.andi x v reducesTo_S8192_S_d0 h_S_) main_v10 main_c_3
  let main_v12 : IVec S_ 1 := andi main_v8 main_v11
  let main_c_4 : IVec S_ 32 := constantI S_ 32 1000#32
  let main_v13 : IVec S8192 32 := broadcastInDim S8192 ![] bcast_S_S8192 main_c_4
  let main_v14 : IVec S8192 1 := cmpi .slt main_arg1 main_v13
  let main_c_5 : IVec S_ 1 := constantI S_ 1 1#1
  let main_v15 : IVec S_ 1 := (fun x v => Host.reduce IntOp.andi x v reducesTo_S8192_S_d0 h_S_) main_v14 main_c_5
  fn_part1 (F := F) main_v12 main_v15
-- ==== Kernel.lean ====
abbrev S8192x128 : Shape := ⟨2, ![8192, 128]⟩
abbrev S8192 : Shape := ⟨1, ![8192]⟩
abbrev S1000x128 : Shape := ⟨2, ![1000, 128]⟩
abbrev S_ : Shape := ⟨0, ![]⟩
abbrev S1000 : Shape := ⟨1, ![1000]⟩
abbrev S1000x1 : Shape := ⟨2, ![1000, 1]⟩
abbrev S1x1000 : Shape := ⟨2, ![1, 1000]⟩
abbrev S8192x1 : Shape := ⟨2, ![8192, 1]⟩
abbrev S1x8192 : Shape := ⟨2, ![1, 8192]⟩
abbrev S8192x1000 : Shape := ⟨2, ![8192, 1000]⟩
abbrev S1024x128 : Shape := ⟨2, ![1024, 128]⟩
abbrev S1024x1 : Shape := ⟨2, ![1024, 1]⟩
abbrev S1024x1000 : Shape := ⟨2, ![1024, 1000]⟩
abbrev S1024 : Shape := ⟨1, ![1024]⟩
abbrev S128x1000 : Shape := ⟨2, ![128, 1000]⟩
abbrev S1x1024 : Shape := ⟨2, ![1, 1024]⟩
abbrev S128x1024 : Shape := ⟨2, ![128, 1024]⟩
abbrev S1024x1024 : Shape := ⟨2, ![1024, 1024]⟩

abbrev nBuf : Space → Nat
  | .hbm => 66
  | .vmem => 27
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S1000x128, .f32⟩
  | .hbm, ⟨3, _⟩ => ⟨S1000x128, .f32⟩
  | .hbm, ⟨4, _⟩ => ⟨S_, .f32⟩
  | .hbm, ⟨5, _⟩ => ⟨S1000, .f32⟩
  | .hbm, ⟨6, _⟩ => ⟨S1000x1, .f32⟩
  | .hbm, ⟨7, _⟩ => ⟨S1000x1, .f32⟩
  | .hbm, ⟨8, _⟩ => ⟨S_, .f32⟩
  | .hbm, ⟨9, _⟩ => ⟨S1000x1, .f32⟩
  | .hbm, ⟨10, _⟩ => ⟨S1000x1, .f32⟩
  | .hbm, ⟨11, _⟩ => ⟨S1000x128, .f32⟩
  | .hbm, ⟨12, _⟩ => ⟨S1000x128, .f32⟩
  | .hbm, ⟨13, _⟩ => ⟨S1000x128, .f32⟩
  | .hbm, ⟨14, _⟩ => ⟨S_, .f32⟩
  | .hbm, ⟨15, _⟩ => ⟨S1000, .f32⟩
  | .hbm, ⟨16, _⟩ => ⟨S1x1000, .f32⟩
  | .hbm, ⟨17, _⟩ => ⟨S8192x1, .i32⟩
  | .hbm, ⟨18, _⟩ => ⟨S1x8192, .i32⟩
  | .hbm, ⟨19, _⟩ => ⟨S8192x1000, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .i1⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1000x128, .f32⟩
  | .local _ .vmem, ⟨3, _⟩ => ⟨S1000x128, .f32⟩
  | .local _ .vmem, ⟨4, _⟩ => ⟨S1x1000, .f32⟩
  | .local _ .vmem, ⟨5, _⟩ => ⟨S1024x1, .i32⟩
  | .local _ .vmem, ⟨6, _⟩ => ⟨S1024x1, .i32⟩
  | .local _ .vmem, ⟨7, _⟩ => ⟨S1024x1000, .f32⟩
  | .local _ .vmem, ⟨8, _⟩ => ⟨S1024x1000, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x1, .i32⟩
  | .local _ .vmem, ⟨18, _⟩ => ⟨S1024x1, .i32⟩
  | .local _ .vmem, ⟨19, _⟩ => ⟨S1x1024, .i32⟩
  | .local _ .vmem, ⟨20, _⟩ => ⟨S1x1024, .i32⟩
  | .local _ .vmem, ⟨21, _⟩ => ⟨S1024x1, .f32⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | .local _ .vmem, ⟨26, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev main_v17 : Ref sig .tc := ⟨.hbm, 35, rfl⟩
abbrev main_cst_6 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_7 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_v25 : Ref sig .tc := ⟨.hbm, 48, rfl⟩
abbrev main_v26 : Ref sig .tc := ⟨.hbm, 49, rfl⟩
abbrev main_cst_9 : Ref sig .tc := ⟨.hbm, 50, rfl⟩
abbrev main_v27 : Ref sig .tc := ⟨.hbm, 51, rfl⟩
abbrev main_cst_10 : Ref sig .tc := ⟨.hbm, 52, rfl⟩
abbrev main_v28 : Ref sig .tc := ⟨.hbm, 53, rfl⟩
abbrev main_v29 : Ref sig .tc := ⟨.hbm, 54, rfl⟩
abbrev main_cst_11 : Ref sig .tc := ⟨.hbm, 55, rfl⟩
abbrev main_v30 : Ref sig .tc := ⟨.hbm, 56, rfl⟩
abbrev main_v31 : Ref sig .tc := ⟨.hbm, 57, rfl⟩
abbrev main_cst_12 : Ref sig .tc := ⟨.hbm, 58, rfl⟩
abbrev main_v32 : Ref sig .tc := ⟨.hbm, 59, rfl⟩
abbrev main_cst_13 : Ref sig .tc := ⟨.hbm, 60, rfl⟩
abbrev main_v33 : Ref sig .tc := ⟨.hbm, 61, rfl⟩
abbrev main_v34 : Ref sig .tc := ⟨.hbm, 62, rfl⟩
abbrev main_cst_14 : Ref sig .tc := ⟨.hbm, 63, rfl⟩
abbrev main_v35 : Ref sig .tc := ⟨.hbm, 64, rfl⟩
abbrev main_v36 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  reducesTo_S1000x128_S1000_d1 : S1000x128.ReducesTo [1] S1000
  h_S_ : 0 < S_.numel
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1000x1_S1000x128_0_1 : S1000x1.BroadcastsInDim S1000x128 (![0, 1] : Fin 2 → Fin S1000x128.rank)
  bcast_S1000_S1x1000_1 : S1000.BroadcastsInDim S1x1000 (![1] : Fin 1 → Fin S1x1000.rank)
  shapeCasts_S8192_S8192x1 : S8192.ShapeCasts S8192x1
  shapeCasts_S8192_S1x8192 : S8192.ShapeCasts S1x8192
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  transposes_S1000x128_p1_0_S128x1000 : S1000x128.Transposes [1, 0] S128x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1024x1_S1024x1000 : S1024x1.Broadcasts S1024x1000
  broadcasts_S1x1000_S1024x1000 : S1x1000.Broadcasts S1024x1000
  inb_S1024x1000_S1024x1000_0_0 : ∀ a, (![0, 0] : Fin 2 → Nat) a + S1024x1000.size a ≤ S1024x1000.size a
  h_S1024x1000 : 0 < S1024x1000.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1000_d1_w32 : S1024x1000.Iotas .tc 32 [1]
  natLt_1_32 : 1 < 32
  reduces_S1024x1000_S1024 : S1024x1000.Reduces [1] S1024
  reducesTo_S8192x1_S_d0_1 : S8192x1.ReducesTo [0, 1] S_
  bitsLt_bf16_f32 : FTy.bits .bf16 < FTy.bits .f32
  transposes_S1024x128_p1_0_S128x1024 : S1024x128.Transposes [1, 0] S128x1024
  reduces_S1024x1024_S1024 : S1024x1024.Reduces [1] S1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  bcast_S_S8192x1 : S_.BroadcastsInDim S8192x1 (![] : Fin 0 → Fin S8192x1.rank)
  dot_S1024x128_S128x1000_S1024x1000_1_0_0_1_n_n_wf : DotDims.WF S1024x128 S128x1000 S1024x1000 [1] [0] [0] [1] [] []
  dot_S1024x1000_S1000x128_S1024x128_1_0_0_1_n_n_wf : DotDims.WF S1024x1000 S1000x128 S1024x128 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S1000x128.size a
  hwx0_1 : ∀ i : grid0.Coords, EltTy.bits .f32 = 32 ∨ (Rect.block (s := S1000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S1000x128.size a
  hwx0_2 : ∀ i : grid0.Coords, EltTy.bits .f32 = 32 ∨ (Rect.block (s := S1000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1000.size a ≤ S1x1000.size a
  hwx0_3 : ∀ i : grid0.Coords, EltTy.bits .f32 = 32 ∨ (Rect.block (s := S1x1000) S1x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1000.size a ≤ S8192x1000.size a
  hwx0_5 : ∀ i : grid0.Coords, EltTy.bits .f32 = 32 ∨ (Rect.block (s := S8192x1000) S1024x1000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S8192x1.size a
  hwx0_7 : ∀ i : grid0.Coords, EltTy.bits .f32 = 32 ∨ (Rect.block (s := S8192x1) S1024x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .i32 = 32 ∨ (Rect.block (s := S8192x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .i32 = 32 ∨ (Rect.block (s := S1x8192) S1x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S8192x1.size a
  hwx1_5 : ∀ i : grid1.Coords, EltTy.bits .f32 = 32 ∨ (Rect.block (s := S8192x1) S1024x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S8192x1.size a
  hwx1_6 : ∀ i : grid1.Coords, EltTy.bits .f32 = 32 ∨ (Rect.block (s := S8192x1) S1024x1.size (cc1_transform_6 i) (hinb1_6 i)).WholeWords (EltTy.packing .f32)

variable [Facts₀]

def dot_S1024x128_S128x1000_S1024x1000_1_0_0_1_n_n : DotDims S1024x128 S128x1000 S1024x1000 where
  lhsContracting := [1]
  rhsContracting := [0]
  lhsNonContracting := [0]
  rhsNonContracting := [1]
  lhsBatch := []
  rhsBatch := []
  wf := dot_S1024x128_S128x1000_S1024x1000_1_0_0_1_n_n_wf
def dot_S1024x1000_S1000x128_S1024x128_1_0_0_1_n_n : DotDims S1024x1000 S1000x128 S1024x128 where
  lhsContracting := [1]
  rhsContracting := [0]
  lhsNonContracting := [0]
  rhsNonContracting := [1]
  lhsBatch := []
  rhsBatch := []
  wf := dot_S1024x1000_S1000x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S1024x1000.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_2) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16_0) S1024x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v16_1) S1024x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v16_2) S1024x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8192x128 : Shape := ⟨2, ![8192, 128]⟩
abbrev S8192 : Shape := ⟨1, ![8192]⟩
abbrev S1000x128 : Shape := ⟨2, ![1000, 128]⟩
abbrev S_ : Shape := ⟨0, ![]⟩
abbrev S8192x1 : Shape := ⟨2, ![8192, 1]⟩
abbrev S128x1000 : Shape := ⟨2, ![128, 1000]⟩
abbrev S8192x1000 : Shape := ⟨2, ![8192, 1000]⟩
abbrev S1000 : Shape := ⟨1, ![1000]⟩
abbrev S1x1000 : Shape := ⟨2, ![1, 1000]⟩
abbrev S8192x2 : Shape := ⟨2, ![8192, 2]⟩
abbrev S1000x1 : Shape := ⟨2, ![1000, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 180
  | .vmem => 0
  | .smem => 0
  | _ => 0

abbrev hbmTy0_0 (i : Nat) : BufTy := match i % 128 with
  | 0 => ⟨S8192x128, .f32⟩
  | 1 => ⟨S8192, .i32⟩
  | 2 => ⟨S1000x128, .f32⟩
  | 3 => ⟨S8192x128, .f32⟩
  | 4 => ⟨S_, .f32⟩
  | 5 => ⟨S8192, .f32⟩
  | 6 => ⟨S8192x1, .f32⟩
  | 7 => ⟨S8192x1, .f32⟩
  | 8 => ⟨S_, .f32⟩
  | 9 => ⟨S8192x1, .f32⟩
  | 10 => ⟨S8192x1, .f32⟩
  | 11 => ⟨S8192x128, .f32⟩
  | 12 => ⟨S8192x128, .f32⟩
  | 13 => ⟨S128x1000, .f32⟩
  | 14 => ⟨S8192x1000, .f32⟩
  | 15 => ⟨S8192x128, .f32⟩
  | 16 => ⟨S_, .f32⟩
  | 17 => ⟨S8192, .f32⟩
  | 18 => ⟨S8192x1, .f32⟩
  | 19 => ⟨S1000x128, .f32⟩
  | 20 => ⟨S_, .f32⟩
  | 21 => ⟨S1000, .f32⟩
  | 22 => ⟨S1x1000, .f32⟩
  | 23 => ⟨S_, .f32⟩
  | 24 => ⟨S8192x1000, .f32⟩
  | 25 => ⟨S8192x1000, .f32⟩
  | 26 => ⟨S8192x1000, .f32⟩
  | 27 => ⟨S8192x1000, .f32⟩
  | 28 => ⟨S8192x1000, .f32⟩
  | 29 => ⟨S8192x1000, .f32⟩
  | 30 => ⟨S_, .f32⟩
  | 31 => ⟨S8192x1000, .f32⟩
  | 32 => ⟨S8192x1000, .f32⟩
  | 33 => ⟨S8192x1, .i32⟩
  | 34 => ⟨S1x1000, .i32⟩
  | 35 => ⟨S8192x1000, .i32⟩
  | 36 => ⟨S8192x1000, .i32⟩
  | 37 => ⟨S8192x1000, .i1⟩
  | 38 => ⟨S8192x1000, .f32⟩
  | 39 => ⟨S_, .f32⟩
  | 40 => ⟨S8192x1000, .f32⟩
  | 41 => ⟨S8192x1000, .f32⟩
  | 42 => ⟨S_, .f32⟩
  | 43 => ⟨S8192x1000, .f32⟩
  | 44 => ⟨S8192x1000, .f32⟩
  | 45 => ⟨S8192x1000, .f32⟩
  | 46 => ⟨S_, .f32⟩
  | 47 => ⟨S8192, .f32⟩
  | 48 => ⟨S_, .f32⟩
  | 49 => ⟨S8192, .f32⟩
  | 50 => ⟨S8192, .f32⟩
  | 51 => ⟨S8192x1, .f32⟩
  | 52 => ⟨S8192x1000, .f32⟩
  | 53 => ⟨S8192x1000, .f32⟩
  | 54 => ⟨S8192x1000, .f32⟩
  | 55 => ⟨S_, .f32⟩
  | 56 => ⟨S8192, .f32⟩
  | 57 => ⟨S8192x1, .f32⟩
  | 58 => ⟨S8192x1, .f32⟩
  | 59 => ⟨S8192x1000, .f32⟩
  | 60 => ⟨S8192x1000, .f32⟩
  | 61 => ⟨S8192, .i32⟩
  | 62 => ⟨S_, .i32⟩
  | 63 => ⟨S8192, .i32⟩
  | 64 => ⟨S8192, .i1⟩
  | 65 => ⟨S_, .i32⟩
  | 66 => ⟨S8192, .i32⟩
  | 67 => ⟨S8192, .i32⟩
  | 68 => ⟨S8192, .i32⟩
  | 69 => ⟨S_, .i32⟩
  | 70 => ⟨S8192, .i32⟩
  | 71 => ⟨S8192, .i1⟩
  | 72 => ⟨S_, .i32⟩
  | 73 => ⟨S8192, .i32⟩
  | 74 => ⟨S8192, .i32⟩
  | 75 => ⟨S8192, .i32⟩
  | 76 => ⟨S8192x1, .i32⟩
  | 77 => ⟨S8192x1, .i32⟩
  | 78 => ⟨S8192x2, .i32⟩
  | 79 => ⟨S8192, .f32⟩
  | 80 => ⟨S_, .f32⟩
  | 81 => ⟨S_, .f32⟩
  | 82 => ⟨S_, .f32⟩
  | 83 => ⟨S_, .f32⟩
  | 84 => ⟨S_, .f32⟩
  | 85 => ⟨S1000x128, .f32⟩
  | 86 => ⟨S_, .f32⟩
  | 87 => ⟨S1000, .f32⟩
  | 88 => ⟨S1000x1, .f32⟩
  | 89 => ⟨S1000x1, .f32⟩
  | 90 => ⟨S_, .f32⟩
  | 91 => ⟨S1000x1, .f32⟩
  | 92 => ⟨S1000x1, .f32⟩
  | 93 => ⟨S1000x128, .f32⟩
  | 94 => ⟨S1000x128, .f32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S8192x128, .f32⟩
  | 104 => ⟨S8192x128, .f32⟩
  | 105 => ⟨S8192x128, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S128x8192, .f32⟩
  | 113 => ⟨S8192x8192, .f32⟩
  | 114 => ⟨S_, .f32⟩
  | 115 => ⟨S8192x8192, .f32⟩
  | 116 => ⟨S8192x8192, .f32⟩
  | 117 => ⟨S8192x8192, .i32⟩
  | 118 => ⟨S8192x8192, .i32⟩
  | 119 => ⟨S_, .i32⟩
  | 120 => ⟨S8192x8192, .i32⟩
  | 121 => ⟨S8192x8192, .i32⟩
  | 122 => ⟨S8192x8192, .i1⟩
  | 123 => ⟨S8192x8192, .f32⟩
  | 124 => ⟨S_, .f32⟩
  | 125 => ⟨S_, .f32⟩
  | 126 => ⟨S8192x8192, .f32⟩
  | 127 => ⟨S8192x8192, .f32⟩
  | _ => ⟨S8192x128, .f32⟩

abbrev hbmTy0_1 (i : Nat) : BufTy := match i % 128 with
  | 0 => ⟨S_, .f32⟩
  | 1 => ⟨S8192, .f32⟩
  | 2 => ⟨S8192, .f32⟩
  | 3 => ⟨S8192x1, .f32⟩
  | 4 => ⟨S8192x8192, .f32⟩
  | 5 => ⟨S8192x8192, .f32⟩
  | 6 => ⟨S8192x1, .i32⟩
  | 7 => ⟨S1x8192, .i32⟩
  | 8 => ⟨S8192x8192, .i32⟩
  | 9 => ⟨S8192x8192, .i32⟩
  | 10 => ⟨S8192x8192, .i1⟩
  | 11 => ⟨S8192x8192, .i1⟩
  | 12 => ⟨S8192x8192, .i1⟩
  | 13 => ⟨S8192x8192, .i32⟩
  | 14 => ⟨S_, .i32⟩
  | 15 => ⟨S8192, .i32⟩
  | 16 => ⟨S_, .f32⟩
  | 17 => ⟨S_, .f32⟩
  | 18 => ⟨S8192x8192, .f32⟩
  | 19 => ⟨S8192x8192, .f32⟩
  | 20 => ⟨S_, .f32⟩
  | 21 => ⟨S8192, .f32⟩
  | 22 => ⟨S_, .i32⟩
  | 23 => ⟨S8192, .i32⟩
  | 24 => ⟨S8192, .i1⟩
  | 25 => ⟨S_, .i32⟩
  | 26 => ⟨S8192, .i32⟩
  | 27 => ⟨S8192, .i32⟩
  | 28 => ⟨S8192, .f32⟩
  | 29 => ⟨S8192, .f32⟩
  | 30 => ⟨S_, .f32⟩
  | 31 => ⟨S_, .f32⟩
  | 32 => ⟨S8192, .f32⟩
  | 33 => ⟨S8192, .f32⟩
  | 34 => ⟨S8192, .i32⟩
  | 35 => ⟨S_, .i32⟩
  | 36 => ⟨S_, .i32⟩
  | 37 => ⟨S_, .f32⟩
  | 38 => ⟨S_, .f32⟩
  | 39 => ⟨S_, .f32⟩
  | 40 => ⟨S_, .i32⟩
  | 41 => ⟨S_, .i32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call2_cst : Ref sig .tc := ⟨.hbm, 46, rfl⟩
abbrev main_call2_v0 : Ref sig .tc := ⟨.hbm, 47, rfl⟩
abbrev main_call2_cst_0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_v6 : Ref sig .tc := ⟨.hbm, 54, rfl⟩
abbrev main_call2_cst_1 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_v27 : Ref sig .tc := ⟨.hbm, 60, rfl⟩
abbrev main_v28 : Ref sig .tc := ⟨.hbm, 61, rfl⟩
abbrev main_c : Ref sig .tc := ⟨.hbm, 62, rfl⟩
abbrev main_v29 : Ref sig .tc := ⟨.hbm, 63, rfl⟩
abbrev main_v30 : Ref sig .tc := ⟨.hbm, 64, rfl⟩
abbrev main_c_6 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_c_7 : Ref sig .tc := ⟨.hbm, 69, rfl⟩
abbrev main_v34 : Ref sig .tc := ⟨.hbm, 70, rfl⟩
abbrev main_v35 : Ref sig .tc := ⟨.hbm, 71, rfl⟩
abbrev main_c_8 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_9 : Ref sig .tc := ⟨.hbm, 80, rfl⟩
abbrev main_v43 : Ref sig .tc := ⟨.hbm, 81, rfl⟩
abbrev main_cst_10 : Ref sig .tc := ⟨.hbm, 82, rfl⟩
abbrev main_v44 : Ref sig .tc := ⟨.hbm, 83, rfl⟩
abbrev main_v45 : Ref sig .tc := ⟨.hbm, 84, rfl⟩
abbrev main_call3_v0 : Ref sig .tc := ⟨.hbm, 85, rfl⟩
abbrev main_call3_cst : Ref sig .tc := ⟨.hbm, 86, rfl⟩
abbrev main_call3_v1 : Ref sig .tc := ⟨.hbm, 87, rfl⟩
abbrev main_call3_v2 : Ref sig .tc := ⟨.hbm, 88, rfl⟩
abbrev main_v46 : Ref sig .tc := ⟨.hbm, 89, rfl⟩
abbrev main_cst_11 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_c_12 : Ref sig .tc := ⟨.hbm, 95, rfl⟩
abbrev main_v51 : Ref sig .tc := ⟨.hbm, 96, rfl⟩
abbrev main_v52 : Ref sig .tc := ⟨.hbm, 97, rfl⟩
abbrev main_c_13 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_14 : Ref sig .tc := ⟨.hbm, 106, rfl⟩
abbrev main_v60 : Ref sig .tc := ⟨.hbm, 107, rfl⟩
abbrev main_cst_15 : Ref sig .tc := ⟨.hbm, 108, rfl⟩
abbrev main_v61 : Ref sig .tc := ⟨.hbm, 109, rfl⟩
abbrev main_cst_16 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_17 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_c_18 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_cst_19 : Ref sig .tc := ⟨.hbm, 124, rfl⟩
abbrev main_call4_v0 : Ref sig .tc := ⟨.hbm, 125, rfl⟩
abbrev main_call4_v1 : Ref sig .tc := ⟨.hbm, 126, rfl⟩
abbrev main_v73 : Ref sig .tc := ⟨.hbm, 127, rfl⟩
abbrev main_cst_20 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_c_21 : Ref sig .tc := ⟨.hbm, 142, rfl⟩
abbrev main_v87 : Ref sig .tc := ⟨.hbm, 143, rfl⟩
abbrev main_cst_22 : Ref sig .tc := ⟨.hbm, 144, rfl⟩
abbrev main_call5_v0 : Ref sig .tc := ⟨.hbm, 145, rfl⟩
abbrev main_call5_v1 : Ref sig .tc := ⟨.hbm, 146, rfl⟩
abbrev main_v88 : Ref sig .tc := ⟨.hbm, 147, rfl⟩
abbrev main_cst_23 : Ref sig .tc := ⟨.hbm, 148, rfl⟩
abbrev main_v89 : Ref sig .tc := ⟨.hbm, 149, rfl⟩
abbrev main_c_24 : Ref sig .tc := ⟨.hbm, 150, rfl⟩
abbrev main_v90 : Ref sig .tc := ⟨.hbm, 151, rfl⟩
abbrev main_v91 : Ref sig .tc := ⟨.hbm, 152, rfl⟩
abbrev main_c_25 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_cst_26 : Ref sig .tc := ⟨.hbm, 158, rfl⟩
abbrev main_call6_v0 : Ref sig .tc := ⟨.hbm, 159, rfl⟩
abbrev main_call6_v1 : Ref sig .tc := ⟨.hbm, 160, rfl⟩
abbrev main_v96 : Ref sig .tc := ⟨.hbm, 161, rfl⟩
abbrev main_v97 : Ref sig .tc := ⟨.hbm, 162, rfl⟩
abbrev main_c_27 : Ref sig .tc := ⟨.hbm, 163, rfl⟩
abbrev main_v98 : Ref sig .tc := ⟨.hbm, 164, rfl⟩
abbrev main_cst_28 : Ref sig .tc := ⟨.hbm, 165, rfl⟩
abbrev main_v99 : Ref sig .tc := ⟨.hbm, 166, rfl⟩
abbrev main_v100 : Ref sig .tc := ⟨.hbm, 167, rfl⟩
abbrev main_c_29 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_cst_30 : Ref sig .tc := ⟨.hbm, 172, rfl⟩
abbrev main_v104 : Ref sig .tc := ⟨.hbm, 173, rfl⟩
abbrev main_cst_31 : Ref sig .tc := ⟨.hbm, 174, rfl⟩
abbrev main_v105 : Ref sig .tc := ⟨.hbm, 175, rfl⟩
abbrev main_v106 : Ref sig .tc := ⟨.hbm, 176, rfl⟩
abbrev main_cst_32 : Ref sig .tc := ⟨.hbm, 177, rfl⟩
abbrev main_v107 : Ref sig .tc := ⟨.hbm, 178, rfl⟩
abbrev main_v108 : Ref sig .tc := ⟨.hbm, 179, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S1000x128_S128x1000_1_0 : S1000x128.Transposes [1, 0] S128x1000
  reducesTo_S1000x128_S1000_d1 : S1000x128.ReducesTo [1] S1000
  bcast_S1000_S1x1000_1 : S1000.BroadcastsInDim S1x1000 (![1] : Fin 1 → Fin S1x1000.rank)
  bcast_S_S8192x1000 : S_.BroadcastsInDim S8192x1000 (![] : Fin 0 → Fin S8192x1000.rank)
  bcast_S8192x1_S8192x1000_0_1 : S8192x1.BroadcastsInDim S8192x1000 (![0, 1] : Fin 2 → Fin S8192x1000.rank)
  bcast_S1x1000_S8192x1000_0_1 : S1x1000.BroadcastsInDim S8192x1000 (![0, 1] : Fin 2 → Fin S8192x1000.rank)
  reducesTo_S8192x1000_S8192_d1 : S8192x1000.ReducesTo [1] S8192
  bcast_S_S8192 : S_.BroadcastsInDim S8192 (![] : Fin 0 → Fin S8192.rank)
  concatenates_S8192x1_S8192x1_S8192x2_d1 : Shape.Concatenates [S8192x1, S8192x1] S8192x2 1
  reducesTo_S8192_S_d0 : S8192.ReducesTo [0] S_
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1000x1_S1000x128_0_1 : S1000x1.BroadcastsInDim S1000x128 (![0, 1] : Fin 2 → Fin S1000x128.rank)
  reducesTo_S8192x128_S_d0_1 : S8192x128.ReducesTo [0, 1] S_
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  natLt_1_32 : 1 < 32
  dot_S8192x128_S128x1000_S8192x1000_1_0_0_1_n_n_wf : DotDims.WF S8192x128 S128x1000 S8192x1000 [1] [0] [0] [1] [] []
  gather_S8192x1000_S8192x2_S8192_n_01_n_n_01_1_11_wf : GatherDims.WF S8192x1000 S8192x2 S8192 [] [0, 1] [] [0, 1] [] 1 ![1, 1]
  gather_S1000x128_S8192x1_S8192x128_1_0_n_n_0_1_1128_wf : GatherDims.WF S1000x128 S8192x1 S8192x128 [1] [0] [] [0] [] 1 ![1, 128]
  dot_S8192x128_S128x8192_S8192x8192_1_0_0_1_n_n_wf : DotDims.WF S8192x128 S128x8192 S8192x8192 [1] [0] [0] [1] [] []

variable [Facts₀]

def dot_S8192x128_S128x1000_S8192x1000_1_0_0_1_n_n : DotDims S8192x128 S128x1000 S8192x1000 where
  lhsContracting := [1]
  rhsContracting := [0]
  lhsNonContracting := [0]
  rhsNonContracting := [1]
  lhsBatch := []
  rhsBatch := []
  wf := dot_S8192x128_S128x1000_S8192x1000_1_0_0_1_n_n_wf
def gather_S8192x1000_S8192x2_S8192_n_01_n_n_01_1_11 : GatherDims S8192x1000 S8192x2 S8192 where
  offsetDims := []
  collapsedSliceDims := [0, 1]
  operandBatchingDims := []
  startIndicesBatchingDims := []
  startIndexMap := [0, 1]
  indexVectorDim := 1
  sliceSizes := ![1, 1]
  wf := gather_S8192x1000_S8192x2_S8192_n_01_n_n_01_1_11_wf
def gather_S1000x128_S8192x1_S8192x128_1_0_n_n_0_1_1128 : GatherDims S1000x128 S8192x1 S8192x128 where
  offsetDims := [1]
  collapsedSliceDims := [0]
  operandBatchingDims := []
  startIndicesBatchingDims := []
  startIndexMap := [0]
  indexVectorDim := 1
  sliceSizes := ![1, 128]
  wf := gather_S1000x128_S8192x1_S8192x128_1_0_n_n_0_1_1128_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.B0.lean ====
/- The body half of the frame of kernel region 0, once for every float family: what the body leaves in the three
   output windows' staging buffers as a closed function of the five input blocks, the body's triple, the
   pipeline's proof data at the region-entry contents, and the body obligation. -/
import proofs.«400644_j12893491823014_2_alg».proof.Proof.Gen.KernelIdeal.Launch
import proofs.«400644_j12893491823014_2_alg».proof.Proof.Gen.KernelIdeal.Skeleton
import proofs.«400644_j12893491823014_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the entry contents `V` of the window's array read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body loads and stores through: each the whole of its buffer -/

/-- the feature block, 1024 rows of 128 -/
abbrev rFeat : Rect S1024x128 := Rect.unit (s := S1024x128) ![0, 0] S1024x128.size inb_S1024x128_S1024x128_0_0
/-- a table of class means, 1000 rows of 128 -/
abbrev rMeans : Rect S1000x128 := Rect.unit (s := S1000x128) ![0, 0] S1000x128.size inb_S1000x128_S1000x128_0_0
/-- the row of squared norms of the means, 1 by 1000 -/
abbrev rRow : Rect S1x1000 := Rect.unit (s := S1x1000) ![0, 0] S1x1000.size inb_S1x1000_S1x1000_0_0
/-- a column of 1024 entries (the labels; each per-row output) -/
abbrev rCol : Rect S1024x1 := Rect.unit (s := S1024x1) ![0, 0] S1024x1.size inb_S1024x1_S1024x1_0_0
/-- the 1024 by 1000 table of negated distances -/
abbrev rTab : Rect S1024x1000 := Rect.unit (s := S1024x1000) ![0, 0] S1024x1000.size inb_S1024x1000_S1024x1000_0_0

/-! ## What the body leaves in each output window's buffer

Each output buffer receives exactly one store, through the whole-buffer rectangle; its contents afterwards are the
canon of that one piece, the payload a function of what the loads read of the five input blocks. The five blocks are, in the windows' order:
the features, the two tables of means, the row of norms, the labels. -/

/-- Window 5 (the negated-distance table): the store of the scaled distance payload of the features, the means and the norms row. -/
def out0_5 (x0 : Vec F S1024x128 .f32) (x1 : Vec F S1000x128 .f32) (x2 : Vec F S1000x128 .f32)
    (x3 : Vec F S1x1000 .f32) (x4 : Vec F S1024x1 .i32) : Vec F S1024x1000 .f32 :=
  View.canon [⟨rTab, k0_pay5 (View.ld x0 rFeat) (View.ld x1 rMeans) (View.ld x3 rRow)⟩]

/-- Window 6 (the cross-entropy column): the store of the row-wise loss of the distance table against the one-hot labels. -/
def out0_6 (x0 : Vec F S1024x128 .f32) (x1 : Vec F S1000x128 .f32) (x2 : Vec F S1000x128 .f32)
    (x3 : Vec F S1x1000 .f32) (x4 : Vec F S1024x1 .i32) : Vec F S1024x1 .f32 :=
  View.canon [⟨rCol, k0_pay1 (k0_pay5 (View.ld x0 rFeat) (View.ld x1 rMeans) (View.ld x3 rRow))
    (k0_pay6 (View.ld x4 rCol)) (k0_pay7 (View.ld x4 rCol)) (k0_pay8 (F := F))⟩]

/-- Window 7 (the margin column): the store of the squared distance of each normalised feature row to its label's mean. -/
def out0_7 (x0 : Vec F S1024x128 .f32) (x1 : Vec F S1000x128 .f32) (x2 : Vec F S1000x128 .f32)
    (x3 : Vec F S1x1000 .f32) (x4 : Vec F S1024x1 .i32) : Vec F S1024x1 .f32 :=
  View.canon [⟨rCol, k0_pay2 (k0_pay3 (View.ld x0 rFeat)) (k0_pay4 (View.ld x2 rMeans)) (k0_pay6 (View.ld x4 rCol))⟩]

/-- One whole-buffer piece covers the table's buffer. -/
theorem coverTab (p : rTab.shape.Idx → Elt F .f32) (y : S1024x1000.Idx) :
    ∃ pc ∈ ([⟨rTab, p⟩] : List (View.Piece (Elt F) S1024x1000 .f32)), y ∈ pc.1.set :=
  View.cover_of_tiled [⟨rTab, p⟩] S1024x1000.size (by rfl) y

/-- One whole-buffer piece covers a column's buffer. -/
theorem coverCol (p : rCol.shape.Idx → Elt F .f32) (y : S1024x1.Idx) :
    ∃ pc ∈ ([⟨rCol, p⟩] : List (View.Piece (Elt F) S1024x1 .f32)), y ∈ pc.1.set :=
  View.cover_of_tiled [⟨rCol, p⟩] S1024x1.size (by rfl) y

/-! ## The body's triple -/

set_option maxHeartbeats 4000000 in
/-- The body on whole staging memrefs: the five inputs' at read contents `x0 … x4`, the three outputs' at anything. It
    runs to a continuation that holds the inputs' as they were and each output's at its canon. The printed function and
    the part it calls are their skeletons; the executor runs the loads and the stores in order. -/
theorem sound_kernel0 (c : Dev nD) (E : Set ℕ) (i : grid0.Coords)
    (a1 : Memref sig .tc .vmem S1024x128 .f32) (h1 : a1.IsWhole) (a2 : Memref sig .tc .vmem S1000x128 .f32) (h2 : a2.IsWhole)
    (a3 : Memref sig .tc .vmem S1000x128 .f32) (h3 : a3.IsWhole) (a4 : Memref sig .tc .vmem S1x1000 .f32) (h4 : a4.IsWhole)
    (a5 : Memref sig .tc .vmem S1024x1 .i32) (h5 : a5.IsWhole) (a6 : Memref sig .tc .vmem S1024x1000 .f32) (h6 : a6.IsWhole)
    (a7 : Memref sig .tc .vmem S1024x1 .f32) (h7 : a7.IsWhole) (a8 : Memref sig .tc .vmem S1024x1 .f32) (h8 : a8.IsWhole)
    (x0 : Vec F S1024x128 .f32) (x1 : Vec F S1000x128 .f32) (x2 : Vec F S1000x128 .f32)
    (x3 : Vec F S1x1000 .f32) (x4 : Vec F S1024x1 .i32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4
        ∗ (∃ d, owns (c : Thread nD τ) a6 fullShare d) ∗ (∃ d, owns (c : Thread nD τ) a7 fullShare d) ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (out0_5 x0 x1 x2 x3 x4)
            ∗ owns (c : Thread nD τ) a7 fullShare (out0_6 x0 x1 x2 x3 x4)
            ∗ owns (c : Thread nD τ) a8 fullShare (out0_7 x0 x1 x2 x3 x4)) -∗ K ⟨⟩))
      ⊢ wp frame (wpE (defs₀ (F := F)) Variants.none c none) E (cc0__main_kernel i a1 h1 a2 h2 a3 h3 a4 h4 a5 h5 a6 h6 a7 h7 a8 h8) K := by
  simp only [cc0__main_kernel_eq_skeleton]; unfold cc0__main_kernel_skel
  simp only [k0_part1_eq_skeleton]; unfold k0_part1_skel
  unfold owns
  iintro ⟨⟨%f1, %e1, H1⟩, ⟨%f2, %e2, H2⟩, ⟨%f3, %e3, H3⟩, ⟨%f4, %e4, H4⟩, ⟨%f5, %e5, H5⟩,
    ⟨%d6, %f6, -, H6⟩, ⟨%d7, %f7, -, H7⟩, ⟨%d8, %f8, -, H8⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverTab _)
  isplitl [H7]
  · iexists _; isplitr
    swap; · iexact H7
    ipureintro
    exact View.read_writes_eq_canon _ _ _ (coverCol _)
  iexists _; isplitr
  swap; · iexact H8
  ipureintro
  exact View.read_writes_eq_canon _ _ _ (coverCol _)

/-! ## What the body finds in an input window's buffer

An input window whose body leaves its block in place holds, at every point, what a fetch there would put in it —
fetched at that point or not: where the pipeline does not fetch (the constant-index windows 1, 2, 3 after the first
point) the block index has not moved, so the block kept from the point before is this point's block. Stated for any
proof data whose array is `V`'s and whose `after` at the window is the block. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the region's pipeline on core `c`: the arrays as the region finds them; after the body at a
    point each input's buffer still at its block and each output's at its canon over the five input blocks there; the
    invariant the scoped rest and the generator register, untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced at the literal window). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, the core's tally, and every window's current staging
    buffer whole — an input's at what the pipeline put there, an output's at whatever it held. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it returns: the same, every buffer at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' buffers hold their blocks, so the body's triple applies at those blocks; the
    invariant and the core's tally are the same at the next point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point: the windows' conjunction opened window by window on both sides. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.B1Defs.lean ====
/-
  Kernel region 1 (the pairwise similarity kernel, grid 8 x 8, point t = (query block t / 8, key block t % 8)),
  the statements of its frame: the two scalar conditions of the body in closed form over the grid; each window's
  block at a point; ONE run of the body as a function of the four input blocks and of what the three output buffers
  held (row sums of exp sim, of the label-matched sim, and of the match count: reset at key block 0, added to at every
  key block, the diagonal's own terms taken off on the diagonal block), over the skeleton's payloads; the
  accumulation point by point; the pipeline's proof data (the feature array is read through two windows, each at one
  half of the full share); and what the body finds in each window's staging buffer at a point.
-/
import proofs.«400644_j12893491823014_2_alg».proof.Proof.Gen.KernelIdeal.Launch
import proofs.«400644_j12893491823014_2_alg».proof.Proof.Gen.KernelIdeal.Skeleton
import proofs.«400644_j12893491823014_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two scalar conditions of the body, in closed form over the grid -/

/-- The body's first conditional: the key coordinate is zero (the three accumulators are reset). -/
abbrev condR1 (i : grid1.Coords) : Prop :=
  (Scalar.cmpi .ne (Scalar.extui (Scalar.cmpi .eq (BitVec.ofNat 32 (i 1).val) 0#32)) 0#32) = 1#1
/-- The body's second conditional: the query and key coordinates coincide (the diagonal correction). -/
abbrev condD1 (i : grid1.Coords) : Prop :=
  (Scalar.cmpi .ne (Scalar.extui (Scalar.cmpi .eq (BitVec.ofNat 32 (i 0).val) (BitVec.ofNat 32 (i 1).val))) 0#32) = 1#1

/-- Row-major over 8 x 8: the key coordinate of point t is t mod 8. -/
theorem hcondR1 : ∀ t : Fin cfg1.N, condR1 (grid1.coords t) ↔ t.val % 8 = 0 :=
  (by decide +kernel : ∀ t : Fin grid1.N, condR1 (grid1.coords t) ↔ t.val % 8 = 0)
/-- and the query coordinate is t / 8. -/
theorem hcondD1 : ∀ t : Fin cfg1.N, condD1 (grid1.coords t) ↔ t.val / 8 = t.val % 8 :=
  (by decide +kernel : ∀ t : Fin grid1.N, condD1 (grid1.coords t) ↔ t.val / 8 = t.val % 8)

section Region1
-- the TensorCore's buffer contents when the region is entered: a parameter
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## One run of the body on the three accumulators -/

/-- What one run of the body at point t leaves in the three output buffers (row sums of exp sim, of the
    label-matched sim, of the label-match count), from the two feature blocks, the two label blocks and
    what the buffers held: at key coordinate 0 the found contents are replaced by zeros; the block's
    three row sums are added; on the diagonal block the diagonal's own terms are taken off again. -/
def step1 (t : Fin cfg1.N) (x0 x1 : Vec F S1024x128 .f32) (l2 : Vec F S1024x1 .i32) (l3 : Vec F S1x1024 .i32)
    (o4 o5 o6 : Vec F S1024x1 .f32) : Vec F S1024x1 .f32 × Vec F S1024x1 .f32 × Vec F S1024x1 .f32 :=
  let z4 : Vec F S1024x1 .f32 := if t.val % 8 = 0 then k1_pay8 else o4
  let z5 : Vec F S1024x1 .f32 := if t.val % 8 = 0 then k1_pay9 else o5
  let z6 : Vec F S1024x1 .f32 := if t.val % 8 = 0 then k1_pay10 else o6
  let a4 : Vec F S1024x1 .f32 := k1_pay13 x0 x1 z4
  let a5 : Vec F S1024x1 .f32 := k1_pay2 (k1_pay11 x0 x1) (k1_pay14 l2) l3 z5
  let a6 : Vec F S1024x1 .f32 := k1_pay3 (k1_pay14 l2) l3 z6
  if t.val / 8 = t.val % 8 then
    (k1_pay5 (k1_pay12 x0 x1) a4, k1_pay6 (k1_pay11 x0 x1) a5, k1_pay7 a6)
  else (a4, a5, a6)

/-- The accumulation: what the three output buffers hold after the body at position n — one step from
    what the position before left (at position 0 from anything: the step resets there). -/
def outsAt1 (c : Dev nD) : (n : ℕ) → n < cfg1.N → Vec F S1024x1 .f32 × Vec F S1024x1 .f32 × Vec F S1024x1 .f32
  | 0, hn => step1 ⟨0, hn⟩ (iblk1 V c 0 ⟨0, hn⟩) (iblk1 V c 1 ⟨0, hn⟩) (iblk1 V c 2 ⟨0, hn⟩) (iblk1 V c 3 ⟨0, hn⟩)
      k1_pay8 k1_pay9 k1_pay10
  | n + 1, hn => step1 ⟨n + 1, hn⟩ (iblk1 V c 0 ⟨n + 1, hn⟩) (iblk1 V c 1 ⟨n + 1, hn⟩) (iblk1 V c 2 ⟨n + 1, hn⟩) (iblk1 V c 3 ⟨n + 1, hn⟩)
      (outsAt1 c n (Nat.lt_of_succ_lt hn)).1 (outsAt1 c n (Nat.lt_of_succ_lt hn)).2.1 (outsAt1 c n (Nat.lt_of_succ_lt hn)).2.2

/-! ## The pipeline's proof data -/

/-- The proof data of pipeline 1 on core c: the arrays as the region finds them; after the body each input's
    buffer at its block, the three outputs' at the accumulation; the class's invariant; nothing owed. The feature
    array is read through windows 0 and 1: each holds one half of its full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2 := by dsimp only [dat1]

theorem q1_0 (c : Dev nD) : (dat1 V c).q 0 = fullShare.left := by dsimp only [dat1]
theorem q1_1 (c : Dev nD) : (dat1 V c).q 1 = fullShare.right := by dsimp only [dat1]

/-- The accumulation at any point: one step from the point before (at the first point, from zeros). -/
theorem outsAt1_zero (c : Dev nD) (hn : 0 < cfg1.N) :
    outsAt1 V c 0 hn = step1 ⟨0, hn⟩ (iblk1 V c 0 ⟨0, hn⟩) (iblk1 V c 1 ⟨0, hn⟩) (iblk1 V c 2 ⟨0, hn⟩) (iblk1 V c 3 ⟨0, hn⟩) k1_pay8 k1_pay9 k1_pay10 := rfl
theorem outsAt1_succ (c : Dev nD) (n : ℕ) (hn : n + 1 < cfg1.N) :
    outsAt1 V c (n + 1) hn = step1 ⟨n + 1, hn⟩ (iblk1 V c 0 ⟨n + 1, hn⟩) (iblk1 V c 1 ⟨n + 1, hn⟩) (iblk1 V c 2 ⟨n + 1, hn⟩) (iblk1 V c 3 ⟨n + 1, hn⟩)
      (outsAt1 V c n (Nat.lt_of_succ_lt hn)).1 (outsAt1 V c n (Nat.lt_of_succ_lt hn)).2.1 (outsAt1 V c n (Nat.lt_of_succ_lt hn)).2.2 := rfl

/-- Every window other than the two on the feature array holds the full share. -/
theorem q1_rest (c : Dev nD) (w : Fin 7) (hw : 2 ≤ w.val) : (dat1 V c).q w = fullShare :=
  match w, hw with
  | ⟨0, _⟩, h => absurd h (Nat.not_succ_le_zero 1)
  | ⟨1, _⟩, h => absurd h (Nat.not_succ_le_self 1)
  | ⟨2, _⟩, _ => rfl
  | ⟨3, _⟩, _ => rfl
  | ⟨4, _⟩, _ => rfl
  | ⟨5, _⟩, _ => rfl
  | ⟨6, _⟩, _ => rfl
  | ⟨n + 7, h⟩, _ => absurd h (Nat.not_lt.2 (Nat.le_add_left _ _))

/-- The invariant is the class's at every point, and nothing is owed. -/
theorem Φ_eq1 (c : Dev nD) (t : Fin (cfg1.N + 1)) : (dat1 V c).Φ t = Pipeline.ΦA spec1 c := rfl
theorem owed_eq1 (c : Dev nD) (t : Fin (cfg1.N + 1)) : (dat1 V c).owed t = 0 := rfl

/-! ## The step in each of the four control cases -/

/-- Key coordinate 0 on the diagonal block: reset, add, take the diagonal off. -/
theorem step1_RD (t : Fin cfg1.N) (hR : t.val % 8 = 0) (hD : t.val / 8 = t.val % 8) (x0 x1 : Vec F S1024x128 .f32) (l2 : Vec F S1024x1 .i32) (l3 : Vec F S1x1024 .i32) (o4 o5 o6 : Vec F S1024x1 .f32) :
    step1 t x0 x1 l2 l3 o4 o5 o6 = (k1_pay5 (k1_pay12 x0 x1) (k1_pay13 x0 x1 k1_pay8), k1_pay6 (k1_pay11 x0 x1) (k1_pay2 (k1_pay11 x0 x1) (k1_pay14 l2) l3 k1_pay9), k1_pay7 (k1_pay3 (k1_pay14 l2) l3 k1_pay10)) := by
  unfold step1; simp only [if_pos hR, if_pos hD]
/-- Key coordinate 0 off the diagonal: reset, add. -/
theorem step1_RN (t : Fin cfg1.N) (hR : t.val % 8 = 0) (hD : ¬t.val / 8 = t.val % 8) (x0 x1 : Vec F S1024x128 .f32) (l2 : Vec F S1024x1 .i32) (l3 : Vec F S1x1024 .i32) (o4 o5 o6 : Vec F S1024x1 .f32) :
    step1 t x0 x1 l2 l3 o4 o5 o6 = (k1_pay13 x0 x1 k1_pay8, k1_pay2 (k1_pay11 x0 x1) (k1_pay14 l2) l3 k1_pay9, k1_pay3 (k1_pay14 l2) l3 k1_pay10) := by
  unfold step1; simp only [if_pos hR, if_neg hD]
/-- A later key coordinate on the diagonal block: add to what was found, take the diagonal off. -/
theorem step1_KD (t : Fin cfg1.N) (hR : ¬t.val % 8 = 0) (hD : t.val / 8 = t.val % 8) (x0 x1 : Vec F S1024x128 .f32) (l2 : Vec F S1024x1 .i32) (l3 : Vec F S1x1024 .i32) (o4 o5 o6 : Vec F S1024x1 .f32) :
    step1 t x0 x1 l2 l3 o4 o5 o6 = (k1_pay5 (k1_pay12 x0 x1) (k1_pay13 x0 x1 o4), k1_pay6 (k1_pay11 x0 x1) (k1_pay2 (k1_pay11 x0 x1) (k1_pay14 l2) l3 o5), k1_pay7 (k1_pay3 (k1_pay14 l2) l3 o6)) := by
  unfold step1; simp only [if_neg hR, if_pos hD]
/-- A later key coordinate off the diagonal: add to what was found. -/
theorem step1_KN (t : Fin cfg1.N) (hR : ¬t.val % 8 = 0) (hD : ¬t.val / 8 = t.val % 8) (x0 x1 : Vec F S1024x128 .f32) (l2 : Vec F S1024x1 .i32) (l3 : Vec F S1x1024 .i32) (o4 o5 o6 : Vec F S1024x1 .f32) :
    step1 t x0 x1 l2 l3 o4 o5 o6 = (k1_pay13 x0 x1 o4, k1_pay2 (k1_pay11 x0 x1) (k1_pay14 l2) l3 o5, k1_pay3 (k1_pay14 l2) l3 o6) := by
  unfold step1; simp only [if_neg hR, if_neg hD]
/-- At key coordinate 0 the step does not read what the buffers held. -/
theorem step1_reset (t : Fin cfg1.N) (hR : t.val % 8 = 0) (x0 x1 : Vec F S1024x128 .f32) (l2 : Vec F S1024x1 .i32) (l3 : Vec F S1x1024 .i32) (o4 o5 o6 o4' o5' o6' : Vec F S1024x1 .f32) :
    step1 t x0 x1 l2 l3 o4 o5 o6 = step1 t x0 x1 l2 l3 o4' o5' o6' := by
  unfold step1; simp only [if_pos hR]

/-- The accumulation at a point of key coordinate 0: one step from anything. -/
theorem outsAt1_R (c : Dev nD) (t : Fin cfg1.N) (hR : t.val % 8 = 0) (o4 o5 o6 : Vec F S1024x1 .f32) :
    outsAt1 V c t.val t.isLt = step1 t (iblk1 V c 0 t) (iblk1 V c 1 t) (iblk1 V c 2 t) (iblk1 V c 3 t) o4 o5 o6 := by
  obtain ⟨n, hn⟩ := t
  cases n with
  | zero => exact (outsAt1_zero V c hn).trans (step1_reset _ hR _ _ _ _ _ _ _ _ _ _)
  | succ n => exact (outsAt1_succ V c n hn).trans (step1_reset _ hR _ _ _ _ _ _ _ _ _ _)

/-- The accumulation at a point of a later key coordinate: one step from what the point before left. -/
theorem outsAt1_K (c : Dev nD) (t : Fin cfg1.N) (hR : ¬t.val % 8 = 0) :
    outsAt1 V c t.val t.isLt = step1 t (iblk1 V c 0 t) (iblk1 V c 1 t) (iblk1 V c 2 t) (iblk1 V c 3 t)
      (outsAt1 V c (t.val - 1) (Nat.lt_of_le_of_lt (Nat.sub_le _ _) t.isLt)).1
      (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd (Nat.zero_mod _) hR
  | succ n => exact outsAt1_succ V c n hn

/-! ## What the body finds in each window's current staging buffer -/

/-- Input window 0's current buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
/-- Input window 1's current buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
/-- Input window 2's current buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
/-- Input window 3's current buffer holds its block at every point, fetched there or not. -/
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-- At a later key coordinate output window 4's current buffer holds what the body left at the point before:
    the block index has not moved, and the buffer is written back only after key coordinate 7. -/
theorem before1_4_K (c : Dev nD) (t : Fin cfg1.N) (h0 : ¬t.val % 8 = 0) (d) :
    (dat1 V c).before 4 t d = (outsAt1 V c (t.val - 1) (Nat.lt_of_le_of_lt (Nat.sub_le _ _) t.isLt)).1 := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    (fun _ => rfl) (fun _ _ => rfl)]
  dsimp only [dat1]
/-- At a later key coordinate output window 5's current buffer holds what the body left at the point before:
    the block index has not moved, and the buffer is written back only after key coordinate 7. -/
theorem before1_5_K (c : Dev nD) (t : Fin cfg1.N) (h0 : ¬t.val % 8 = 0) (d) :
    (dat1 V c).before 5 t d = (outsAt1 V c (t.val - 1) (Nat.lt_of_le_of_lt (Nat.sub_le _ _) t.isLt)).2.1 := by
  have hN : t.val < 64 := lt_of_lt_of_eq t.isLt (show cfg1.N = 64 from N_1)
  rw [Dat.before_out_kept _ 5 rfl t (by omega) (Bool.eq_false_iff.mpr fun h => by have := (flush1_5 _).mp h; dsimp only at this; omega)
    (fun _ => rfl) (fun _ _ => rfl)]
  dsimp only [dat1]
/-- At a later key coordinate output window 6's current buffer holds what the body left at the point before:
    the block index has not moved, and the buffer is written back only after key coordinate 7. -/
theorem before1_6_K (c : Dev nD) (t : Fin cfg1.N) (h0 : ¬t.val % 8 = 0) (d) :
    (dat1 V c).before 6 t d = (outsAt1 V c (t.val - 1) (Nat.lt_of_le_of_lt (Nat.sub_le _ _) t.isLt)).2.2 := by
  have hN : t.val < 64 := lt_of_lt_of_eq t.isLt (show cfg1.N = 64 from N_1)
  rw [Dat.before_out_kept _ 6 rfl t (by omega) (Bool.eq_false_iff.mpr fun h => by have := (flush1_6 _).mp h; dsimp only at this; omega)
    (fun _ => rfl) (fun _ _ => rfl)]
  dsimp only [dat1]

end Region1

end Cert.KernelIdeal.Hand

end
-- ==== Proof.B1.lean ====
/-
  Kernel region 1 (the pairwise similarity kernel), the body half of its frame: on any whole staging buffers holding
  the four input blocks and any contents of the three output buffers, the kernel body runs and leaves the inputs as
  they were and the outputs at ONE step of the accumulation — in each of the four control cases of its two scalar
  conditions (key block 0 or later; on the diagonal block or off it) —, and so, at every point of the grid, the
  pipeline's body obligation for the proof data of B1Defs.
-/
import proofs.«400644_j12893491823014_2_alg».proof.Proof.B1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Reading a whole staging buffer back -/

theorem hz2 : (![0, 0] : Fin 2 → Nat) = fun _ => 0 := funext fun a => by fin_cases a <;> rfl

/-- After a list of stores the last of which went through the whole-shape rectangle at zero offsets, a buffer
    reads that store's payload, whatever the earlier stores and the prior contents. -/
theorem read_writes_cons_unit_zero {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through that rectangle of a whole buffer held at the contents that read X reads X. -/
theorem readAt_unit_zero_unread {sg : RefSig} {κ : Kind} {sp : Space} {S : Shape} {e : EltTy} {Val : EltTy → Type}
    {m : Memref sg κ sp S e} (hm : m.IsWhole) {off : Fin S.rank → Nat} (h : off = fun _ => 0)
    (inb : ∀ a, off a + S.size a ≤ S.size a) (X : S.Idx → Val e) :
    View.readAt Val m.view (Rect.unit off S.size inb).toLoadRect (hm.unread X) = X := by
  rw [View.readAt_eq_ld, hm.read_unread]; exact View.ld_unit_zero h inb X

theorem readAt_whole_S1024x128 {e : EltTy} (m : Memref sig .tc .vmem S1024x128 e) (h : m.IsWhole) (X : S1024x128.Idx → Elt F e) :
    View.readAt (Elt F) m.view (Rect.unit (s := S1024x128) ![0, 0] S1024x128.size inb_S1024x128_S1024x128_0_0).toLoadRect (h.unread X) = X :=
  readAt_unit_zero_unread (S := S1024x128) h hz2 _ X
theorem readAt_whole_S1024x1 {e : EltTy} (m : Memref sig .tc .vmem S1024x1 e) (h : m.IsWhole) (X : S1024x1.Idx → Elt F e) :
    View.readAt (Elt F) m.view (Rect.unit (s := S1024x1) ![0, 0] S1024x1.size inb_S1024x1_S1024x1_0_0).toLoadRect (h.unread X) = X :=
  readAt_unit_zero_unread (S := S1024x1) h hz2 _ X
theorem readAt_whole_S1x1024 {e : EltTy} (m : Memref sig .tc .vmem S1x1024 e) (h : m.IsWhole) (X : S1x1024.Idx → Elt F e) :
    View.readAt (Elt F) m.view (Rect.unit (s := S1x1024) ![0, 0] S1x1024.size inb_S1x1024_S1x1024_0_0).toLoadRect (h.unread X) = X :=
  readAt_unit_zero_unread (S := S1x1024) h hz2 _ X

theorem readAt_whole_S1024x128' {e : EltTy} (m : Memref sig .tc .vmem S1024x128 e) (h : m.IsWhole) (X : S1024x128.Idx → Elt F e) :
    View.readAt (Elt F) m.view (Rect.unit (s := S1024x128) ![0, 0] ![1024, 128] inb_S1024x128_S1024x128_0_0).toLoadRect (h.unread X) = X :=
  readAt_unit_zero_unread (S := S1024x128) h hz2 _ X
theorem readAt_whole_S1024x1' {e : EltTy} (m : Memref sig .tc .vmem S1024x1 e) (h : m.IsWhole) (X : S1024x1.Idx → Elt F e) :
    View.readAt (Elt F) m.view (Rect.unit (s := S1024x1) ![0, 0] ![1024, 1] inb_S1024x1_S1024x1_0_0).toLoadRect (h.unread X) = X :=
  readAt_unit_zero_unread (S := S1024x1) h hz2 _ X
theorem readAt_whole_S1x1024' {e : EltTy} (m : Memref sig .tc .vmem S1x1024 e) (h : m.IsWhole) (X : S1x1024.Idx → Elt F e) :
    View.readAt (Elt F) m.view (Rect.unit (s := S1x1024) ![0, 0] ![1, 1024] inb_S1x1024_S1x1024_0_0).toLoadRect (h.unread X) = X :=
  readAt_unit_zero_unread (S := S1x1024) h hz2 _ X

/-! ## The kernel body on any whole staging buffers, case by case

Each load of a whole buffer reads what the buffer holds (the last covering store's payload, or the contents it was
handed); each store covers its buffer; so what an output buffer ends with is the last store's payload, a composition of
the skeleton's payloads over the input blocks and what the buffer held. -/

set_option maxHeartbeats 4000000 in
/-- Key block 0, on the diagonal: all three buffers are overwritten with zeros, the block's row sums added, the diagonal's terms taken off. -/
theorem run1_RD (c : Dev nD) (E : Set ℕ) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hR : condR1 i) (hD : condD1 i)
    (x0 x1 : Vec F S1024x128 .f32) (l2 : Vec F S1024x1 .i32) (l3 : Vec F S1x1024 .i32) (o4 o5 o6 : Vec F S1024x1 .f32)
    (K : PUnit → sProp 𝕄) :
    iprop(owns (c : Thread nD τ) arg2 fullShare x0 ∗ owns (c : Thread nD τ) arg3 fullShare x1 ∗ owns (c : Thread nD τ) arg4 fullShare l2 ∗ owns (c : Thread nD τ) arg5 fullShare l3
        ∗ owns (c : Thread nD τ) arg6 fullShare o4 ∗ owns (c : Thread nD τ) arg7 fullShare o5 ∗ owns (c : Thread nD τ) arg8 fullShare o6
        ∗ (iprop(owns (c : Thread nD τ) arg2 fullShare x0 ∗ owns (c : Thread nD τ) arg3 fullShare x1 ∗ owns (c : Thread nD τ) arg4 fullShare l2 ∗ owns (c : Thread nD τ) arg5 fullShare l3
            ∗ owns (c : Thread nD τ) arg6 fullShare (k1_pay5 (k1_pay12 x0 x1) (k1_pay13 x0 x1 k1_pay8))
            ∗ owns (c : Thread nD τ) arg7 fullShare (k1_pay6 (k1_pay11 x0 x1) (k1_pay2 (k1_pay11 x0 x1) (k1_pay14 l2) l3 k1_pay9))
            ∗ owns (c : Thread nD τ) arg8 fullShare (k1_pay7 (k1_pay3 (k1_pay14 l2) l3 k1_pay10))) -∗ K ⟨⟩))
      ⊢ wp frame (wpE (defs₀ (F := F)) Variants.none c none) E (cc1__scl_kernel i arg2 harg2 arg3 harg3 arg4 harg4 arg5 harg5 arg6 harg6 arg7 harg7 arg8 harg8) K := by
  simp only [cc1__scl_kernel_eq_skeleton]; unfold cc1__scl_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hR | exact hD)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_writes_cons_unit_zero (S := S1024x1) _ _ hz2]
    delta run1_RD.sl.v71 run1_RD.sl.H6_2 run1_RD.sl.v28 run1_RD.sl.H6_1
    simp only [View.readCov_cons_toLoadRect, readAt_whole_S1024x128, readAt_whole_S1024x1, readAt_whole_S1x1024, readAt_whole_S1024x128', readAt_whole_S1024x1', readAt_whole_S1x1024']
  isplitl [H7]
  · iexists _; isplitr
    swap; · iexact H7
    ipureintro
    rw [read_writes_cons_unit_zero (S := S1024x1) _ _ hz2]
    delta run1_RD.sl.v75 run1_RD.sl.H7_2 run1_RD.sl.v41 run1_RD.sl.H7_1
    simp only [View.readCov_cons_toLoadRect, readAt_whole_S1024x128, readAt_whole_S1024x1, readAt_whole_S1x1024, readAt_whole_S1024x128', readAt_whole_S1024x1', readAt_whole_S1x1024']
  · iexists _; isplitr
    swap; · iexact H8
    ipureintro
    rw [read_writes_cons_unit_zero (S := S1024x1) _ _ hz2]
    delta run1_RD.sl.v79 run1_RD.sl.H8_2 run1_RD.sl.v49 run1_RD.sl.H8_1
    simp only [View.readCov_cons_toLoadRect, readAt_whole_S1024x128, readAt_whole_S1024x1, readAt_whole_S1x1024, readAt_whole_S1024x128', readAt_whole_S1024x1', readAt_whole_S1x1024']

set_option maxHeartbeats 4000000 in
/-- Key block 0, off the diagonal: the three buffers are overwritten with zeros and the block's row sums added. -/
theorem run1_RN (c : Dev nD) (E : Set ℕ) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hR : condR1 i) (hD : ¬condD1 i)
    (x0 x1 : Vec F S1024x128 .f32) (l2 : Vec F S1024x1 .i32) (l3 : Vec F S1x1024 .i32) (o4 o5 o6 : Vec F S1024x1 .f32)
    (K : PUnit → sProp 𝕄) :
    iprop(owns (c : Thread nD τ) arg2 fullShare x0 ∗ owns (c : Thread nD τ) arg3 fullShare x1 ∗ owns (c : Thread nD τ) arg4 fullShare l2 ∗ owns (c : Thread nD τ) arg5 fullShare l3
        ∗ owns (c : Thread nD τ) arg6 fullShare o4 ∗ owns (c : Thread nD τ) arg7 fullShare o5 ∗ owns (c : Thread nD τ) arg8 fullShare o6
        ∗ (iprop(owns (c : Thread nD τ) arg2 fullShare x0 ∗ owns (c : Thread nD τ) arg3 fullShare x1 ∗ owns (c : Thread nD τ) arg4 fullShare l2 ∗ owns (c : Thread nD τ) arg5 fullShare l3
            ∗ owns (c : Thread nD τ) arg6 fullShare (k1_pay13 x0 x1 k1_pay8)
            ∗ owns (c : Thread nD τ) arg7 fullShare (k1_pay2 (k1_pay11 x0 x1) (k1_pay14 l2) l3 k1_pay9)
            ∗ owns (c : Thread nD τ) arg8 fullShare (k1_pay3 (k1_pay14 l2) l3 k1_pay10)) -∗ K ⟨⟩))
      ⊢ wp frame (wpE (defs₀ (F := F)) Variants.none c none) E (cc1__scl_kernel i arg2 harg2 arg3 harg3 arg4 harg4 arg5 harg5 arg6 harg6 arg7 harg7 arg8 harg8) K := by
  simp only [cc1__scl_kernel_eq_skeleton]; unfold cc1__scl_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hR | exact hD)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_writes_cons_unit_zero (S := S1024x1) _ _ hz2]
    delta run1_RN.sl.v28 run1_RN.sl.H6_1
    simp only [View.readCov_cons_toLoadRect, readAt_whole_S1024x128, readAt_whole_S1024x1, readAt_whole_S1x1024, readAt_whole_S1024x128', readAt_whole_S1024x1', readAt_whole_S1x1024']
  isplitl [H7]
  · iexists _; isplitr
    swap; · iexact H7
    ipureintro
    rw [read_writes_cons_unit_zero (S := S1024x1) _ _ hz2]
    delta run1_RN.sl.v41 run1_RN.sl.H7_1
    simp only [View.readCov_cons_toLoadRect, readAt_whole_S1024x128, readAt_whole_S1024x1, readAt_whole_S1x1024, readAt_whole_S1024x128', readAt_whole_S1024x1', readAt_whole_S1x1024']
  · iexists _; isplitr
    swap; · iexact H8
    ipureintro
    rw [read_writes_cons_unit_zero (S := S1024x1) _ _ hz2]
    delta run1_RN.sl.v49 run1_RN.sl.H8_1
    simp only [View.readCov_cons_toLoadRect, readAt_whole_S1024x128, readAt_whole_S1024x1, readAt_whole_S1x1024, readAt_whole_S1024x128', readAt_whole_S1024x1', readAt_whole_S1x1024']

set_option maxHeartbeats 4000000 in
/-- A later key block, on the diagonal: the block's row sums are added to what the buffers held, the diagonal's terms taken off. -/
theorem run1_KD (c : Dev nD) (E : Set ℕ) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hR : ¬condR1 i) (hD : condD1 i)
    (x0 x1 : Vec F S1024x128 .f32) (l2 : Vec F S1024x1 .i32) (l3 : Vec F S1x1024 .i32) (o4 o5 o6 : Vec F S1024x1 .f32)
    (K : PUnit → sProp 𝕄) :
    iprop(owns (c : Thread nD τ) arg2 fullShare x0 ∗ owns (c : Thread nD τ) arg3 fullShare x1 ∗ owns (c : Thread nD τ) arg4 fullShare l2 ∗ owns (c : Thread nD τ) arg5 fullShare l3
        ∗ owns (c : Thread nD τ) arg6 fullShare o4 ∗ owns (c : Thread nD τ) arg7 fullShare o5 ∗ owns (c : Thread nD τ) arg8 fullShare o6
        ∗ (iprop(owns (c : Thread nD τ) arg2 fullShare x0 ∗ owns (c : Thread nD τ) arg3 fullShare x1 ∗ owns (c : Thread nD τ) arg4 fullShare l2 ∗ owns (c : Thread nD τ) arg5 fullShare l3
            ∗ owns (c : Thread nD τ) arg6 fullShare (k1_pay5 (k1_pay12 x0 x1) (k1_pay13 x0 x1 o4))
            ∗ owns (c : Thread nD τ) arg7 fullShare (k1_pay6 (k1_pay11 x0 x1) (k1_pay2 (k1_pay11 x0 x1) (k1_pay14 l2) l3 o5))
            ∗ owns (c : Thread nD τ) arg8 fullShare (k1_pay7 (k1_pay3 (k1_pay14 l2) l3 o6))) -∗ K ⟨⟩))
      ⊢ wp frame (wpE (defs₀ (F := F)) Variants.none c none) E (cc1__scl_kernel i arg2 harg2 arg3 harg3 arg4 harg4 arg5 harg5 arg6 harg6 arg7 harg7 arg8 harg8) K := by
  simp only [cc1__scl_kernel_eq_skeleton]; unfold cc1__scl_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hR | exact hD)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_writes_cons_unit_zero (S := S1024x1) _ _ hz2]
    delta run1_KD.sl.v71 run1_KD.sl.H6_1
    simp only [View.readCov_cons_toLoadRect, readAt_whole_S1024x128, readAt_whole_S1024x1, readAt_whole_S1x1024, readAt_whole_S1024x128', readAt_whole_S1024x1', readAt_whole_S1x1024']
  isplitl [H7]
  · iexists _; isplitr
    swap; · iexact H7
    ipureintro
    rw [read_writes_cons_unit_zero (S := S1024x1) _ _ hz2]
    delta run1_KD.sl.v75 run1_KD.sl.H7_1
    simp only [View.readCov_cons_toLoadRect, readAt_whole_S1024x128, readAt_whole_S1024x1, readAt_whole_S1x1024, readAt_whole_S1024x128', readAt_whole_S1024x1', readAt_whole_S1x1024']
  · iexists _; isplitr
    swap; · iexact H8
    ipureintro
    rw [read_writes_cons_unit_zero (S := S1024x1) _ _ hz2]
    delta run1_KD.sl.v79 run1_KD.sl.H8_1
    simp only [View.readCov_cons_toLoadRect, readAt_whole_S1024x128, readAt_whole_S1024x1, readAt_whole_S1x1024, readAt_whole_S1024x128', readAt_whole_S1024x1', readAt_whole_S1x1024']

set_option maxHeartbeats 4000000 in
/-- A later key block, off the diagonal: the block's row sums are added to what the buffers held. -/
theorem run1_KN (c : Dev nD) (E : Set ℕ) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hR : ¬condR1 i) (hD : ¬condD1 i)
    (x0 x1 : Vec F S1024x128 .f32) (l2 : Vec F S1024x1 .i32) (l3 : Vec F S1x1024 .i32) (o4 o5 o6 : Vec F S1024x1 .f32)
    (K : PUnit → sProp 𝕄) :
    iprop(owns (c : Thread nD τ) arg2 fullShare x0 ∗ owns (c : Thread nD τ) arg3 fullShare x1 ∗ owns (c : Thread nD τ) arg4 fullShare l2 ∗ owns (c : Thread nD τ) arg5 fullShare l3
        ∗ owns (c : Thread nD τ) arg6 fullShare o4 ∗ owns (c : Thread nD τ) arg7 fullShare o5 ∗ owns (c : Thread nD τ) arg8 fullShare o6
        ∗ (iprop(owns (c : Thread nD τ) arg2 fullShare x0 ∗ owns (c : Thread nD τ) arg3 fullShare x1 ∗ owns (c : Thread nD τ) arg4 fullShare l2 ∗ owns (c : Thread nD τ) arg5 fullShare l3
            ∗ owns (c : Thread nD τ) arg6 fullShare (k1_pay13 x0 x1 o4)
            ∗ owns (c : Thread nD τ) arg7 fullShare (k1_pay2 (k1_pay11 x0 x1) (k1_pay14 l2) l3 o5)
            ∗ owns (c : Thread nD τ) arg8 fullShare (k1_pay3 (k1_pay14 l2) l3 o6)) -∗ K ⟨⟩))
      ⊢ wp frame (wpE (defs₀ (F := F)) Variants.none c none) E (cc1__scl_kernel i arg2 harg2 arg3 harg3 arg4 harg4 arg5 harg5 arg6 harg6 arg7 harg7 arg8 harg8) K := by
  simp only [cc1__scl_kernel_eq_skeleton]; unfold cc1__scl_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hR | exact hD)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_writes_cons_unit_zero (S := S1024x1) _ _ hz2]
    simp only [View.readCov_cons_toLoadRect, readAt_whole_S1024x128, readAt_whole_S1024x1, readAt_whole_S1x1024, readAt_whole_S1024x128', readAt_whole_S1024x1', readAt_whole_S1x1024']
  isplitl [H7]
  · iexists _; isplitr
    swap; · iexact H7
    ipureintro
    rw [read_writes_cons_unit_zero (S := S1024x1) _ _ hz2]
    simp only [View.readCov_cons_toLoadRect, readAt_whole_S1024x128, readAt_whole_S1024x1, readAt_whole_S1x1024, readAt_whole_S1024x128', readAt_whole_S1024x1', readAt_whole_S1x1024']
  · iexists _; isplitr
    swap; · iexact H8
    ipureintro
    rw [read_writes_cons_unit_zero (S := S1024x1) _ _ hz2]
    simp only [View.readCov_cons_toLoadRect, readAt_whole_S1024x128, readAt_whole_S1024x1, readAt_whole_S1x1024, readAt_whole_S1024x128', readAt_whole_S1024x1', readAt_whole_S1x1024']

section Region1
-- the TensorCore's buffer contents when the region is entered: a parameter
variable (V : (c : Dev nD) → (b : Ref sig .tc) → Buf (Elt F) ((c : Thread nD τ).loc b))

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The continuation of a run of the body, from the seven buffers to the obligation's post. -/
theorem close1 (c : Dev nD) (t : Fin cfg1.N) (P Q : sProp 𝕄) (B0 B1 B2 B3 B4 B5 B6 : sProp 𝕄) :
    iprop(P ∗ Q) ⊢ iprop(iprop(B0 ∗ B1 ∗ B2 ∗ B3 ∗ B4 ∗ B5 ∗ B6) -∗ iprop(P ∗ Q ∗ B0 ∗ B1 ∗ B2 ∗ B3 ∗ B4 ∗ B5 ∗ B6)) := by
  iintro ⟨HP, HQ⟩ HB
  isplitl [HP]; · iexact HP
  isplitl [HQ]; · iexact HQ
  iexact HB

set_option maxHeartbeats 1600000 in
/-- The body at any point: the inputs' buffers hold their blocks; the closed forms of the two conditions say which of the
    four control cases the point is in; at a later key coordinate the three outputs' buffers hold what the point before
    left, at key coordinate 0 whatever they hold is overwritten; so that case's run applies, and what it leaves is the
    accumulation's step. The invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  by_cases hR : t.val % 8 = 0
  · by_cases hD : t.val / 8 = t.val % 8
    · iintro ⟨HΦ, Ho, ⟨%d0, H0⟩, ⟨%d1, H1⟩, ⟨%d2, H2⟩, ⟨%d3, H3⟩, ⟨%d4, H4⟩, ⟨%d5, H5⟩, ⟨%d6, H6⟩⟩
      rw [outsAt1_R V c t hR ((dat1 V c).before 4 t d4) ((dat1 V c).before 5 t d5) ((dat1 V c).before 6 t d6), step1_RD t hR hD]
      iapply (run1_RD c Set.univ (grid1.coords t) _ _ _ _ _ _ _ _ _ _ _ _ _ _ ((hcondR1 t).mpr hR) ((hcondD1 t).mpr hD)
        (iblk1 V c 0 t) (iblk1 V c 1 t) (iblk1 V c 2 t) (iblk1 V c 3 t) ((dat1 V c).before 4 t d4) ((dat1 V c).before 5 t d5) ((dat1 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (close1 c t) $$ [HΦ Ho]
      isplitl [HΦ]; · iexact HΦ
      iexact Ho
    · iintro ⟨HΦ, Ho, ⟨%d0, H0⟩, ⟨%d1, H1⟩, ⟨%d2, H2⟩, ⟨%d3, H3⟩, ⟨%d4, H4⟩, ⟨%d5, H5⟩, ⟨%d6, H6⟩⟩
      rw [outsAt1_R V c t hR ((dat1 V c).before 4 t d4) ((dat1 V c).before 5 t d5) ((dat1 V c).before 6 t d6), step1_RN t hR hD]
      iapply (run1_RN c Set.univ (grid1.coords t) _ _ _ _ _ _ _ _ _ _ _ _ _ _ ((hcondR1 t).mpr hR) (fun h => hD ((hcondD1 t).mp h))
        (iblk1 V c 0 t) (iblk1 V c 1 t) (iblk1 V c 2 t) (iblk1 V c 3 t) ((dat1 V c).before 4 t d4) ((dat1 V c).before 5 t d5) ((dat1 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (close1 c t) $$ [HΦ Ho]
      isplitl [HΦ]; · iexact HΦ
      iexact Ho
  · simp only [before1_4_K V c t hR, before1_5_K V c t hR, before1_6_K V c t hR]
    by_cases hD : t.val / 8 = t.val % 8
    · iintro ⟨HΦ, Ho, ⟨%d0, H0⟩, ⟨%d1, H1⟩, ⟨%d2, H2⟩, ⟨%d3, H3⟩, ⟨%d4, H4⟩, ⟨%d5, H5⟩, ⟨%d6, H6⟩⟩
      rw [outsAt1_K V c t hR, step1_KD t hR hD]
      iapply (run1_KD c Set.univ (grid1.coords t) _ _ _ _ _ _ _ _ _ _ _ _ _ _ (fun h => hR ((hcondR1 t).mp h)) ((hcondD1 t).mpr hD)
        (iblk1 V c 0 t) (iblk1 V c 1 t) (iblk1 V c 2 t) (iblk1 V c 3 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (close1 c t) $$ [HΦ Ho]
      isplitl [HΦ]; · iexact HΦ
      iexact Ho
    · iintro ⟨HΦ, Ho, ⟨%d0, H0⟩, ⟨%d1, H1⟩, ⟨%d2, H2⟩, ⟨%d3, H3⟩, ⟨%d4, H4⟩, ⟨%d5, H5⟩, ⟨%d6, H6⟩⟩
      rw [outsAt1_K V c t hR, step1_KN t hR hD]
      iapply (run1_KN c Set.univ (grid1.coords t) _ _ _ _ _ _ _ _ _ _ _ _ _ _ (fun h => hR ((hcondR1 t).mp h)) (fun h => hD ((hcondD1 t).mp h))
        (iblk1 V c 0 t) (iblk1 V c 1 t) (iblk1 V c 2 t) (iblk1 V c 3 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (close1 c t) $$ [HΦ Ho]
      isplitl [HΦ]; · iexact HΦ
      iexact Ho

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Run.lean ====
/- THE RUN of @main — two kernel regions among six host stretches — for ANY proof data of the two regions' bodies
   (`D0`, `D1`: section variables, with the facts the run needs of them as hypotheses).
   * The buffers' contents between @main's items as a fold from the launch memory: a host stretch's `StableHlo.after`;
     after a region its three output arrays at what the write-backs leave (`Dat.arrAt … N`), every other buffer as entered
     (`V0 m`, `V1 m`, `V2 m`, `W3` … `W7`, `Wend`), with what each step leaves unchanged and the reads the claims start from.
   * Region 1 reads ONE array, `main_arg0`, through two input windows, each at one half of the full share: at its entry the
     array's whole points-to is split along the share, at its exit — an input array is never written — joined back
     (`arrays1_iff`, `entry1`, `exit1`).
   * Each region as a segment over the thread state "every unscoped buffer at the boundary's contents, the generator register
     at some state, nothing owed" (`regR0`, `regR1`), each host stretch likewise (`hsegR`), @main as their list (`segsR`).
   * `run_all`: the launch over the segments; in every final memory every unscoped buffer of every core holds `Wend`. -/
import proofs.«400644_j12893491823014_2_alg».proof.Proof.Gen.KernelIdeal.Regions
import Idealize.ShloMosaic.Lib.Pipeline.RegionsLoop
import Idealize.ShloMosaic.Lib.Pipeline.FrameSuffix
import Idealize.ShloMosaic.Lib.Pipeline.FrameBody
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A reading of every TensorCore's buffers: what a region's proof data are stated at. -/
abbrev TcVal (F : FTy → Type) : Type := (c : Dev nD) → (b : Ref sig .tc) → Buf (Elt F) ((c : Thread nD τ).loc b)

variable (D0 : TcVal F → (c : Dev nD) → Pipeline.Dat τ (Elt F) Unit ℕ (UR sig nD τ) ℕ cfg0 c)
  (hA0 : ∀ V c w, (D0 V c).A w = V c (Pipeline.arrRef spec0 w))
  (hΦ0 : ∀ V c t, (D0 V c).Φ t = Pipeline.ΦA spec0 c)
  (hq0 : ∀ V c w, (D0 V c).q w = fullShare)
  (ho0 : ∀ V c t, (D0 V c).owed t = 0) (hr0 : ∀ V c t, (D0 V c).recorded t = Set.univ)
  (hb0 : ∀ V c, Pipeline.BodyObligation (D0 V c) (defs₀ (F := F)) Variants.none () Set.univ)
variable (D1 : TcVal F → (c : Dev nD) → Pipeline.Dat τ (Elt F) Unit ℕ (UR sig nD τ) ℕ cfg1 c)
  (hA1 : ∀ V c w, (D1 V c).A w = V c (Pipeline.arrRef spec1 w))
  (hΦ1 : ∀ V c t, (D1 V c).Φ t = Pipeline.ΦA spec1 c)
  (hq1_0 : ∀ V c, (D1 V c).q 0 = (fullShare : PosShare TreeShare).left)
  (hq1_1 : ∀ V c, (D1 V c).q 1 = (fullShare : PosShare TreeShare).right)
  (hq1 : ∀ V c (w : Fin 7), 2 ≤ w.val → (D1 V c).q w = fullShare)
  (ho1 : ∀ V c t, (D1 V c).owed t = 0) (hr1 : ∀ V c t, (D1 V c).recorded t = Set.univ)
  (hb1 : ∀ V c, Pipeline.BodyObligation (D1 V c) (defs₀ (F := F)) Variants.none () Set.univ)

variable (m : (ℓ : Loc nD τ sig) → Buf (Elt F) ℓ)

/-! ## The buffers' contents between items: a fold from the launch memory -/

/-- Region 0's entry contents: the launch memory after the first two host stretches, read at the TensorCore's references. -/
abbrev Ent0 : TcVal F := fun c b => V2 m c b

/-- After region 0: its three output arrays at what the write-backs leave, every other buffer as entered. -/
def W3 (c : Dev nD) : Valuation τ sig (Elt F) :=
  Function.update (Function.update (Function.update (V2 m c) main_v10_0 ((D0 (Ent0 m) c).arrAt 5 cfg0.N))
    main_v10_1 ((D0 (Ent0 m) c).arrAt 6 cfg0.N)) main_v10_2 ((D0 (Ent0 m) c).arrAt 7 cfg0.N)
/-- After the host stretch between the regions: region 1's entry. -/
abbrev W4 (c : Dev nD) : Valuation τ sig (Elt F) := StableHlo.after hostOps1 (W3 D0 m c)
/-- Region 1's entry contents read at the TensorCore's references. -/
abbrev Ent1 : TcVal F := fun c b => W4 D0 m c b
/-- After region 1: its three output arrays at what the write-backs leave, every other buffer as entered. -/
def W5 (c : Dev nD) : Valuation τ sig (Elt F) :=
  Function.update (Function.update (Function.update (W4 D0 m c) main_v16_0 ((D1 (Ent1 D0 m) c).arrAt 4 cfg1.N))
    main_v16_1 ((D1 (Ent1 D0 m) c).arrAt 5 cfg1.N)) main_v16_2 ((D1 (Ent1 D0 m) c).arrAt 6 cfg1.N)
abbrev W6 (c : Dev nD) : Valuation τ sig (Elt F) := StableHlo.after hostOps2 (W5 D0 D1 m c)
abbrev W7 (c : Dev nD) : Valuation τ sig (Elt F) := StableHlo.after hostOps2_1 (W6 D0 D1 m c)
/-- The last valuation: after the last host stretch. -/
abbrev Wend (c : Dev nD) : Valuation τ sig (Elt F) := StableHlo.after hostOps2_2 (W7 D0 D1 m c)

/-! ### What each step of the fold leaves unchanged, and what a region's step writes -/

theorem W3_of (c : Dev nD) (r : Ref sig .tc) (h : r ∉ ([main_v10_0, main_v10_1, main_v10_2] : List (Ref sig .tc))) :
    W3 D0 m c r = V2 m c r := by
  simp only [W3, Function.update_of_ne (StableHlo.devRef_ne_of_ne (List.ne_of_not_mem_cons h) : (Proc.devRef .tc r : DevRef τ sig) ≠ Proc.devRef .tc main_v10_0), Function.update_of_ne (StableHlo.devRef_ne_of_ne (List.ne_of_not_mem_cons (List.not_mem_of_not_mem_cons h)) : (Proc.devRef .tc r : DevRef τ sig) ≠ Proc.devRef .tc main_v10_1), Function.update_of_ne (StableHlo.devRef_ne_of_ne (List.ne_of_not_mem_cons (List.not_mem_of_not_mem_cons (List.not_mem_of_not_mem_cons h))) : (Proc.devRef .tc r : DevRef τ sig) ≠ Proc.devRef .tc main_v10_2)]
theorem W3_main_v10_0 (c : Dev nD) : W3 D0 m c main_v10_0 = (D0 (Ent0 m) c).arrAt 5 cfg0.N := by
  unfold W3
  rw [Function.update_of_ne (StableHlo.devRef_ne_of_ne (by decide) : (Proc.devRef .tc main_v10_0 : DevRef τ sig) ≠ Proc.devRef .tc main_v10_2),
    Function.update_of_ne (StableHlo.devRef_ne_of_ne (by decide) : (Proc.devRef .tc main_v10_0 : DevRef τ sig) ≠ Proc.devRef .tc main_v10_1), Function.update_self]
theorem W3_main_v10_1 (c : Dev nD) : W3 D0 m c main_v10_1 = (D0 (Ent0 m) c).arrAt 6 cfg0.N := by
  unfold W3
  rw [Function.update_of_ne (StableHlo.devRef_ne_of_ne (by decide) : (Proc.devRef .tc main_v10_1 : DevRef τ sig) ≠ Proc.devRef .tc main_v10_2), Function.update_self]
theorem W3_main_v10_2 (c : Dev nD) : W3 D0 m c main_v10_2 = (D0 (Ent0 m) c).arrAt 7 cfg0.N := by
  unfold W3; rw [Function.update_self]
theorem W4_of (c : Dev nD) (r : Ref sig .tc) (h : r ∉ hostOps1_W) : W4 D0 m c r = W3 D0 m c r :=
  StableHlo.after_of_writes_sub hostOps1 _ hostOps1_writes h
theorem W5_of (c : Dev nD) (r : Ref sig .tc) (h : r ∉ ([main_v16_0, main_v16_1, main_v16_2] : List (Ref sig .tc))) :
    W5 D0 D1 m c r = W4 D0 m c r := by
  simp only [W5, Function.update_of_ne (StableHlo.devRef_ne_of_ne (List.ne_of_not_mem_cons h) : (Proc.devRef .tc r : DevRef τ sig) ≠ Proc.devRef .tc main_v16_0), Function.update_of_ne (StableHlo.devRef_ne_of_ne (List.ne_of_not_mem_cons (List.not_mem_of_not_mem_cons h)) : (Proc.devRef .tc r : DevRef τ sig) ≠ Proc.devRef .tc main_v16_1), Function.update_of_ne (StableHlo.devRef_ne_of_ne (List.ne_of_not_mem_cons (List.not_mem_of_not_mem_cons (List.not_mem_of_not_mem_cons h))) : (Proc.devRef .tc r : DevRef τ sig) ≠ Proc.devRef .tc main_v16_2)]
theorem W5_main_v16_0 (c : Dev nD) : W5 D0 D1 m c main_v16_0 = (D1 (Ent1 D0 m) c).arrAt 4 cfg1.N := by
  unfold W5
  rw [Function.update_of_ne (StableHlo.devRef_ne_of_ne (by decide) : (Proc.devRef .tc main_v16_0 : DevRef τ sig) ≠ Proc.devRef .tc main_v16_2),
    Function.update_of_ne (StableHlo.devRef_ne_of_ne (by decide) : (Proc.devRef .tc main_v16_0 : DevRef τ sig) ≠ Proc.devRef .tc main_v16_1), Function.update_self]
theorem W5_main_v16_1 (c : Dev nD) : W5 D0 D1 m c main_v16_1 = (D1 (Ent1 D0 m) c).arrAt 5 cfg1.N := by
  unfold W5
  rw [Function.update_of_ne (StableHlo.devRef_ne_of_ne (by decide) : (Proc.devRef .tc main_v16_1 : DevRef τ sig) ≠ Proc.devRef .tc main_v16_2), Function.update_self]
theorem W5_main_v16_2 (c : Dev nD) : W5 D0 D1 m c main_v16_2 = (D1 (Ent1 D0 m) c).arrAt 6 cfg1.N := by
  unfold W5; rw [Function.update_self]
theorem W6_of (c : Dev nD) (r : Ref sig .tc) (h : r ∉ hostOps2_W) : W6 D0 D1 m c r = W5 D0 D1 m c r :=
  StableHlo.after_of_writes_sub hostOps2 _ hostOps2_writes h
theorem W7_of (c : Dev nD) (r : Ref sig .tc) (h : r ∉ hostOps2_1_W) : W7 D0 D1 m c r = W6 D0 D1 m c r :=
  StableHlo.after_of_writes_sub hostOps2_1 _ hostOps2_1_writes h
theorem Wend_of (c : Dev nD) (r : Ref sig .tc) (h : r ∉ hostOps2_2_W) : Wend D0 D1 m c r = W7 D0 D1 m c r :=
  StableHlo.after_of_writes_sub hostOps2_2 _ hostOps2_2_writes h

/-! ### The arguments end as launched, and the reads the value claims start from -/

/-- A reference no host stretch writes and no region has for an output reaches the end as launched. -/
theorem Wend_launch (c : Dev nD) (r : Ref sig .tc) (h2 : r ∉ hostOps2_2_W) (h1 : r ∉ hostOps2_1_W) (h0 : r ∉ hostOps2_W)
    (h5 : r ∉ ([main_v16_0, main_v16_1, main_v16_2] : List (Ref sig .tc))) (h4 : r ∉ hostOps1_W)
    (h3 : r ∉ ([main_v10_0, main_v10_1, main_v10_2] : List (Ref sig .tc))) (hb : r ∉ hostOps0_1_W) (ha : r ∉ hostOps0_W) :
    Wend D0 D1 m c r = m ((c : Thread nD τ).loc r) :=
  (Wend_of D0 D1 m c r h2).trans <| (W7_of D0 D1 m c r h1).trans <| (W6_of D0 D1 m c r h0).trans <| (W5_of D0 D1 m c r h5).trans <|
    (W4_of D0 m c r h4).trans <| (W3_of D0 m c r h3).trans <| (V2_of m c r hb).trans <| (V1_of m c r ha).trans rfl
theorem Wend_main_arg0 (c : Dev nD) : Wend D0 D1 m c main_arg0 = m ((c : Thread nD τ).loc main_arg0) :=
  Wend_launch D0 D1 m c main_arg0 (by decide) (by decide) (by decide) (by decide) (by decide) (by decide) (by decide) (by decide)
theorem Wend_main_arg1 (c : Dev nD) : Wend D0 D1 m c main_arg1 = m ((c : Thread nD τ).loc main_arg1) :=
  Wend_launch D0 D1 m c main_arg1 (by decide) (by decide) (by decide) (by decide) (by decide) (by decide) (by decide) (by decide)
theorem Wend_main_arg2 (c : Dev nD) : Wend D0 D1 m c main_arg2 = m ((c : Thread nD τ).loc main_arg2) :=
  Wend_launch D0 D1 m c main_arg2 (by decide) (by decide) (by decide) (by decide) (by decide) (by decide) (by decide) (by decide)
/-- Region 0's first output array is never written again: it ends at what region 0's write-backs leave. -/
theorem Wend_main_v10_0 (c : Dev nD) : Wend D0 D1 m c main_v10_0 = (D0 (Ent0 m) c).arrAt 5 cfg0.N :=
  (Wend_of D0 D1 m c main_v10_0 (by decide)).trans <| (W7_of D0 D1 m c main_v10_0 (by decide)).trans <| (W6_of D0 D1 m c main_v10_0 (by decide)).trans <|
    (W5_of D0 D1 m c main_v10_0 (by decide)).trans <| (W4_of D0 m c main_v10_0 (by decide)).trans <| W3_main_v10_0 D0 m c
/-- The program's result is the last host stretch's, read off the fold. -/
theorem Wend_main_v36 (c : Dev nD) : Wend D0 D1 m c main_v36 = StableHlo.after hostOps2_2 (W7 D0 D1 m c) main_v36 := rfl

/-! ## Region 1's two input windows on one array

Windows 0 and 1 of region 1 read the one array `main_arg0`, each at one half of the full share: the whole buffer held at
the full share IS the two windows' points-tos (the share law), in both directions; every other window's array is a buffer of
its own held at the full share. -/

section Shared

variable (c : Dev nD) (d : Pipeline.Dat τ (Elt F) Unit ℕ (UR sig nD τ) ℕ cfg1 c)
  (hd0 : d.q 0 = (fullShare : PosShare TreeShare).left) (hd1 : d.q 1 = (fullShare : PosShare TreeShare).right)
  (hd : ∀ w : Fin 7, 2 ≤ w.val → d.q w = fullShare)

include hd0 in
theorem share1_0 : d.share 0 = (fullShare : PosShare TreeShare).left := (if_neg (by decide)).trans hd0
include hd1 in
theorem share1_1 : d.share 1 = (fullShare : PosShare TreeShare).right := (if_neg (by decide)).trans hd1
include hd in
theorem share1_ge (w : Fin 7) (hw : 2 ≤ w.val) : d.share w = fullShare := by
  unfold Pipeline.Dat.share; split
  · rfl
  · exact hd w hw

/-- A core's unscoped buffers are the buffers behind region 1's arrays and the rest. -/
theorem unscopedBufs_split1 (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs 1 winFacts₀1.arr_unscoped c V

include hd0 hd1 hd in
/-- The six buffers behind region 1's seven windows, whole at the full share at `V`, are the windows' arrays at contents
    read off `V`: `main_arg0` split between windows 0 and 1 (and joined back) along the share. -/
theorem arrays1_iff (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs spec1 c V : sProp 𝕄) ⊣⊢ d.arrays G := by
  have hB : (Pipeline.arrBufs spec1 c V : sProp 𝕄)
      = iprop((((c : Thread nD τ).loc (Pipeline.arrRef spec1 0)) ↦{fullShare} V (Pipeline.arrRef spec1 0))
        ∗ (((c : Thread nD τ).loc (Pipeline.arrRef spec1 2)) ↦{fullShare} V (Pipeline.arrRef spec1 2))
        ∗ (((c : Thread nD τ).loc (Pipeline.arrRef spec1 3)) ↦{fullShare} V (Pipeline.arrRef spec1 3))
        ∗ (((c : Thread nD τ).loc (Pipeline.arrRef spec1 4)) ↦{fullShare} V (Pipeline.arrRef spec1 4))
        ∗ (((c : Thread nD τ).loc (Pipeline.arrRef spec1 5)) ↦{fullShare} V (Pipeline.arrRef spec1 5))
        ∗ (((c : Thread nD τ).loc (Pipeline.arrRef spec1 6)) ↦{fullShare} V (Pipeline.arrRef spec1 6))) := by
    unfold Pipeline.arrBufs
    exact bigSep_eq_bigSepL_of_eq [Pipeline.arrRef spec1 0, Pipeline.arrRef spec1 2, Pipeline.arrRef spec1 3, Pipeline.arrRef spec1 4,
      Pipeline.arrRef spec1 5, Pipeline.arrRef spec1 6] (by decide) (by decide) _
  have hA : d.arrays G = bigSep Finset.univ fun w : Fin 7 =>
      ((((c : Thread nD τ).loc (Pipeline.arrRef spec1 w)) ↦{d.share w} V (Pipeline.arrRef spec1 w)) : sProp 𝕄) := by
    unfold Pipeline.Dat.arrays
    exact bigSep_congr fun w _ => by rw [(arr_whole1 w).set_eq_univ, hG w]
  rw [hB, hA, bigSep_W1, share1_0 c d hd0, share1_1 c d hd1, share1_ge c d hd 2 (by decide), share1_ge c d hd 3 (by decide),
    share1_ge c d hd 4 (by decide), share1_ge c d hd 5 (by decide), share1_ge c d hd 6 (by decide)]
  have hs : ((((c : Thread nD τ).loc (Pipeline.arrRef spec1 0)) ↦{fullShare} V (Pipeline.arrRef spec1 0)) : sProp 𝕄)
      ⊣⊢ iprop((((c : Thread nD τ).loc (Pipeline.arrRef spec1 0)) ↦{(fullShare : PosShare TreeShare).left} V (Pipeline.arrRef spec1 0))
        ∗ (((c : Thread nD τ).loc (Pipeline.arrRef spec1 0)) ↦{(fullShare : PosShare TreeShare).right} V (Pipeline.arrRef spec1 0))) :=
    pointsTo_share (PosShare.mem_left_op_right (fullShare : PosShare TreeShare))
  constructor
  · iintro ⟨H0, H⟩
    ihave H0' := hs.1 $$ H0
    icases H0' with ⟨Ha, Hb⟩
    isplitl [Ha]; · iexact Ha
    isplitl [Hb]; · iexact Hb
    iexact H
  · iintro ⟨Ha, Hb, H⟩
    isplitl [Ha Hb]
    · iapply hs.2
      isplitl [Ha]; · iexact Ha
      iexact Hb
    iexact H

end Shared

/-! ## The regions' entries and exits against the fold -/

include hA0 in
/-- At region 0's exit each of its arrays holds what the fold's next valuation says: an input what it held at entry, an
    output what the write-backs leave. -/
theorem hF0 (c : Dev nD) : ∀ w : Fin 8, (D0 (Ent0 m) c).arrAt w cfg0.N = W3 D0 m c (Pipeline.arrRef spec0 w)
  | 0 => ((D0 (Ent0 m) c).arrAt_in 0 rfl _).trans ((hA0 _ c 0).trans (W3_of D0 m c main_arg0 (by decide)).symm)
  | 1 => ((D0 (Ent0 m) c).arrAt_in 1 rfl _).trans ((hA0 _ c 1).trans (W3_of D0 m c main_arg2 (by decide)).symm)
  | 2 => ((D0 (Ent0 m) c).arrAt_in 2 rfl _).trans ((hA0 _ c 2).trans (W3_of D0 m c main_v4 (by decide)).symm)
  | 3 => ((D0 (Ent0 m) c).arrAt_in 3 rfl _).trans ((hA0 _ c 3).trans (W3_of D0 m c main_v7 (by decide)).symm)
  | 4 => ((D0 (Ent0 m) c).arrAt_in 4 rfl _).trans ((hA0 _ c 4).trans (W3_of D0 m c main_v8 (by decide)).symm)
  | 5 => (W3_main_v10_0 D0 m c).symm
  | 6 => (W3_main_v10_1 D0 m c).symm
  | 7 => (W3_main_v10_2 D0 m c).symm
  | ⟨_ + 8, h⟩ => absurd h (Nat.not_lt.2 (Nat.le_add_left _ _))
/-- Every buffer that is no array of region 0 leaves it as it entered. -/
theorem hrest0 (c : Dev nD) (b : Ref sig .tc) (hb : b ∉ Finset.univ.image (Pipeline.arrRef spec0)) : W3 D0 m c b = V2 m c b :=
  W3_of D0 m c b fun h => hb (by
    simp only [List.mem_cons, List.not_mem_nil, or_false] at h
    rcases h with rfl | rfl | rfl
    · exact Finset.mem_image.mpr ⟨5, Finset.mem_univ _, rfl⟩
    · exact Finset.mem_image.mpr ⟨6, Finset.mem_univ _, rfl⟩
    · exact Finset.mem_image.mpr ⟨7, Finset.mem_univ _, rfl⟩)

include hA1 in
/-- The same at region 1's exit (its two windows on `main_arg0` both hold the entry contents). -/
theorem hF1 (c : Dev nD) : ∀ w : Fin 7, (D1 (Ent1 D0 m) c).arrAt w cfg1.N = W5 D0 D1 m c (Pipeline.arrRef spec1 w)
  | 0 => ((D1 (Ent1 D0 m) c).arrAt_in 0 rfl _).trans ((hA1 _ c 0).trans (W5_of D0 D1 m c main_arg0 (by decide)).symm)
  | 1 => ((D1 (Ent1 D0 m) c).arrAt_in 1 rfl _).trans ((hA1 _ c 1).trans (W5_of D0 D1 m c main_arg0 (by decide)).symm)
  | 2 => ((D1 (Ent1 D0 m) c).arrAt_in 2 rfl _).trans ((hA1 _ c 2).trans (W5_of D0 D1 m c main_v8 (by decide)).symm)
  | 3 => ((D1 (Ent1 D0 m) c).arrAt_in 3 rfl _).trans ((hA1 _ c 3).trans (W5_of D0 D1 m c main_v9 (by decide)).symm)
  | 4 => (W5_main_v16_0 D0 D1 m c).symm
  | 5 => (W5_main_v16_1 D0 D1 m c).symm
  | 6 => (W5_main_v16_2 D0 D1 m c).symm
  | ⟨_ + 7, h⟩ => absurd h (Nat.not_lt.2 (Nat.le_add_left _ _))
theorem hrest1 (c : Dev nD) (b : Ref sig .tc) (hb : b ∉ Finset.univ.image (Pipeline.arrRef spec1)) : W5 D0 D1 m c b = W4 D0 m c b :=
  W5_of D0 D1 m c b fun h => hb (by
    simp only [List.mem_cons, List.not_mem_nil, or_false] at h
    rcases h with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩)

include hA1 hq1_0 hq1_1 hq1 in
/-- ENTRY of region 1, the arrays' part: the core's unscoped buffers at the entry contents are the windows' arrays at the
    proof data's entry contents — `main_arg0` split between windows 0 and 1 — and the unscoped rest. -/
theorem entry1 (c : Dev nD) :
    (unscopedBufs c (Ent1 D0 m c) : sProp 𝕄)
      ⊢ iprop((D1 (Ent1 D0 m) c).arrays ((D1 (Ent1 D0 m) c).arrAt · 0) ∗ Pipeline.unscopedRest spec1 c (Ent1 D0 m c)) := by
  rw [unscopedBufs_split1]
  exact sep_mono (arrays1_iff c (D1 (Ent1 D0 m) c) (hq1_0 _ c) (hq1_1 _ c) (hq1 _ c) (Ent1 D0 m c) _ fun w => hA1 _ c w).1 .rfl

include hA1 hq1_0 hq1_1 hq1 in
/-- EXIT of region 1, the arrays' part: the windows' arrays at their final contents — the two shares of `main_arg0` joined
    back — and the unscoped rest are the core's unscoped buffers at the fold's next valuation. -/
theorem exit1 (c : Dev nD) :
    iprop((D1 (Ent1 D0 m) c).arrays ((D1 (Ent1 D0 m) c).arrAt · cfg1.N) ∗ Pipeline.unscopedRest spec1 c (Ent1 D0 m c))
      ⊢ (unscopedBufs c (fun b => W5 D0 D1 m c b) : sProp 𝕄) := by
  rw [unscopedBufs_split1]
  refine sep_mono (arrays1_iff c (D1 (Ent1 D0 m) c) (hq1_0 _ c) (hq1_1 _ c) (hq1 _ c) (fun b => W5 D0 D1 m c b) _ (hF1 D0 D1 hA1 m c)).2
    (Entails.of_eq ?_)
  unfold Pipeline.unscopedRest
  exact bigSep_congr fun b hb => by beta_reduce; rw [hrest1 D0 D1 m c b (Finset.mem_sdiff.mp hb).2]

/-! ## The proof data family, the thread state and the segments -/

/-- Every pipeline's proof data, each at its region's entry contents — a literal `match` on the pipeline's index. -/
def pdatsR : (p : Fin 2) → (c : Dev nD) → Pipeline.Dat τ (Elt F) Unit ℕ (UR sig nD τ) ℕ (Pipeline.pin (pcfgs (F := F)) adm p) c
  | ⟨0, _⟩ => fun c => D0 (Ent0 m) c
  | ⟨1, _⟩ => fun c => D1 (Ent1 D0 m) c
/-- No core owes another anything: no level is assigned. -/
abbrev Lr : GSem nD τ sig → Finset Unit := fun _ => ∅
abbrev lvr : GSem nD τ sig → Unit → ℕ := fun _ _ => 0
/-- What rides beside the buffers through every segment: the core's generator register at some state and its `owes`, at
    nothing. -/
abbrev Rr (c : Dev nD) : sProp 𝕄 := iprop((∃ r, prngReg c r) ∗ ∃ W, owes (c : Thread nD τ) (0 : CellTallies nD τ sig Unit) W)
/-- A host stretch as a segment over the unscoped references from the contents `W`, `Rr` riding along: it leaves them at
    `StableHlo.after ops (W c)`, the fold's next valuation by name. -/
abbrev hsegR (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

set_option backward.isDefEq.respectTransparency.types false in
include hA0 hΦ0 hq0 ho0 hr0 hb0 in
/-- REGION 0 over the thread state: entered from every unscoped buffer at `V2 m`, left at `W3`. Its arrays (eight
    distinct buffers) split out of the unscoped buffers and put back at the exit contents; the generator register into the
    invariant and out; nothing owed; no semaphore of the kernel's own. -/
def regR0 : Pipeline.RegionSeg (pcfgs (F := F)) adm (pdatsR D0 D1 m) () defs₀ Variants.none Lr lvr 0 where
  win := launch0.win.to₀
  block_pos := launch0.block_pos
  stage_whole := launch0.stage_whole
  K := PEmpty
  osem k := k.elim
  ho := Pipeline.OwnSemFacts.none _
  hbody c := (hb0 (Ent0 m) c).loose
  hwaits := Pipeline.hwaits_of_owed_zero _ _ _ _ Lr lvr 0 fun c t => ho0 (Ent0 m) c t
  pre c := iprop(StableHlo.held (c : Thread nD τ) (Pipeline.ucRefs τ sig) (V2 m c) ∗ Rr c)
  post c := iprop(StableHlo.held (c : Thread nD τ) (Pipeline.ucRefs τ sig) (W3 D0 m c) ∗ Rr c)
  X c := iprop(∃ r, prngReg c r)
  Y c := iprop(∃ r, prngReg c r)
  Z c := Pipeline.unscopedRest (Ix := Unit) (Name := ℕ) (U := UR sig nD τ) (Lvl := ℕ) spec0 c (Ent0 m c)
  hentry c := by
    rw [Pipeline.ownSems0_none]
    have hsplit := Pipeline.arrays_of_unscopedBufs (p := 0) (pcfgs (F := F)) adm (pdatsR D0 D1 m) launch0.win launch0.arr_whole c
      ((D0 (Ent0 m) c).share_full (hq0 (Ent0 m) c)) (Ent0 m c) fun w => hA0 (Ent0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W
      isplitr; · ipureintro; exact fun x _ => Or.inl (show x ∈ (D0 (Ent0 m) c).recorded 0 from by rw [hr0]; exact Set.mem_univ x)
      rw [show (pdatsR D0 D1 m 0 c).owed 0 = 0 from ho0 (Ent0 m) c 0]
      iexact HO
    isplitl [Hp]; · iexact Hp
    iexact Hrest
  hin c := by
    rw [show (pdatsR D0 D1 m 0 c).Φ 0 = Pipeline.ΦA spec0 c from hΦ0 (Ent0 m) c 0]; unfold Pipeline.ΦA
    iintro ⟨Hp, -, Hr⟩
    isplitl [Hr]; · iexact Hr
    iexact Hp
  hout c := by
    rw [Pipeline.ownSems0_none, show (pdatsR D0 D1 m 0 c).Φ (Fin.last _) = Pipeline.ΦA spec0 c from hΦ0 (Ent0 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsR D0 D1 m) ((pdatsR D0 D1 m 0 c).share_full (hq0 (Ent0 m) c))
      (Ent0 m c) (fun b => W3 D0 m c b) ((pdatsR D0 D1 m 0 c).arrAt · cfg0.N) (hF0 D0 hA0 m c) (hrest0 D0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W
    rw [show (pdatsR D0 D1 m 0 c).owed (Fin.last _) = 0 from ho0 (Ent0 m) c _]
    iexact HO

set_option backward.isDefEq.respectTransparency.types false in
include hA1 hΦ1 hq1_0 hq1_1 hq1 ho1 hr1 hb1 in
/-- REGION 1 over the thread state: entered from every unscoped buffer at `W4`, left at `W5`. Its windows 0 and 1 read the
    one array `main_arg0`: at the entry the array's full points-to is split into the two windows' halves (`entry1`), at the
    exit — both windows are inputs, their arrays still at the entry contents — the halves are joined back (`exit1`). -/
def regR1 : Pipeline.RegionSeg (pcfgs (F := F)) adm (pdatsR D0 D1 m) () defs₀ Variants.none Lr lvr 1 where
  win := winFacts₀1
  block_pos := block_pos1
  stage_whole := stage_whole1
  K := PEmpty
  osem k := k.elim
  ho := Pipeline.OwnSemFacts.none _
  hbody c := (hb1 (Ent1 D0 m) c).loose
  hwaits := Pipeline.hwaits_of_owed_zero _ _ _ _ Lr lvr 1 fun c t => ho1 (Ent1 D0 m) c t
  pre c := iprop(StableHlo.held (c : Thread nD τ) (Pipeline.ucRefs τ sig) (W4 D0 m c) ∗ Rr c)
  post c := iprop(StableHlo.held (c : Thread nD τ) (Pipeline.ucRefs τ sig) (W5 D0 D1 m c) ∗ Rr c)
  X c := iprop(∃ r, prngReg c r)
  Y c := iprop(∃ r, prngReg c r)
  Z c := Pipeline.unscopedRest (Ix := Unit) (Name := ℕ) (U := UR sig nD τ) (Lvl := ℕ) spec1 c (Ent1 D0 m c)
  hentry c := by
    rw [Pipeline.ownSems0_none]
    have hsplit := entry1 D0 D1 hA1 hq1_0 hq1_1 hq1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W
      isplitr; · ipureintro; exact fun x _ => Or.inl (show x ∈ (D1 (Ent1 D0 m) c).recorded 0 from by rw [hr1]; exact Set.mem_univ x)
      rw [show (pdatsR D0 D1 m 1 c).owed 0 = 0 from ho1 (Ent1 D0 m) c 0]
      iexact HO
    isplitl [Hp]; · iexact Hp
    iexact Hrest
  hin c := by
    rw [show (pdatsR D0 D1 m 1 c).Φ 0 = Pipeline.ΦA spec1 c from hΦ1 (Ent1 D0 m) c 0]; unfold Pipeline.ΦA
    iintro ⟨Hp, -, Hr⟩
    isplitl [Hr]; · iexact Hr
    iexact Hp
  hout c := by
    rw [Pipeline.ownSems0_none, show (pdatsR D0 D1 m 1 c).Φ (Fin.last _) = Pipeline.ΦA spec1 c from hΦ1 (Ent1 D0 m) c _]; unfold Pipeline.ΦA
    iintro ⟨Hr, Hp⟩
    isplitl [Hp]; · iexact Hp
    isplitr; · iempintro
    iexact Hr
  hexit c := by
    have hjoin : iprop((pdatsR D0 D1 m 1 c).arrays ((pdatsR D0 D1 m 1 c).arrAt · cfg1.N) ∗ Pipeline.unscopedRest spec1 c (Ent1 D0 m c))
        ⊢ (unscopedBufs c (fun b => W5 D0 D1 m c b) : sProp 𝕄) := exit1 D0 D1 hA1 hq1_0 hq1_1 hq1 m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W
    rw [show (pdatsR D0 D1 m 1 c).owed (Fin.last _) = 0 from ho1 (Ent1 D0 m) c _]
    iexact HO

/-! ## @main as segments, and the launch -/

include hA0 hΦ0 hq0 ho0 hr0 hb0 hA1 hΦ1 hq1_0 hq1_1 hq1 ho1 hr1 hb1 in
/-- @main's eight items in order: a host segment per stretch from its boundary's contents, a region per pallas_call. -/
def segsR : List (Pipeline.Seg (pcfgs (F := F)) adm (pdatsR D0 D1 m) () defs₀ Variants.none Lr lvr) :=
  [ .host (hsegR hostOps0 hostOps0_sub hostOps0_fresh (V0 m)),
    .host (hsegR hostOps0_1 hostOps0_1_sub hostOps0_1_fresh (V1 m)),
    .region (regR0 D0 hA0 hΦ0 hq0 ho0 hr0 hb0 D1 m),
    .host (hsegR hostOps1 hostOps1_sub hostOps1_fresh (W3 D0 m)),
    .region (regR1 D0 D1 hA1 hΦ1 hq1_0 hq1_1 hq1 ho1 hr1 hb1 m),
    .host (hsegR hostOps2 hostOps2_sub hostOps2_fresh (W5 D0 D1 m)),
    .host (hsegR hostOps2_1 hostOps2_1_sub hostOps2_1_fresh (W6 D0 D1 m)),
    .host (hsegR hostOps2_2 hostOps2_2_sub hostOps2_2_fresh (W7 D0 D1 m)) ]

set_option backward.isDefEq.respectTransparency.types false in
include hA0 hΦ0 hq0 ho0 hr0 hb0 hA1 hΦ1 hq1_0 hq1_1 hq1 ho1 hr1 hb1 in
/-- THE RUN. From any memory `m` with zero counters, every weakly fair execution of @main on the TensorCores terminates,
    and in every final memory each unscoped buffer of each core holds the fold's last valuation `Wend`: the launch over the
    segments, the last thread state read against the final state. The frame claim and the value claims are read off it. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = Wend D0 D1 m c b) :=
  Pipeline.θ_run_regions_kit (pcfgs (F := F)) adm (pdatsR D0 D1 m) () cellOf_inj emb₁ defs₀ Variants.none Lr lvr m ρ main
    (segsR D0 hA0 hΦ0 hq0 ho0 hr0 hb0 D1 hA1 hΦ1 hq1_0 hq1_1 hq1 ho1 hr1 hb1 m)
    (fun c Q => by
      rewrite [main_chain c, Pipeline.Seg.run_eq_chain,
        show (segsR D0 hA0 hΦ0 hq0 ho0 hr0 hb0 D1 hA1 hΦ1 hq1_0 hq1_1 hq1 ho1 hr1 hb1 m).map Pipeline.Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(StableHlo.held (c : Thread nD τ) (Pipeline.ucRefs τ sig) (Wend D0 D1 m c) ∗ ∃ r, prngReg c r))
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (Wend D0 D1 m c) ∗ Rr c) ⊢ _
        iintro ⟨Hh, Hp, HO⟩
        isplitl [Hh Hp]
        · isplitl [Hh] <;> iassumption
        iexact HO⟩)
    (hinit := by
      refine Pipeline.initEach Lr lvr fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend D0 D1 m c b)
    (hfin := fun c s' => by
      iintro ⟨⟨Hh, -⟩, HSI⟩
      unfold StableHlo.held
      imodintro
      iapply (pointsTo_read_all (Pipeline.ucRefs τ sig) (fun b => (((c : Thread nD τ)).1, b)) (Wend D0 D1 m c) s')
      isplitl [Hh] <;> iassumption)
    (hQ := fun s h c => h c)

end Cert.KernelIdeal.Hand

end
-- ==== Proof.Frames.lean ====
/-
  The run of the program's entry point with both kernel regions' proof data put in: every weakly fair execution ends,
  faults nowhere, and ends with every buffer that outlives a kernel region at the last of the values the run threads
  from the launch memory (a host stretch applies its operations; a kernel region leaves in each output array what
  its grid points wrote back, block by block). The frame claim keeps of this only that the three argument arrays
  end as launched: no host operation and no region writes one.
-/
import proofs.«400644_j12893491823014_2_alg».proof.Proof.B0
import proofs.«400644_j12893491823014_2_alg».proof.Proof.B1
import proofs.«400644_j12893491823014_2_alg».proof.Proof.Run

noncomputable section

namespace Cert.KernelIdeal.Hand

open Cert.KernelIdeal Cert.KernelIdeal.Gen
open Idealize.ShloMosaic Idealize.ShloMosaic.TcCoe Idealize.SL.Sem Idealize.SL.RA

variable {F : FTy → Type} [FloatOps F] [Named F]

/-- Region 0's proof data as a function of the contents the region is entered at. -/
abbrev D0 : TcVal F → (c : Dev nD) → Pipeline.Dat τ (Elt F) Unit ℕ (UR sig nD τ) ℕ cfg0 c := fun V c => dat0 V c
/-- Region 1's proof data as a function of the contents the region is entered at. -/
abbrev D1 : TcVal F → (c : Dev nD) → Pipeline.Dat τ (Elt F) Unit ℕ (UR sig nD τ) ℕ cfg1 c := fun V c => dat1 V c

/-- The last valuation of the run: what every unscoped buffer holds when the entry point returns. -/
abbrev Wfin (m : (ℓ : Loc nD τ sig) → Buf (Elt F) ℓ) (c : Dev nD) : Valuation τ sig (Elt F) := Wend (D0 (F := F)) (D1 (F := F)) m c

/-- Every weakly fair execution of the entry point ends, faulting nowhere, with every unscoped buffer at the run's
    last valuation. -/
theorem run_main (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = Wfin m c b) :=
  run_all (D0 (F := F)) (fun V c w => A_eq0 V c w) (fun _ _ _ => rfl) (fun _ _ _ => rfl) (fun _ _ _ => rfl) (fun _ _ _ => rfl) (fun V c => body_obligation0 V c)
    (D1 (F := F)) (fun V c w => A_eq1 V c w) (fun _ _ _ => rfl) (fun V c => q1_0 V c) (fun V c => q1_1 V c) (fun V c w hw => q1_rest V c w hw) (fun _ _ _ => rfl) (fun _ _ _ => rfl)
    (fun V c => body_obligation1 V c) m ρ

/-- An unscoped TensorCore buffer is among those the run's last valuation speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame claim: the run ends and the three argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (Wend_main_arg0 (D0 (F := F)) (D1 (F := F)) m c),
     (h c _ (mem_uc main_arg1 (by decide))).trans (Wend_main_arg1 (D0 (F := F)) (D1 (F := F)) m c),
     (h c _ (mem_uc main_arg2 (by decide))).trans (Wend_main_arg2 (D0 (F := F)) (D1 (F := F)) m c)⟩) (run_main m ρ)

end Cert.KernelIdeal.Hand

end
-- ==== Proof.Spec.lean ====
/-
  The mathematics both programs compute, over the real numbers.

  Inputs: a feature matrix `x` (8192 rows of 128 reals), class means `μ` (1000 rows of 128 reals) and a class label
  `ℓ i < 1000` for every row. Rows are scaled to unit length (the length floored at a small positive `ε`), giving
  `f` from `x` and `ν` from `μ`. The first result is minus half the squared distance from `f i` to `μ c`. The second is a
  weighted sum of three scalars: the mean cross entropy of a softmax over those distances with the true class's
  entry stretched by 3/2; half the mean squared distance from `f i` to its class's unit mean; and a contrastive term
  over all ordered pairs of distinct rows, with similarities `⟨f i, f j⟩ / τ`.
-/
import Mathlib.Analysis.SpecialFunctions.Log.Basic
import Mathlib.Analysis.SpecialFunctions.Sqrt
import Mathlib.Algebra.BigOperators.Fin
import Mathlib.Data.Fintype.Card

noncomputable section

namespace Cert.Spec

open Finset

variable (ε τ : ℝ) (x : Fin 8192 → Fin 128 → ℝ) (μ : Fin 1000 → Fin 128 → ℝ) (ℓ : Fin 8192 → Fin 1000)

/-- The length of row `i` of a matrix, floored at `ε`. -/
def len {n : ℕ} (a : Fin n → Fin 128 → ℝ) (i : Fin n) : ℝ := max (Real.sqrt (∑ k, a i k * a i k)) ε

/-- Row `i` scaled to (floored) unit length. -/
def unit {n : ℕ} (a : Fin n → Fin 128 → ℝ) (i : Fin n) (k : Fin 128) : ℝ := a i k / len ε a i

/-- Minus half the squared distance from the unit feature row `i` to the mean `c`, expanded:
    `-1/2 · (⟨f i, f i⟩ - 2 ⟨f i, μ c⟩ + ⟨μ c, μ c⟩)`. -/
def negdist (i : Fin 8192) (c : Fin 1000) : ℝ :=
  (-(1 / 2 : ℝ)) * ((∑ k, unit ε x i k * unit ε x i k) - 2 * (∑ k, unit ε x i k * μ c k) + ∑ k, μ c k * μ c k)

/-- The margin logits: the true class's entry is multiplied by `1 + 1/2`, the others by `1`. -/
def logit (i : Fin 8192) (c : Fin 1000) : ℝ :=
  negdist ε x μ i c * (1 + (1 / 2 : ℝ) * (if c = ℓ i then 1 else 0))

/-- The largest logit of row `i`. -/
def rowmax (i : Fin 8192) : ℝ := Finset.sup' Finset.univ Finset.univ_nonempty (logit ε x μ ℓ i)

/-- The logits shifted by the row's maximum. -/
def shifted (i : Fin 8192) (c : Fin 1000) : ℝ := logit ε x μ ℓ i c - rowmax ε x μ ℓ i

/-- The log of the row's partition sum, after the shift. -/
def lse (i : Fin 8192) : ℝ := Real.log (∑ c, Real.exp (shifted ε x μ ℓ i c))

/-- The log-softmax of the margin logits. -/
def logp (i : Fin 8192) (c : Fin 1000) : ℝ := shifted ε x μ ℓ i c - lse ε x μ ℓ i

/-- The mean cross entropy: minus the mean over the rows of the true class's log-probability. -/
def ce : ℝ := -((∑ i, logp ε x μ ℓ i (ℓ i)) / 8192)

/-- The margin term: the squared distances from each unit feature row to its class's unit mean, summed, halved,
    and averaged over the 8192 rows. -/
def lm : ℝ := (∑ i, ∑ k, (unit ε x i k - unit ε μ (ℓ i) k) * (unit ε x i k - unit ε μ (ℓ i) k)) / 2 / 8192

/-- The similarity of rows `i` and `j`: the inner product of the unit rows over the temperature. -/
def sim (i j : Fin 8192) : ℝ := (∑ k, unit ε x i k * unit ε x j k) / τ

/-- The contrastive denominator of row `i`: the sum of `exp (sim i j)` over the OTHER rows `j ≠ i`. -/
def bottom (i : Fin 8192) : ℝ := ∑ j, if j = i then 0 else Real.exp (sim ε τ x i j)

/-- `j` is a positive for `i`: another row of the same class. -/
def pos (i j : Fin 8192) : Prop := ℓ i = ℓ j ∧ j ≠ i

instance (i j : Fin 8192) : Decidable (pos ℓ i j) := by unfold pos; infer_instance

/-- The number of positives of row `i`. -/
def cnt (i : Fin 8192) : ℕ := (Finset.univ.filter fun j => pos ℓ i j).card

/-- The sum over the positives `j` of row `i` of `log (exp (sim i j) / bottom i) = sim i j - log (bottom i)`. -/
def sumlog (i : Fin 8192) : ℝ := ∑ j, if pos ℓ i j then sim ε τ x i j - Real.log (bottom ε τ x i) else 0

/-- Row `i`'s contrastive term: the mean of those log-ratios over its positives, zero for a row without positives. -/
def per (i : Fin 8192) : ℝ := if 0 < cnt ℓ i then sumlog ε τ x ℓ i / max (cnt ℓ i : ℝ) 1 else 0

/-- The number of rows that have a positive. -/
def nsample : ℕ := (Finset.univ.filter fun i => 0 < cnt ℓ i).card

/-- The contrastive loss: minus the mean of the rows' terms over the rows that have a positive. -/
def scl : ℝ := (-(∑ i, per ε τ x ℓ i)) / max (nsample ℓ : ℝ) 1

/-! ### The contrastive term as the kernel accumulates it

The kernel keeps, per row `i`, three running sums over ALL rows `j` (the diagonal included) and takes the diagonal's
contribution off afterwards; from the three totals it forms the row's term without ever forming a log-ratio. -/

/-- The sum of `exp (sim i j)` over all `j`, minus the diagonal's. -/
def bottomK (i : Fin 8192) : ℝ := (∑ j, Real.exp (sim ε τ x i j)) - Real.exp (sim ε τ x i i)

/-- The sum of `sim i j` over the rows `j` of `i`'s class, minus the diagonal's. -/
def possumK (i : Fin 8192) : ℝ := (∑ j, if ℓ i = ℓ j then sim ε τ x i j else 0) - sim ε τ x i i

/-- The number of rows of `i`'s class (as a real), minus one for the diagonal. -/
def cntK (i : Fin 8192) : ℝ := (∑ j, if ℓ i = ℓ j then (1 : ℝ) else 0) - 1

/-- Row `i`'s term from the three totals. -/
def perK (i : Fin 8192) : ℝ :=
  if 0 < cntK ℓ i then (possumK ε τ x ℓ i - cntK ℓ i * Real.log (bottomK ε τ x i)) / max (cntK ℓ i) 1 else 0

/-- The contrastive loss from the rows' terms, the rows with a positive counted in the reals. -/
def sclK : ℝ := (-(∑ i, perK ε τ x ℓ i)) / max (∑ i, if 0 < cntK ℓ i then (1 : ℝ) else 0) 1

/-- The loss from its three parts, with the weights as the programs hold them (`w₁ w₂ w₃`: the three float literals
    both programs share). -/
def loss (w₁ w₂ w₃ : ℝ) (ce scl lm : ℝ) : ℝ := w₁ * ce + w₂ * scl + w₃ * lm

end Cert.Spec

end
-- ==== Proof.IdealReal.lean ====
/-
  The ideal float values on REAL numbers.  At the ideal instance a float is an extended real; every
  operation below, applied to (coerced) real numbers inside its domain, is the real operation, coerced.
  Scalar forms first (the extended reals' own + - * max and the operations with corners), then the float
  literals as the reals their patterns denote, then the same operations read at one index of a vector,
  then the sums (lane sum, host sum, the two matrix products) and the maximum from -∞.
-/
import Idealize.ShloMosaic.PureOps.Ideal.Laws
import Idealize.ShloMosaic.Lib.ValueIdx
import Mathlib.Data.Finset.Lattice.Fold

noncomputable section

namespace Cert.IdealReal

open Idealize.ShloMosaic
open scoped BigOperators

/-! ## Scalars -/

section Scalar
variable (a b : ℝ)

/-- A finite sum of coerced reals is the coerced real sum (the coercion is additive). -/
theorem coe_sum {ι : Type*} (s : Finset ι) (g : ι → ℝ) :
    (∑ i ∈ s, (g i : EReal)) = ((∑ i ∈ s, g i : ℝ) : EReal) := by
  classical
  refine Finset.induction_on s (by simp) ?_
  intro i s hi ih
  rw [Finset.sum_insert hi, Finset.sum_insert hi, ih, EReal.coe_add]

theorem add_coe : (a : EReal) + (b : EReal) = ((a + b : ℝ) : EReal) := (EReal.coe_add a b).symm
theorem sub_coe : (a : EReal) - (b : EReal) = ((a - b : ℝ) : EReal) := (EReal.coe_sub a b).symm
theorem mul_coe : (a : EReal) * (b : EReal) = ((a * b : ℝ) : EReal) := (EReal.coe_mul a b).symm
theorem neg_coe : -(a : EReal) = ((-a : ℝ) : EReal) := (EReal.coe_neg a).symm
/-- The coercion is monotone, so it carries a maximum to the maximum. -/
theorem max_coe : max (a : EReal) (b : EReal) = ((max a b : ℝ) : EReal) :=
  (EReal.coe_strictMono.monotone.map_max (a := a) (b := b)).symm
/-- Off zero the quotient is the product with the reciprocal, which is the real quotient. -/
theorem div_coe {b : ℝ} (hb : b ≠ 0) : Ideal.div (a : EReal) (b : EReal) = ((a / b : ℝ) : EReal) := by
  rw [Ideal.div_coe hb, ← EReal.coe_mul, mul_one_div]
theorem sqrt_coe {a : ℝ} (ha : 0 ≤ a) : Ideal.sqrt (a : EReal) = ((Real.sqrt a : ℝ) : EReal) := by
  rw [Ideal.sqrt_coe, if_neg (not_lt.mpr ha)]
theorem exp_coe : Ideal.exp (a : EReal) = ((Real.exp a : ℝ) : EReal) := Ideal.exp_coe a
theorem log_coe {a : ℝ} (ha : 0 < a) : Ideal.log (a : EReal) = ((Real.log a : ℝ) : EReal) := by
  rw [Ideal.log_coe, if_neg (not_le.mpr ha)]
/-- "Greater than" on coerced reals is the reals' own, as the one-bit word. -/
theorem cmp_ogt_coe : Ideal.cmp .ogt (a : EReal) (b : EReal) = BitVec.ofBool (decide (b < a)) := by
  show BitVec.ofBool (decide ((b : EReal) < (a : EReal))) = _
  congr 1
  exact decide_eq_decide.mpr EReal.coe_lt_coe_iff

/-! The instance's fields, kernel's and host's, at reals: each is one of the operations above. -/
theorem addf_coe {φ : FTy} : FloatOps.addf (F := Ideal) (φ := φ) (a : EReal) (b : EReal) = ((a + b : ℝ) : EReal) := add_coe a b
theorem subf_coe {φ : FTy} : FloatOps.subf (F := Ideal) (φ := φ) (a : EReal) (b : EReal) = ((a - b : ℝ) : EReal) := sub_coe a b
theorem mulf_coe {φ : FTy} : FloatOps.mulf (F := Ideal) (φ := φ) (a : EReal) (b : EReal) = ((a * b : ℝ) : EReal) := mul_coe a b
theorem negf_coe {φ : FTy} : FloatOps.negf (F := Ideal) (φ := φ) (a : EReal) = ((-a : ℝ) : EReal) := neg_coe a
theorem hostNegf_coe {φ : FTy} : FloatOps.hostNegf (F := Ideal) (φ := φ) (a : EReal) = ((-a : ℝ) : EReal) := neg_coe a
theorem maximumf_coe {φ : FTy} : FloatOps.maximumf (F := Ideal) (φ := φ) (a : EReal) (b : EReal) = ((max a b : ℝ) : EReal) := max_coe a b
theorem divf_coe {φ : FTy} {b : ℝ} (hb : b ≠ 0) : FloatOps.divf (F := Ideal) (φ := φ) (a : EReal) (b : EReal) = ((a / b : ℝ) : EReal) := div_coe a hb
theorem hostDivf_coe {φ : FTy} {b : ℝ} (hb : b ≠ 0) : FloatOps.hostDivf (F := Ideal) (φ := φ) (a : EReal) (b : EReal) = ((a / b : ℝ) : EReal) := div_coe a hb
theorem sqrtf_coe {φ : FTy} {a : ℝ} (ha : 0 ≤ a) : FloatOps.sqrt (F := Ideal) (φ := φ) (a : EReal) = ((Real.sqrt a : ℝ) : EReal) := sqrt_coe ha
theorem hostSqrt_coe {φ : FTy} {a : ℝ} (ha : 0 ≤ a) : FloatOps.hostUnary (F := Ideal) (φ := φ) .sqrt (a : EReal) = ((Real.sqrt a : ℝ) : EReal) := sqrt_coe ha
theorem expf_coe {φ : FTy} : FloatOps.exp (F := Ideal) (φ := φ) (a : EReal) = ((Real.exp a : ℝ) : EReal) := exp_coe a
theorem hostExp_coe {φ : FTy} : FloatOps.hostUnary (F := Ideal) (φ := φ) .exp (a : EReal) = ((Real.exp a : ℝ) : EReal) := exp_coe a
theorem logf_coe {φ : FTy} {a : ℝ} (ha : 0 < a) : FloatOps.log (F := Ideal) (φ := φ) (a : EReal) = ((Real.log a : ℝ) : EReal) := log_coe ha
theorem hostLog_coe {φ : FTy} {a : ℝ} (ha : 0 < a) : FloatOps.hostUnary (F := Ideal) (φ := φ) .log (a : EReal) = ((Real.log a : ℝ) : EReal) := log_coe ha
theorem cmpf_ogt_coe {φ : FTy} : FloatOps.cmpf (F := Ideal) (φ := φ) .ogt (a : EReal) (b : EReal) = BitVec.ofBool (decide (b < a)) := cmp_ogt_coe a b

/-! Select on a one-bit word: the word of a Boolean is 1 exactly when the Boolean holds. -/
theorem select_ofBool {α : Type} (c : Bool) (x y : α) : Scalar.select (BitVec.ofBool c) x y = if c = true then x else y := by
  cases c <;> simp [Scalar.select]
theorem select_decide {α : Type} (p : Prop) [Decidable p] (x y : α) : Scalar.select (BitVec.ofBool (decide p)) x y = if p then x else y := by
  rw [select_ofBool]; simp only [decide_eq_true_eq]
theorem select_cmp_ogt_coe {α : Type} (x y : α) : Scalar.select (Ideal.cmp .ogt (a : EReal) (b : EReal)) x y = if b < a then x else y := by
  rw [cmp_ogt_coe, select_decide]

/-! Integer words to floats: the integer's value, read signed or unsigned. -/
theorem sitofp_coe {φ : FTy} {w : Nat} (n : BitVec w) : FloatOps.sitofp (F := Ideal) φ n = (((n.toInt : ℤ) : ℝ) : EReal) := rfl
theorem uitofp_coe {φ : FTy} {w : Nat} (n : BitVec w) : FloatOps.uitofp (F := Ideal) φ n = (((n.toNat : ℕ) : ℝ) : EReal) := rfl
/-- A one-bit word read signed is 0 or -1 … -/
theorem sitofp_ofBool {φ : FTy} (c : Bool) : FloatOps.sitofp (F := Ideal) φ (BitVec.ofBool c) = (((if c = true then -1 else 0 : ℝ)) : EReal) := by
  cases c
  · have h : (BitVec.ofBool false).toInt = 0 := by decide
    rw [sitofp_coe, h]; simp
  · have h : (BitVec.ofBool true).toInt = -1 := by decide
    rw [sitofp_coe, h]; simp
/-- … and read unsigned 0 or 1. -/
theorem uitofp_ofBool {φ : FTy} (c : Bool) : FloatOps.uitofp (F := Ideal) φ (BitVec.ofBool c) = (((if c = true then 1 else 0 : ℝ)) : EReal) := by
  cases c
  · have h : (BitVec.ofBool false).toNat = 0 := by decide
    rw [uitofp_coe, h]; simp
  · have h : (BitVec.ofBool true).toNat = 1 := by decide
    rw [uitofp_coe, h]; simp

/-! Format changes are the identity. -/
theorem truncf_coe {φ ψ : FTy} (h : ψ.bits < φ.bits) (x : Ideal φ) : FloatOps.truncf (F := Ideal) ψ h x = x := rfl
theorem extf_coe {φ ψ : FTy} (h : φ.bits < ψ.bits) (x : Ideal φ) : FloatOps.extf (F := Ideal) ψ h x = x := rfl

end Scalar

/-! ## The literals -/

section Consts

/-- The reals three of the patterns denote (dyadic rationals); of the first only its sign is used, of the
    other two nothing. -/
def tiny : ℝ := 9223372 / 2 ^ 63
def c09 : ℝ := 15099494 / 2 ^ 24
def c01 : ℝ := 13421773 / 2 ^ 27

theorem tiny_pos : 0 < tiny := by unfold tiny; positivity

theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_8192 : Ideal.ofBits .f32 0x46000000#32 = ((8192 : ℝ) : EReal) := by
  simp [Ideal.ofBits, Ideal.ieee, -EReal.coe_mul]; norm_num
theorem ofBits_temp : Ideal.ofBits .f32 0x3E99999A#32 = ((5033165 / 16777216 : ℝ) : EReal) := by
  simp [Ideal.ofBits, Ideal.ieee, -EReal.coe_mul]; norm_num
theorem ofBits_tiny : Ideal.ofBits .f32 0x2B8CBCCC#32 = ((tiny : ℝ) : EReal) := by
  simp [Ideal.ofBits, Ideal.ieee, -EReal.coe_mul, tiny]; norm_num
theorem ofBits_c09 : Ideal.ofBits .f32 0x3F666666#32 = ((c09 : ℝ) : EReal) := by
  simp [Ideal.ofBits, Ideal.ieee, -EReal.coe_mul, c09]; norm_num
theorem ofBits_c01 : Ideal.ofBits .f32 0x3DCCCCCD#32 = ((c01 : ℝ) : EReal) := by
  simp [Ideal.ofBits, Ideal.ieee, -EReal.coe_mul, c01]; norm_num
theorem ofBits_neg_inf : Ideal.ofBits .f32 0xFF800000#32 = ⊥ := by
  simp [Ideal.ofBits, Ideal.ieee]

end Consts

/-! ## The same, read at one index of a vector -/

section Vec
variable {s : Shape} {φ : FTy} (x y : FVec Ideal s φ) (i : s.Idx) {a b : ℝ}

theorem addf_at (hx : x i = (a : EReal)) (hy : y i = (b : EReal)) : addf x y i = ((a + b : ℝ) : EReal) := by
  show x i + y i = _; rw [hx, hy]; exact add_coe a b
theorem subf_at (hx : x i = (a : EReal)) (hy : y i = (b : EReal)) : subf x y i = ((a - b : ℝ) : EReal) := by
  show x i - y i = _; rw [hx, hy]; exact sub_coe a b
theorem mulf_at (hx : x i = (a : EReal)) (hy : y i = (b : EReal)) : mulf x y i = ((a * b : ℝ) : EReal) := by
  show x i * y i = _; rw [hx, hy]; exact mul_coe a b
theorem negf_at (hx : x i = (a : EReal)) : negf x i = ((-a : ℝ) : EReal) := by
  show -(x i) = _; rw [hx]; exact neg_coe a
theorem hostNegf_at (hx : x i = (a : EReal)) : Host.negf x i = ((-a : ℝ) : EReal) := by
  show -(x i) = _; rw [hx]; exact neg_coe a
theorem maximumf_at (hx : x i = (a : EReal)) (hy : y i = (b : EReal)) : maximumf x y i = ((max a b : ℝ) : EReal) := by
  show max (x i) (y i) = _; rw [hx, hy]; exact max_coe a b
theorem divf_at (hx : x i = (a : EReal)) (hy : y i = (b : EReal)) (hb : b ≠ 0) : divf x y i = ((a / b : ℝ) : EReal) := by
  show Ideal.div (x i) (y i) = _; rw [hx, hy]; exact div_coe a hb
theorem hostDivf_at (hx : x i = (a : EReal)) (hy : y i = (b : EReal)) (hb : b ≠ 0) : Host.divf x y i = ((a / b : ℝ) : EReal) := by
  show Ideal.div (x i) (y i) = _; rw [hx, hy]; exact div_coe a hb
theorem sqrt_at (hx : x i = (a : EReal)) (ha : 0 ≤ a) : sqrt x i = ((Real.sqrt a : ℝ) : EReal) := by
  show Ideal.sqrt (x i) = _; rw [hx]; exact sqrt_coe ha
theorem hostSqrt_at (hx : x i = (a : EReal)) (ha : 0 ≤ a) : Host.sqrt x i = ((Real.sqrt a : ℝ) : EReal) := by
  show Ideal.sqrt (x i) = _; rw [hx]; exact sqrt_coe ha
theorem exp_at (hx : x i = (a : EReal)) : exp x i = ((Real.exp a : ℝ) : EReal) := by
  show Ideal.exp (x i) = _; rw [hx]; exact exp_coe a
theorem hostExp_at (hx : x i = (a : EReal)) : Host.exp x i = ((Real.exp a : ℝ) : EReal) := by
  show Ideal.exp (x i) = _; rw [hx]; exact exp_coe a
theorem log_at (hx : x i = (a : EReal)) (ha : 0 < a) : log x i = ((Real.log a : ℝ) : EReal) := by
  show Ideal.log (x i) = _; rw [hx]; exact log_coe ha
theorem hostLog_at (hx : x i = (a : EReal)) (ha : 0 < a) : Host.log x i = ((Real.log a : ℝ) : EReal) := by
  show Ideal.log (x i) = _; rw [hx]; exact log_coe ha
theorem cmpf_ogt_at (hx : x i = (a : EReal)) (hy : y i = (b : EReal)) : cmpf .ogt x y i = BitVec.ofBool (decide (b < a)) := by
  show Ideal.cmp .ogt (x i) (y i) = _; rw [hx, hy]; exact cmp_ogt_coe a b
theorem select_at {α : Type} (c : IVec s 1) (u v : s.Idx → α) : select c u v i = if c i = 1#1 then u i else v i := rfl
theorem select_cmpf_ogt_at {α : Type} (hx : x i = (a : EReal)) (hy : y i = (b : EReal)) (u v : s.Idx → α) :
    select (cmpf .ogt x y) u v i = if b < a then u i else v i := by
  show Scalar.select (Ideal.cmp .ogt (x i) (y i)) (u i) (v i) = _
  rw [hx, hy]; exact select_cmp_ogt_coe a b _ _
theorem sitofp_at {w : Nat} (n : IVec s w) : (sitofp φ n : FVec Ideal s φ) i = ((((n i).toInt : ℤ) : ℝ) : EReal) := rfl
theorem uitofp_at {w : Nat} (n : IVec s w) : (uitofp φ n : FVec Ideal s φ) i = ((((n i).toNat : ℕ) : ℝ) : EReal) := rfl
theorem truncf_at {ψ : FTy} (h : ψ.bits < φ.bits) : (truncf ψ x h : FVec Ideal s ψ) i = x i := rfl
theorem extf_at {ψ : FTy} (h : φ.bits < ψ.bits) : (extf ψ x h : FVec Ideal s ψ) i = x i := rfl
theorem truncf_eq {ψ : FTy} (h : ψ.bits < φ.bits) : (truncf ψ x h : FVec Ideal s ψ) = x := rfl
theorem extf_eq {ψ : FTy} (h : φ.bits < ψ.bits) : (extf ψ x h : FVec Ideal s ψ) = x := rfl
theorem broadcast_at (c : EReal) : broadcast s c i = c := rfl
theorem constant_at (w : BitVec φ.bits) : constant (F := Ideal) s φ w i = Ideal.ofBits φ w := rfl

end Vec

/-! ## Sums and maxima -/

section Sums
variable {φ : FTy}

/-- A lane sum over one axis of coerced reals: the coerced sum over that axis's coordinates. -/
theorem multiReduction_add_coe {s t : Shape} {a : Fin s.rank} (src : FVec Ideal s φ) (acc : BitVec φ.bits)
    (h : s.Reduces [a] t) (hφ : FKind.Formats φ) (hacc : acc = FKind.add.neutral φ hφ) (j : t.Idx)
    (G : Fin (s.size a) → ℝ) (hsrc : ∀ k, src (h.lift j k) = ((G k : ℝ) : EReal)) :
    multiReduction .add [a] t src acc h hφ hacc j = ((∑ k : Fin (s.size a), G k : ℝ) : EReal) := by
  rw [Ideal.multiReduction_add_single src acc h hφ hacc j]
  refine Eq.trans ?_ (coe_sum Finset.univ G)
  exact Finset.sum_congr rfl fun k _ => hsrc k

/-- The host's sum over one axis from a real initial value. -/
theorem hostReduceAdd_coe {s t : Shape} {a : Fin s.rank} (h' : s.ReducesTo [a] t) (h : s.Reduces [a] t)
    (x : s.Idx → EReal) (init : EReal) (j : t.Idx) (c : ℝ) (G : Fin (s.size a) → ℝ) (hinit : init = (c : EReal))
    (hx : ∀ k, x (h.lift j k) = ((G k : ℝ) : EReal)) :
    Ideal.hostReduceAdd h' x init j = ((c + ∑ k : Fin (s.size a), G k : ℝ) : EReal) := by
  rw [Ideal.hostReduceAdd_single h' h x init j, hinit, EReal.coe_add, ← coe_sum Finset.univ G]
  exact congrArg ((c : EReal) + ·) (Finset.sum_congr rfl fun k _ => hx k)

theorem Host_reduceAdd_coe {s t u : Shape} {a : Fin s.rank} (x : FVec Ideal s φ) (init : u.Idx → Ideal φ)
    (h' : s.ReducesTo [a] t) (h : s.Reduces [a] t) (hu : 0 < u.numel) (j : t.Idx) (c : ℝ) (G : Fin (s.size a) → ℝ)
    (hinit : init (Shape.Idx.first hu) = (c : EReal)) (hx : ∀ k, x (h.lift j k) = ((G k : ℝ) : EReal)) :
    Host.reduceAdd x init h' hu j = ((c + ∑ k : Fin (s.size a), G k : ℝ) : EReal) :=
  hostReduceAdd_coe h' h x _ j c G hinit hx

/-- The host's sum into a shape of unit axes: the total over the operand. -/
theorem hostReduceAdd_total_coe {s t : Shape} {axes : List (Fin s.rank)} (h' : s.ReducesTo axes t)
    (ht : ∀ b, t.size b = 1) (x : s.Idx → EReal) (init : EReal) (j : t.Idx) (c : ℝ) (g : s.Idx → ℝ)
    (hinit : init = (c : EReal)) (hx : ∀ i, x i = ((g i : ℝ) : EReal)) :
    Ideal.hostReduceAdd h' x init j = ((c + ∑ i : s.Idx, g i : ℝ) : EReal) := by
  rw [Ideal.hostReduceAdd_total h' ht x init j, hinit, EReal.coe_add, ← coe_sum Finset.univ g]
  exact congrArg ((c : EReal) + ·) (Finset.sum_congr rfl fun i _ => hx i)

theorem Host_reduceAdd_total_coe {s t u : Shape} {axes : List (Fin s.rank)} (x : FVec Ideal s φ) (init : u.Idx → Ideal φ)
    (h' : s.ReducesTo axes t) (ht : ∀ b, t.size b = 1) (hu : 0 < u.numel) (j : t.Idx) (c : ℝ) (g : s.Idx → ℝ)
    (hinit : init (Shape.Idx.first hu) = (c : EReal)) (hx : ∀ i, x i = ((g i : ℝ) : EReal)) :
    Host.reduceAdd x init h' hu j = ((c + ∑ i : s.Idx, g i : ℝ) : EReal) :=
  hostReduceAdd_total_coe h' ht x _ j c g hinit hx

/-- The kernel's matrix product into the zero accumulator, of operands real along the contraction. -/
theorem matmul_zero_coe {sl sr so : Shape} {φ₁ φ₂ : FTy} (d : DotDims sl sr so) (prec : Option ContractPrecision)
    (lhs : FVec Ideal sl φ₁) (rhs : FVec Ideal sr φ₂) (j : so.Idx) (L R : d.contr.Idx → ℝ)
    (hl : ∀ k, lhs (d.lhsIdx j k) = ((L k : ℝ) : EReal)) (hr : ∀ k, rhs (d.rhsIdx j k) = ((R k : ℝ) : EReal)) :
    matmul d prec lhs rhs (constant so .f32 0x00000000#32) j = ((∑ k : d.contr.Idx, L k * R k : ℝ) : EReal) := by
  refine (Ideal.matmul_constant_zero_apply d prec lhs rhs j).trans ?_
  refine Eq.trans ?_ (coe_sum Finset.univ fun k => L k * R k)
  exact Finset.sum_congr rfl fun k _ => by rw [hl k, hr k, mul_coe]

/-- The host's matrix product likewise. -/
theorem dotGeneral_coe {sl sr so : Shape} {φ₁ φ₂ : FTy} (d : DotDims sl sr so) (prec : Option ContractPrecision)
    (lhs : FVec Ideal sl φ₁) (rhs : FVec Ideal sr φ₂) (j : so.Idx) (L R : d.contr.Idx → ℝ)
    (hl : ∀ k, lhs (d.lhsIdx j k) = ((L k : ℝ) : EReal)) (hr : ∀ k, rhs (d.rhsIdx j k) = ((R k : ℝ) : EReal)) :
    Host.dotGeneral d prec lhs rhs j = ((∑ k : d.contr.Idx, L k * R k : ℝ) : EReal) := by
  refine (Ideal.dotGeneral_apply d prec .single lhs rhs j).trans ?_
  refine Eq.trans ?_ (coe_sum Finset.univ fun k => L k * R k)
  exact Finset.sum_congr rfl fun k _ => by rw [hl k, hr k, mul_coe]

/-- The fold of max from -∞ over a nonempty set of coerced reals is the coerced supremum: -∞ is the
    identity of max, and the coercion carries max to max. -/
theorem fold_max_bot_coe {ι : Type*} (S : Finset ι) (hS : S.Nonempty) (g : ι → ℝ) :
    S.fold max (⊥ : EReal) (fun i => ((g i : ℝ) : EReal)) = ((S.sup' hS g : ℝ) : EReal) := by
  induction hS using Finset.Nonempty.cons_induction with
  | singleton i => rw [Finset.fold_singleton, Finset.sup'_singleton]; exact max_bot_right _
  | cons i S hi hS ih => rw [Finset.fold_cons, ih, Finset.sup'_cons hS, max_coe]

/-- A lane maximum from -∞ over one nonempty axis of coerced reals. -/
theorem multiReduction_maximumf_coe {s t : Shape} {a : Fin s.rank} (src : FVec Ideal s .f32)
    (h : s.Reduces [a] t) (hφ : FKind.Formats .f32) (hacc : (0xFF800000#32 : BitVec 32) = FKind.maximumf.neutral .f32 hφ)
    (j : t.Idx) (hne : (Finset.univ : Finset (Fin (s.size a))).Nonempty) (G : Fin (s.size a) → ℝ)
    (hsrc : ∀ k, src (h.lift j k) = ((G k : ℝ) : EReal)) :
    multiReduction .maximumf [a] t src 0xFF800000#32 h hφ hacc j = ((Finset.univ.sup' hne G : ℝ) : EReal) := by
  rw [Ideal.multiReduction_maximumf_single src _ h hφ hacc j]
  have hb : FloatOps.ofBits (F := Ideal) .f32 0xFF800000#32 = (⊥ : EReal) := ofBits_neg_inf
  rw [hb, show (src ∘ h.lift j) = fun k => ((G k : ℝ) : EReal) from funext hsrc]
  exact fold_max_bot_coe Finset.univ hne G

/-- The host's maximum over one nonempty axis from an initial value that is -∞. -/
theorem Host_reduce_maximumf_coe {s t u : Shape} {a : Fin s.rank} (x : FVec Ideal s φ) (init : u.Idx → Ideal φ)
    (h' : s.ReducesTo [a] t) (h : s.Reduces [a] t) (hu : 0 < u.numel) (j : t.Idx)
    (hne : (Finset.univ : Finset (Fin (s.size a))).Nonempty) (G : Fin (s.size a) → ℝ)
    (hinit : init (Shape.Idx.first hu) = ⊥) (hx : ∀ k, x (h.lift j k) = ((G k : ℝ) : EReal)) :
    Host.reduce FloatOps.maximumf x init h' hu j = ((Finset.univ.sup' hne G : ℝ) : EReal) := by
  rw [Host.reduce_eq_fold_single FloatOps.maximumf x init h' h hu j, hinit,
    show (x ∘ h.lift j) = fun k => ((G k : ℝ) : EReal) from funext hx]
  exact fold_max_bot_coe Finset.univ hne G

end Sums

end Cert.IdealReal

end
-- ==== Proof.KHost.lean ====
/-
  The values of the kernel program's host stretches, on real inputs.

  Around its two regions the kernel program runs plain array operations. Before the first region: each class mean is
  divided by its length (the root of the sum of its squares, floored at a small positive constant), the squared
  lengths of the means are laid out as a row, and the labels are laid out as a column and as a row. Between the
  regions: two columns of 8192 row terms are summed and averaged (the second also halved). After the second region:
  from each row's denominator B, sum over positives P and count C the row's term (P - C · log B) / max(C, 1) is kept
  where C > 0 and replaced by zero elsewhere; minus the sum of these terms over the number of rows with C > 0
  (floored at one) is the contrastive loss, and the result is the weighted sum of the three scalars.
  Every statement here reads one result buffer after a stretch, for a memory whose relevant buffers hold coerced
  reals, and says which coerced real it holds.
-/
import proofs.«400644_j12893491823014_2_alg».proof.Proof.Gen.KernelIdeal.Launch
import proofs.«400644_j12893491823014_2_alg».proof.Proof.Spec
import proofs.«400644_j12893491823014_2_alg».proof.Proof.IdealReal
import Idealize.ShloMosaic.Lib.IdealHost
import Idealize.ShloMosaic.Lib.Pipeline.Value

noncomputable section

namespace Cert.KernelIdeal.Hand

open Idealize.ShloMosaic Idealize.ShloMosaic.TcCoe Idealize.ShloMosaic.ValueIdx
open scoped BigOperators

/-! ## Layout operations read at an index -/

section Layout
variable {α : Type}

/-- A vector of 1000 entries laid as a column: entry (c, 0) is entry c. -/
theorem host_bcast_col (v : S1000.Idx → α) (h : S1000.BroadcastsInDim S1000x1 (![0] : Fin 1 → Fin S1000x1.rank)) (c : Fin 1000) :
    broadcastInDim S1000x1 ![0] h v (ix2 c 0) = v (ix1 c) :=
  broadcastInDim_apply _ h v _ (ix1 c) fun a => by match a with | ⟨0, _⟩ => rfl

/-- A column of 1000 entries repeated along the 128 columns: entry (c, k) is entry (c, 0). -/
theorem host_bcast_rows (v : S1000x1.Idx → α) (h : S1000x1.BroadcastsInDim S1000x128 (![0, 1] : Fin 2 → Fin S1000x128.rank))
    (c : Fin 1000) (k : Fin 128) :
    broadcastInDim S1000x128 ![0, 1] h v (ix2 c k) = v (ix2 c 0) :=
  broadcastInDim_apply _ h v _ (ix2 c 0) fun a => by match a with | ⟨0, _⟩ => rfl | ⟨1, _⟩ => rfl

/-- A vector of 1000 entries laid as a row: entry (0, c) is entry c. -/
theorem host_bcast_row (v : S1000.Idx → α) (h : S1000.BroadcastsInDim S1x1000 (![1] : Fin 1 → Fin S1x1000.rank)) (c : Fin 1000) :
    broadcastInDim S1x1000 ![1] h v (ix2 0 c) = v (ix1 c) :=
  broadcastInDim_apply _ h v _ (ix1 c) fun a => by match a with | ⟨0, _⟩ => rfl

/-- 8192 entries reshaped to a column keep their order. -/
theorem host_reshape_col (v : S8192.Idx → α) (h : S8192.ShapeCasts S8192x1) (i : Fin 8192) :
    shapeCast S8192x1 v h (ix2 i 0) = v (ix1 i) :=
  shapeCast_apply v h _ (ix1 i) (by
    rw [Shape.rowMajor_val_one, Shape.rowMajor_val_two]; show i.val = i.val * 1 + 0; omega)

/-- 8192 entries reshaped to a row keep their order. -/
theorem host_reshape_row (v : S8192.Idx → α) (h : S8192.ShapeCasts S1x8192) (i : Fin 8192) :
    shapeCast S1x8192 v h (ix2 0 i) = v (ix1 i) :=
  shapeCast_apply v h _ (ix1 i) (by
    rw [Shape.rowMajor_val_one, Shape.rowMajor_val_two]; show i.val = 0 * 8192 + i.val; omega)

end Layout

/-! ## The two sums -/

/-- The index the row sum inserts coordinate k at is (c, k). -/
theorem host_lift_row (h : S1000x128.Reduces [1] S1000) (c : Fin 1000) (k : Fin 128) : h.lift (ix1 c) k = ix2 c k := by
  funext a; match a with | ⟨0, _⟩ => exact Fin.ext rfl | ⟨1, _⟩ => exact Fin.ext rfl

/-- The host's sum along the 128 columns of a 1000-row matrix of coerced reals, from the zero word. -/
theorem host_reduce_rows (X : FVec Ideal S1000x128 .f32) (g : Fin 1000 → Fin 128 → ℝ)
    (hX : ∀ (c : Fin 1000) (k : Fin 128), X (ix2 c k) = ((g c k : ℝ) : EReal))
    (hr : S1000x128.ReducesTo [1] S1000) (hu : 0 < S_.numel) (c : Fin 1000) :
    Host.reduceAdd X (constant (F := Ideal) S_ .f32 0x00000000#32) hr hu (ix1 c) = ((∑ k, g c k : ℝ) : EReal) := by
  have h : S1000x128.Reduces [1] S1000 := by decide
  refine (Cert.IdealReal.Host_reduceAdd_coe X _ hr h hu (ix1 c) 0 (g c) Cert.IdealReal.ofBits_zero
    (fun k => (congrArg X (host_lift_row h c k)).trans (hX c k))).trans ?_
  exact congrArg (fun r : ℝ => (r : EReal)) (zero_add _)

/-- A column of 8192 coerced reals summed over both axes is the coerced sum. -/
theorem host_sum_col (X : S8192x1.Idx → EReal) (a : Fin 8192 → ℝ) (h : ∀ i : Fin 8192, X (ix2 i 0) = ((a i : ℝ) : EReal)) :
    ∑ j, X j = ((∑ i, a i : ℝ) : EReal) := by
  rw [sum_idx2, ← Cert.IdealReal.coe_sum]
  exact Finset.sum_congr rfl fun i _ => by rw [Fin.sum_univ_one]; exact h i

/-- The host's sum of such a column, from the zero word. -/
theorem host_reduce_col (X : FVec Ideal S8192x1 .f32) (a : Fin 8192 → ℝ) (h : ∀ i : Fin 8192, X (ix2 i 0) = ((a i : ℝ) : EReal))
    (hr : S8192x1.ReducesTo [0, 1] S_) (hu : 0 < S_.numel) (j : S_.Idx) :
    Host.reduceAdd X (constant (F := Ideal) S_ .f32 0x00000000#32) hr hu j = ((∑ i, a i : ℝ) : EReal) := by
  rw [hostReduceAdd_apply, Ideal.hostReduceAdd_total hr (fun b => b.elim0), constant_apply, Ideal.ofBits_zero_f32, zero_add]
  exact host_sum_col X a h

/-- A scalar word spread over a column reads the word's value. -/
theorem host_bcast_lit (h : S_.BroadcastsInDim S8192x1 (![] : Fin 0 → Fin S8192x1.rank)) (w : BitVec 32) (r : ℝ)
    (hw : Ideal.ofBits .f32 w = ((r : ℝ) : EReal)) (j : S8192x1.Idx) :
    broadcastInDim S8192x1 ![] h (constant (F := Ideal) S_ .f32 w) j = ((r : ℝ) : EReal) := by
  rw [broadcastInDim_scalar_apply, constant_apply]; exact hw

/-! ## Before the first region: the class means scaled to unit length, their squared lengths, the labels laid out -/

/-- The length of each class mean: the root of the sum of its squares. -/
theorem hostOps0_v0 (W : Valuation τ sig (Elt Ideal)) (μ : Fin 1000 → Fin 128 → ℝ)
    (hμ : ∀ (c : Fin 1000) (k : Fin 128), (W (Proc.devRef .tc main_arg2) : S1000x128.Idx → EReal) (ix2 c k) = ((μ c k : ℝ) : EReal))
    (c : Fin 1000) :
    (StableHlo.after (Gen.hostOps0 (F := Ideal)) W (Proc.devRef .tc main_v0) : S1000x1.Idx → EReal) (ix2 c 0)
      = ((Real.sqrt (∑ k, μ c k * μ c k) : ℝ) : EReal) := by
  have e : (StableHlo.after (Gen.hostOps0 (F := Ideal)) W (Proc.devRef .tc main_v0) : S1000x1.Idx → EReal)
      = Host.sqrt (F := Ideal) (broadcastInDim S1000x1 ![0] Gen.bcast_S1000_S1000x1_0
          (Host.reduceAdd (F := Ideal)
            (mulf (W (Proc.devRef .tc main_arg2) : FVec Ideal S1000x128 .f32) (W (Proc.devRef .tc main_arg2)))
            (constant (F := Ideal) S_ .f32 0x00000000#32) Gen.reducesTo_S1000x128_S1000_d1 Gen.h_S_)) := by
    show StableHlo.after Gen.hostOps0 _ (Proc.devRef .tc main_v0) = _
    after_results
    rfl
  rw [e]
  refine Cert.IdealReal.hostSqrt_at _ (ix2 c 0) ?_ (Finset.sum_nonneg fun k _ => mul_self_nonneg _)
  rw [host_bcast_col]
  exact host_reduce_rows _ (fun c k => μ c k * μ c k) (fun c k => Cert.IdealReal.mulf_at _ _ _ (hμ c k) (hμ c k)) _ _ c

/-- The first stretch writes neither the means nor the labels. -/
theorem hostOps0_arg2 (W : Valuation τ sig (Elt Ideal)) :
    StableHlo.after (Gen.hostOps0 (F := Ideal)) W (Proc.devRef .tc main_arg2) = W (Proc.devRef .tc main_arg2) := by
  show StableHlo.after Gen.hostOps0 _ (Proc.devRef .tc main_arg2) = _
  after_results
theorem hostOps0_arg1 (W : Valuation τ sig (Elt Ideal)) :
    StableHlo.after (Gen.hostOps0 (F := Ideal)) W (Proc.devRef .tc main_arg1) = W (Proc.devRef .tc main_arg1) := by
  show StableHlo.after Gen.hostOps0 _ (Proc.devRef .tc main_arg1) = _
  after_results
theorem hostOps0_arg0 (W : Valuation τ sig (Elt Ideal)) :
    StableHlo.after (Gen.hostOps0 (F := Ideal)) W (Proc.devRef .tc main_arg0) = W (Proc.devRef .tc main_arg0) := by
  show StableHlo.after Gen.hostOps0 _ (Proc.devRef .tc main_arg0) = _
  after_results

/-- Each mean divided by its length floored at the small positive constant. -/
theorem hostOps0_1_v4 (W : Valuation τ sig (Elt Ideal)) (μ : Fin 1000 → Fin 128 → ℝ) (n : Fin 1000 → ℝ)
    (hμ : ∀ (c : Fin 1000) (k : Fin 128), (W (Proc.devRef .tc main_arg2) : S1000x128.Idx → EReal) (ix2 c k) = ((μ c k : ℝ) : EReal))
    (hn : ∀ c : Fin 1000, (W (Proc.devRef .tc main_v0) : S1000x1.Idx → EReal) (ix2 c 0) = ((n c : ℝ) : EReal))
    (c : Fin 1000) (k : Fin 128) :
    (StableHlo.after (Gen.hostOps0_1 (F := Ideal)) W (Proc.devRef .tc main_v4) : S1000x128.Idx → EReal) (ix2 c k)
      = ((μ c k / max (n c) Cert.IdealReal.tiny : ℝ) : EReal) := by
  show StableHlo.after Gen.hostOps0_1 _ (Proc.devRef .tc main_v4) (ix2 c k) = _
  after_results
  refine Cert.IdealReal.hostDivf_at _ _ (ix2 c k) (hμ c k) ?_
    (ne_of_gt (lt_of_lt_of_le Cert.IdealReal.tiny_pos (le_max_right _ _)))
  rw [host_bcast_rows]
  refine Cert.IdealReal.maximumf_at _ _ (ix2 c 0) (hn c) ?_
  rw [broadcastInDim_scalar_apply, constant_apply]; exact Cert.IdealReal.ofBits_tiny

/-- The squared length of each class mean, laid as a row. -/
theorem hostOps0_1_v7 (W : Valuation τ sig (Elt Ideal)) (μ : Fin 1000 → Fin 128 → ℝ)
    (hμ : ∀ (c : Fin 1000) (k : Fin 128), (W (Proc.devRef .tc main_arg2) : S1000x128.Idx → EReal) (ix2 c k) = ((μ c k : ℝ) : EReal))
    (c : Fin 1000) :
    (StableHlo.after (Gen.hostOps0_1 (F := Ideal)) W (Proc.devRef .tc main_v7) : S1x1000.Idx → EReal) (ix2 0 c)
      = ((∑ k, μ c k * μ c k : ℝ) : EReal) := by
  show StableHlo.after Gen.hostOps0_1 _ (Proc.devRef .tc main_v7) (ix2 0 c) = _
  after_results
  rw [host_bcast_row]
  exact host_reduce_rows _ (fun c k => μ c k * μ c k) (fun c k => Cert.IdealReal.mulf_at _ _ _ (hμ c k) (hμ c k)) _ _ c

/-- The labels as a column. -/
theorem hostOps0_1_v8 (W : Valuation τ sig (Elt Ideal)) (i : Fin 8192) :
    (StableHlo.after (Gen.hostOps0_1 (F := Ideal)) W (Proc.devRef .tc main_v8) : S8192x1.Idx → BitVec 32) (ix2 i 0)
      = (W (Proc.devRef .tc main_arg1) : S8192.Idx → BitVec 32) (ix1 i) := by
  show StableHlo.after Gen.hostOps0_1 _ (Proc.devRef .tc main_v8) (ix2 i 0) = _
  after_results
  exact host_reshape_col (W (Proc.devRef .tc main_arg1) : S8192.Idx → BitVec 32) Gen.shapeCasts_S8192_S8192x1 i

/-- The labels as a row. -/
theorem hostOps0_1_v9 (W : Valuation τ sig (Elt Ideal)) (i : Fin 8192) :
    (StableHlo.after (Gen.hostOps0_1 (F := Ideal)) W (Proc.devRef .tc main_v9) : S1x8192.Idx → BitVec 32) (ix2 0 i)
      = (W (Proc.devRef .tc main_arg1) : S8192.Idx → BitVec 32) (ix1 i) := by
  show StableHlo.after Gen.hostOps0_1 _ (Proc.devRef .tc main_v9) (ix2 0 i) = _
  after_results
  exact host_reshape_row (W (Proc.devRef .tc main_arg1) : S8192.Idx → BitVec 32) Gen.shapeCasts_S8192_S1x8192 i

/-- The second stretch writes none of the three arguments. -/
theorem hostOps0_1_arg0_keep (W : Valuation τ sig (Elt Ideal)) :
    StableHlo.after (Gen.hostOps0_1 (F := Ideal)) W (Proc.devRef .tc main_arg0) = W (Proc.devRef .tc main_arg0) := by
  show StableHlo.after Gen.hostOps0_1 _ (Proc.devRef .tc main_arg0) = _
  after_results
theorem hostOps0_1_arg1_keep (W : Valuation τ sig (Elt Ideal)) :
    StableHlo.after (Gen.hostOps0_1 (F := Ideal)) W (Proc.devRef .tc main_arg1) = W (Proc.devRef .tc main_arg1) := by
  show StableHlo.after Gen.hostOps0_1 _ (Proc.devRef .tc main_arg1) = _
  after_results
theorem hostOps0_1_arg2_keep (W : Valuation τ sig (Elt Ideal)) :
    StableHlo.after (Gen.hostOps0_1 (F := Ideal)) W (Proc.devRef .tc main_arg2) = W (Proc.devRef .tc main_arg2) := by
  show StableHlo.after Gen.hostOps0_1 _ (Proc.devRef .tc main_arg2) = _
  after_results

/-! ### The two stretches before the first region, composed -/

section Head
variable (W : Valuation τ sig (Elt Ideal)) (μ : Fin 1000 → Fin 128 → ℝ)

/-- The class means scaled to unit length, the length floored at the small positive constant. -/
theorem host0_v4
    (hμ : ∀ (c : Fin 1000) (k : Fin 128), (W (Proc.devRef .tc main_arg2) : S1000x128.Idx → EReal) (ix2 c k) = ((μ c k : ℝ) : EReal))
    (c : Fin 1000) (k : Fin 128) :
    (StableHlo.after (Gen.hostOps0 (F := Ideal) ++ Gen.hostOps0_1) W (Proc.devRef .tc main_v4) : S1000x128.Idx → EReal) (ix2 c k)
      = ((Cert.Spec.unit Cert.IdealReal.tiny μ c k : ℝ) : EReal) := by
  rw [StableHlo.after_append]
  exact hostOps0_1_v4 _ μ (fun c => Real.sqrt (∑ k, μ c k * μ c k))
    (fun c k => by rw [hostOps0_arg2]; exact hμ c k) (hostOps0_v0 W μ hμ) c k

/-- The squared lengths of the class means, as a row. -/
theorem host0_v7
    (hμ : ∀ (c : Fin 1000) (k : Fin 128), (W (Proc.devRef .tc main_arg2) : S1000x128.Idx → EReal) (ix2 c k) = ((μ c k : ℝ) : EReal))
    (c : Fin 1000) :
    (StableHlo.after (Gen.hostOps0 (F := Ideal) ++ Gen.hostOps0_1) W (Proc.devRef .tc main_v7) : S1x1000.Idx → EReal) (ix2 0 c)
      = ((∑ k, μ c k * μ c k : ℝ) : EReal) := by
  rw [StableHlo.after_append]
  exact hostOps0_1_v7 _ μ (fun c k => by rw [hostOps0_arg2]; exact hμ c k) c

/-- The labels as a column and as a row. -/
theorem host0_v8 (lab : Fin 8192 → BitVec 32)
    (hℓ : ∀ i : Fin 8192, (W (Proc.devRef .tc main_arg1) : S8192.Idx → BitVec 32) (ix1 i) = lab i) (i : Fin 8192) :
    (StableHlo.after (Gen.hostOps0 (F := Ideal) ++ Gen.hostOps0_1) W (Proc.devRef .tc main_v8) : S8192x1.Idx → BitVec 32) (ix2 i 0)
      = lab i := by
  rw [StableHlo.after_append, hostOps0_1_v8, hostOps0_arg1]; exact hℓ i
theorem host0_v9 (lab : Fin 8192 → BitVec 32)
    (hℓ : ∀ i : Fin 8192, (W (Proc.devRef .tc main_arg1) : S8192.Idx → BitVec 32) (ix1 i) = lab i) (i : Fin 8192) :
    (StableHlo.after (Gen.hostOps0 (F := Ideal) ++ Gen.hostOps0_1) W (Proc.devRef .tc main_v9) : S1x8192.Idx → BitVec 32) (ix2 0 i)
      = lab i := by
  rw [StableHlo.after_append, hostOps0_1_v9, hostOps0_arg1]; exact hℓ i

/-- The arguments stay as launched. -/
theorem host0_arg0 :
    StableHlo.after (Gen.hostOps0 (F := Ideal) ++ Gen.hostOps0_1) W (Proc.devRef .tc main_arg0) = W (Proc.devRef .tc main_arg0) := by
  rw [StableHlo.after_append, hostOps0_1_arg0_keep, hostOps0_arg0]
theorem host0_arg1 :
    StableHlo.after (Gen.hostOps0 (F := Ideal) ++ Gen.hostOps0_1) W (Proc.devRef .tc main_arg1) = W (Proc.devRef .tc main_arg1) := by
  rw [StableHlo.after_append, hostOps0_1_arg1_keep, hostOps0_arg1]
theorem host0_arg2 :
    StableHlo.after (Gen.hostOps0 (F := Ideal) ++ Gen.hostOps0_1) W (Proc.devRef .tc main_arg2) = W (Proc.devRef .tc main_arg2) := by
  rw [StableHlo.after_append, hostOps0_1_arg2_keep, hostOps0_arg2]

end Head

/-! ## Between the regions: the two means -/

/-- The cross-entropy column summed and divided by the 8192 rows. -/
theorem hostOps1_v12 (W : Valuation τ sig (Elt Ideal)) (a : Fin 8192 → ℝ)
    (ha : ∀ i : Fin 8192, (W (Proc.devRef .tc main_v10_1) : S8192x1.Idx → EReal) (ix2 i 0) = ((a i : ℝ) : EReal)) :
    (StableHlo.after (Gen.hostOps1 (F := Ideal)) W (Proc.devRef .tc main_v12) : S_.Idx → EReal)
      = fun _ => (((∑ i, a i) / 8192 : ℝ) : EReal) := by
  show StableHlo.after Gen.hostOps1 _ (Proc.devRef .tc main_v12) = _
  after_results
  funext j
  rw [hostDivf_apply, host_reduce_col _ a ha, constant_apply, Cert.IdealReal.ofBits_8192, Cert.IdealReal.div_coe _ (by norm_num)]

/-- The margin column summed, halved, and divided by the 8192 rows. -/
theorem hostOps1_v15 (W : Valuation τ sig (Elt Ideal)) (b : Fin 8192 → ℝ)
    (hb : ∀ i : Fin 8192, (W (Proc.devRef .tc main_v10_2) : S8192x1.Idx → EReal) (ix2 i 0) = ((b i : ℝ) : EReal)) :
    (StableHlo.after (Gen.hostOps1 (F := Ideal)) W (Proc.devRef .tc main_v15) : S_.Idx → EReal)
      = fun _ => (((∑ i, b i) / 2 / 8192 : ℝ) : EReal) := by
  show StableHlo.after Gen.hostOps1 _ (Proc.devRef .tc main_v15) = _
  after_results
  funext j
  rw [hostDivf_apply, hostDivf_apply, host_reduce_col _ b hb, constant_apply, constant_apply, Cert.IdealReal.ofBits_two, Cert.IdealReal.ofBits_8192,
    Cert.IdealReal.div_coe _ (by norm_num), Cert.IdealReal.div_coe _ (by norm_num)]

/-- This stretch leaves the features and the two layouts of the labels where they are. -/
theorem hostOps1_arg0_keep (W : Valuation τ sig (Elt Ideal)) :
    StableHlo.after (Gen.hostOps1 (F := Ideal)) W (Proc.devRef .tc main_arg0) = W (Proc.devRef .tc main_arg0) := by
  show StableHlo.after Gen.hostOps1 _ (Proc.devRef .tc main_arg0) = _
  after_results
theorem hostOps1_v8_keep (W : Valuation τ sig (Elt Ideal)) :
    StableHlo.after (Gen.hostOps1 (F := Ideal)) W (Proc.devRef .tc main_v8) = W (Proc.devRef .tc main_v8) := by
  show StableHlo.after Gen.hostOps1 _ (Proc.devRef .tc main_v8) = _
  after_results
theorem hostOps1_v9_keep (W : Valuation τ sig (Elt Ideal)) :
    StableHlo.after (Gen.hostOps1 (F := Ideal)) W (Proc.devRef .tc main_v9) = W (Proc.devRef .tc main_v9) := by
  show StableHlo.after Gen.hostOps1 _ (Proc.devRef .tc main_v9) = _
  after_results

/-! ## After the second region: each row's contrastive term, their mean over the rows that have a positive, the weighted loss -/

section Tail
variable (W : Valuation τ sig (Elt Ideal)) (B P C : Fin 8192 → ℝ)

/-- The mask of the rows that have a positive: the count compared with zero. -/
theorem hostOps2_v19
    (hC : ∀ i : Fin 8192, (W (Proc.devRef .tc main_v16_2) : S8192x1.Idx → EReal) (ix2 i 0) = ((C i : ℝ) : EReal))
    (i : Fin 8192) :
    (StableHlo.after (Gen.hostOps2 (F := Ideal)) W (Proc.devRef .tc main_v19) : S8192x1.Idx → BitVec 1) (ix2 i 0)
      = BitVec.ofBool (decide (0 < C i)) := by
  show StableHlo.after Gen.hostOps2 _ (Proc.devRef .tc main_v19) (ix2 i 0) = _
  after_results
  exact Cert.IdealReal.cmpf_ogt_at _ _ (ix2 i 0) (hC i) (host_bcast_lit _ _ 0 Cert.IdealReal.ofBits_zero _)

/-- The row's sum of similarities less the count times the log of the denominator, over the count floored at one. -/
theorem hostOps2_v24
    (hB : ∀ i : Fin 8192, (W (Proc.devRef .tc main_v16_0) : S8192x1.Idx → EReal) (ix2 i 0) = ((B i : ℝ) : EReal))
    (hBpos : ∀ i : Fin 8192, 0 < B i)
    (hP : ∀ i : Fin 8192, (W (Proc.devRef .tc main_v16_1) : S8192x1.Idx → EReal) (ix2 i 0) = ((P i : ℝ) : EReal))
    (hC : ∀ i : Fin 8192, (W (Proc.devRef .tc main_v16_2) : S8192x1.Idx → EReal) (ix2 i 0) = ((C i : ℝ) : EReal))
    (i : Fin 8192) :
    (StableHlo.after (Gen.hostOps2 (F := Ideal)) W (Proc.devRef .tc main_v24) : S8192x1.Idx → EReal) (ix2 i 0)
      = (((P i - C i * Real.log (B i)) / max (C i) 1 : ℝ) : EReal) := by
  show StableHlo.after Gen.hostOps2 _ (Proc.devRef .tc main_v24) (ix2 i 0) = _
  after_results
  exact Cert.IdealReal.hostDivf_at _ _ (ix2 i 0)
    (Cert.IdealReal.subf_at _ _ _ (hP i)
      (Cert.IdealReal.mulf_at _ _ _ (hC i) (Cert.IdealReal.hostLog_at _ _ (hB i) (hBpos i))))
    (Cert.IdealReal.maximumf_at _ _ _ (hC i) (host_bcast_lit _ _ 1 Cert.IdealReal.ofBits_one _))
    (ne_of_gt (lt_of_lt_of_le one_pos (le_max_right _ _)))

/-- The zero the rows without a positive take. -/
theorem hostOps2_cst8 (j : S_.Idx) :
    (StableHlo.after (Gen.hostOps2 (F := Ideal)) W (Proc.devRef .tc main_cst_8) : S_.Idx → EReal) j = ((0 : ℝ) : EReal) := by
  show StableHlo.after Gen.hostOps2 _ (Proc.devRef .tc main_cst_8) j = _
  after_results
  exact Cert.IdealReal.ofBits_zero

/-- This stretch leaves the two means where they are. -/
theorem hostOps2_v12 :
    StableHlo.after (Gen.hostOps2 (F := Ideal)) W (Proc.devRef .tc main_v12) = W (Proc.devRef .tc main_v12) := by
  show StableHlo.after Gen.hostOps2 _ (Proc.devRef .tc main_v12) = _
  after_results
theorem hostOps2_v15 :
    StableHlo.after (Gen.hostOps2 (F := Ideal)) W (Proc.devRef .tc main_v15) = W (Proc.devRef .tc main_v15) := by
  show StableHlo.after Gen.hostOps2 _ (Proc.devRef .tc main_v15) = _
  after_results

/-- The select: a row with a positive keeps its quotient, the others take zero. -/
theorem hostOps2_1_v25 (q : Fin 8192 → ℝ)
    (hm : ∀ i : Fin 8192, (W (Proc.devRef .tc main_v19) : S8192x1.Idx → BitVec 1) (ix2 i 0) = BitVec.ofBool (decide (0 < C i)))
    (hq : ∀ i : Fin 8192, (W (Proc.devRef .tc main_v24) : S8192x1.Idx → EReal) (ix2 i 0) = ((q i : ℝ) : EReal))
    (hz : ∀ j : S_.Idx, (W (Proc.devRef .tc main_cst_8) : S_.Idx → EReal) j = ((0 : ℝ) : EReal))
    (i : Fin 8192) :
    (StableHlo.after (Gen.hostOps2_1 (F := Ideal)) W (Proc.devRef .tc main_v25) : S8192x1.Idx → EReal) (ix2 i 0)
      = (((if 0 < C i then q i else 0) : ℝ) : EReal) := by
  have e : (StableHlo.after (Gen.hostOps2_1 (F := Ideal)) W (Proc.devRef .tc main_v25) : S8192x1.Idx → EReal)
      = select (W (Proc.devRef .tc main_v19) : IVec S8192x1 1) (W (Proc.devRef .tc main_v24) : FVec Ideal S8192x1 .f32)
          (broadcastInDim S8192x1 ![] Gen.bcast_S_S8192x1 (W (Proc.devRef .tc main_cst_8) : S_.Idx → EReal)) := by
    show StableHlo.after Gen.hostOps2_1 _ (Proc.devRef .tc main_v25) = _
    after_results
    rfl
  rw [e, select_apply, hm i, hq i, broadcastInDim_scalar_apply, hz, Cert.IdealReal.select_decide]
  split_ifs <;> rfl

theorem hostOps2_1_v19 :
    StableHlo.after (Gen.hostOps2_1 (F := Ideal)) W (Proc.devRef .tc main_v19) = W (Proc.devRef .tc main_v19) := by
  show StableHlo.after Gen.hostOps2_1 _ (Proc.devRef .tc main_v19) = _
  after_results
theorem hostOps2_1_v12 :
    StableHlo.after (Gen.hostOps2_1 (F := Ideal)) W (Proc.devRef .tc main_v12) = W (Proc.devRef .tc main_v12) := by
  show StableHlo.after Gen.hostOps2_1 _ (Proc.devRef .tc main_v12) = _
  after_results
theorem hostOps2_1_v15 :
    StableHlo.after (Gen.hostOps2_1 (F := Ideal)) W (Proc.devRef .tc main_v15) = W (Proc.devRef .tc main_v15) := by
  show StableHlo.after Gen.hostOps2_1 _ (Proc.devRef .tc main_v15) = _
  after_results

/-- The mask as a float: one for a row with a positive, zero otherwise. -/
theorem host_mask_float (m : IVec S8192x1 1) (hm : ∀ i : Fin 8192, m (ix2 i 0) = BitVec.ofBool (decide (0 < C i))) (i : Fin 8192) :
    (uitofp .f32 m : FVec Ideal S8192x1 .f32) (ix2 i 0) = (((if 0 < C i then 1 else 0) : ℝ) : EReal) := by
  rw [Cert.IdealReal.uitofp_at, hm i]
  by_cases h : 0 < C i <;> simp [h]

/-- The loss: minus the sum of the rows' terms over the number of rows with a positive (floored at one), weighted
    with the two means. -/
theorem hostOps2_2_v36 (per : Fin 8192 → ℝ) (ce lm : ℝ)
    (hm : ∀ i : Fin 8192, (W (Proc.devRef .tc main_v19) : S8192x1.Idx → BitVec 1) (ix2 i 0) = BitVec.ofBool (decide (0 < C i)))
    (hper : ∀ i : Fin 8192, (W (Proc.devRef .tc main_v25) : S8192x1.Idx → EReal) (ix2 i 0) = ((per i : ℝ) : EReal))
    (hce : ∀ j : S_.Idx, (W (Proc.devRef .tc main_v12) : S_.Idx → EReal) j = ((ce : ℝ) : EReal))
    (hlm : ∀ j : S_.Idx, (W (Proc.devRef .tc main_v15) : S_.Idx → EReal) j = ((lm : ℝ) : EReal)) :
    (StableHlo.after (Gen.hostOps2_2 (F := Ideal)) W (Proc.devRef .tc main_v36) : S_.Idx → EReal)
      = fun _ => ((Cert.Spec.loss Cert.IdealReal.c09 Cert.IdealReal.c01 (1 / 2) ce
          ((-(∑ i, per i)) / max (∑ i, if 0 < C i then (1 : ℝ) else 0) 1) lm : ℝ) : EReal) := by
  show StableHlo.after Gen.hostOps2_2 _ (Proc.devRef .tc main_v36) = _
  after_results_simp
  funext j
  exact Cert.IdealReal.addf_at _ _ j
    (Cert.IdealReal.addf_at _ _ j
      (Cert.IdealReal.mulf_at _ _ j Cert.IdealReal.ofBits_c09 (hce j))
      (Cert.IdealReal.mulf_at _ _ j Cert.IdealReal.ofBits_c01
        (Cert.IdealReal.hostDivf_at _ _ j
          (Cert.IdealReal.hostNegf_at _ j (host_reduce_col _ per hper _ _ j))
          (Cert.IdealReal.maximumf_at _ _ j (host_reduce_col _ _ (host_mask_float C _ hm) _ _ j) Cert.IdealReal.ofBits_one)
          (ne_of_gt (lt_of_lt_of_le one_pos (le_max_right _ _))))))
    (Cert.IdealReal.mulf_at _ _ j Cert.IdealReal.ofBits_half (hlm j))

/-- The three stretches after the second region, composed: from the region's three columns (the denominators, all
    positive; the sums over the positives; the counts) and the two means to the loss. -/
theorem host2_v36 (ce lm : ℝ)
    (hB : ∀ i : Fin 8192, (W (Proc.devRef .tc main_v16_0) : S8192x1.Idx → EReal) (ix2 i 0) = ((B i : ℝ) : EReal))
    (hBpos : ∀ i : Fin 8192, 0 < B i)
    (hP : ∀ i : Fin 8192, (W (Proc.devRef .tc main_v16_1) : S8192x1.Idx → EReal) (ix2 i 0) = ((P i : ℝ) : EReal))
    (hC : ∀ i : Fin 8192, (W (Proc.devRef .tc main_v16_2) : S8192x1.Idx → EReal) (ix2 i 0) = ((C i : ℝ) : EReal))
    (hce : ∀ j : S_.Idx, (W (Proc.devRef .tc main_v12) : S_.Idx → EReal) j = ((ce : ℝ) : EReal))
    (hlm : ∀ j : S_.Idx, (W (Proc.devRef .tc main_v15) : S_.Idx → EReal) j = ((lm : ℝ) : EReal)) :
    (StableHlo.after (Gen.hostOps2 (F := Ideal) ++ Gen.hostOps2_1 ++ Gen.hostOps2_2) W (Proc.devRef .tc main_v36) : S_.Idx → EReal)
      = fun _ => ((Cert.Spec.loss Cert.IdealReal.c09 Cert.IdealReal.c01 (1 / 2) ce
          ((-(∑ i, if 0 < C i then (P i - C i * Real.log (B i)) / max (C i) 1 else 0))
            / max (∑ i, if 0 < C i then (1 : ℝ) else 0) 1) lm : ℝ) : EReal) := by
  rw [StableHlo.after_append, StableHlo.after_append]
  refine hostOps2_2_v36 _ C _ ce lm ?_ ?_ ?_ ?_
  · intro i; rw [hostOps2_1_v19]; exact hostOps2_v19 W C hC i
  · intro i
    exact hostOps2_1_v25 _ C _ (hostOps2_v19 W C hC) (hostOps2_v24 W B P C hB hBpos hP hC) (hostOps2_cst8 W) i
  · intro j; rw [hostOps2_1_v12, hostOps2_v12]; exact hce j
  · intro j; rw [hostOps2_1_v15, hostOps2_v15]; exact hlm j

end Tail

end Cert.KernelIdeal.Hand

end
-- ==== Proof.Bridge.lean ====
/-
  The two arrangements of the contrastive term agree.

  The specification sums over the OTHER rows (j ≠ i) and over the positives of a row; the accumulated form sums over
  ALL rows and takes the diagonal's contribution off afterwards. Over the reals these are the same numbers: a sum over
  all j splits into the diagonal term plus the sum over j ≠ i. The last part is about adding up a row sum block by
  block: the 8192 indices are 8 blocks of 1024, j = 1024 * b + r, and a running total that takes a diagonal
  correction off at one block ends at the full sum minus that correction.
-/
import proofs.«400644_j12893491823014_2_alg».proof.Proof.Spec
import Mathlib.Algebra.BigOperators.Fin
import Mathlib.Algebra.BigOperators.Ring.Finset
import Mathlib.Algebra.BigOperators.Group.Finset.Piecewise
import Mathlib.Data.Fintype.BigOperators
import Mathlib.Logic.Equiv.Fin.Basic
import Mathlib.Data.Real.Basic
import Mathlib.Algebra.Order.BigOperators.Group.Finset
import Mathlib.Analysis.SpecialFunctions.Exp

noncomputable section

namespace Cert.Spec

open Finset

variable (ε τ : ℝ) (x : Fin 8192 → Fin 128 → ℝ) (ℓ : Fin 8192 → Fin 1000)

/-! ### A sum over all indices, minus one term -/

/-- A sum over all j minus the term at i is the sum over j ≠ i: split every term into its part on the
    diagonal and its part off the diagonal; the diagonal parts add up to the single term at i. -/
theorem sum_sub_diag {n : ℕ} (g : Fin n → ℝ) (i : Fin n) :
    (∑ j, g j) - g i = ∑ j, if j = i then 0 else g j := by
  have hsplit : ∀ j, g j = (if j = i then g j else 0) + (if j = i then 0 else g j) := by
    intro j
    by_cases hj : j = i
    · simp [hj]
    · simp [hj]
  have hsum : ∑ j, g j = ∑ j, ((if j = i then g j else 0) + (if j = i then 0 else g j)) :=
    Finset.sum_congr rfl (fun j _ => hsplit j)
  rw [hsum, Finset.sum_add_distrib, Finset.sum_ite_eq']
  simp

/-- The same for a sum restricted to the class of i: the rows of that class other than i are the positives of i. -/
theorem class_sum_sub_diag (g : Fin 8192 → ℝ) (i : Fin 8192) :
    (∑ j, if ℓ i = ℓ j then g j else 0) - g i = ∑ j, if pos ℓ i j then g j else 0 := by
  have hdiag : (if ℓ i = ℓ i then g i else 0) = g i := by simp
  have h := sum_sub_diag (fun j => if ℓ i = ℓ j then g j else 0) i
  rw [hdiag] at h
  rw [h]
  apply Finset.sum_congr rfl
  intro j _
  by_cases hj : j = i
  · have hn : ¬ pos ℓ i j := fun hp => hp.2 hj
    rw [if_pos hj, if_neg hn]
  · by_cases hc : ℓ i = ℓ j
    · have hp : pos ℓ i j := ⟨hc, hj⟩
      rw [if_neg hj, if_pos hc, if_pos hp]
    · have hn : ¬ pos ℓ i j := fun hp => hc hp.1
      rw [if_neg hj, if_neg hc, if_neg hn]

/-! ### The three totals -/

theorem bottomK_eq (i : Fin 8192) : bottomK ε τ x i = bottom ε τ x i := by
  unfold bottomK bottom
  exact sum_sub_diag (fun j => Real.exp (sim ε τ x i j)) i

/-- The denominator is positive: every term is an exponential or zero, and there is a row other than i
    (row 1 if i is row 0, row 0 otherwise) whose exponential is positive. -/
theorem bottom_pos (i : Fin 8192) : 0 < bottom ε τ x i := by
  unfold bottom
  have hne : ∃ j : Fin 8192, j ≠ i := by
    by_cases h0 : i.val = 0
    · refine ⟨⟨1, by norm_num⟩, ?_⟩
      intro h
      have h1 : (1 : ℕ) = i.val := congrArg Fin.val h
      omega
    · refine ⟨⟨0, by norm_num⟩, ?_⟩
      intro h
      have h1 : (0 : ℕ) = i.val := congrArg Fin.val h
      exact h0 h1.symm
  obtain ⟨j₀, hj₀⟩ := hne
  apply Finset.sum_pos'
  · intro j _
    by_cases hj : j = i
    · exact le_of_eq (if_pos hj).symm
    · rw [if_neg hj]
      exact (Real.exp_pos _).le
  · refine ⟨j₀, Finset.mem_univ _, ?_⟩
    rw [if_neg hj₀]
    exact Real.exp_pos _

theorem bottomK_pos (i : Fin 8192) : 0 < bottomK ε τ x i := by
  rw [bottomK_eq]
  exact bottom_pos ε τ x i

/-- The accumulated count as a sum of indicator values over the positives. -/
theorem cntK_eq_sum (i : Fin 8192) : cntK ℓ i = ∑ j, if pos ℓ i j then (1 : ℝ) else 0 := by
  unfold cntK
  exact class_sum_sub_diag ℓ (fun _ => (1 : ℝ)) i

theorem cntK_eq (i : Fin 8192) : cntK ℓ i = (cnt ℓ i : ℝ) := by
  rw [cntK_eq_sum]
  unfold cnt
  exact Finset.sum_boole (fun j => pos ℓ i j) Finset.univ

/-- The accumulated similarity total is the sum of the similarities over the positives. -/
theorem possumK_eq_sum (i : Fin 8192) :
    possumK ε τ x ℓ i = ∑ j, if pos ℓ i j then sim ε τ x i j else 0 := by
  unfold possumK
  exact class_sum_sub_diag ℓ (fun j => sim ε τ x i j) i

/-- Taking L off once per positive: the similarity total minus (count times L) is the sum over the positives of
    sim i j - L. -/
theorem possumK_sub (i : Fin 8192) (L : ℝ) :
    possumK ε τ x ℓ i - cntK ℓ i * L = ∑ j, if pos ℓ i j then sim ε τ x i j - L else 0 := by
  rw [possumK_eq_sum, cntK_eq_sum, Finset.sum_mul, ← Finset.sum_sub_distrib]
  apply Finset.sum_congr rfl
  intro j _
  by_cases hp : pos ℓ i j
  · simp [hp]
  · simp [hp]

/-! ### The row's term and the loss -/

theorem perK_eq (i : Fin 8192) : perK ε τ x ℓ i = per ε τ x ℓ i := by
  unfold perK per sumlog
  rw [possumK_sub, bottomK_eq, cntK_eq]
  by_cases hc : 0 < cnt ℓ i
  · have hr : (0 : ℝ) < (cnt ℓ i : ℝ) := Nat.cast_pos.mpr hc
    rw [if_pos hr, if_pos hc]
  · have hr : ¬ (0 : ℝ) < (cnt ℓ i : ℝ) := fun h => hc (Nat.cast_pos.mp h)
    rw [if_neg hr, if_neg hc]

/-- The rows with a positive, counted in the reals, are nsample. -/
theorem nsampleK_eq : (∑ i, if 0 < cntK ℓ i then (1 : ℝ) else 0) = (nsample ℓ : ℝ) := by
  have h : ∀ i, (if 0 < cntK ℓ i then (1 : ℝ) else 0) = if 0 < cnt ℓ i then (1 : ℝ) else 0 := by
    intro i
    rw [cntK_eq]
    by_cases hc : 0 < cnt ℓ i
    · have hr : (0 : ℝ) < (cnt ℓ i : ℝ) := Nat.cast_pos.mpr hc
      rw [if_pos hr, if_pos hc]
    · have hr : ¬ (0 : ℝ) < (cnt ℓ i : ℝ) := fun h => hc (Nat.cast_pos.mp h)
      rw [if_neg hr, if_neg hc]
  rw [Finset.sum_congr rfl (fun i _ => h i)]
  unfold nsample
  exact Finset.sum_boole (fun i => 0 < cnt ℓ i) Finset.univ

theorem sclK_eq : sclK ε τ x ℓ = scl ε τ x ℓ := by
  unfold sclK scl
  rw [nsampleK_eq, Finset.sum_congr rfl (fun i _ => perK_eq ε τ x ℓ i)]

/-! ### Adding a row sum up block by block -/

/-- The 8192 indices as 8 blocks of 1024: the pair (block b, place r) is the index 1024 * b + r. -/
def blockEquiv : Fin 8 × Fin 1024 ≃ Fin 8192 :=
  finProdFinEquiv.trans (finCongr (by norm_num))

theorem blockEquiv_val (b : Fin 8) (r : Fin 1024) :
    (blockEquiv (b, r)).val = 1024 * b.val + r.val := by
  simp [blockEquiv, finProdFinEquiv, Nat.add_comm]

/-- A sum over all 8192 indices is the sum over the blocks of the sums inside each block (reindex by the bijection,
    then sum a pair index as an iterated sum). -/
theorem sum_blocks (g : Fin 8192 → ℝ) :
    ∑ j, g j = ∑ b : Fin 8, ∑ r : Fin 1024, g (blockEquiv (b, r)) := by
  rw [← Equiv.sum_comp blockEquiv g, Fintype.sum_prod_type]

/-- The running total after n blocks: each block adds its block sum S n, and the block q that holds the
    diagonal also takes the correction d off. (S is read at n only for n < 8.) -/
def accK (S : Fin 8 → ℝ) (d : ℝ) (q : Fin 8) : ℕ → ℝ
  | 0 => 0
  | n + 1 => if h : n < 8 then (accK S d q n + S ⟨n, h⟩) - (if n = q.val then d else 0) else accK S d q n

theorem accK_zero (S : Fin 8 → ℝ) (d : ℝ) (q : Fin 8) : accK S d q 0 = 0 := rfl

theorem accK_succ (S : Fin 8 → ℝ) (d : ℝ) (q : Fin 8) (n : ℕ) (h : n < 8) :
    accK S d q (n + 1) = (accK S d q n + S ⟨n, h⟩) - (if n = q.val then d else 0) := by
  simp [accK, h]

/-- After n ≤ 8 blocks the running total is the sum of the block sums below n, minus the correction if block q
    has been passed. By induction on n: the new block's index is the one index below n + 1 that is not below n. -/
theorem accK_eq (S : Fin 8 → ℝ) (d : ℝ) (q : Fin 8) (n : ℕ) (hn : n ≤ 8) :
    accK S d q n = (∑ b : Fin 8, if b.val < n then S b else 0) - (if q.val < n then d else 0) := by
  induction n with
  | zero => simp [accK]
  | succ n ih =>
    have h : n < 8 := hn
    rw [accK_succ S d q n h, ih (Nat.le_of_lt h)]
    have hS : (∑ b : Fin 8, if b.val < n + 1 then S b else 0)
        = (∑ b : Fin 8, if b.val < n then S b else 0) + S ⟨n, h⟩ := by
      have hterm : ∀ b : Fin 8, (if b.val < n + 1 then S b else 0)
          = (if b.val < n then S b else 0) + (if b = ⟨n, h⟩ then S b else 0) := by
        intro b
        by_cases h1 : b.val < n
        · have h2 : b.val < n + 1 := Nat.lt_succ_of_lt h1
          have h3 : b ≠ ⟨n, h⟩ := fun hb => by rw [hb] at h1; exact Nat.lt_irrefl _ h1
          simp [h1, h2, h3]
        · by_cases h4 : b.val = n
          · have h2 : b.val < n + 1 := by omega
            have h3 : b = ⟨n, h⟩ := Fin.ext h4
            simp [h1, h2, h3]
          · have h2 : ¬ b.val < n + 1 := by omega
            have h3 : b ≠ ⟨n, h⟩ := fun hb => h4 (by rw [hb])
            simp [h1, h2, h3]
      rw [Finset.sum_congr rfl (fun b _ => hterm b), Finset.sum_add_distrib, Finset.sum_ite_eq']
      simp
    have hd : (if q.val < n + 1 then d else 0)
        = (if q.val < n then d else 0) + (if n = q.val then d else 0) := by
      by_cases h1 : q.val < n
      · have h2 : q.val < n + 1 := Nat.lt_succ_of_lt h1
        have h3 : n ≠ q.val := by omega
        simp [h1, h2, h3]
      · by_cases h4 : n = q.val
        · have h2 : q.val < n + 1 := by omega
          simp [h1, h2, h4]
        · have h2 : ¬ q.val < n + 1 := by omega
          simp [h1, h2, h4]
    rw [hS, hd]
    ring

/-- After all 8 blocks the running total is the full sum of the block sums minus the diagonal correction. -/
theorem fold_blocks (S : Fin 8 → ℝ) (d : ℝ) (q : Fin 8) :
    accK S d q 8 = (∑ b, S b) - d := by
  rw [accK_eq S d q 8 (Nat.le_refl 8)]
  have h1 : ∀ b : Fin 8, (if b.val < 8 then S b else 0) = S b := fun b => if_pos b.isLt
  rw [Finset.sum_congr rfl (fun b _ => h1 b), if_pos q.isLt]

end Cert.Spec

end
-- ==== Proof.K0ValA.lean ====
/- Coerced reals under the kernel's operations, the layout steps of region 0's body read at an index, and the
   body's first payloads at the ideal values over blocks of reals: the unit rows of the feature block and the block of
   negated half squared distances to the class means. -/
import proofs.«400644_j12893491823014_2_alg».proof.Proof.Gen.KernelIdeal.Skeleton
import proofs.«400644_j12893491823014_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx Idealize.SL.Sem

/-! ## Coerced reals under the extended reals' operations -/

/-- A finite sum of coerced reals is the coerced sum. -/
theorem k0_coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of coerced reals, the divisor not zero, is the coerced quotient. -/
theorem k0_div_coe (a b : ℝ) (hb : b ≠ 0) : Ideal.div (a : EReal) (b : EReal) = ((a / b : ℝ) : EReal) := by
  rw [Ideal.div_coe hb, ← EReal.coe_mul, mul_one_div]

/-- The square root of a coerced real that is not negative is the coerced root. -/
theorem k0_sqrt_coe (r : ℝ) (h : 0 ≤ r) : Ideal.sqrt (r : EReal) = ((Real.sqrt r : ℝ) : EReal) := by
  rw [Ideal.sqrt_coe, if_neg (not_lt.2 h)]

/-- The larger of two coerced reals is the coerced larger. -/
theorem k0_max_coe (a b : ℝ) : max (a : EReal) (b : EReal) = ((max a b : ℝ) : EReal) :=
  (EReal.coe_strictMono.monotone.map_max).symm

/-! ## Layout steps read at an index -/

/-- A lane sum kept as a column: entry (p, 0) is the sum over row p's lanes. -/
theorem laneSum_col {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (q : Fin 1) :
    shapeCast ⟨2, ![a, 1]⟩ (multiReduction .add [1] ⟨1, ![a]⟩ src 0x00000000#32 h hφ hacc) hc (ix2 p q)
      = ∑ k : Fin b, src (ix2 p k) := by
  refine (shapeCast_apply _ hc (ix2 p q) (ix1 p) ?_).trans ?_
  · rw [Shape.rowMajor_val_one, Shape.rowMajor_val_two]
    show p.val = p.val * 1 + q.val
    omega
  · refine (Ideal.multiReduction_add_single src _ h hφ hacc (ix1 p)).trans ?_
    refine Finset.sum_congr rfl fun k _ => congrArg src ?_
    funext c
    refine Fin.ext ?_
    match c with
    | ⟨0, _⟩ => rfl
    | ⟨1, _⟩ => rfl

/-- A column spread over the lanes reads, at (p, c), the column's entry of row p. -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_xm_0 (i : S1024x1000.Idx) (q : dot_S1024x128_S128x1000_S1024x1000_1_0_0_1_n_n.contr.Idx) :
    (dot_S1024x128_S128x1000_S1024x1000_1_0_0_1_n_n.lhsIdx i q 0).val = (i 0).val := by
  unfold DotDims.lhsIdx
  rw [dif_neg (show ¬(0 : Fin S1024x128.rank) ∈ dot_S1024x128_S128x1000_S1024x1000_1_0_0_1_n_n.lhsBatch by decide), dif_pos (show (0 : Fin S1024x128.rank) ∈ dot_S1024x128_S128x1000_S1024x1000_1_0_0_1_n_n.lhsNonContracting by decide)]
  rfl
theorem lhs_xm_1 (i : S1024x1000.Idx) (q : dot_S1024x128_S128x1000_S1024x1000_1_0_0_1_n_n.contr.Idx) :
    (dot_S1024x128_S128x1000_S1024x1000_1_0_0_1_n_n.lhsIdx i q 1).val = (q ⟨0, by decide⟩).val :=
  dot_S1024x128_S128x1000_S1024x1000_1_0_0_1_n_n.lhsIdx_val_of_single rfl i q
theorem rhs_xm_0 (i : S1024x1000.Idx) (q : dot_S1024x128_S128x1000_S1024x1000_1_0_0_1_n_n.contr.Idx) :
    (dot_S1024x128_S128x1000_S1024x1000_1_0_0_1_n_n.rhsIdx i q 0).val = (q ⟨0, by decide⟩).val :=
  dot_S1024x128_S128x1000_S1024x1000_1_0_0_1_n_n.rhsIdx_val_of_single rfl i q
theorem rhs_xm_1 (i : S1024x1000.Idx) (q : dot_S1024x128_S128x1000_S1024x1000_1_0_0_1_n_n.contr.Idx) :
    (dot_S1024x128_S128x1000_S1024x1000_1_0_0_1_n_n.rhsIdx i q 1).val = (i 1).val := by
  unfold DotDims.rhsIdx
  rw [dif_neg (show ¬(1 : Fin S128x1000.rank) ∈ dot_S1024x128_S128x1000_S1024x1000_1_0_0_1_n_n.rhsBatch by decide), dif_pos (show (1 : Fin S128x1000.rank) ∈ dot_S1024x128_S128x1000_S1024x1000_1_0_0_1_n_n.rhsNonContracting by decide)]
  rfl

/-- The product of a 1024 by 128 block with a 128 by 1000 one, into zero: entry (p, c) is the inner product of row p with column c. -/
theorem matmul_xm_apply (prec : Option ContractPrecision) (lhs : FVec Ideal S1024x128 .f32) (rhs : FVec Ideal S128x1000 .f32)
    (p : Fin 1024) (c : Fin 1000) :
    FloatOps.matmul dot_S1024x128_S128x1000_S1024x1000_1_0_0_1_n_n prec lhs rhs (constant (F := Ideal) S1024x1000 .f32 0x00000000#32) (ix2 p c)
      = ∑ k : Fin 128, lhs (ix2 p k) * rhs (ix2 k c) := by
  rw [Ideal.matmul_constant_zero_apply, ← Equiv.sum_comp (contrEquiv1 dot_S1024x128_S128x1000_S1024x1000_1_0_0_1_n_n 128 rfl rfl).symm]
  refine Finset.sum_congr rfl fun k _ => ?_
  have hk := contrEquiv1_symm_val dot_S1024x128_S128x1000_S1024x1000_1_0_0_1_n_n 128 rfl rfl k
  have el : dot_S1024x128_S128x1000_S1024x1000_1_0_0_1_n_n.lhsIdx (ix2 p c) ((contrEquiv1 dot_S1024x128_S128x1000_S1024x1000_1_0_0_1_n_n 128 rfl rfl).symm k) = ix2 p k := funext fun a => Fin.ext (by
    match a with
    | ⟨0, _⟩ => exact lhs_xm_0 _ _
    | ⟨1, _⟩ => exact (lhs_xm_1 _ _).trans hk)
  have er : dot_S1024x128_S128x1000_S1024x1000_1_0_0_1_n_n.rhsIdx (ix2 p c) ((contrEquiv1 dot_S1024x128_S128x1000_S1024x1000_1_0_0_1_n_n 128 rfl rfl).symm k) = ix2 k c := funext fun a => Fin.ext (by
    match a with
    | ⟨0, _⟩ => exact (rhs_xm_0 _ _).trans hk
    | ⟨1, _⟩ => exact rhs_xm_1 _ _)
  rw [el, er]

theorem lhs_om_0 (i : S1024x128.Idx) (q : dot_S1024x1000_S1000x128_S1024x128_1_0_0_1_n_n.contr.Idx) :
    (dot_S1024x1000_S1000x128_S1024x128_1_0_0_1_n_n.lhsIdx i q 0).val = (i 0).val := by
  unfold DotDims.lhsIdx
  rw [dif_neg (show ¬(0 : Fin S1024x1000.rank) ∈ dot_S1024x1000_S1000x128_S1024x128_1_0_0_1_n_n.lhsBatch by decide), dif_pos (show (0 : Fin S1024x1000.rank) ∈ dot_S1024x1000_S1000x128_S1024x128_1_0_0_1_n_n.lhsNonContracting by decide)]
  rfl
theorem lhs_om_1 (i : S1024x128.Idx) (q : dot_S1024x1000_S1000x128_S1024x128_1_0_0_1_n_n.contr.Idx) :
    (dot_S1024x1000_S1000x128_S1024x128_1_0_0_1_n_n.lhsIdx i q 1).val = (q ⟨0, by decide⟩).val :=
  dot_S1024x1000_S1000x128_S1024x128_1_0_0_1_n_n.lhsIdx_val_of_single rfl i q
theorem rhs_om_0 (i : S1024x128.Idx) (q : dot_S1024x1000_S1000x128_S1024x128_1_0_0_1_n_n.contr.Idx) :
    (dot_S1024x1000_S1000x128_S1024x128_1_0_0_1_n_n.rhsIdx i q 0).val = (q ⟨0, by decide⟩).val :=
  dot_S1024x1000_S1000x128_S1024x128_1_0_0_1_n_n.rhsIdx_val_of_single rfl i q
theorem rhs_om_1 (i : S1024x128.Idx) (q : dot_S1024x1000_S1000x128_S1024x128_1_0_0_1_n_n.contr.Idx) :
    (dot_S1024x1000_S1000x128_S1024x128_1_0_0_1_n_n.rhsIdx i q 1).val = (i 1).val := by
  unfold DotDims.rhsIdx
  rw [dif_neg (show ¬(1 : Fin S1000x128.rank) ∈ dot_S1024x1000_S1000x128_S1024x128_1_0_0_1_n_n.rhsBatch by decide), dif_pos (show (1 : Fin S1000x128.rank) ∈ dot_S1024x1000_S1000x128_S1024x128_1_0_0_1_n_n.rhsNonContracting by decide)]
  rfl

/-- The product of a 1024 by 1000 block with a 1000 by 128 one, into zero: entry (p, k) is the inner product of row p with column k. -/
theorem matmul_om_apply (prec : Option ContractPrecision) (lhs : FVec Ideal S1024x1000 .f32) (rhs : FVec Ideal S1000x128 .f32)
    (p : Fin 1024) (c : Fin 128) :
    FloatOps.matmul dot_S1024x1000_S1000x128_S1024x128_1_0_0_1_n_n prec lhs rhs (constant (F := Ideal) S1024x128 .f32 0x00000000#32) (ix2 p c)
      = ∑ k : Fin 1000, lhs (ix2 p k) * rhs (ix2 k c) := by
  rw [Ideal.matmul_constant_zero_apply, ← Equiv.sum_comp (contrEquiv1 dot_S1024x1000_S1000x128_S1024x128_1_0_0_1_n_n 1000 rfl rfl).symm]
  refine Finset.sum_congr rfl fun k _ => ?_
  have hk := contrEquiv1_symm_val dot_S1024x1000_S1000x128_S1024x128_1_0_0_1_n_n 1000 rfl rfl k
  have el : dot_S1024x1000_S1000x128_S1024x128_1_0_0_1_n_n.lhsIdx (ix2 p c) ((contrEquiv1 dot_S1024x1000_S1000x128_S1024x128_1_0_0_1_n_n 1000 rfl rfl).symm k) = ix2 p k := funext fun a => Fin.ext (by
    match a with
    | ⟨0, _⟩ => exact lhs_om_0 _ _
    | ⟨1, _⟩ => exact (lhs_om_1 _ _).trans hk)
  have er : dot_S1024x1000_S1000x128_S1024x128_1_0_0_1_n_n.rhsIdx (ix2 p c) ((contrEquiv1 dot_S1024x1000_S1000x128_S1024x128_1_0_0_1_n_n 1000 rfl rfl).symm k) = ix2 k c := funext fun a => Fin.ext (by
    match a with
    | ⟨0, _⟩ => exact (rhs_om_0 _ _).trans hk
    | ⟨1, _⟩ => exact rhs_om_1 _ _)
  rw [el, er]

/-! ## The two literals of the distance formula -/

/-- The word `0x40000000` is the real 2. -/
theorem k0_lit_two : Ideal.ofBits .f32 0x40000000#32 = ((2 : ℝ) : EReal) := by
  simp [Ideal.ofBits, Ideal.ieee, -EReal.coe_mul]; norm_num

/-- The word `0xBF000000` is the real -1/2. -/
theorem k0_lit_neg_half : Ideal.ofBits .f32 0xBF000000#32 = ((-(1 / 2) : ℝ) : EReal) := by
  simp [Ideal.ofBits, Ideal.ieee, -EReal.coe_mul]; norm_num

/-! ## Sums of squares along the lanes -/

/-- The lane sum of the squares of a block of coerced reals, kept as a column: the coerced sum of the row's squares. -/
theorem sumSq_col (src : FVec Ideal S1024x128 .f32) (g : Fin 1024 → Fin 128 → ℝ)
    (hsrc : ∀ p k, src (ix2 p k) = ((g p k : ℝ) : EReal))
    (h : S1024x128.Reduces [1] S1024) (hφ : FKind.Formats .f32)
    (hacc : (0x00000000#32 : BitVec 32) = FKind.add.neutral .f32 hφ) (hc : S1024.ShapeCasts S1024x1)
    (p : Fin 1024) (q : Fin 1) :
    shapeCast S1024x1 (multiReduction .add [1] S1024 (mulf src src) 0x00000000#32 h hφ hacc) hc (ix2 p q)
      = ((∑ k, g p k * g p k : ℝ) : EReal) := by
  refine (laneSum_col (mulf src src) h hφ hacc hc p q).trans ?_
  rw [← k0_coe_sum]
  refine Finset.sum_congr rfl fun k _ => ?_
  show src (ix2 p k) * src (ix2 p k) = _
  rw [hsrc, ← EReal.coe_mul]

/-! ## The unit rows of the feature block -/

/-- The floored length of row p, spread over the row's lanes: the larger of the root of the row's sum of squares
    and the floor. -/
theorem rowLen_apply (ε : ℝ) (hε : Ideal.ofBits .f32 0x2B8CBCCC#32 = ((ε : ℝ) : EReal))
    (src : FVec Ideal S1024x128 .f32) (g : Fin 1024 → Fin 128 → ℝ)
    (hsrc : ∀ p k, src (ix2 p k) = ((g p k : ℝ) : EReal))
    (h : S1024x128.Reduces [1] S1024) (hφ : FKind.Formats .f32)
    (hacc : (0x00000000#32 : BitVec 32) = FKind.add.neutral .f32 hφ) (hc : S1024.ShapeCasts S1024x1)
    (hb : S1024x1.Broadcasts S1024x128) (p : Fin 1024) (k : Fin 128) :
    broadcastTo S1024x128
        (maximumf (sqrt (shapeCast S1024x1 (multiReduction .add [1] S1024 (mulf src src) 0x00000000#32 h hφ hacc) hc))
          (broadcast S1024x1 (Scalar.ofBits (F := Ideal) .f32 0x2B8CBCCC#32))) hb (ix2 p k)
      = ((Spec.len ε g p : ℝ) : EReal) := by
  refine (colBroadcast_apply _ hb p k).trans ?_
  refine (maximumf_apply _ _ _).trans ?_
  have hnn : 0 ≤ ∑ j, g p j * g p j := Finset.sum_nonneg fun j _ => mul_self_nonneg _
  exact (congrArg₂ max ((congrArg Ideal.sqrt (sumSq_col src g hsrc h hφ hacc hc p 0)).trans (k0_sqrt_coe _ hnn)) hε).trans
    (k0_max_coe _ _)

/-- The unit rows: entry (p, k) of the block over row p's floored length. -/
theorem pay3_apply (ε : ℝ) (hε : Ideal.ofBits .f32 0x2B8CBCCC#32 = ((ε : ℝ) : EReal)) (hε0 : 0 < ε)
    (v0 : Vec Ideal S1024x128 .f32) (xb : Fin 1024 → Fin 128 → ℝ) (h0 : ∀ p k, v0 (ix2 p k) = ((xb p k : ℝ) : EReal))
    (p : Fin 1024) (k : Fin 128) :
    k0_pay3 (F := Ideal) v0 (ix2 p k) = ((Spec.unit ε xb p k : ℝ) : EReal) := by
  unfold k0_pay3
  refine (divf_apply _ _ _).trans ?_
  refine (congrArg₂ Ideal.div (h0 p k) (rowLen_apply ε hε v0 xb h0 _ _ _ _ _ p k)).trans ?_
  exact k0_div_coe _ _ (ne_of_gt (lt_of_lt_of_le hε0 (le_max_right _ _)))

/-- The second table of means passes through its shape cast unchanged. -/
theorem pay4_eq (v10 : Vec Ideal S1000x128 .f32) : k0_pay4 (F := Ideal) v10 = v10 := by
  unfold k0_pay4
  exact shapeCast_self _ _

/-! ## The block of negated half squared distances -/

/-- The product of the unit rows with the transposed means: entry (p, c) is the inner product of unit row p with mean c. -/
theorem dotMeans_apply (prec : Option ContractPrecision) (u : FVec Ideal S1024x128 .f32) (v9 : FVec Ideal S1000x128 .f32)
    (f : Fin 1024 → Fin 128 → ℝ) (μ : Fin 1000 → Fin 128 → ℝ)
    (hu : ∀ p k, u (ix2 p k) = ((f p k : ℝ) : EReal)) (h9 : ∀ c k, v9 (ix2 c k) = ((μ c k : ℝ) : EReal))
    (ht : S1000x128.Transposes [1, 0] S128x1000) (p : Fin 1024) (c : Fin 1000) :
    FloatOps.matmul dot_S1024x128_S128x1000_S1024x1000_1_0_0_1_n_n prec u (transpose S128x1000 [1, 0] v9 ht)
        (constant (F := Ideal) S1024x1000 .f32 0x00000000#32) (ix2 p c)
      = ((∑ k, f p k * μ c k : ℝ) : EReal) := by
  refine (matmul_xm_apply prec u _ p c).trans ?_
  rw [← k0_coe_sum]
  refine Finset.sum_congr rfl fun k _ => ?_
  rw [hu, transpose_ix2_apply, h9, ← EReal.coe_mul]

/-- The row of the means' squared norms, spread over the block's rows: entry (p, c) is mean c's squared norm. -/
theorem normsRow_apply (v17 : FVec Ideal S1x1000 .f32) (yy : Fin 1000 → ℝ)
    (h17 : ∀ c, v17 (ix2 (0 : Fin 1) c) = ((yy c : ℝ) : EReal))
    (hc : S1x1000.ShapeCasts S1x1000) (hb : S1x1000.Broadcasts S1024x1000) (p : Fin 1024) (c : Fin 1000) :
    broadcastTo S1024x1000 (shapeCast S1x1000 v17 hc) hb (ix2 p c) = ((yy c : ℝ) : EReal) := by
  refine (broadcastTo_1b_ab_apply _ hb p c).trans ?_
  rw [shapeCast_self]
  exact h17 c

/-- The distance block: entry (p, c) is minus half of (the unit row's squared norm, minus twice its inner product
    with mean c, plus mean c's squared norm). -/
theorem pay5_apply (ε : ℝ) (hε : Ideal.ofBits .f32 0x2B8CBCCC#32 = ((ε : ℝ) : EReal)) (hε0 : 0 < ε)
    (v0 : Vec Ideal S1024x128 .f32) (v9 : Vec Ideal S1000x128 .f32) (v17 : Vec Ideal S1x1000 .f32)
    (xb : Fin 1024 → Fin 128 → ℝ) (μ : Fin 1000 → Fin 128 → ℝ) (yy : Fin 1000 → ℝ)
    (h0 : ∀ p k, v0 (ix2 p k) = ((xb p k : ℝ) : EReal)) (h9 : ∀ c k, v9 (ix2 c k) = ((μ c k : ℝ) : EReal))
    (h17 : ∀ c, v17 (ix2 (0 : Fin 1) c) = ((yy c : ℝ) : EReal)) (p : Fin 1024) (c : Fin 1000) :
    k0_pay5 (F := Ideal) v0 v9 v17 (ix2 p c)
      = (((-(1 / 2 : ℝ)) * ((∑ k, Spec.unit ε xb p k * Spec.unit ε xb p k) - 2 * (∑ k, Spec.unit ε xb p k * μ c k) + yy c) : ℝ) : EReal) := by
  have hu : ∀ p k, k0_pay3 (F := Ideal) v0 (ix2 p k) = ((Spec.unit ε xb p k : ℝ) : EReal) :=
    pay3_apply ε hε hε0 v0 xb h0
  unfold k0_pay5
  refine (mulf_apply _ _ _).trans ?_
  refine (congrArg₂ HMul.hMul k0_lit_neg_half
    (?_ : _ = (((∑ k, Spec.unit ε xb p k * Spec.unit ε xb p k) - 2 * (∑ k, Spec.unit ε xb p k * μ c k) + yy c : ℝ) : EReal))).trans
    (EReal.coe_mul _ _).symm
  refine (addf_apply _ _ _).trans ?_
  refine (congrArg₂ HAdd.hAdd
    (?_ : _ = (((∑ k, Spec.unit ε xb p k * Spec.unit ε xb p k) - 2 * (∑ k, Spec.unit ε xb p k * μ c k) : ℝ) : EReal))
    (normsRow_apply v17 yy h17 _ _ p c)).trans (EReal.coe_add _ _).symm
  refine (subf_apply _ _ _).trans ?_
  refine (congrArg₂ HSub.hSub
    ((colBroadcast_apply _ _ p c).trans (sumSq_col (k0_pay3 (F := Ideal) v0) (Spec.unit ε xb) hu _ _ _ _ p 0))
    (?_ : _ = ((2 * (∑ k, Spec.unit ε xb p k * μ c k) : ℝ) : EReal))).trans (EReal.coe_sub _ _).symm
  refine (mulf_apply _ _ _).trans ?_
  exact (congrArg₂ HMul.hMul k0_lit_two (dotMeans_apply _ (k0_pay3 (F := Ideal) v0) v9 (Spec.unit ε xb) μ hu h9 _ p c)).trans
    (EReal.coe_mul _ _).symm

end Cert.KernelIdeal.Hand

end
-- ==== Proof.K0Arr.lean ====
/- Region 0, from blocks to arrays: each input window's block at a grid point read as entries of the window's
   array, and each output window's array after the eight write-backs as one whole-array function, given that every
   point writes back its block of that function. Nothing here opens the body's arithmetic. -/
import proofs.«400644_j12893491823014_2_alg».proof.Proof.B0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable {F : FTy → Type} [FloatOps F] [Named F]

variable (V : (c : Dev nD) → (b : Ref sig .tc) → Buf (Elt F) ((c : Thread nD τ).loc b))

/-! ## The windows' block indices over the grid

The grid is one axis of eight points. The row-blocked windows (the features, the labels, the three outputs) sit at
block `t` along the rows at point `t`; the two tables of means and the row of norms are one block each, at index 0. -/

theorem idxRows0 : ∀ t : Fin cfg0.N,
    win0_0.index t (0 : Fin 2) = t.val ∧ win0_0.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem idxWhole0 : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Row `p` of point `t`'s block of 1024 rows is row `1024 t + p` of the 8192-row array. -/
def row0 (t : Fin cfg0.N) (p : Fin 1024) : Fin 8192 :=
  ⟨1024 * t.val + p.val, by have hN : cfg0.N = 8 := N_0; have := t.isLt; have := p.isLt; omega⟩

theorem row0_val (t : Fin cfg0.N) (p : Fin 1024) : (row0 t p).val = 1024 * t.val + p.val := rfl

/-! ## The input windows' blocks as entries of their arrays

A block's entry at coordinate `x` is the array's entry at (block index × block size + x), axis by axis. -/

/-- The feature block at point `t`: rows `1024 t …` of the feature array. -/
theorem iblk0_0_apply (c : Dev nD) (t : Fin cfg0.N) (p : Fin 1024) (k : Fin 128) :
    (iblk0 V c 0 t : Vec F S1024x128 .f32) (ix2 p k) = (V c main_arg0 : S8192x128.Idx → Elt F .f32) (ix2 (row0 t p) k) := by
  obtain ⟨h0, h1, -⟩ := idxRows0 t
  unfold iblk0
  rw [View.read_apply]
  show V c main_arg0 _ = V c main_arg0 _
  congr 1
  funext a
  apply Fin.ext
  match a with
  | ⟨0, _⟩ => show win0_0.index t (0 : Fin 2) * 1024 + 1 * p.val = 1024 * t.val + p.val; rw [h0]; omega
  | ⟨1, _⟩ => show win0_0.index t (1 : Fin 2) * 128 + 1 * k.val = k.val; rw [h1]; omega

/-- The first table of means is one block: the whole array, at every point. -/
theorem iblk0_1_apply (c : Dev nD) (t : Fin cfg0.N) (q : Fin 1000) (k : Fin 128) :
    (iblk0 V c 1 t : Vec F S1000x128 .f32) (ix2 q k) = (V c main_arg2 : S1000x128.Idx → Elt F .f32) (ix2 q k) := by
  obtain ⟨h0, h1, -⟩ := idxWhole0 t
  unfold iblk0
  rw [View.read_apply]
  show V c main_arg2 _ = V c main_arg2 _
  congr 1
  funext a
  apply Fin.ext
  match a with
  | ⟨0, _⟩ => show win0_1.index t (0 : Fin 2) * 1000 + 1 * q.val = q.val; rw [h0]; omega
  | ⟨1, _⟩ => show win0_1.index t (1 : Fin 2) * 128 + 1 * k.val = k.val; rw [h1]; omega

/-- The second table of means (the unit-length ones) likewise. -/
theorem iblk0_2_apply (c : Dev nD) (t : Fin cfg0.N) (q : Fin 1000) (k : Fin 128) :
    (iblk0 V c 2 t : Vec F S1000x128 .f32) (ix2 q k) = (V c main_v4 : S1000x128.Idx → Elt F .f32) (ix2 q k) := by
  obtain ⟨-, -, h0, h1, -⟩ := idxWhole0 t
  unfold iblk0
  rw [View.read_apply]
  show V c main_v4 _ = V c main_v4 _
  congr 1
  funext a
  apply Fin.ext
  match a with
  | ⟨0, _⟩ => show win0_2.index t (0 : Fin 2) * 1000 + 1 * q.val = q.val; rw [h0]; omega
  | ⟨1, _⟩ => show win0_2.index t (1 : Fin 2) * 128 + 1 * k.val = k.val; rw [h1]; omega

/-- The row of squared norms likewise. -/
theorem iblk0_3_apply (c : Dev nD) (t : Fin cfg0.N) (z : Fin 1) (q : Fin 1000) :
    (iblk0 V c 3 t : Vec F S1x1000 .f32) (ix2 z q) = (V c main_v7 : S1x1000.Idx → Elt F .f32) (ix2 z q) := by
  obtain ⟨-, -, -, -, h0, h1⟩ := idxWhole0 t
  unfold iblk0
  rw [View.read_apply]
  show V c main_v7 _ = V c main_v7 _
  congr 1
  funext a
  apply Fin.ext
  match a with
  | ⟨0, _⟩ => show win0_3.index t (0 : Fin 2) * 1 + 1 * z.val = z.val; rw [h0]; omega
  | ⟨1, _⟩ => show win0_3.index t (1 : Fin 2) * 1000 + 1 * q.val = q.val; rw [h1]; omega

/-- The label block at point `t`: rows `1024 t …` of the label column. -/
theorem iblk0_4_apply (c : Dev nD) (t : Fin cfg0.N) (p : Fin 1024) (z : Fin 1) :
    (iblk0 V c 4 t : Vec F S1024x1 .i32) (ix2 p z) = (V c main_v8 : S8192x1.Idx → Elt F .i32) (ix2 (row0 t p) z) := by
  obtain ⟨-, -, h0, h1, -⟩ := idxRows0 t
  unfold iblk0
  rw [View.read_apply]
  show V c main_v8 _ = V c main_v8 _
  congr 1
  funext a
  apply Fin.ext
  match a with
  | ⟨0, _⟩ => show win0_4.index t (0 : Fin 2) * 1024 + 1 * p.val = 1024 * t.val + p.val; rw [h0]; omega
  | ⟨1, _⟩ => show win0_4.index t (1 : Fin 2) * 1 + 1 * z.val = z.val; rw [h1]; omega

/-! ## The output windows' arrays after the run

Each output window writes back at every point, point `t`'s block being rows `1024 t … 1024 t + 1023` across the
array's full width: the eight blocks tile the 8192 rows. -/

/-- An entry of the negated-distance array lies in point `t`'s block iff, axis by axis, it lies in the block's range. -/
theorem mem_blk0_5 (t : Fin cfg0.N) (i : S8192x1000.Idx) :
    i ∈ ((cfg0.win 5).blk t).view.set ↔ ∀ a : Fin 2, win0_5.index t a * S1024x1000.size a ≤ (i a).val ∧ (i a).val < win0_5.index t a * S1024x1000.size a + S1024x1000.size a := by
  show i ∈ ((View.whole main_v10_0).slice (win0_5.rect t)).set ↔ _
  rw [View.set_slice_whole, Rect.mem_set_unit]
  exact Iff.rfl

/-- Every entry of the negated-distance array is in the block of the point its row falls in, `row / 1024`, which writes back. -/
theorem cover0_5 (i : S8192x1000.Idx) : ∃ t : Fin cfg0.N, (cfg0.win 5).flush t = true ∧ i ∈ ((cfg0.win 5).blk t).view.set := by
  have hN : cfg0.N = 8 := N_0
  have hr : (i 0).val < 8192 := (i 0).isLt
  have hc : (i 1).val < 1000 := (i 1).isLt
  let t : Fin cfg0.N := ⟨(i 0).val / 1024, by omega⟩
  have ht : t.val = (i 0).val / 1024 := rfl
  obtain ⟨-, -, -, -, h0, h1, -⟩ := idxRows0 t
  refine ⟨t, flush0_5 t, ?_⟩
  rw [mem_blk0_5]
  intro a
  match a with
  | ⟨0, _⟩ => show win0_5.index t (0 : Fin 2) * 1024 ≤ (i 0).val ∧ (i 0).val < win0_5.index t (0 : Fin 2) * 1024 + 1024; rw [h0]; omega
  | ⟨1, _⟩ => show win0_5.index t (1 : Fin 2) * 1000 ≤ (i 1).val ∧ (i 1).val < win0_5.index t (1 : Fin 2) * 1000 + 1000; rw [h1]; omega

/-- If every point writes back its block of one function `G` of the whole negated-distance array, the array ends at `G`. -/
theorem arrAt0_5 (c : Dev nD) (G : S8192x1000.Idx → Elt F .f32)
    (hG : ∀ t : Fin cfg0.N, (dat0 V c).flushed 5 t = ((cfg0.win 5).blk t).view.read (Elt F) G) :
    (dat0 V c).arrAt 5 cfg0.N = G :=
  (dat0 V c).arrAt_eq_of_cover 5 G (fun t _ => hG t) cover0_5

/-- An entry of the cross-entropy array lies in point `t`'s block iff, axis by axis, it lies in the block's range. -/
theorem mem_blk0_6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v10_1).slice (win0_6.rect t)).set ↔ _
  rw [View.set_slice_whole, Rect.mem_set_unit]
  exact Iff.rfl

/-- Every entry of the cross-entropy array is in the block of the point its row falls in, `row / 1024`, which writes back. -/
theorem cover0_6 (i : S8192x1.Idx) : ∃ t : Fin cfg0.N, (cfg0.win 6).flush t = true ∧ i ∈ ((cfg0.win 6).blk t).view.set := by
  have hN : cfg0.N = 8 := N_0
  have hr : (i 0).val < 8192 := (i 0).isLt
  have hc : (i 1).val < 1 := (i 1).isLt
  let t : Fin cfg0.N := ⟨(i 0).val / 1024, by omega⟩
  have ht : t.val = (i 0).val / 1024 := rfl
  obtain ⟨-, -, -, -, -, -, h0, h1, -⟩ := idxRows0 t
  refine ⟨t, flush0_6 t, ?_⟩
  rw [mem_blk0_6]
  intro a
  match a with
  | ⟨0, _⟩ => show win0_6.index t (0 : Fin 2) * 1024 ≤ (i 0).val ∧ (i 0).val < win0_6.index t (0 : Fin 2) * 1024 + 1024; rw [h0]; omega
  | ⟨1, _⟩ => show win0_6.index t (1 : Fin 2) * 1 ≤ (i 1).val ∧ (i 1).val < win0_6.index t (1 : Fin 2) * 1 + 1; rw [h1]; omega

/-- If every point writes back its block of one function `G` of the whole cross-entropy array, the array ends at `G`. -/
theorem arrAt0_6 (c : Dev nD) (G : S8192x1.Idx → Elt F .f32)
    (hG : ∀ t : Fin cfg0.N, (dat0 V c).flushed 6 t = ((cfg0.win 6).blk t).view.read (Elt F) G) :
    (dat0 V c).arrAt 6 cfg0.N = G :=
  (dat0 V c).arrAt_eq_of_cover 6 G (fun t _ => hG t) cover0_6

/-- An entry of the margin array lies in point `t`'s block iff, axis by axis, it lies in the block's range. -/
theorem mem_blk0_7 (t : Fin cfg0.N) (i : S8192x1.Idx) :
    i ∈ ((cfg0.win 7).blk t).view.set ↔ ∀ a : Fin 2, win0_7.index t a * S1024x1.size a ≤ (i a).val ∧ (i a).val < win0_7.index t a * S1024x1.size a + S1024x1.size a := by
  show i ∈ ((View.whole main_v10_2).slice (win0_7.rect t)).set ↔ _
  rw [View.set_slice_whole, Rect.mem_set_unit]
  exact Iff.rfl

/-- Every entry of the margin array is in the block of the point its row falls in, `row / 1024`, which writes back. -/
theorem cover0_7 (i : S8192x1.Idx) : ∃ t : Fin cfg0.N, (cfg0.win 7).flush t = true ∧ i ∈ ((cfg0.win 7).blk t).view.set := by
  have hN : cfg0.N = 8 := N_0
  have hr : (i 0).val < 8192 := (i 0).isLt
  have hc : (i 1).val < 1 := (i 1).isLt
  let t : Fin cfg0.N := ⟨(i 0).val / 1024, by omega⟩
  have ht : t.val = (i 0).val / 1024 := rfl
  obtain ⟨-, -, -, -, -, -, -, -, h0, h1⟩ := idxRows0 t
  refine ⟨t, flush0_7 t, ?_⟩
  rw [mem_blk0_7]
  intro a
  match a with
  | ⟨0, _⟩ => show win0_7.index t (0 : Fin 2) * 1024 ≤ (i 0).val ∧ (i 0).val < win0_7.index t (0 : Fin 2) * 1024 + 1024; rw [h0]; omega
  | ⟨1, _⟩ => show win0_7.index t (1 : Fin 2) * 1 ≤ (i 1).val ∧ (i 1).val < win0_7.index t (1 : Fin 2) * 1 + 1; rw [h1]; omega

/-- If every point writes back its block of one function `G` of the whole margin array, the array ends at `G`. -/
theorem arrAt0_7 (c : Dev nD) (G : S8192x1.Idx → Elt F .f32)
    (hG : ∀ t : Fin cfg0.N, (dat0 V c).flushed 7 t = ((cfg0.win 7).blk t).view.read (Elt F) G) :
    (dat0 V c).arrAt 7 cfg0.N = G :=
  (dat0 V c).arrAt_eq_of_cover 7 G (fun t _ => hG t) cover0_7

end Cert.KernelIdeal.Hand

end
-- ==== Proof.K0ValC.lean ====
/- Region 0, the distance array: what each grid point writes back is its rows of the specification's negated half
   squared distances, so the array after the eight write-backs is the specification's, entry by entry. -/
import proofs.«400644_j12893491823014_2_alg».proof.Proof.K0ValA
import proofs.«400644_j12893491823014_2_alg».proof.Proof.K0Arr

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The offsets of every whole-buffer rectangle of the body. -/
theorem hz0 : (![0, 0] : Fin 2 → Nat) = fun _ => 0 := funext fun a => by fin_cases a <;> rfl

/-! ## The array of negated half squared distances -/

/-- What point `t` writes back into the distance array: rows `1024 t …` of the specification's distances, the
    block's unit rows being the unit rows of those feature rows. -/
theorem flushed0_5_eq (ε : ℝ) (hε : Ideal.ofBits .f32 0x2B8CBCCC#32 = ((ε : ℝ) : EReal)) (hε0 : 0 < ε)
    (x : Fin 8192 → Fin 128 → ℝ) (μ : Fin 1000 → Fin 128 → ℝ) (c : Dev nD)
    (hx : ∀ i k, (V c main_arg0 : S8192x128.Idx → Elt Ideal .f32) (ix2 i k) = ((x i k : ℝ) : EReal))
    (hμ : ∀ q k, (V c main_arg2 : S1000x128.Idx → Elt Ideal .f32) (ix2 q k) = ((μ q k : ℝ) : EReal))
    (hyy : ∀ q, (V c main_v7 : S1x1000.Idx → Elt Ideal .f32) (ix2 (0 : Fin 1) q) = ((∑ k, μ q k * μ q k : ℝ) : EReal))
    (t : Fin cfg0.N) :
    (dat0 V c).flushed 5 t = ((cfg0.win 5).blk t).view.read (Elt Ideal)
      (fun idx : S8192x1000.Idx => ((Spec.negdist ε x μ (idx 0) (idx 1) : ℝ) : EReal)) := by
  show (cfg0.win 5).cut (grid0.coords t) ((dat0 V c).after 5 t) = _
  rw [after0_5]
  unfold out0_5
  rw [View.canon_unit_zero hz0]
  simp only [View.ld_unit_zero (S := S1024x128) hz0, View.ld_unit_zero (S := S1000x128) hz0, View.ld_unit_zero (S := S1x1000) hz0]
  funext j
  obtain ⟨p, q, rfl⟩ : ∃ (p : Fin 1024) (q : Fin 1000), j = ix2 p q := ⟨j 0, j 1, eq_ix2 j⟩
  obtain ⟨-, -, -, -, e0, e1, -⟩ := idxRows0 t
  have hemb : ((cfg0.win 5).blk t).view.emb (ix2 p q) = (ix2 (row0 t p) q : S8192x1000.Idx) := by
    funext a; apply Fin.ext
    match a with
    | ⟨0, _⟩ => show win0_5.index t (0 : Fin 2) * 1024 + 1 * p.val = 1024 * t.val + p.val; rw [e0]; omega
    | ⟨1, _⟩ => show win0_5.index t (1 : Fin 2) * 1000 + 1 * q.val = q.val; rw [e1]; omega
  rw [View.read_apply, hemb]
  show k0_pay5 (F := Ideal) (iblk0 V c 0 t) (iblk0 V c 1 t) (iblk0 V c 3 t) (ix2 p q) = _
  refine (pay5_apply ε hε hε0 (iblk0 V c 0 t) (iblk0 V c 1 t) (iblk0 V c 3 t) (fun p k => x (row0 t p) k) μ
    (fun q => ∑ k, μ q k * μ q k)
    (fun p k => (iblk0_0_apply V c t p k).trans (hx _ _)) (fun q k => (iblk0_1_apply V c t q k).trans (hμ _ _))
    (fun q => (iblk0_3_apply V c t 0 q).trans (hyy q)) p q).trans ?_
  rfl

/-- The distance array after the region: the specification's distances, entry by entry. -/
theorem arrAt0_5_eq (ε : ℝ) (hε : Ideal.ofBits .f32 0x2B8CBCCC#32 = ((ε : ℝ) : EReal)) (hε0 : 0 < ε)
    (x : Fin 8192 → Fin 128 → ℝ) (μ : Fin 1000 → Fin 128 → ℝ) (c : Dev nD)
    (hx : ∀ i k, (V c main_arg0 : S8192x128.Idx → Elt Ideal .f32) (ix2 i k) = ((x i k : ℝ) : EReal))
    (hμ : ∀ q k, (V c main_arg2 : S1000x128.Idx → Elt Ideal .f32) (ix2 q k) = ((μ q k : ℝ) : EReal))
    (hyy : ∀ q, (V c main_v7 : S1x1000.Idx → Elt Ideal .f32) (ix2 (0 : Fin 1) q) = ((∑ k, μ q k * μ q k : ℝ) : EReal)) :
    (dat0 V c).arrAt 5 cfg0.N
      = (fun idx : S8192x1000.Idx => ((Spec.negdist ε x μ (idx 0) (idx 1) : ℝ) : EReal)) :=
  arrAt0_5 V c _ (flushed0_5_eq V ε hε hε0 x μ c hx hμ hyy)

end Cert.KernelIdeal.Hand

end
-- ==== Proof.K0ValB.lean ====
/- Region 0's margin payload at the ideal values over blocks of reals: the one-hot block picks each row's class
   mean out of the table of unit means, and the lane sum of the squared differences is the row's squared distance. -/
import proofs.«400644_j12893491823014_2_alg».proof.Proof.K0ValA

noncomputable section

namespace Cert.KernelIdeal.Hand

open Cert.KernelIdeal Cert.KernelIdeal.Gen Idealize.ShloMosaic Idealize.ShloMosaic.ValueIdx Idealize.SL.Sem

/-! ## The margin rows -/

/-- The product of the one-hot block with the table of unit means: row p is the unit mean of row p's class (every
    other term of the sum over the classes is zero). -/
theorem pickMean_apply (prec : Option ContractPrecision) (v34 : FVec Ideal S1024x1000 .f32) (v11 : FVec Ideal S1000x128 .f32)
    (lb : Fin 1024 → Fin 1000) (νn : Fin 1000 → Fin 128 → ℝ)
    (h34 : ∀ p c, v34 (ix2 p c) = (((if c = lb p then 1 else 0 : ℝ)) : EReal))
    (h11 : ∀ c k, v11 (ix2 c k) = ((νn c k : ℝ) : EReal)) (p : Fin 1024) (k : Fin 128) :
    FloatOps.matmul dot_S1024x1000_S1000x128_S1024x128_1_0_0_1_n_n prec v34 v11
        (constant (F := Ideal) S1024x128 .f32 0x00000000#32) (ix2 p k)
      = ((νn (lb p) k : ℝ) : EReal) := by
  refine (matmul_om_apply prec v34 v11 p k).trans ?_
  have e : ∀ c : Fin 1000, v34 (ix2 p c) * v11 (ix2 c k) = (((if c = lb p then νn c k else 0 : ℝ)) : EReal) := fun c => by
    rw [h34, h11, ← EReal.coe_mul, ite_mul, one_mul, zero_mul]
  rw [Finset.sum_congr rfl fun c _ => e c, k0_coe_sum, Finset.sum_ite_eq' Finset.univ (lb p) fun c => νn c k,
    if_pos (Finset.mem_univ _)]

/-- The margin rows: entry (p, 0) is the squared distance from unit row p to the unit mean of row p's class. -/
theorem pay2_apply (v8 : FVec Ideal S1024x128 .f32) (v11 : FVec Ideal S1000x128 .f32) (v34 : FVec Ideal S1024x1000 .f32)
    (f : Fin 1024 → Fin 128 → ℝ) (νn : Fin 1000 → Fin 128 → ℝ) (lb : Fin 1024 → Fin 1000)
    (h8 : ∀ p k, v8 (ix2 p k) = ((f p k : ℝ) : EReal)) (h11 : ∀ c k, v11 (ix2 c k) = ((νn c k : ℝ) : EReal))
    (h34 : ∀ p c, v34 (ix2 p c) = (((if c = lb p then 1 else 0 : ℝ)) : EReal)) (p : Fin 1024) (q : Fin 1) :
    k0_pay2 (F := Ideal) v8 v11 v34 (ix2 p q)
      = ((∑ k, (f p k - νn (lb p) k) * (f p k - νn (lb p) k) : ℝ) : EReal) := by
  unfold k0_pay2
  refine sumSq_col _ (fun p k => f p k - νn (lb p) k) (fun p k => ?_) _ _ _ _ p q
  refine (subf_apply _ _ _).trans ?_
  exact (congrArg₂ HSub.hSub (h8 p k) (pickMean_apply _ v34 v11 lb νn h34 h11 p k)).trans (EReal.coe_sub _ _).symm

end Cert.KernelIdeal.Hand

end
-- ==== Proof.K0ValCE.lean ====
/-
  The cross-entropy payload of the first kernel region, read at one row.

  The block holds, for each of its 1024 rows p, the values nd p c (minus half the squared distance to mean c) and the
  row's label lb p. The payload forms the margin logits nd p c * (1 + 1/2 * [c = lb p]), takes the row's maximum off,
  takes the log of the row's sum of exponentials off, and adds up the result over the one class where the one-hot row
  is positive: minus the log-probability of the row's own class. Every step is the real operation on real numbers
  (the sum of exponentials is positive, so its log is the real log), so the payload at row p is the coerced real number
  -(logp p (lb p)), where logp is the specification's log-softmax chain written over one row.
-/
import proofs.«400644_j12893491823014_2_alg».proof.Proof.Gen.KernelIdeal.Skeleton
import proofs.«400644_j12893491823014_2_alg».proof.Proof.IdealReal
import proofs.«400644_j12893491823014_2_alg».proof.Proof.Spec
import Idealize.ShloMosaic.Lib.ValueLayout

noncomputable section

namespace Cert.KernelIdeal.Hand

open Idealize.ShloMosaic Idealize.ShloMosaic.ValueIdx
open scoped BigOperators

/-! ### The specification's log-softmax chain over one row -/

/-- One row's margin logits from its values nd and its label l: the label's entry is stretched by 3/2. -/
def logitRow (nd : Fin 1000 → ℝ) (l : Fin 1000) (c : Fin 1000) : ℝ :=
  nd c * (1 + (1 / 2 : ℝ) * (if c = l then 1 else 0))

/-- The row's largest logit. -/
def rowmaxRow (nd : Fin 1000 → ℝ) (l : Fin 1000) : ℝ :=
  Finset.sup' Finset.univ Finset.univ_nonempty (logitRow nd l)

/-- The logits shifted by the row's maximum. -/
def shiftedRow (nd : Fin 1000 → ℝ) (l : Fin 1000) (c : Fin 1000) : ℝ := logitRow nd l c - rowmaxRow nd l

/-- The log of the row's partition sum, after the shift. -/
def lseRow (nd : Fin 1000 → ℝ) (l : Fin 1000) : ℝ := Real.log (∑ c, Real.exp (shiftedRow nd l c))

/-- The row's log-softmax. -/
def logpRow (nd : Fin 1000 → ℝ) (l : Fin 1000) (c : Fin 1000) : ℝ := shiftedRow nd l c - lseRow nd l

/-- The specification's log-softmax of row i is the one-row chain at that row's values and label. -/
theorem logp_eq_logpRow (ε : ℝ) (x : Fin 8192 → Fin 128 → ℝ) (μ : Fin 1000 → Fin 128 → ℝ) (ℓ : Fin 8192 → Fin 1000)
    (i : Fin 8192) (c : Fin 1000) :
    Cert.Spec.logp ε x μ ℓ i c = logpRow (Cert.Spec.negdist ε x μ i) (ℓ i) c := rfl

/-- The row's partition sum is positive: a nonempty sum of exponentials. -/
theorem partition_pos (nd : Fin 1000 → ℝ) (l : Fin 1000) : 0 < ∑ c, Real.exp (shiftedRow nd l c) :=
  Finset.sum_pos (fun c _ => Real.exp_pos _) Finset.univ_nonempty

/-! ### Layout steps at a row: a column kept by a reduction, and a column spread over the classes -/

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The index a reduction along the classes reads at class k of row p. -/
theorem lift_row (h : S1024x1000.Reduces [1] S1024) (p : Fin 1024) (k : Fin 1000) :
    h.lift (ix1 p) k = ix2 p k := by
  funext a
  match a with
  | ⟨0, _⟩ => exact Fin.ext rfl
  | ⟨1, _⟩ => exact Fin.ext rfl

/-! ### The one-hot row -/

/-- Two class numbers are the same 32-bit word exactly when they are the same class. -/
theorem ofNat32_beq (c l : Fin 1000) : (BitVec.ofNat 32 c.val == BitVec.ofNat 32 l.val) = decide (c = l) := by
  have hc : c.val < 2 ^ 32 := lt_trans c.isLt (by norm_num)
  have hl : l.val < 2 ^ 32 := lt_trans l.isLt (by norm_num)
  by_cases h : c = l
  · subst h
    simp
  · have hne : BitVec.ofNat 32 c.val ≠ BitVec.ofNat 32 l.val := by
      intro he
      have ht := congrArg BitVec.toNat he
      rw [BitVec.toNat_ofNat, BitVec.toNat_ofNat, Nat.mod_eq_of_lt hc, Nat.mod_eq_of_lt hl] at ht
      exact h (Fin.ext ht)
    simp [h, hne]

/-- A one-bit word widened to 32 bits and read as a signed integer is 1 or 0. -/
theorem toInt_setWidth_ofBool (b : Bool) : (((BitVec.ofBool b).setWidth 32).toInt : ℤ) = if b = true then 1 else 0 := by
  cases b <;> decide

/-- The one-hot value at (p, c): 1 at the row's label, 0 elsewhere. -/
theorem onehot_apply (lb : Fin 1024 → Fin 1000) (v28 : Vec Ideal S1024x1 .i32)
    (h28 : ∀ p, v28 (ix2 p (0 : Fin 1)) = BitVec.ofNat 32 (lb p).val) (p : Fin 1024) (c : Fin 1000) :
    Gen.k0_pay6 (F := Ideal) v28 (ix2 p c) = (((if c = lb p then 1 else 0 : ℝ)) : EReal) := by
  unfold Gen.k0_pay6
  show FloatOps.sitofp (F := Ideal) .f32 ((IntOp.cmpi .eq
      (iota .tc S1024x1000 32 [1] Gen.iota_S1024x1000_d1_w32 (ix2 p c))
      (broadcastTo S1024x1000 (shapeCast S1024x1 v28 Gen.shapeCasts_S1024x1_S1024x1) Gen.broadcasts_S1024x1_S1024x1000 (ix2 p c))).setWidth 32) = _
  rw [iota_single_apply, broadcastTo_a1_ab_apply, shapeCast_self, h28]
  show FloatOps.sitofp (F := Ideal) .f32 ((BitVec.ofBool (BitVec.ofNat 32 c.val == BitVec.ofNat 32 (lb p).val)).setWidth 32) = _
  rw [ofNat32_beq, Cert.IdealReal.sitofp_coe, toInt_setWidth_ofBool]
  by_cases hc : c = lb p
  · simp [hc]
  · simp [hc]

/-! ### The payload at a row -/

/-- The payload from values with the stated readings: nd at v26, the one-hot row at v34, half of it at v36, ones at
    v37. Each step is the real operation; the two maxima/sums run along the row; the selected sum keeps the one term at
    the row's label. -/
theorem pay1_core (nd : Fin 1024 → Fin 1000 → ℝ) (lb : Fin 1024 → Fin 1000)
    (v26 v34 v36 v37 : FVec Ideal S1024x1000 .f32) (p : Fin 1024)
    (h26 : ∀ c, v26 (ix2 p c) = ((nd p c : ℝ) : EReal))
    (h34 : ∀ c, v34 (ix2 p c) = (((if c = lb p then 1 else 0 : ℝ)) : EReal))
    (h36 : ∀ c, v36 (ix2 p c) = (((1 / 2 : ℝ) * (if c = lb p then 1 else 0) : ℝ) : EReal))
    (h37 : ∀ c, v37 (ix2 p c) = ((1 : ℝ) : EReal)) :
    Gen.k0_pay1 (F := Ideal) v26 v34 v36 v37 (ix2 p (0 : Fin 1))
      = ((-(logpRow (nd p) (lb p) (lb p)) : ℝ) : EReal) := by
  -- the margin logits
  let w38 : FVec Ideal S1024x1000 .f32 := addf v37 v36
  have e38 : ∀ c, w38 (ix2 p c) = (((1 : ℝ) + (1 / 2 : ℝ) * (if c = lb p then 1 else 0) : ℝ) : EReal) :=
    fun c => Cert.IdealReal.addf_at v37 v36 (ix2 p c) (h37 c) (h36 c)
  let w39 : FVec Ideal S1024x1000 .f32 := mulf v26 w38
  have e39 : ∀ c, w39 (ix2 p c) = ((logitRow (nd p) (lb p) c : ℝ) : EReal) :=
    fun c => Cert.IdealReal.mulf_at v26 w38 (ix2 p c) (h26 c) (e38 c)
  -- the row's maximum, kept as a column and spread back over the classes
  let w40 : FVec Ideal S1024 .f32 :=
    multiReduction .maximumf [1] S1024 w39 0xFF800000#32 Gen.reduces_S1024x1000_S1024 (.inl rfl) rfl
  have e40 : w40 (ix1 p) = ((rowmaxRow (nd p) (lb p) : ℝ) : EReal) :=
    Cert.IdealReal.multiReduction_maximumf_coe w39 Gen.reduces_S1024x1000_S1024 (.inl rfl) rfl (ix1 p)
      (Finset.univ_nonempty (α := Fin 1000)) (logitRow (nd p) (lb p))
      (fun k => (congrArg w39 (lift_row Gen.reduces_S1024x1000_S1024 p k)).trans (e39 k))
  let w41 : FVec Ideal S1024x1 .f32 := shapeCast S1024x1 w40 Gen.shapeCasts_S1024_S1024x1
  have e41 : w41 (ix2 p (0 : Fin 1)) = ((rowmaxRow (nd p) (lb p) : ℝ) : EReal) :=
    (shapeCast_a_a1_apply w40 Gen.shapeCasts_S1024_S1024x1 p 0).trans e40
  let w42 : FVec Ideal S1024x1000 .f32 := broadcastTo S1024x1000 w41 Gen.broadcasts_S1024x1_S1024x1000
  have e42 : ∀ c, w42 (ix2 p c) = ((rowmaxRow (nd p) (lb p) : ℝ) : EReal) :=
    fun c => (broadcastTo_a1_ab_apply w41 Gen.broadcasts_S1024x1_S1024x1000 p c).trans e41
  let w43 : FVec Ideal S1024x1000 .f32 := subf w39 w42
  have e43 : ∀ c, w43 (ix2 p c) = ((shiftedRow (nd p) (lb p) c : ℝ) : EReal) :=
    fun c => Cert.IdealReal.subf_at w39 w42 (ix2 p c) (e39 c) (e42 c)
  -- the partition sum and its log
  let w44 : FVec Ideal S1024x1000 .f32 := exp w43
  have e44 : ∀ c, w44 (ix2 p c) = ((Real.exp (shiftedRow (nd p) (lb p) c) : ℝ) : EReal) :=
    fun c => Cert.IdealReal.exp_at w43 (ix2 p c) (e43 c)
  let w45 : FVec Ideal S1024 .f32 :=
    multiReduction .add [1] S1024 w44 0x00000000#32 Gen.reduces_S1024x1000_S1024 (.inl rfl) rfl
  have e45 : w45 (ix1 p) = ((∑ c, Real.exp (shiftedRow (nd p) (lb p) c) : ℝ) : EReal) :=
    Cert.IdealReal.multiReduction_add_coe w44 0x00000000#32 Gen.reduces_S1024x1000_S1024 (.inl rfl) rfl (ix1 p)
      (fun c : Fin 1000 => Real.exp (shiftedRow (nd p) (lb p) c))
      (fun k => (congrArg w44 (lift_row Gen.reduces_S1024x1000_S1024 p k)).trans (e44 k))
  let w46 : FVec Ideal S1024x1 .f32 := shapeCast S1024x1 w45 Gen.shapeCasts_S1024_S1024x1
  have e46 : w46 (ix2 p (0 : Fin 1)) = ((∑ c, Real.exp (shiftedRow (nd p) (lb p) c) : ℝ) : EReal) :=
    (shapeCast_a_a1_apply w45 Gen.shapeCasts_S1024_S1024x1 p 0).trans e45
  let w47 : FVec Ideal S1024x1 .f32 := log w46
  have e47 : w47 (ix2 p (0 : Fin 1)) = ((lseRow (nd p) (lb p) : ℝ) : EReal) :=
    Cert.IdealReal.log_at w46 (ix2 p (0 : Fin 1)) e46 (partition_pos (nd p) (lb p))
  let w48 : FVec Ideal S1024x1000 .f32 := broadcastTo S1024x1000 w47 Gen.broadcasts_S1024x1_S1024x1000
  have e48 : ∀ c, w48 (ix2 p c) = ((lseRow (nd p) (lb p) : ℝ) : EReal) :=
    fun c => (broadcastTo_a1_ab_apply w47 Gen.broadcasts_S1024x1_S1024x1000 p c).trans e47
  let w49 : FVec Ideal S1024x1000 .f32 := subf w43 w48
  have e49 : ∀ c, w49 (ix2 p c) = ((logpRow (nd p) (lb p) c : ℝ) : EReal) :=
    fun c => Cert.IdealReal.subf_at w43 w48 (ix2 p c) (e43 c) (e48 c)
  -- the selection by the one-hot row: only the label's class keeps its log-probability
  let w50 : FVec Ideal S1024x1000 .f32 := broadcast S1024x1000 (Scalar.ofBits .f32 0x00000000#32)
  have e50 : ∀ c, w50 (ix2 p c) = ((0 : ℝ) : EReal) := fun c => Cert.IdealReal.ofBits_zero
  let w53 : FVec Ideal S1024x1000 .f32 := select (cmpf .ogt v34 w50) w49 w50
  have e53 : ∀ c, w53 (ix2 p c) = (((if c = lb p then logpRow (nd p) (lb p) c else 0 : ℝ)) : EReal) := by
    intro c
    refine (Cert.IdealReal.select_cmpf_ogt_at v34 w50 (ix2 p c) (h34 c) (e50 c) w49 w50).trans ?_
    by_cases hc : c = lb p
    · rw [if_pos hc, if_pos hc, if_pos (by norm_num : (0 : ℝ) < 1)]
      exact e49 c
    · rw [if_neg hc, if_neg hc, if_neg (lt_irrefl (0 : ℝ))]
      exact e50 c
  let w54 : FVec Ideal S1024 .f32 :=
    multiReduction .add [1] S1024 w53 0x00000000#32 Gen.reduces_S1024x1000_S1024 (.inl rfl) rfl
  have e54 : w54 (ix1 p) = ((logpRow (nd p) (lb p) (lb p) : ℝ) : EReal) := by
    refine (Cert.IdealReal.multiReduction_add_coe w53 0x00000000#32 Gen.reduces_S1024x1000_S1024 (.inl rfl) rfl (ix1 p)
      (fun c : Fin 1000 => if c = lb p then logpRow (nd p) (lb p) c else 0)
      (fun k => (congrArg w53 (lift_row Gen.reduces_S1024x1000_S1024 p k)).trans (e53 k))).trans ?_
    refine congrArg (fun r : ℝ => (r : EReal)) ?_
    exact (Finset.sum_ite_eq' Finset.univ (lb p) (fun c => logpRow (nd p) (lb p) c)).trans (if_pos (Finset.mem_univ _))
  let w55 : FVec Ideal S1024x1 .f32 := shapeCast S1024x1 w54 Gen.shapeCasts_S1024_S1024x1
  have e55 : w55 (ix2 p (0 : Fin 1)) = ((logpRow (nd p) (lb p) (lb p) : ℝ) : EReal) :=
    (shapeCast_a_a1_apply w54 Gen.shapeCasts_S1024_S1024x1 p 0).trans e54
  let w56 : FVec Ideal S1024x1 .f32 := broadcast S1024x1 (Scalar.ofBits .f32 0x00000000#32)
  have e56 : w56 (ix2 p (0 : Fin 1)) = ((0 : ℝ) : EReal) := Cert.IdealReal.ofBits_zero
  have e57 : subf w56 w55 (ix2 p (0 : Fin 1)) = (((0 : ℝ) - logpRow (nd p) (lb p) (lb p) : ℝ) : EReal) :=
    Cert.IdealReal.subf_at w56 w55 (ix2 p (0 : Fin 1)) e56 e55
  rw [zero_sub] at e57
  exact e57

/-- The cross-entropy payload of the block at row p, from the block's negdist values and labels. -/
theorem k0_pay1_apply (nd : Fin 1024 → Fin 1000 → ℝ) (lb : Fin 1024 → Fin 1000)
    (v26 : FVec Ideal S1024x1000 .f32) (h26 : ∀ p c, v26 (ix2 p c) = ((nd p c : ℝ) : EReal))
    (v28 : Vec Ideal S1024x1 .i32) (h28 : ∀ p, v28 (ix2 p (0 : Fin 1)) = BitVec.ofNat 32 (lb p).val) (p : Fin 1024) :
    Gen.k0_pay1 (F := Ideal) v26 (Gen.k0_pay6 v28) (Gen.k0_pay7 v28) (Gen.k0_pay8 (F := Ideal)) (ix2 p (0 : Fin 1))
      = ((-(logpRow (nd p) (lb p) (lb p)) : ℝ) : EReal) := by
  refine pay1_core nd lb v26 (Gen.k0_pay6 v28) (Gen.k0_pay7 v28) (Gen.k0_pay8 (F := Ideal)) p (h26 p)
    (onehot_apply lb v28 h28 p) ?_ ?_
  · intro c
    unfold Gen.k0_pay7
    exact Cert.IdealReal.mulf_at _ _ (ix2 p c) Cert.IdealReal.ofBits_half (onehot_apply lb v28 h28 p c)
  · intro c
    exact Cert.IdealReal.ofBits_one

end Cert.KernelIdeal.Hand

end
-- ==== Proof.K0ValD.lean ====
/- Region 0, the two per-row columns: what each grid point writes back into the margin column and into the
   cross-entropy column is its rows of the specification's values, so each column after the eight write-backs is the
   specification's, entry by entry. -/
import proofs.«400644_j12893491823014_2_alg».proof.Proof.K0ValB
import proofs.«400644_j12893491823014_2_alg».proof.Proof.K0ValC
import proofs.«400644_j12893491823014_2_alg».proof.Proof.K0ValCE

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The column of margin rows -/

/-- What point `t` writes back into the margin column: for each of its rows, the squared distance from the row's unit
    feature to the unit mean of the row's class. -/
theorem flushed0_7_eq (ε : ℝ) (hε : Ideal.ofBits .f32 0x2B8CBCCC#32 = ((ε : ℝ) : EReal)) (hε0 : 0 < ε)
    (x : Fin 8192 → Fin 128 → ℝ) (μ : Fin 1000 → Fin 128 → ℝ) (ℓ : Fin 8192 → Fin 1000) (c : Dev nD)
    (hx : ∀ i k, (V c main_arg0 : S8192x128.Idx → Elt Ideal .f32) (ix2 i k) = ((x i k : ℝ) : EReal))
    (hν : ∀ q k, (V c main_v4 : S1000x128.Idx → Elt Ideal .f32) (ix2 q k) = ((Spec.unit ε μ q k : ℝ) : EReal))
    (hℓ : ∀ i, (V c main_v8 : S8192x1.Idx → Elt Ideal .i32) (ix2 i (0 : Fin 1)) = BitVec.ofNat 32 (ℓ i).val)
    (t : Fin cfg0.N) :
    (dat0 V c).flushed 7 t = ((cfg0.win 7).blk t).view.read (Elt Ideal)
      (fun idx : S8192x1.Idx => ((∑ k, (Spec.unit ε x (idx 0) k - Spec.unit ε μ (ℓ (idx 0)) k)
        * (Spec.unit ε x (idx 0) k - Spec.unit ε μ (ℓ (idx 0)) k) : ℝ) : EReal)) := by
  show (cfg0.win 7).cut (grid0.coords t) ((dat0 V c).after 7 t) = _
  rw [after0_7]
  unfold out0_7
  rw [View.canon_unit_zero hz0]
  simp only [View.ld_unit_zero (S := S1024x128) hz0, View.ld_unit_zero (S := S1000x128) hz0, View.ld_unit_zero (S := S1024x1) hz0]
  funext j
  obtain ⟨p, q, rfl⟩ : ∃ (p : Fin 1024) (q : Fin 1), j = ix2 p q := ⟨j 0, j 1, eq_ix2 j⟩
  obtain ⟨-, -, -, -, -, -, -, -, e0, e1⟩ := idxRows0 t
  have hemb : ((cfg0.win 7).blk t).view.emb (ix2 p q) = (ix2 (row0 t p) q : S8192x1.Idx) := by
    funext a; apply Fin.ext
    match a with
    | ⟨0, _⟩ => show win0_7.index t (0 : Fin 2) * 1024 + 1 * p.val = 1024 * t.val + p.val; rw [e0]; omega
    | ⟨1, _⟩ => show win0_7.index t (1 : Fin 2) * 1 + 1 * q.val = q.val; rw [e1]; omega
  rw [View.read_apply, hemb]
  show k0_pay2 (F := Ideal) (k0_pay3 (iblk0 V c 0 t)) (k0_pay4 (iblk0 V c 2 t)) (k0_pay6 (iblk0 V c 4 t)) (ix2 p q) = _
  refine (pay2_apply (k0_pay3 (F := Ideal) (iblk0 V c 0 t)) (k0_pay4 (F := Ideal) (iblk0 V c 2 t)) (k0_pay6 (F := Ideal) (iblk0 V c 4 t))
    (Spec.unit ε (fun p k => x (row0 t p) k)) (Spec.unit ε μ) (fun p => ℓ (row0 t p))
    (fun p k => pay3_apply ε hε hε0 (iblk0 V c 0 t) (fun p k => x (row0 t p) k)
      (fun p k => (iblk0_0_apply V c t p k).trans (hx _ _)) p k)
    (fun q k => (congrFun (pay4_eq (iblk0 V c 2 t)) (ix2 q k)).trans ((iblk0_2_apply V c t q k).trans (hν _ _)))
    (fun p cc => onehot_apply (fun p => ℓ (row0 t p)) (iblk0 V c 4 t)
      (fun p => (iblk0_4_apply V c t p 0).trans (hℓ _)) p cc) p q).trans ?_
  rfl

/-- The margin column after the region, entry by entry. -/
theorem arrAt0_7_eq (ε : ℝ) (hε : Ideal.ofBits .f32 0x2B8CBCCC#32 = ((ε : ℝ) : EReal)) (hε0 : 0 < ε)
    (x : Fin 8192 → Fin 128 → ℝ) (μ : Fin 1000 → Fin 128 → ℝ) (ℓ : Fin 8192 → Fin 1000) (c : Dev nD)
    (hx : ∀ i k, (V c main_arg0 : S8192x128.Idx → Elt Ideal .f32) (ix2 i k) = ((x i k : ℝ) : EReal))
    (hν : ∀ q k, (V c main_v4 : S1000x128.Idx → Elt Ideal .f32) (ix2 q k) = ((Spec.unit ε μ q k : ℝ) : EReal))
    (hℓ : ∀ i, (V c main_v8 : S8192x1.Idx → Elt Ideal .i32) (ix2 i (0 : Fin 1)) = BitVec.ofNat 32 (ℓ i).val) :
    (dat0 V c).arrAt 7 cfg0.N
      = (fun idx : S8192x1.Idx => ((∑ k, (Spec.unit ε x (idx 0) k - Spec.unit ε μ (ℓ (idx 0)) k)
        * (Spec.unit ε x (idx 0) k - Spec.unit ε μ (ℓ (idx 0)) k) : ℝ) : EReal)) :=
  arrAt0_7 V c _ (flushed0_7_eq V ε hε hε0 x μ ℓ c hx hν hℓ)

/-! ## The column of cross-entropy rows -/

/-- What point `t` writes back into the cross-entropy column: for each of its rows, minus the specification's
    log-probability of the row's own class. -/
theorem flushed0_6_eq (ε : ℝ) (hε : Ideal.ofBits .f32 0x2B8CBCCC#32 = ((ε : ℝ) : EReal)) (hε0 : 0 < ε)
    (x : Fin 8192 → Fin 128 → ℝ) (μ : Fin 1000 → Fin 128 → ℝ) (ℓ : Fin 8192 → Fin 1000) (c : Dev nD)
    (hx : ∀ i k, (V c main_arg0 : S8192x128.Idx → Elt Ideal .f32) (ix2 i k) = ((x i k : ℝ) : EReal))
    (hμ : ∀ q k, (V c main_arg2 : S1000x128.Idx → Elt Ideal .f32) (ix2 q k) = ((μ q k : ℝ) : EReal))
    (hyy : ∀ q, (V c main_v7 : S1x1000.Idx → Elt Ideal .f32) (ix2 (0 : Fin 1) q) = ((∑ k, μ q k * μ q k : ℝ) : EReal))
    (hℓ : ∀ i, (V c main_v8 : S8192x1.Idx → Elt Ideal .i32) (ix2 i (0 : Fin 1)) = BitVec.ofNat 32 (ℓ i).val)
    (t : Fin cfg0.N) :
    (dat0 V c).flushed 6 t = ((cfg0.win 6).blk t).view.read (Elt Ideal)
      (fun idx : S8192x1.Idx => ((-(Spec.logp ε x μ ℓ (idx 0) (ℓ (idx 0))) : ℝ) : EReal)) := by
  show (cfg0.win 6).cut (grid0.coords t) ((dat0 V c).after 6 t) = _
  rw [after0_6]
  unfold out0_6
  rw [View.canon_unit_zero hz0]
  simp only [View.ld_unit_zero (S := S1024x128) hz0, View.ld_unit_zero (S := S1000x128) hz0,
    View.ld_unit_zero (S := S1x1000) hz0, View.ld_unit_zero (S := S1024x1) hz0]
  funext j
  obtain ⟨p, q, rfl⟩ : ∃ (p : Fin 1024) (q : Fin 1), j = ix2 p q := ⟨j 0, j 1, eq_ix2 j⟩
  obtain rfl : q = 0 := Subsingleton.elim _ _
  obtain ⟨-, -, -, -, -, -, e0, e1, -⟩ := idxRows0 t
  have hemb : ((cfg0.win 6).blk t).view.emb (ix2 p (0 : Fin 1)) = (ix2 (row0 t p) (0 : Fin 1) : S8192x1.Idx) := by
    funext a; apply Fin.ext
    match a with
    | ⟨0, _⟩ => show win0_6.index t (0 : Fin 2) * 1024 + 1 * p.val = 1024 * t.val + p.val; rw [e0]; omega
    | ⟨1, _⟩ => show win0_6.index t (1 : Fin 2) * 1 + 1 * 0 = 0; rw [e1]
  rw [View.read_apply, hemb]
  show k0_pay1 (F := Ideal) (k0_pay5 (iblk0 V c 0 t) (iblk0 V c 1 t) (iblk0 V c 3 t)) (k0_pay6 (iblk0 V c 4 t))
    (k0_pay7 (iblk0 V c 4 t)) (k0_pay8 (F := Ideal)) (ix2 p (0 : Fin 1)) = _
  refine (k0_pay1_apply (fun p cc => Spec.negdist ε x μ (row0 t p) cc) (fun p => ℓ (row0 t p))
    (k0_pay5 (F := Ideal) (iblk0 V c 0 t) (iblk0 V c 1 t) (iblk0 V c 3 t))
    (fun p cc => (pay5_apply ε hε hε0 (iblk0 V c 0 t) (iblk0 V c 1 t) (iblk0 V c 3 t) (fun p k => x (row0 t p) k) μ
      (fun q => ∑ k, μ q k * μ q k)
      (fun p k => (iblk0_0_apply V c t p k).trans (hx _ _)) (fun q k => (iblk0_1_apply V c t q k).trans (hμ _ _))
      (fun q => (iblk0_3_apply V c t 0 q).trans (hyy q)) p cc).trans rfl)
    (iblk0 V c 4 t) (fun p => (iblk0_4_apply V c t p 0).trans (hℓ _)) p).trans ?_
  rfl

/-- The cross-entropy column after the region, entry by entry. -/
theorem arrAt0_6_eq (ε : ℝ) (hε : Ideal.ofBits .f32 0x2B8CBCCC#32 = ((ε : ℝ) : EReal)) (hε0 : 0 < ε)
    (x : Fin 8192 → Fin 128 → ℝ) (μ : Fin 1000 → Fin 128 → ℝ) (ℓ : Fin 8192 → Fin 1000) (c : Dev nD)
    (hx : ∀ i k, (V c main_arg0 : S8192x128.Idx → Elt Ideal .f32) (ix2 i k) = ((x i k : ℝ) : EReal))
    (hμ : ∀ q k, (V c main_arg2 : S1000x128.Idx → Elt Ideal .f32) (ix2 q k) = ((μ q k : ℝ) : EReal))
    (hyy : ∀ q, (V c main_v7 : S1x1000.Idx → Elt Ideal .f32) (ix2 (0 : Fin 1) q) = ((∑ k, μ q k * μ q k : ℝ) : EReal))
    (hℓ : ∀ i, (V c main_v8 : S8192x1.Idx → Elt Ideal .i32) (ix2 i (0 : Fin 1)) = BitVec.ofNat 32 (ℓ i).val) :
    (dat0 V c).arrAt 6 cfg0.N
      = (fun idx : S8192x1.Idx => ((-(Spec.logp ε x μ ℓ (idx 0) (ℓ (idx 0))) : ℝ) : EReal)) :=
  arrAt0_6 V c _ (flushed0_6_eq V ε hε hε0 x μ ℓ c hx hμ hyy hℓ)

end Cert.KernelIdeal.Hand

end
-- ==== Proof.K1ValA.lean ====
/-
  Kernel region 1 (the contrastive kernel), the values of its payloads at an index, over the reals.

  A grid point holds a block of 1024 query rows and a block of 1024 key rows of the feature matrix, the query rows' labels as a
  column and the key rows' labels as a row, and three carried columns of 1024 entries. When every entry of the two feature blocks is a
  real number, so is every intermediate value, and this module says which: the tile of similarities is the inner product of the
  unit rows (each row over its length, the length floored at the small positive literal) times the named reciprocal temperature;
  the denominator column gains the row sums of the exponentials; the positives column gains the row sums of the similarities kept
  where the labels agree; the count column gains the number of agreeing labels; on the tile's diagonal the three corrections take
  off the diagonal exponential, the diagonal similarity and one; the reset columns are zero.

  The laws used: a finite sum of coerced reals is the coerced sum; the root of a nonnegative real, the maximum of two reals, the
  quotient by a nonzero real and the exponential of a real are reals; a sum of `if p = r then g r else 0` over r is `g p`.
-/
import proofs.«400644_j12893491823014_2_alg».proof.Proof.Gen.KernelIdeal.Skeleton
import proofs.«400644_j12893491823014_2_alg».proof.Proof.Spec
import Idealize.ShloMosaic.Lib.ValueIdx
import Idealize.ShloMosaic.Lib.ValueIdxCoords
import Idealize.ShloMosaic.Lib.ValueLayout
import Idealize.ShloMosaic.Lib.Pipeline.Value
import Idealize.ShloMosaic.PureOps.Ideal.Laws

set_option synthInstance.maxSize 4096

noncomputable section

namespace Cert.KernelIdeal.Hand

open Idealize.ShloMosaic Idealize.ShloMosaic.ValueIdx Idealize.SL.Sem
open Cert.KernelIdeal.Facts₀ Cert.KernelIdeal.Facts

/-! Sums of coerced reals. -/
theorem k1_coe_sum {ι : Type} (s : Finset ι) (f : ι → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

/-- A row sum of a 1024 x 128 tile. -/
theorem k1_rowsum128 (src : FVec Ideal S1024x128 .f32) (hφ : FKind.Formats .f32)
    (hacc : (0x00000000#32 : BitVec 32) = FKind.add.neutral .f32 hφ) (p : Fin 1024) :
    multiReduction .add [1] S1024 src 0x00000000#32 reduces_S1024x128_S1024 hφ hacc (ix1 p)
      = ∑ k : Fin 128, src (ix2 p k) := by
  refine (Ideal.multiReduction_add_single src 0x00000000#32 reduces_S1024x128_S1024 hφ hacc (ix1 p)).trans ?_
  refine Finset.sum_congr rfl fun k _ => congrArg src ?_
  funext a
  match a with
  | ⟨0, _⟩ => rfl
  | ⟨1, _⟩ => rfl

/-- A row sum of a 1024 x 1024 tile. -/
theorem k1_rowsum1024 (src : FVec Ideal S1024x1024 .f32) (hφ : FKind.Formats .f32)
    (hacc : (0x00000000#32 : BitVec 32) = FKind.add.neutral .f32 hφ) (p : Fin 1024) :
    multiReduction .add [1] S1024 src 0x00000000#32 reduces_S1024x1024_S1024 hφ hacc (ix1 p)
      = ∑ r : Fin 1024, src (ix2 p r) := by
  refine (Ideal.multiReduction_add_single src 0x00000000#32 reduces_S1024x1024_S1024 hφ hacc (ix1 p)).trans ?_
  refine Finset.sum_congr rfl fun k _ => congrArg src ?_
  funext a
  match a with
  | ⟨0, _⟩ => rfl
  | ⟨1, _⟩ => rfl

/-- A vector of 1024 entries viewed as a column. -/
theorem k1_col {α : Type} (v : S1024.Idx → α) (p : Fin 1024) :
    shapeCast S1024x1 v shapeCasts_S1024_S1024x1 (ix2 p (0 : Fin 1)) = v (ix1 p) := by
  refine shapeCast_apply v shapeCasts_S1024_S1024x1 (ix2 p (0 : Fin 1)) (ix1 p) ?_
  rw [Shape.rowMajor_val_one, Shape.rowMajor_val_two]
  show p.val = p.val * 1 + 0
  omega

/-- A column spread over 128 lanes. -/
theorem k1_bcol128 {α : Type} (c : S1024x1.Idx → α) (p : Fin 1024) (k : Fin 128) :
    broadcastTo S1024x128 c broadcasts_S1024x1_S1024x128 (ix2 p k) = c (ix2 p (0 : Fin 1)) := by
  refine broadcastTo_apply c broadcasts_S1024x1_S1024x128 (ix2 p k) (ix2 p (0 : Fin 1)) ?_
  intro a
  match a with
  | ⟨0, _⟩ => rfl
  | ⟨1, _⟩ => rfl

/-- A column spread over 1024 lanes. -/
theorem k1_bcol1024 {α : Type} (c : S1024x1.Idx → α) (p r : Fin 1024) :
    broadcastTo S1024x1024 c broadcasts_S1024x1_S1024x1024 (ix2 p r) = c (ix2 p (0 : Fin 1)) := by
  refine broadcastTo_apply c broadcasts_S1024x1_S1024x1024 (ix2 p r) (ix2 p (0 : Fin 1)) ?_
  intro a
  match a with
  | ⟨0, _⟩ => rfl
  | ⟨1, _⟩ => rfl

/-- A row spread over 1024 sublanes. -/
theorem k1_brow1024 {α : Type} (c : S1x1024.Idx → α) (p r : Fin 1024) :
    broadcastTo S1024x1024 c broadcasts_S1x1024_S1024x1024 (ix2 p r) = c (ix2 (0 : Fin 1) r) := by
  refine broadcastTo_apply c broadcasts_S1x1024_S1024x1024 (ix2 p r) (ix2 (0 : Fin 1) r) ?_
  intro a
  match a with
  | ⟨0, _⟩ => rfl
  | ⟨1, _⟩ => rfl

/-- The transposed key tile. -/
theorem k1_transp {α : Type} (x : S1024x128.Idx → α) (k : Fin 128) (r : Fin 1024) :
    transpose S128x1024 [1, 0] x transposes_S1024x128_p1_0_S128x1024 (ix2 k r) = x (ix2 r k) := by
  refine transpose_apply [1, 0] x transposes_S1024x128_p1_0_S128x1024 (ix2 k r) (ix2 r k) ?_
  intro b
  match b with
  | ⟨0, _⟩ => rfl
  | ⟨1, _⟩ => rfl

/-! The tile product: its operand indices at output (p, q) and contraction coordinate k are (p, k) and (k, q). -/
theorem k1_lhs_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem k1_lhs_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem k1_rhs_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem k1_rhs_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The tile product read at (p, q): the inner product of row p of the left tile and column q of the right one. -/
theorem k1_matmul (l : FVec Ideal S1024x128 .bf16) (r : FVec Ideal S128x1024 .bf16) (p q : Fin 1024) :
    matmul dot_S1024x128_S128x1024_S1024x1024_1_0_0_1_n_n none l r (constant (F := Ideal) S1024x1024 .f32 0x00000000#32) (ix2 p q)
      = ∑ k : Fin 128, l (ix2 p k) * r (ix2 k q) := by
  show FloatOps.matmul dot_S1024x128_S128x1024_S1024x1024_1_0_0_1_n_n none l r (constant (F := Ideal) S1024x1024 .f32 0x00000000#32) (ix2 p q) = _
  rw [Ideal.matmul_constant_zero_apply, ← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 p q) ((ValueIdx.contrEquiv1 dot_S1024x128_S128x1024_S1024x1024_1_0_0_1_n_n 128 rfl rfl).symm k) = ix2 p k := funext fun a => Fin.ext (by
    match a with
    | ⟨0, _⟩ => exact k1_lhs_0 _ _
    | ⟨1, _⟩ => exact (k1_lhs_1 _ _).trans hk)
  have er : dot_S1024x128_S128x1024_S1024x1024_1_0_0_1_n_n.rhsIdx (ix2 p q) ((ValueIdx.contrEquiv1 dot_S1024x128_S128x1024_S1024x1024_1_0_0_1_n_n 128 rfl rfl).symm k) = ix2 k q := funext fun a => Fin.ext (by
    match a with
    | ⟨0, _⟩ => exact (k1_rhs_0 _ _).trans hk
    | ⟨1, _⟩ => exact k1_rhs_1 _ _)
  rw [el, er]

/-- The row sums of a 1024 x 1024 tile of reals, kept as a column: a real again, the sum of the row. -/
theorem k1_rowsums (src : FVec Ideal S1024x1024 .f32) (G : Fin 1024 → Fin 1024 → ℝ)
    (h : ∀ p r, src (ix2 p r) = ((G p r : ℝ) : EReal)) (p : Fin 1024) :
    shapeCast S1024x1 (multiReduction .add [1] S1024 src 0x00000000#32 reduces_S1024x1024_S1024 (.inl rfl) rfl) shapeCasts_S1024_S1024x1 (ix2 p (0 : Fin 1))
      = ((∑ r, G p r : ℝ) : EReal) := by
  refine (k1_col _ p).trans ((k1_rowsum1024 src (.inl rfl) rfl p).trans ?_)
  rw [Finset.sum_congr rfl (fun r _ => h p r), k1_coe_sum]

/-- Two naturals below 2^32 are equal when their 32-bit words are. -/
theorem k1_ofNat_inj (a b : ℕ) (ha : a < 4294967296) (hb : b < 4294967296) :
    BitVec.ofNat 32 a = BitVec.ofNat 32 b ↔ a = b := by
  constructor
  · intro h
    have h' := congrArg BitVec.toNat h
    simp only [BitVec.toNat_ofNat] at h'
    omega
  · rintro rfl; rfl

/-- A select on a bit that is one exactly when P holds is the `if` on P. -/
theorem k1_select_iff {α : Type} (c : BitVec 1) (P : Prop) [Decidable P] (h : c = 1#1 ↔ P) (a b : α) :
    Scalar.select c a b = if P then a else b := by
  show (if c = 1#1 then a else b) = _
  by_cases hp : P
  · rw [if_pos (h.mpr hp), if_pos hp]
  · rw [if_neg (fun hc => hp (h.mp hc)), if_neg hp]

/-- The one-bit word widened and read as a signed integer, as a real: one for the bit one, zero for the bit zero. -/
theorem k1_bit_real (c : BitVec 1) (P : Prop) [Decidable P] (h : c = 1#1 ↔ P) :
    (FloatOps.sitofp (F := Ideal) .f32 (c.setWidth 32) : EReal) = (((if P then 1 else 0 : ℝ)) : EReal) := by
  show ((((c.setWidth 32).toInt : ℤ) : ℝ) : EReal) = _
  by_cases hp : P
  · rw [h.mpr hp, if_pos hp]
    have e : ((1#1 : BitVec 1).setWidth 32).toInt = 1 := by decide
    rw [e]; norm_num
  · have hc : c = 0#1 := eq_zero_of_ne_one (fun hc => hp (h.mp hc))
    rw [hc, if_neg hp]
    have e : ((0#1 : BitVec 1).setWidth 32).toInt = 0 := by decide
    rw [e]; norm_num

/-! A tile with its rows scaled to unit length (the length floored at the small positive literal), as the kernel writes it:
    the row's squares summed, the root, the floor, spread back over the lanes, and the quotient. -/
def unitTile (v : FVec Ideal S1024x128 .f32) : FVec Ideal S1024x128 .f32 :=
  divf v (broadcastTo S1024x128 (maximumf (sqrt (shapeCast S1024x1 (multiReduction .add [1] S1024 (mulf v v) 0x00000000#32 reduces_S1024x128_S1024 (.inl rfl) rfl) shapeCasts_S1024_S1024x1)) (broadcast S1024x1 (Scalar.ofBits (F := Ideal) .f32 0x2B8CBCCC#32))) broadcasts_S1024x1_S1024x128)

/-- On a tile of reals the scaled tile is the specification's unit row, entry by entry: the sum of squares is a
    nonnegative real, so its root is real; the floor is positive, so the quotient is the real quotient. -/
theorem unitTile_apply (ε : ℝ) (hε : Ideal.ofBits .f32 0x2B8CBCCC#32 = ((ε : ℝ) : EReal)) (hpos : 0 < ε)
    (x : Fin 1024 → Fin 128 → ℝ) (v : FVec Ideal S1024x128 .f32) (hv : ∀ p k, v (ix2 p k) = ((x p k : ℝ) : EReal))
    (p : Fin 1024) (k : Fin 128) :
    unitTile v (ix2 p k) = ((Spec.unit ε x p k : ℝ) : EReal) := by
  have hsum : multiReduction .add [1] S1024 (mulf v v) 0x00000000#32 reduces_S1024x128_S1024 (.inl rfl) rfl (ix1 p)
      = ((∑ k, x p k * x p k : ℝ) : EReal) := by
    refine (k1_rowsum128 (mulf v v) (.inl rfl) rfl p).trans ?_
    rw [← k1_coe_sum]
    refine Finset.sum_congr rfl fun k _ => ?_
    rw [mulf_apply, hv, EReal.coe_mul]
  have hnn : ¬ (∑ k, x p k * x p k : ℝ) < 0 := not_lt.mpr (Finset.sum_nonneg fun k _ => mul_self_nonneg _)
  have hlen : maximumf (sqrt (shapeCast S1024x1 (multiReduction .add [1] S1024 (mulf v v) 0x00000000#32 reduces_S1024x128_S1024 (.inl rfl) rfl) shapeCasts_S1024_S1024x1)) (broadcast S1024x1 (Scalar.ofBits (F := Ideal) .f32 0x2B8CBCCC#32)) (ix2 p (0 : Fin 1))
      = ((Spec.len ε x p : ℝ) : EReal) := by
    show max (Ideal.sqrt (shapeCast S1024x1 (multiReduction .add [1] S1024 (mulf v v) 0x00000000#32 reduces_S1024x128_S1024 (.inl rfl) rfl) shapeCasts_S1024_S1024x1 (ix2 p (0 : Fin 1)))) (Ideal.ofBits .f32 0x2B8CBCCC#32) = _
    rw [k1_col, hsum, hε, Ideal.sqrt_coe, if_neg hnn]
    exact (EReal.coe_strictMono.monotone.map_max).symm
  have hne : Spec.len ε x p ≠ 0 := ne_of_gt (lt_of_lt_of_le hpos (le_max_right _ _))
  show Ideal.div (v (ix2 p k)) (broadcastTo S1024x128 _ broadcasts_S1024x1_S1024x128 (ix2 p k)) = _
  rw [k1_bcol128, hlen, hv, Ideal.div_coe hne, ← EReal.coe_mul]
  refine congrArg _ ?_
  unfold Spec.unit
  rw [mul_one_div]

/-- The similarity tile as the kernel writes it: the product of the scaled query tile and the transposed scaled key tile
    (the sixteen-bit casts between are the identity on extended reals), times the named reciprocal temperature. -/
theorem k1_pay11_eq (v3 v4 : FVec Ideal S1024x128 .f32) :
    Gen.k1_pay11 (F := Ideal) v3 v4
      = mulf (matmul dot_S1024x128_S128x1024_S1024x1024_1_0_0_1_n_n none (truncf .bf16 (unitTile v3) bitsLt_bf16_f32)
          (transpose S128x1024 [1, 0] (truncf .bf16 (unitTile v4) bitsLt_bf16_f32) transposes_S1024x128_p1_0_S128x1024)
          (constant (F := Ideal) S1024x1024 .f32 0x00000000#32))
        (broadcast S1024x1024 (Named.named (F := Ideal) κ "inv_t" (φ := .f32) 0x40555555#32)) := rfl

section Tile
variable (ε invτ : ℝ) (hε : Ideal.ofBits .f32 0x2B8CBCCC#32 = ((ε : ℝ) : EReal)) (hpos : 0 < ε)
  (hinv : Named.named (F := Ideal) κ "inv_t" (φ := .f32) 0x40555555#32 = ((invτ : ℝ) : EReal))
  (xq xk : Fin 1024 → Fin 128 → ℝ) (v3 v4 : FVec Ideal S1024x128 .f32)
  (h3 : ∀ p k, v3 (ix2 p k) = ((xq p k : ℝ) : EReal)) (h4 : ∀ p k, v4 (ix2 p k) = ((xk p k : ℝ) : EReal))

/-- The tile's similarity of query row p and key row r, over the reals. -/
def simT (p r : Fin 1024) : ℝ := (∑ k, Spec.unit ε xq p k * Spec.unit ε xk r k) * invτ

include hε hpos hinv h3 h4 in
/-- The similarity tile at (p, r). -/
theorem k1_pay11_apply (p r : Fin 1024) :
    Gen.k1_pay11 (F := Ideal) v3 v4 (ix2 p r) = ((simT ε invτ xq xk p r : ℝ) : EReal) := by
  have hk : ∀ k : Fin 128, truncf .bf16 (unitTile v3) bitsLt_bf16_f32 (ix2 p k)
      * transpose S128x1024 [1, 0] (truncf .bf16 (unitTile v4) bitsLt_bf16_f32) transposes_S1024x128_p1_0_S128x1024 (ix2 k r)
      = ((Spec.unit ε xq p k * Spec.unit ε xk r k : ℝ) : EReal) := by
    intro k
    rw [k1_transp, truncf_apply, truncf_apply, unitTile_apply ε hε hpos xq v3 h3, unitTile_apply ε hε hpos xk v4 h4, EReal.coe_mul]
  rw [k1_pay11_eq, mulf_apply, broadcast_apply, hinv, k1_matmul, Finset.sum_congr rfl (fun k _ => hk k), k1_coe_sum, ← EReal.coe_mul]
  rfl

include hε hpos hinv h3 h4 in
/-- Its exponential at (p, r). -/
theorem k1_pay12_apply (p r : Fin 1024) :
    Gen.k1_pay12 (F := Ideal) v3 v4 (ix2 p r) = ((Real.exp (simT ε invτ xq xk p r) : ℝ) : EReal) := by
  show Ideal.exp (Gen.k1_pay11 (F := Ideal) v3 v4 (ix2 p r)) = _
  rw [k1_pay11_apply ε invτ hε hpos hinv xq xk v3 v4 h3 h4 p r, Ideal.exp_coe]

include hε hpos hinv h3 h4 in
/-- The running denominator after this tile: the carried column plus the row sums of the exponentials. -/
theorem k1_pay13_apply (acc : Fin 1024 → ℝ) (v28 : FVec Ideal S1024x1 .f32)
    (h28 : ∀ p, v28 (ix2 p (0 : Fin 1)) = ((acc p : ℝ) : EReal)) (p : Fin 1024) :
    Gen.k1_pay13 (F := Ideal) v3 v4 v28 (ix2 p (0 : Fin 1))
      = ((acc p + ∑ r : Fin 1024, Real.exp (simT ε invτ xq xk p r) : ℝ) : EReal) := by
  show shapeCast S1024x1 v28 shapeCasts_S1024x1_S1024x1 (ix2 p (0 : Fin 1))
      + shapeCast S1024x1 (multiReduction .add [1] S1024 (Gen.k1_pay12 (F := Ideal) v3 v4) 0x00000000#32 reduces_S1024x1024_S1024 (.inl rfl) rfl) shapeCasts_S1024_S1024x1 (ix2 p (0 : Fin 1)) = _
  refine (congrArg₂ (fun a b : EReal => a + b) ?_ ?_).trans (EReal.coe_add _ _).symm
  · rw [shapeCast_self]; exact h28 p
  · exact k1_rowsums _ (fun p r => Real.exp (simT ε invτ xq xk p r))
      (fun p r => k1_pay12_apply ε invτ hε hpos hinv xq xk v3 v4 h3 h4 p r) p

end Tile

section Labels
variable (lq lk : Fin 1024 → Fin 1000) (v35 : IVec S1024x1 32) (v36 : IVec S1x1024 32)
  (h35 : ∀ p, v35 (ix2 p (0 : Fin 1)) = BitVec.ofNat 32 (lq p).val)
  (h36 : ∀ r, v36 (ix2 (0 : Fin 1) r) = BitVec.ofNat 32 (lk r).val)

include h35 h36 in
/-- The same-label mask at (p, r): the label column against the label row; labels are below 1000, so their words are
    equal exactly when the labels are. -/
theorem k1_pay1_apply (p r : Fin 1024) :
    Gen.k1_pay1 (F := Ideal) v35 v36 (ix2 p r) = 1#1 ↔ lq p = lk r := by
  show IntOp.cmpi .eq (broadcastTo S1024x1024 v35 broadcasts_S1024x1_S1024x1024 (ix2 p r))
      (broadcastTo S1024x1024 (shapeCast S1x1024 v36 shapeCasts_S1x1024_S1x1024) broadcasts_S1x1024_S1024x1024 (ix2 p r)) = 1#1 ↔ _
  rw [k1_bcol1024, k1_brow1024, shapeCast_self, h35, h36, IntOp.cmpi_eq,
    k1_ofNat_inj _ _ (by have := (lq p).isLt; omega) (by have := (lk r).isLt; omega)]
  exact ⟨fun h => Fin.ext h, fun h => congrArg Fin.val h⟩

include h35 h36 in
/-- The running sum over positives after this tile: the carried column plus the row sums of the similarities kept where
    the labels agree. -/
theorem k1_pay2_apply (s : Fin 1024 → Fin 1024 → ℝ) (v26 : FVec Ideal S1024x1024 .f32)
    (h26 : ∀ p r, v26 (ix2 p r) = ((s p r : ℝ) : EReal))
    (acc : Fin 1024 → ℝ) (v41 : FVec Ideal S1024x1 .f32) (h41 : ∀ p, v41 (ix2 p (0 : Fin 1)) = ((acc p : ℝ) : EReal))
    (p : Fin 1024) :
    Gen.k1_pay2 (F := Ideal) v26 v35 v36 v41 (ix2 p (0 : Fin 1))
      = ((acc p + ∑ r, (if lq p = lk r then s p r else 0) : ℝ) : EReal) := by
  show shapeCast S1024x1 v41 shapeCasts_S1024x1_S1024x1 (ix2 p (0 : Fin 1))
      + shapeCast S1024x1 (multiReduction .add [1] S1024 (select (Gen.k1_pay1 (F := Ideal) v35 v36) v26 (broadcast S1024x1024 (Scalar.ofBits (F := Ideal) .f32 0x00000000#32))) 0x00000000#32 reduces_S1024x1024_S1024 (.inl rfl) rfl) shapeCasts_S1024_S1024x1 (ix2 p (0 : Fin 1)) = _
  refine (congrArg₂ (fun a b : EReal => a + b) ?_ ?_).trans (EReal.coe_add _ _).symm
  · rw [shapeCast_self]; exact h41 p
  · refine k1_rowsums _ (fun p r => if lq p = lk r then s p r else 0) (fun p r => ?_) p
    rw [select_apply, k1_select_iff _ _ (k1_pay1_apply lq lk v35 v36 h35 h36 p r), h26, broadcast_apply]
    show (if lq p = lk r then ((s p r : ℝ) : EReal) else Ideal.ofBits .f32 0x00000000#32) = _
    rw [Ideal.ofBits_zero_f32]
    by_cases hl : lq p = lk r
    · rw [if_pos hl, if_pos hl]
    · rw [if_neg hl, if_neg hl]; rfl

include h35 h36 in
/-- The running count after this tile: the carried column plus the number of key rows of the query row's label. -/
theorem k1_pay3_apply (acc : Fin 1024 → ℝ) (v49 : FVec Ideal S1024x1 .f32)
    (h49 : ∀ p, v49 (ix2 p (0 : Fin 1)) = ((acc p : ℝ) : EReal)) (p : Fin 1024) :
    Gen.k1_pay3 (F := Ideal) v35 v36 v49 (ix2 p (0 : Fin 1))
      = ((acc p + ∑ r, (if lq p = lk r then (1 : ℝ) else 0) : ℝ) : EReal) := by
  show shapeCast S1024x1 v49 shapeCasts_S1024x1_S1024x1 (ix2 p (0 : Fin 1))
      + shapeCast S1024x1 (multiReduction .add [1] S1024 (sitofp (F := Ideal) .f32 (extui 32 (Gen.k1_pay1 (F := Ideal) v35 v36) natLt_1_32)) 0x00000000#32 reduces_S1024x1024_S1024 (.inl rfl) rfl) shapeCasts_S1024_S1024x1 (ix2 p (0 : Fin 1)) = _
  refine (congrArg₂ (fun a b : EReal => a + b) ?_ ?_).trans (EReal.coe_add _ _).symm
  · rw [shapeCast_self]; exact h49 p
  · refine k1_rowsums _ (fun p r => if lq p = lk r then (1 : ℝ) else 0) (fun p r => ?_) p
    rw [sitofp_apply, extui_apply]
    exact k1_bit_real _ _ (k1_pay1_apply lq lk v35 v36 h35 h36 p r)

end Labels

/-- The tile's diagonal mask at (p, r): row number against column number. -/
theorem k1_pay4_apply (p r : Fin 1024) : Gen.k1_pay4 (ix2 p r) = 1#1 ↔ p = r := by
  show IntOp.cmpi .eq (iota .tc S1024x1024 32 [0] iota_S1024x1024_d0_w32 (ix2 p r))
      (iota .tc S1024x1024 32 [1] iota_S1024x1024_d1_w32 (ix2 p r)) = 1#1 ↔ _
  rw [iota_single_apply, iota_single_apply, IntOp.cmpi_eq]
  show BitVec.ofNat 32 p.val = BitVec.ofNat 32 r.val ↔ p = r
  rw [k1_ofNat_inj _ _ (by have := p.isLt; omega) (by have := r.isLt; omega)]
  exact ⟨fun h => Fin.ext h, fun h => congrArg Fin.val h⟩

/-- The row sums of a tile kept on its diagonal only: the diagonal entry. -/
theorem k1_diag_rowsums (v : FVec Ideal S1024x1024 .f32) (e : Fin 1024 → Fin 1024 → ℝ)
    (hv : ∀ p r, v (ix2 p r) = ((e p r : ℝ) : EReal)) (p : Fin 1024) :
    shapeCast S1024x1 (multiReduction .add [1] S1024 (select Gen.k1_pay4 v (broadcast S1024x1024 (Scalar.ofBits (F := Ideal) .f32 0x00000000#32))) 0x00000000#32 reduces_S1024x1024_S1024 (.inl rfl) rfl) shapeCasts_S1024_S1024x1 (ix2 p (0 : Fin 1))
      = ((e p p : ℝ) : EReal) := by
  refine (k1_rowsums _ (fun p r => if p = r then e p r else 0) (fun p r => ?_) p).trans ?_
  · rw [select_apply, k1_select_iff _ _ (k1_pay4_apply p r), hv, broadcast_apply]
    show (if p = r then ((e p r : ℝ) : EReal) else Ideal.ofBits .f32 0x00000000#32) = _
    rw [Ideal.ofBits_zero_f32]
    by_cases hl : p = r
    · rw [if_pos hl, if_pos hl]
    · rw [if_neg hl, if_neg hl]; rfl
  · rw [Finset.sum_ite_eq, if_pos (Finset.mem_univ p)]

/-- The diagonal correction of the denominator: the carried column minus the diagonal exponential. -/
theorem k1_pay5_apply (e : Fin 1024 → Fin 1024 → ℝ) (v27 : FVec Ideal S1024x1024 .f32)
    (h27 : ∀ p r, v27 (ix2 p r) = ((e p r : ℝ) : EReal))
    (acc : Fin 1024 → ℝ) (v71 : FVec Ideal S1024x1 .f32) (h71 : ∀ p, v71 (ix2 p (0 : Fin 1)) = ((acc p : ℝ) : EReal))
    (p : Fin 1024) :
    Gen.k1_pay5 (F := Ideal) v27 v71 (ix2 p (0 : Fin 1)) = ((acc p - e p p : ℝ) : EReal) := by
  show shapeCast S1024x1 v71 shapeCasts_S1024x1_S1024x1 (ix2 p (0 : Fin 1))
      - shapeCast S1024x1 (multiReduction .add [1] S1024 (select Gen.k1_pay4 v27 (broadcast S1024x1024 (Scalar.ofBits (F := Ideal) .f32 0x00000000#32))) 0x00000000#32 reduces_S1024x1024_S1024 (.inl rfl) rfl) shapeCasts_S1024_S1024x1 (ix2 p (0 : Fin 1)) = _
  refine (congrArg₂ (fun a b : EReal => a - b) ?_ (k1_diag_rowsums v27 e h27 p)).trans (EReal.coe_sub _ _).symm
  rw [shapeCast_self]; exact h71 p

/-- The diagonal correction of the sum over positives: the carried column minus the diagonal similarity. -/
theorem k1_pay6_apply (s : Fin 1024 → Fin 1024 → ℝ) (v26 : FVec Ideal S1024x1024 .f32)
    (h26 : ∀ p r, v26 (ix2 p r) = ((s p r : ℝ) : EReal))
    (acc : Fin 1024 → ℝ) (v75 : FVec Ideal S1024x1 .f32) (h75 : ∀ p, v75 (ix2 p (0 : Fin 1)) = ((acc p : ℝ) : EReal))
    (p : Fin 1024) :
    Gen.k1_pay6 (F := Ideal) v26 v75 (ix2 p (0 : Fin 1)) = ((acc p - s p p : ℝ) : EReal) := by
  show shapeCast S1024x1 v75 shapeCasts_S1024x1_S1024x1 (ix2 p (0 : Fin 1))
      - shapeCast S1024x1 (multiReduction .add [1] S1024 (select Gen.k1_pay4 v26 (broadcast S1024x1024 (Scalar.ofBits (F := Ideal) .f32 0x00000000#32))) 0x00000000#32 reduces_S1024x1024_S1024 (.inl rfl) rfl) shapeCasts_S1024_S1024x1 (ix2 p (0 : Fin 1)) = _
  refine (congrArg₂ (fun a b : EReal => a - b) ?_ (k1_diag_rowsums v26 s h26 p)).trans (EReal.coe_sub _ _).symm
  rw [shapeCast_self]; exact h75 p

/-- The diagonal correction of the count: one off. -/
theorem k1_pay7_apply (h1 : Ideal.ofBits .f32 0x3F800000#32 = ((1 : ℝ) : EReal))
    (acc : Fin 1024 → ℝ) (v79 : FVec Ideal S1024x1 .f32) (h79 : ∀ p, v79 (ix2 p (0 : Fin 1)) = ((acc p : ℝ) : EReal))
    (p : Fin 1024) :
    Gen.k1_pay7 (F := Ideal) v79 (ix2 p (0 : Fin 1)) = ((acc p - 1 : ℝ) : EReal) := by
  show shapeCast S1024x1 v79 shapeCasts_S1024x1_S1024x1 (ix2 p (0 : Fin 1)) - Ideal.ofBits .f32 0x3F800000#32 = _
  rw [shapeCast_self, h79, h1, ← EReal.coe_sub]

/-- The reset columns are zero. -/
theorem k1_pay8_apply (p : Fin 1024) : Gen.k1_pay8 (F := Ideal) (ix2 p (0 : Fin 1)) = ((0 : ℝ) : EReal) := by
  show Ideal.ofBits .f32 0x00000000#32 = _
  rw [Ideal.ofBits_zero_f32]; rfl
theorem k1_pay9_apply (p : Fin 1024) : Gen.k1_pay9 (F := Ideal) (ix2 p (0 : Fin 1)) = ((0 : ℝ) : EReal) := by
  show Ideal.ofBits .f32 0x00000000#32 = _
  rw [Ideal.ofBits_zero_f32]; rfl
theorem k1_pay10_apply (p : Fin 1024) : Gen.k1_pay10 (F := Ideal) (ix2 p (0 : Fin 1)) = ((0 : ℝ) : EReal) := by
  show Ideal.ofBits .f32 0x00000000#32 = _
  rw [Ideal.ofBits_zero_f32]; rfl

end Cert.KernelIdeal.Hand

end
-- ==== Proof.K1ValB.lean ====
/-
  Kernel region 1, the three carried columns point by point, over the reals.

  The grid is 8 query blocks by 8 key blocks, point t = 8 * (query block) + (key block). For a fixed query block the eight key blocks
  are visited in turn and three columns are carried: a point resets them at key block 0, adds the tile's row sums, and on the
  diagonal tile takes the diagonal's own term off. For query row i (row p of query block q, i = 1024 q + p) the column entry
  after key block n is therefore the running total of Bridge: the block sums over key blocks 0..n, less the diagonal term once the
  diagonal block q has been passed. This module proves that by induction over the points, from one point's step over the reals.
-/
import proofs.«400644_j12893491823014_2_alg».proof.Proof.K1ValA
import proofs.«400644_j12893491823014_2_alg».proof.Proof.B1Defs
import proofs.«400644_j12893491823014_2_alg».proof.Proof.Bridge

set_option synthInstance.maxSize 4096

noncomputable section

namespace Cert.KernelIdeal.Hand

open Idealize.ShloMosaic Idealize.ShloMosaic.TcCoe Idealize.ShloMosaic.ValueIdx Idealize.SL.Sem
open Cert.KernelIdeal.Facts₀ Cert.KernelIdeal.Facts

/-! ## One point of the grid, over the reals

The three carried columns after one point, from real blocks: the column found (zero when the point resets) plus the tile's row sums,
less the diagonal's own term when the tile is a diagonal one. -/

section Point
variable (ε invτ : ℝ) (hε : Ideal.ofBits .f32 0x2B8CBCCC#32 = ((ε : ℝ) : EReal)) (hpos : 0 < ε)
  (hinv : Named.named (F := Ideal) κ "inv_t" (φ := .f32) 0x40555555#32 = ((invτ : ℝ) : EReal))
  (h1 : Ideal.ofBits .f32 0x3F800000#32 = ((1 : ℝ) : EReal))
  (xq xk : Fin 1024 → Fin 128 → ℝ) (x0 x1 : FVec Ideal S1024x128 .f32)
  (hx0 : ∀ p k, x0 (ix2 p k) = ((xq p k : ℝ) : EReal)) (hx1 : ∀ p k, x1 (ix2 p k) = ((xk p k : ℝ) : EReal))
  (lq lk : Fin 1024 → Fin 1000) (l2 : IVec S1024x1 32) (l3 : IVec S1x1024 32)
  (hl2 : ∀ p, l2 (ix2 p (0 : Fin 1)) = BitVec.ofNat 32 (lq p).val)
  (hl3 : ∀ r, l3 (ix2 (0 : Fin 1) r) = BitVec.ofNat 32 (lk r).val)
  (zr : Fin 1024 → ℝ) (z : FVec Ideal S1024x1 .f32) (hz : ∀ p, z (ix2 p (0 : Fin 1)) = ((zr p : ℝ) : EReal))

include hl2 in
/-- The label column passes through its cast unchanged. -/
theorem k1_pay14_apply (p : Fin 1024) : Gen.k1_pay14 (F := Ideal) l2 (ix2 p (0 : Fin 1)) = BitVec.ofNat 32 (lq p).val := by
  show shapeCast S1024x1 l2 shapeCasts_S1024x1_S1024x1 (ix2 p (0 : Fin 1)) = _
  rw [shapeCast_self]; exact hl2 p

include hε hpos hinv hx0 hx1 hz in
/-- The denominator column on a diagonal tile. -/
theorem col4_D (p : Fin 1024) :
    Gen.k1_pay5 (F := Ideal) (Gen.k1_pay12 (F := Ideal) x0 x1) (Gen.k1_pay13 (F := Ideal) x0 x1 z) (ix2 p (0 : Fin 1))
      = (((zr p + ∑ r : Fin 1024, Real.exp (simT ε invτ xq xk p r)) - Real.exp (simT ε invτ xq xk p p) : ℝ) : EReal) :=
  k1_pay5_apply (fun p r => Real.exp (simT ε invτ xq xk p r)) _
    (fun p r => k1_pay12_apply ε invτ hε hpos hinv xq xk x0 x1 hx0 hx1 p r)
    (fun p => zr p + ∑ r : Fin 1024, Real.exp (simT ε invτ xq xk p r)) _
    (fun p => k1_pay13_apply ε invτ hε hpos hinv xq xk x0 x1 hx0 hx1 zr z hz p) p

include hε hpos hinv hx0 hx1 hl2 hl3 hz in
/-- The positives column off the diagonal. -/
theorem col5_N (p : Fin 1024) :
    Gen.k1_pay2 (F := Ideal) (Gen.k1_pay11 (F := Ideal) x0 x1) (Gen.k1_pay14 (F := Ideal) l2) l3 z (ix2 p (0 : Fin 1))
      = ((zr p + ∑ r : Fin 1024, (if lq p = lk r then simT ε invτ xq xk p r else 0) : ℝ) : EReal) :=
  k1_pay2_apply lq lk _ l3 (k1_pay14_apply lq l2 hl2) hl3 (simT ε invτ xq xk) _
    (fun p r => k1_pay11_apply ε invτ hε hpos hinv xq xk x0 x1 hx0 hx1 p r) zr z hz p

include hε hpos hinv hx0 hx1 hl2 hl3 hz in
/-- The positives column on a diagonal tile. -/
theorem col5_D (p : Fin 1024) :
    Gen.k1_pay6 (F := Ideal) (Gen.k1_pay11 (F := Ideal) x0 x1)
        (Gen.k1_pay2 (F := Ideal) (Gen.k1_pay11 (F := Ideal) x0 x1) (Gen.k1_pay14 (F := Ideal) l2) l3 z) (ix2 p (0 : Fin 1))
      = (((zr p + ∑ r : Fin 1024, (if lq p = lk r then simT ε invτ xq xk p r else 0)) - simT ε invτ xq xk p p : ℝ) : EReal) :=
  k1_pay6_apply (simT ε invτ xq xk) _
    (fun p r => k1_pay11_apply ε invτ hε hpos hinv xq xk x0 x1 hx0 hx1 p r)
    (fun p => zr p + ∑ r : Fin 1024, (if lq p = lk r then simT ε invτ xq xk p r else 0)) _
    (fun p => col5_N ε invτ hε hpos hinv xq xk x0 x1 hx0 hx1 lq lk l2 l3 hl2 hl3 zr z hz p) p

include hl2 hl3 hz in
/-- The count column off the diagonal. -/
theorem col6_N (p : Fin 1024) :
    Gen.k1_pay3 (F := Ideal) (Gen.k1_pay14 (F := Ideal) l2) l3 z (ix2 p (0 : Fin 1))
      = ((zr p + ∑ r : Fin 1024, (if lq p = lk r then (1 : ℝ) else 0) : ℝ) : EReal) :=
  k1_pay3_apply lq lk _ l3 (k1_pay14_apply lq l2 hl2) hl3 zr z hz p

include h1 hl2 hl3 hz in
/-- The count column on a diagonal tile. -/
theorem col6_D (p : Fin 1024) :
    Gen.k1_pay7 (F := Ideal) (Gen.k1_pay3 (F := Ideal) (Gen.k1_pay14 (F := Ideal) l2) l3 z) (ix2 p (0 : Fin 1))
      = (((zr p + ∑ r : Fin 1024, (if lq p = lk r then (1 : ℝ) else 0)) - 1 : ℝ) : EReal) :=
  k1_pay7_apply h1 (fun p => zr p + ∑ r : Fin 1024, (if lq p = lk r then (1 : ℝ) else 0)) _
    (fun p => col6_N lq lk l2 l3 hl2 hl3 zr z hz p) p

end Point

/-! ## One run of the body over the reals -/

section Step
variable (ε invτ : ℝ) (hε : Ideal.ofBits .f32 0x2B8CBCCC#32 = ((ε : ℝ) : EReal)) (hpos : 0 < ε)
  (hinv : Named.named (F := Ideal) κ "inv_t" (φ := .f32) 0x40555555#32 = ((invτ : ℝ) : EReal))
  (h1 : Ideal.ofBits .f32 0x3F800000#32 = ((1 : ℝ) : EReal))
  (xq xk : Fin 1024 → Fin 128 → ℝ) (x0 x1 : FVec Ideal S1024x128 .f32)
  (hx0 : ∀ p k, x0 (ix2 p k) = ((xq p k : ℝ) : EReal)) (hx1 : ∀ p k, x1 (ix2 p k) = ((xk p k : ℝ) : EReal))
  (lq lk : Fin 1024 → Fin 1000) (l2 : IVec S1024x1 32) (l3 : IVec S1x1024 32)
  (hl2 : ∀ p, l2 (ix2 p (0 : Fin 1)) = BitVec.ofNat 32 (lq p).val)
  (hl3 : ∀ r, l3 (ix2 (0 : Fin 1) r) = BitVec.ofNat 32 (lk r).val)
  (t : Fin cfg1.N) (o4 o5 o6 : FVec Ideal S1024x1 .f32) (a4 a5 a6 : Fin 1024 → ℝ)
  (h4 : ¬ t.val % 8 = 0 → ∀ p, o4 (ix2 p (0 : Fin 1)) = ((a4 p : ℝ) : EReal))
  (h5 : ¬ t.val % 8 = 0 → ∀ p, o5 (ix2 p (0 : Fin 1)) = ((a5 p : ℝ) : EReal))
  (h6 : ¬ t.val % 8 = 0 → ∀ p, o6 (ix2 p (0 : Fin 1)) = ((a6 p : ℝ) : EReal))

include hε hpos hinv h1 hx0 hx1 hl2 hl3 h4 h5 h6 in
/-- One run of the body at point t from real blocks: each column found (zero at key block 0, where what was found is not read)
    plus the tile's row sums, less the diagonal's own term on a diagonal tile. -/
theorem step1_real (p : Fin 1024) :
    (step1 (F := Ideal) t x0 x1 l2 l3 o4 o5 o6).1 (ix2 p (0 : Fin 1))
      = ((((if t.val % 8 = 0 then 0 else a4 p) + ∑ r : Fin 1024, Real.exp (simT ε invτ xq xk p r))
          - (if t.val / 8 = t.val % 8 then Real.exp (simT ε invτ xq xk p p) else 0) : ℝ) : EReal)
    ∧ (step1 (F := Ideal) t x0 x1 l2 l3 o4 o5 o6).2.1 (ix2 p (0 : Fin 1))
      = ((((if t.val % 8 = 0 then 0 else a5 p) + ∑ r : Fin 1024, (if lq p = lk r then simT ε invτ xq xk p r else 0))
          - (if t.val / 8 = t.val % 8 then simT ε invτ xq xk p p else 0) : ℝ) : EReal)
    ∧ (step1 (F := Ideal) t x0 x1 l2 l3 o4 o5 o6).2.2 (ix2 p (0 : Fin 1))
      = ((((if t.val % 8 = 0 then 0 else a6 p) + ∑ r : Fin 1024, (if lq p = lk r then (1 : ℝ) else 0))
          - (if t.val / 8 = t.val % 8 then (1 : ℝ) else 0) : ℝ) : EReal) := by
  have hz4 : ∀ p, (if t.val % 8 = 0 then Gen.k1_pay8 (F := Ideal) else o4) (ix2 p (0 : Fin 1))
      = (((if t.val % 8 = 0 then 0 else a4 p : ℝ)) : EReal) := by
    intro p
    by_cases hR : t.val % 8 = 0
    · rw [if_pos hR, if_pos hR]; exact k1_pay8_apply p
    · rw [if_neg hR, if_neg hR]; exact h4 hR p
  have hz5 : ∀ p, (if t.val % 8 = 0 then Gen.k1_pay9 (F := Ideal) else o5) (ix2 p (0 : Fin 1))
      = (((if t.val % 8 = 0 then 0 else a5 p : ℝ)) : EReal) := by
    intro p
    by_cases hR : t.val % 8 = 0
    · rw [if_pos hR, if_pos hR]; exact k1_pay9_apply p
    · rw [if_neg hR, if_neg hR]; exact h5 hR p
  have hz6 : ∀ p, (if t.val % 8 = 0 then Gen.k1_pay10 (F := Ideal) else o6) (ix2 p (0 : Fin 1))
      = (((if t.val % 8 = 0 then 0 else a6 p : ℝ)) : EReal) := by
    intro p
    by_cases hR : t.val % 8 = 0
    · rw [if_pos hR, if_pos hR]; exact k1_pay10_apply p
    · rw [if_neg hR, if_neg hR]; exact h6 hR p
  by_cases hD : t.val / 8 = t.val % 8
  · have e : step1 (F := Ideal) t x0 x1 l2 l3 o4 o5 o6
        = (Gen.k1_pay5 (F := Ideal) (Gen.k1_pay12 (F := Ideal) x0 x1) (Gen.k1_pay13 (F := Ideal) x0 x1 (if t.val % 8 = 0 then Gen.k1_pay8 (F := Ideal) else o4)),
           Gen.k1_pay6 (F := Ideal) (Gen.k1_pay11 (F := Ideal) x0 x1) (Gen.k1_pay2 (F := Ideal) (Gen.k1_pay11 (F := Ideal) x0 x1) (Gen.k1_pay14 (F := Ideal) l2) l3 (if t.val % 8 = 0 then Gen.k1_pay9 (F := Ideal) else o5)),
           Gen.k1_pay7 (F := Ideal) (Gen.k1_pay3 (F := Ideal) (Gen.k1_pay14 (F := Ideal) l2) l3 (if t.val % 8 = 0 then Gen.k1_pay10 (F := Ideal) else o6))) := by
      unfold step1; simp only [if_pos hD]
    rw [e, if_pos hD, if_pos hD, if_pos hD]
    exact ⟨col4_D ε invτ hε hpos hinv xq xk x0 x1 hx0 hx1 _ _ hz4 p,
      col5_D ε invτ hε hpos hinv xq xk x0 x1 hx0 hx1 lq lk l2 l3 hl2 hl3 _ _ hz5 p,
      col6_D h1 lq lk l2 l3 hl2 hl3 _ _ hz6 p⟩
  · have e : step1 (F := Ideal) t x0 x1 l2 l3 o4 o5 o6
        = (Gen.k1_pay13 (F := Ideal) x0 x1 (if t.val % 8 = 0 then Gen.k1_pay8 (F := Ideal) else o4),
           Gen.k1_pay2 (F := Ideal) (Gen.k1_pay11 (F := Ideal) x0 x1) (Gen.k1_pay14 (F := Ideal) l2) l3 (if t.val % 8 = 0 then Gen.k1_pay9 (F := Ideal) else o5),
           Gen.k1_pay3 (F := Ideal) (Gen.k1_pay14 (F := Ideal) l2) l3 (if t.val % 8 = 0 then Gen.k1_pay10 (F := Ideal) else o6)) := by
      unfold step1; simp only [if_neg hD]
    rw [e, if_neg hD, if_neg hD, if_neg hD, sub_zero, sub_zero, sub_zero]
    exact ⟨k1_pay13_apply ε invτ hε hpos hinv xq xk x0 x1 hx0 hx1 _ _ hz4 p,
      col5_N ε invτ hε hpos hinv xq xk x0 x1 hx0 hx1 lq lk l2 l3 hl2 hl3 _ _ hz5 p,
      col6_N lq lk l2 l3 hl2 hl3 _ _ hz6 p⟩

end Step

/-! ## The grid, block by block

Row p of block b of the 8192 rows is Bridge's `blockEquiv (b, p)` (the row 1024 b + p). Point n has query block n / 8 and key
block n % 8 (taken mod 8 so that they are total). -/

/-- The query block of point n. -/
def qB (n : ℕ) : Fin 8 := ⟨n / 8 % 8, Nat.mod_lt _ (by decide)⟩
/-- The key block of point n. -/
def kB (n : ℕ) : Fin 8 := ⟨n % 8, Nat.mod_lt _ (by decide)⟩

section Grid
variable (ε T invτ : ℝ) (X : Fin 8192 → Fin 128 → ℝ) (ℓ : Fin 8192 → Fin 1000)

/-- Block b of the feature rows. -/
def xblk (b : Fin 8) : Fin 1024 → Fin 128 → ℝ := fun p k => X (Spec.blockEquiv (b, p)) k
/-- Block b of the labels. -/
def lblk (b : Fin 8) : Fin 1024 → Fin 1000 := fun p => ℓ (Spec.blockEquiv (b, p))

/-- A tile's similarity is the specification's, at the two rows' places among the 8192; the product with the reciprocal
    temperature is the quotient by the temperature. -/
theorem simT_block (hT : invτ = 1 / T) (a b : Fin 8) (p r : Fin 1024) :
    simT ε invτ (xblk X a) (xblk X b) p r = Spec.sim ε T X (Spec.blockEquiv (a, p)) (Spec.blockEquiv (b, r)) := by
  unfold simT Spec.sim
  rw [hT, mul_one_div]
  rfl

/-- Row i's sum of exponentials over key block b. -/
def S4 (i : Fin 8192) (b : Fin 8) : ℝ := ∑ r : Fin 1024, Real.exp (Spec.sim ε T X i (Spec.blockEquiv (b, r)))
/-- Row i's sum of similarities over the rows of its class in key block b. -/
def S5 (i : Fin 8192) (b : Fin 8) : ℝ :=
  ∑ r : Fin 1024, if ℓ i = ℓ (Spec.blockEquiv (b, r)) then Spec.sim ε T X i (Spec.blockEquiv (b, r)) else 0
/-- The number of rows of row i's class in key block b. -/
def S6 (i : Fin 8192) (b : Fin 8) : ℝ := ∑ r : Fin 1024, if ℓ i = ℓ (Spec.blockEquiv (b, r)) then (1 : ℝ) else 0

variable (hε : Ideal.ofBits .f32 0x2B8CBCCC#32 = ((ε : ℝ) : EReal)) (hpos : 0 < ε)
  (hinv : Named.named (F := Ideal) κ "inv_t" (φ := .f32) 0x40555555#32 = ((invτ : ℝ) : EReal))
  (h1 : Ideal.ofBits .f32 0x3F800000#32 = ((1 : ℝ) : EReal)) (hT : invτ = 1 / T)
  (V : (c : Dev nD) → (b : Ref sig .tc) → Buf (Elt Ideal) ((c : Thread nD τ).loc b)) (c : Dev nD)

/-- The four input blocks at a point, at their literal types. -/
abbrev qblk (t : Fin cfg1.N) : FVec Ideal S1024x128 .f32 := iblk1 V c 0 t
abbrev kblk (t : Fin cfg1.N) : FVec Ideal S1024x128 .f32 := iblk1 V c 1 t
abbrev qlab (t : Fin cfg1.N) : IVec S1024x1 32 := iblk1 V c 2 t
abbrev klab (t : Fin cfg1.N) : IVec S1x1024 32 := iblk1 V c 3 t

variable
  (hq : ∀ (t : Fin cfg1.N) (p : Fin 1024) (k : Fin 128), qblk V c t (ix2 p k) = ((xblk X (qB t.val) p k : ℝ) : EReal))
  (hk : ∀ (t : Fin cfg1.N) (r : Fin 1024) (k : Fin 128), kblk V c t (ix2 r k) = ((xblk X (kB t.val) r k : ℝ) : EReal))
  (hlq : ∀ (t : Fin cfg1.N) (p : Fin 1024), qlab V c t (ix2 p (0 : Fin 1)) = BitVec.ofNat 32 (lblk ℓ (qB t.val) p).val)
  (hlk : ∀ (t : Fin cfg1.N) (r : Fin 1024), klab V c t (ix2 (0 : Fin 1) r) = BitVec.ofNat 32 (lblk ℓ (kB t.val) r).val)

include hε hpos hinv h1 hT hq hk hlq hlk in
/-- One point: if (off key block 0) the columns found hold the running totals after the key blocks before this one, the
    columns left hold the running totals after this one. -/
theorem point_real (t : Fin cfg1.N) (o4 o5 o6 : FVec Ideal S1024x1 .f32)
    (h4 : ¬ t.val % 8 = 0 → ∀ p : Fin 1024, o4 (ix2 p (0 : Fin 1))
      = ((Spec.accK (S4 ε T X (Spec.blockEquiv (qB t.val, p))) (Real.exp (Spec.sim ε T X (Spec.blockEquiv (qB t.val, p)) (Spec.blockEquiv (qB t.val, p)))) (qB t.val) (t.val % 8) : ℝ) : EReal))
    (h5 : ¬ t.val % 8 = 0 → ∀ p : Fin 1024, o5 (ix2 p (0 : Fin 1))
      = ((Spec.accK (S5 ε T X ℓ (Spec.blockEquiv (qB t.val, p))) (Spec.sim ε T X (Spec.blockEquiv (qB t.val, p)) (Spec.blockEquiv (qB t.val, p))) (qB t.val) (t.val % 8) : ℝ) : EReal))
    (h6 : ¬ t.val % 8 = 0 → ∀ p : Fin 1024, o6 (ix2 p (0 : Fin 1))
      = ((Spec.accK (S6 ℓ (Spec.blockEquiv (qB t.val, p))) 1 (qB t.val) (t.val % 8) : ℝ) : EReal))
    (p : Fin 1024) :
    (step1 (F := Ideal) t (qblk V c t) (kblk V c t) (qlab V c t) (klab V c t) o4 o5 o6).1 (ix2 p (0 : Fin 1))
      = ((Spec.accK (S4 ε T X (Spec.blockEquiv (qB t.val, p))) (Real.exp (Spec.sim ε T X (Spec.blockEquiv (qB t.val, p)) (Spec.blockEquiv (qB t.val, p)))) (qB t.val) (t.val % 8 + 1) : ℝ) : EReal)
    ∧ (step1 (F := Ideal) t (qblk V c t) (kblk V c t) (qlab V c t) (klab V c t) o4 o5 o6).2.1 (ix2 p (0 : Fin 1))
      = ((Spec.accK (S5 ε T X ℓ (Spec.blockEquiv (qB t.val, p))) (Spec.sim ε T X (Spec.blockEquiv (qB t.val, p)) (Spec.blockEquiv (qB t.val, p))) (qB t.val) (t.val % 8 + 1) : ℝ) : EReal)
    ∧ (step1 (F := Ideal) t (qblk V c t) (kblk V c t) (qlab V c t) (klab V c t) o4 o5 o6).2.2 (ix2 p (0 : Fin 1))
      = ((Spec.accK (S6 ℓ (Spec.blockEquiv (qB t.val, p))) 1 (qB t.val) (t.val % 8 + 1) : ℝ) : EReal) := by
  have hN : t.val < 64 := lt_of_lt_of_eq t.isLt (show cfg1.N = 64 from Gen.N_1)
  have hkj : t.val % 8 < 8 := Nat.mod_lt _ (by decide)
  have hqv : (qB t.val).val = t.val / 8 := Nat.mod_eq_of_lt (by omega)
  have hkB : (⟨t.val % 8, hkj⟩ : Fin 8) = kB t.val := rfl
  -- the found columns, where they are read
  have hR0 : ∀ (S : Fin 8 → ℝ) (d : ℝ), (if t.val % 8 = 0 then (0 : ℝ) else Spec.accK S d (qB t.val) (t.val % 8)) = Spec.accK S d (qB t.val) (t.val % 8) := by
    intro S d
    by_cases hR : t.val % 8 = 0
    · rw [if_pos hR, hR, Spec.accK_zero]
    · rw [if_neg hR]
  obtain ⟨e4, e5, e6⟩ := step1_real ε invτ hε hpos hinv h1 (xblk X (qB t.val)) (xblk X (kB t.val)) (qblk V c t) (kblk V c t) (hq t) (hk t)
    (lblk ℓ (qB t.val)) (lblk ℓ (kB t.val)) (qlab V c t) (klab V c t) (hlq t) (hlk t) t o4 o5 o6
    (fun p => Spec.accK (S4 ε T X (Spec.blockEquiv (qB t.val, p))) (Real.exp (Spec.sim ε T X (Spec.blockEquiv (qB t.val, p)) (Spec.blockEquiv (qB t.val, p)))) (qB t.val) (t.val % 8))
    (fun p => Spec.accK (S5 ε T X ℓ (Spec.blockEquiv (qB t.val, p))) (Spec.sim ε T X (Spec.blockEquiv (qB t.val, p)) (Spec.blockEquiv (qB t.val, p))) (qB t.val) (t.val % 8))
    (fun p => Spec.accK (S6 ℓ (Spec.blockEquiv (qB t.val, p))) 1 (qB t.val) (t.val % 8))
    h4 h5 h6 p
  -- the diagonal tile is the one whose key block is the query block
  have hdiag : ∀ d : ℝ, (if t.val / 8 = t.val % 8 then d else 0) = (if t.val % 8 = (qB t.val).val then d else 0) := by
    intro d
    by_cases hD : t.val / 8 = t.val % 8
    · rw [if_pos hD, if_pos (by rw [hqv]; exact hD.symm)]
    · rw [if_neg hD, if_neg (by rw [hqv]; exact fun h => hD h.symm)]
  have hkq : t.val / 8 = t.val % 8 → kB t.val = qB t.val := fun hD => Fin.ext (by show t.val % 8 = t.val / 8 % 8; omega)
  refine ⟨e4.trans (congrArg _ ?_), e5.trans (congrArg _ ?_), e6.trans (congrArg _ ?_)⟩
  · rw [Spec.accK_succ _ _ _ (t.val % 8) hkj, hR0, hkB]
    refine congrArg₂ (fun a b : ℝ => a - b) (congrArg₂ (fun a b : ℝ => a + b) rfl ?_) ?_
    · exact Finset.sum_congr rfl fun r _ => congrArg Real.exp (simT_block ε T invτ X hT _ _ p r)
    · by_cases hD : t.val / 8 = t.val % 8
      · rw [← hdiag, if_pos hD, if_pos hD, simT_block ε T invτ X hT, hkq hD]
      · rw [← hdiag, if_neg hD, if_neg hD]
  · rw [Spec.accK_succ _ _ _ (t.val % 8) hkj, hR0, hkB]
    refine congrArg₂ (fun a b : ℝ => a - b) (congrArg₂ (fun a b : ℝ => a + b) rfl ?_) ?_
    · refine Finset.sum_congr rfl fun r _ => ?_
      rw [simT_block ε T invτ X hT]
      rfl
    · by_cases hD : t.val / 8 = t.val % 8
      · rw [← hdiag, if_pos hD, if_pos hD, simT_block ε T invτ X hT, hkq hD]
      · rw [← hdiag, if_neg hD, if_neg hD]
  · rw [Spec.accK_succ _ _ _ (t.val % 8) hkj, hR0, hkB]
    refine congrArg₂ (fun a b : ℝ => a - b) (congrArg₂ (fun a b : ℝ => a + b) rfl ?_) (hdiag 1)
    rfl

include hε hpos hinv h1 hT hq hk hlq hlk in
/-- After point n the three columns hold, for row p of query block n / 8, the running totals after key block n % 8:
    by induction over the points, a point of key block 0 starting afresh and every other one from the point before. -/
theorem outs_inv : ∀ (n : ℕ) (hn : n < cfg1.N) (p : Fin 1024),
    (outsAt1 V c n hn).1 (ix2 p (0 : Fin 1))
      = ((Spec.accK (S4 ε T X (Spec.blockEquiv (qB n, p))) (Real.exp (Spec.sim ε T X (Spec.blockEquiv (qB n, p)) (Spec.blockEquiv (qB n, p)))) (qB n) (n % 8 + 1) : ℝ) : EReal)
    ∧ (outsAt1 V c n hn).2.1 (ix2 p (0 : Fin 1))
      = ((Spec.accK (S5 ε T X ℓ (Spec.blockEquiv (qB n, p))) (Spec.sim ε T X (Spec.blockEquiv (qB n, p)) (Spec.blockEquiv (qB n, p))) (qB n) (n % 8 + 1) : ℝ) : EReal)
    ∧ (outsAt1 V c n hn).2.2 (ix2 p (0 : Fin 1))
      = ((Spec.accK (S6 ℓ (Spec.blockEquiv (qB n, p))) 1 (qB n) (n % 8 + 1) : ℝ) : EReal) := by
  intro n
  induction n with
  | zero =>
    intro hn p
    rw [outsAt1_zero]
    exact point_real ε T invτ X ℓ hε hpos hinv h1 hT V c hq hk hlq hlk ⟨0, hn⟩ _ _ _
      (fun h => absurd rfl h) (fun h => absurd rfl h) (fun h => absurd rfl h) p
  | succ n ih =>
    intro hn p
    rw [outsAt1_succ]
    have hstep : ¬ (n + 1) % 8 = 0 → qB (n + 1) = qB n ∧ (n + 1) % 8 = n % 8 + 1 := fun hR =>
      ⟨Fin.ext (by show (n + 1) / 8 % 8 = n / 8 % 8; omega), by omega⟩
    refine point_real ε T invτ X ℓ hε hpos hinv h1 hT V c hq hk hlq hlk ⟨n + 1, hn⟩ _ _ _
      (fun hR p => ?_) (fun hR p => ?_) (fun hR p => ?_) p
    · show _ = ((Spec.accK (S4 ε T X (Spec.blockEquiv (qB (n + 1), p))) _ (qB (n + 1)) ((n + 1) % 8) : ℝ) : EReal)
      rw [(hstep hR).1, (hstep hR).2]
      exact (ih (Nat.lt_of_succ_lt hn) p).1
    · show _ = ((Spec.accK (S5 ε T X ℓ (Spec.blockEquiv (qB (n + 1), p))) _ (qB (n + 1)) ((n + 1) % 8) : ℝ) : EReal)
      rw [(hstep hR).1, (hstep hR).2]
      exact (ih (Nat.lt_of_succ_lt hn) p).2.1
    · show _ = ((Spec.accK (S6 ℓ (Spec.blockEquiv (qB (n + 1), p))) 1 (qB (n + 1)) ((n + 1) % 8) : ℝ) : EReal)
      rw [(hstep hR).1, (hstep hR).2]
      exact (ih (Nat.lt_of_succ_lt hn) p).2.2

end Grid

end Cert.KernelIdeal.Hand

end
-- ==== Proof.K1Arr.lean ====
/- Region 1, from blocks to arrays: each input window's block at a grid point (query block t / 8, key block t % 8)
   read as entries of the window's array, and each of the three accumulated output arrays after the run as one
   whole-array function, given that the last key block's point of every query block leaves its block of that
   function. Nothing here opens the body's arithmetic. -/
import proofs.«400644_j12893491823014_2_alg».proof.Proof.B1Defs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable {F : FTy → Type} [FloatOps F] [Named F]

variable (V : (c : Dev nD) → (b : Ref sig .tc) → Buf (Elt F) ((c : Thread nD τ).loc b))

/-! ## The windows' block indices over the grid

The grid is 8 by 8, point `t` at query block `t / 8` and key block `t % 8`. The query-side windows (the query
features, the label column, the three outputs) sit at row block `t / 8`; the key features at row block `t % 8`; the
label row at column block `t % 8`. -/

theorem idxQuery1 : ∀ t : Fin cfg1.N,
    win1_0.index t (0 : Fin 2) = t.val / 8 ∧ win1_0.index t (1 : Fin 2) = 0
    ∧ win1_2.index t (0 : Fin 2) = t.val / 8 ∧ win1_2.index t (1 : Fin 2) = 0
    ∧ win1_4.index t (0 : Fin 2) = t.val / 8 ∧ win1_4.index t (1 : Fin 2) = 0
    ∧ win1_5.index t (0 : Fin 2) = t.val / 8 ∧ win1_5.index t (1 : Fin 2) = 0
    ∧ win1_6.index t (0 : Fin 2) = t.val / 8 ∧ win1_6.index t (1 : Fin 2) = 0 :=
  (by decide +kernel : ∀ t : Fin grid1.N, _)

theorem idxKey1 : ∀ t : Fin cfg1.N,
    win1_1.index t (0 : Fin 2) = t.val % 8 ∧ win1_1.index t (1 : Fin 2) = 0
    ∧ win1_3.index t (0 : Fin 2) = 0 ∧ win1_3.index t (1 : Fin 2) = t.val % 8 :=
  (by decide +kernel : ∀ t : Fin grid1.N, _)

/-- Row `p` of the query block of point `t` is row `1024 (t / 8) + p` of an 8192-row array. -/
def qrow1 (t : Fin cfg1.N) (p : Fin 1024) : Fin 8192 :=
  ⟨1024 * (t.val / 8) + p.val, by have hN : cfg1.N = 64 := N_1; have := t.isLt; have := p.isLt; omega⟩

/-- Row `p` of the key block of point `t` is row `1024 (t % 8) + p` of an 8192-row array. -/
def krow1 (t : Fin cfg1.N) (p : Fin 1024) : Fin 8192 :=
  ⟨1024 * (t.val % 8) + p.val, by have := p.isLt; omega⟩

theorem qrow1_val (t : Fin cfg1.N) (p : Fin 1024) : (qrow1 t p).val = 1024 * (t.val / 8) + p.val := rfl
theorem krow1_val (t : Fin cfg1.N) (p : Fin 1024) : (krow1 t p).val = 1024 * (t.val % 8) + p.val := rfl

/-- The last key block's point of query block `qi`: the one point of the query block that writes back. -/
def last1 (qi : Fin 8) : Fin cfg1.N :=
  ⟨8 * qi.val + 7, by have hN : cfg1.N = 64 := N_1; have := qi.isLt; omega⟩

theorem last1_val (qi : Fin 8) : (last1 qi).val = 8 * qi.val + 7 := rfl
theorem last1_mod (qi : Fin 8) : (last1 qi).val % 8 = 7 := by rw [last1_val]; omega
theorem last1_div (qi : Fin 8) : (last1 qi).val / 8 = qi.val := by rw [last1_val]; omega

/-! ## The input windows' blocks as entries of their arrays -/

/-- The query feature block at point `t`: rows `1024 (t / 8) …` of the feature array. -/
theorem iblk1_0_apply (c : Dev nD) (t : Fin cfg1.N) (p : Fin 1024) (k : Fin 128) :
    (iblk1 V c 0 t : Vec F S1024x128 .f32) (ix2 p k) = (V c main_arg0 : S8192x128.Idx → Elt F .f32) (ix2 (qrow1 t p) k) := by
  obtain ⟨h0, h1, -⟩ := idxQuery1 t
  unfold iblk1
  rw [View.read_apply]
  show V c main_arg0 _ = V c main_arg0 _
  congr 1
  funext a
  apply Fin.ext
  match a with
  | ⟨0, _⟩ => show win1_0.index t (0 : Fin 2) * 1024 + 1 * p.val = 1024 * (t.val / 8) + p.val; rw [h0]; omega
  | ⟨1, _⟩ => show win1_0.index t (1 : Fin 2) * 128 + 1 * k.val = k.val; rw [h1]; omega

/-- The key feature block at point `t`: rows `1024 (t % 8) …` of the same feature array. -/
theorem iblk1_1_apply (c : Dev nD) (t : Fin cfg1.N) (p : Fin 1024) (k : Fin 128) :
    (iblk1 V c 1 t : Vec F S1024x128 .f32) (ix2 p k) = (V c main_arg0 : S8192x128.Idx → Elt F .f32) (ix2 (krow1 t p) k) := by
  obtain ⟨h0, h1, -⟩ := idxKey1 t
  unfold iblk1
  rw [View.read_apply]
  show V c main_arg0 _ = V c main_arg0 _
  congr 1
  funext a
  apply Fin.ext
  match a with
  | ⟨0, _⟩ => show win1_1.index t (0 : Fin 2) * 1024 + 1 * p.val = 1024 * (t.val % 8) + p.val; rw [h0]; omega
  | ⟨1, _⟩ => show win1_1.index t (1 : Fin 2) * 128 + 1 * k.val = k.val; rw [h1]; omega

/-- The query label block at point `t`: rows `1024 (t / 8) …` of the label column. -/
theorem iblk1_2_apply (c : Dev nD) (t : Fin cfg1.N) (p : Fin 1024) (z : Fin 1) :
    (iblk1 V c 2 t : Vec F S1024x1 .i32) (ix2 p z) = (V c main_v8 : S8192x1.Idx → Elt F .i32) (ix2 (qrow1 t p) z) := by
  obtain ⟨-, -, h0, h1, -⟩ := idxQuery1 t
  unfold iblk1
  rw [View.read_apply]
  show V c main_v8 _ = V c main_v8 _
  congr 1
  funext a
  apply Fin.ext
  match a with
  | ⟨0, _⟩ => show win1_2.index t (0 : Fin 2) * 1024 + 1 * p.val = 1024 * (t.val / 8) + p.val; rw [h0]; omega
  | ⟨1, _⟩ => show win1_2.index t (1 : Fin 2) * 1 + 1 * z.val = z.val; rw [h1]; omega

/-- The key label block at point `t`: columns `1024 (t % 8) …` of the label row. -/
theorem iblk1_3_apply (c : Dev nD) (t : Fin cfg1.N) (z : Fin 1) (r : Fin 1024) :
    (iblk1 V c 3 t : Vec F S1x1024 .i32) (ix2 z r) = (V c main_v9 : S1x8192.Idx → Elt F .i32) (ix2 z (krow1 t r)) := by
  obtain ⟨-, -, h0, h1⟩ := idxKey1 t
  unfold iblk1
  rw [View.read_apply]
  show V c main_v9 _ = V c main_v9 _
  congr 1
  funext a
  apply Fin.ext
  match a with
  | ⟨0, _⟩ => show win1_3.index t (0 : Fin 2) * 1 + 1 * z.val = z.val; rw [h0]; omega
  | ⟨1, _⟩ => show win1_3.index t (1 : Fin 2) * 1024 + 1 * r.val = 1024 * (t.val % 8) + r.val; rw [h1]; omega

/-! ## The accumulated output windows' arrays after the run

Each of the three output windows sits at row block `t / 8` for the eight points of a query block and is written back
once, after the last of them (key block 7); those eight write-backs tile the 8192 rows. -/

/-- Row `p` of query block `qi` is row `1024 qi + p` of an 8192-row array. -/
def row8 (qi : Fin 8) (p : Fin 1024) : Fin 8192 :=
  ⟨1024 * qi.val + p.val, by have := qi.isLt; have := p.isLt; omega⟩

theorem row8_val (qi : Fin 8) (p : Fin 1024) : (row8 qi p).val = 1024 * qi.val + p.val := rfl

/-- At the writing point of query block `qi` the query rows are the block's rows. -/
theorem qrow1_last (qi : Fin 8) (p : Fin 1024) : qrow1 (last1 qi) p = row8 qi p :=
  Fin.ext (by rw [qrow1_val, row8_val, last1_div])

/-- An entry of the row-sum-of-exponentials array lies in point `t`'s block iff, axis by axis, it lies in the block's range. -/
theorem mem_blk1_4 (t : Fin cfg1.N) (i : S8192x1.Idx) :
    i ∈ ((cfg1.win 4).blk t).view.set ↔ ∀ a : Fin 2, win1_4.index t a * S1024x1.size a ≤ (i a).val ∧ (i a).val < win1_4.index t a * S1024x1.size a + S1024x1.size a := by
  show i ∈ ((View.whole main_v16_0).slice (win1_4.rect t)).set ↔ _
  rw [View.set_slice_whole, Rect.mem_set_unit]
  exact Iff.rfl

/-- Every entry of the row-sum-of-exponentials array is in the block of the writing point of its query block, `row / 1024`. -/
theorem cover1_4 (i : S8192x1.Idx) : ∃ t : Fin cfg1.N, (cfg1.win 4).flush t = true ∧ i ∈ ((cfg1.win 4).blk t).view.set := by
  have hr : (i 0).val < 8192 := (i 0).isLt
  have hc : (i 1).val < 1 := (i 1).isLt
  let qi : Fin 8 := ⟨(i 0).val / 1024, by omega⟩
  have hq : qi.val = (i 0).val / 1024 := rfl
  have hd := last1_div qi
  obtain ⟨-, -, -, -, h0, h1, -⟩ := idxQuery1 (last1 qi)
  refine ⟨last1 qi, (flush1_4 _).mpr (last1_mod qi), ?_⟩
  rw [mem_blk1_4]
  intro a
  match a with
  | ⟨0, _⟩ => show win1_4.index (last1 qi) (0 : Fin 2) * 1024 ≤ (i 0).val ∧ (i 0).val < win1_4.index (last1 qi) (0 : Fin 2) * 1024 + 1024; rw [h0, hd, hq]; omega
  | ⟨1, _⟩ => show win1_4.index (last1 qi) (1 : Fin 2) * 1 ≤ (i 1).val ∧ (i 1).val < win1_4.index (last1 qi) (1 : Fin 2) * 1 + 1; rw [h1]; omega

/-- Point `t`'s block of a function of the whole row-sum-of-exponentials array, at a coordinate: the function at the query block's row. -/
theorem blk1_4_read (t : Fin cfg1.N) (G : S8192x1.Idx → Elt F .f32) (p : Fin 1024) (z : Fin 1) :
    (((cfg1.win 4).blk t).view.read (Elt F) G : Vec F S1024x1 .f32) (ix2 p z) = G (ix2 (qrow1 t p) z) := by
  obtain ⟨-, -, -, -, h0, h1, -⟩ := idxQuery1 t
  rw [View.read_apply]
  show G _ = G _
  congr 1
  funext a
  apply Fin.ext
  match a with
  | ⟨0, _⟩ => show win1_4.index t (0 : Fin 2) * 1024 + 1 * p.val = 1024 * (t.val / 8) + p.val; rw [h0]; omega
  | ⟨1, _⟩ => show win1_4.index t (1 : Fin 2) * 1 + 1 * z.val = z.val; rw [h1]; omega

/-- If every writing point (key block 7) leaves in the buffer its block of one function `G` of the whole row-sum-of-exponentials
    array, the array ends at `G`: the eight writing points' blocks tile the 8192 rows. -/
theorem arrAt1_4 (c : Dev nD) (G : S8192x1.Idx → Elt F .f32)
    (hG : ∀ t : Fin cfg1.N, t.val % 8 = 7 → (outsAt1 V c t.val t.isLt).1 = ((cfg1.win 4).blk t).view.read (Elt F) G) :
    (dat1 V c).arrAt 4 cfg1.N = G :=
  (dat1 V c).arrAt_eq_of_cover 4 G (fun t hf => by
    show (cfg1.win 4).cut (grid1.coords t) ((dat1 V c).after 4 t) = _
    rw [after1_4]
    exact hG t ((flush1_4 t).mp hf)) cover1_4

/-- The same, entry by entry. -/
theorem arrAt1_4_rows (c : Dev nD) (G : S8192x1.Idx → Elt F .f32)
    (hG : ∀ t : Fin cfg1.N, t.val % 8 = 7 → ∀ (p : Fin 1024) (z : Fin 1),
      ((outsAt1 V c t.val t.isLt).1 : Vec F S1024x1 .f32) (ix2 p z) = G (ix2 (qrow1 t p) z)) :
    (dat1 V c).arrAt 4 cfg1.N = G :=
  arrAt1_4 V c G fun t h7 => funext fun j => by
    obtain ⟨p, z, rfl⟩ : ∃ (p : Fin 1024) (z : Fin 1), j = ix2 p z := ⟨j 0, j 1, eq_ix2 j⟩
    exact (hG t h7 p z).trans (blk1_4_read t G p z).symm

/-- The same, query block by query block: the writing point of query block `qi` is `8 qi + 7`, its rows `1024 qi …`. -/
theorem arrAt1_4_last (c : Dev nD) (G : S8192x1.Idx → Elt F .f32)
    (hG : ∀ (qi : Fin 8) (p : Fin 1024) (z : Fin 1),
      ((outsAt1 V c (last1 qi).val (last1 qi).isLt).1 : Vec F S1024x1 .f32) (ix2 p z) = G (ix2 (row8 qi p) z)) :
    (dat1 V c).arrAt 4 cfg1.N = G :=
  arrAt1_4_rows V c G fun t h7 p z => by
    have hN : cfg1.N = 64 := N_1
    have hlt := t.isLt
    have e : t = last1 ⟨t.val / 8, by omega⟩ := Fin.ext (by rw [last1_val]; show t.val = 8 * (t.val / 8) + 7; omega)
    have h := hG ⟨t.val / 8, by omega⟩ p z
    rw [← e] at h
    exact h

/-- An entry of the matched-similarity-sum array lies in point `t`'s block iff, axis by axis, it lies in the block's range. -/
theorem mem_blk1_5 (t : Fin cfg1.N) (i : S8192x1.Idx) :
    i ∈ ((cfg1.win 5).blk t).view.set ↔ ∀ a : Fin 2, win1_5.index t a * S1024x1.size a ≤ (i a).val ∧ (i a).val < win1_5.index t a * S1024x1.size a + S1024x1.size a := by
  show i ∈ ((View.whole main_v16_1).slice (win1_5.rect t)).set ↔ _
  rw [View.set_slice_whole, Rect.mem_set_unit]
  exact Iff.rfl

/-- Every entry of the matched-similarity-sum array is in the block of the writing point of its query block, `row / 1024`. -/
theorem cover1_5 (i : S8192x1.Idx) : ∃ t : Fin cfg1.N, (cfg1.win 5).flush t = true ∧ i ∈ ((cfg1.win 5).blk t).view.set := by
  have hr : (i 0).val < 8192 := (i 0).isLt
  have hc : (i 1).val < 1 := (i 1).isLt
  let qi : Fin 8 := ⟨(i 0).val / 1024, by omega⟩
  have hq : qi.val = (i 0).val / 1024 := rfl
  have hd := last1_div qi
  obtain ⟨-, -, -, -, -, -, h0, h1, -⟩ := idxQuery1 (last1 qi)
  refine ⟨last1 qi, (flush1_5 _).mpr (last1_mod qi), ?_⟩
  rw [mem_blk1_5]
  intro a
  match a with
  | ⟨0, _⟩ => show win1_5.index (last1 qi) (0 : Fin 2) * 1024 ≤ (i 0).val ∧ (i 0).val < win1_5.index (last1 qi) (0 : Fin 2) * 1024 + 1024; rw [h0, hd, hq]; omega
  | ⟨1, _⟩ => show win1_5.index (last1 qi) (1 : Fin 2) * 1 ≤ (i 1).val ∧ (i 1).val < win1_5.index (last1 qi) (1 : Fin 2) * 1 + 1; rw [h1]; omega

/-- Point `t`'s block of a function of the whole matched-similarity-sum array, at a coordinate: the function at the query block's row. -/
theorem blk1_5_read (t : Fin cfg1.N) (G : S8192x1.Idx → Elt F .f32) (p : Fin 1024) (z : Fin 1) :
    (((cfg1.win 5).blk t).view.read (Elt F) G : Vec F S1024x1 .f32) (ix2 p z) = G (ix2 (qrow1 t p) z) := by
  obtain ⟨-, -, -, -, -, -, h0, h1, -⟩ := idxQuery1 t
  rw [View.read_apply]
  show G _ = G _
  congr 1
  funext a
  apply Fin.ext
  match a with
  | ⟨0, _⟩ => show win1_5.index t (0 : Fin 2) * 1024 + 1 * p.val = 1024 * (t.val / 8) + p.val; rw [h0]; omega
  | ⟨1, _⟩ => show win1_5.index t (1 : Fin 2) * 1 + 1 * z.val = z.val; rw [h1]; omega

/-- If every writing point (key block 7) leaves in the buffer its block of one function `G` of the whole matched-similarity-sum
    array, the array ends at `G`: the eight writing points' blocks tile the 8192 rows. -/
theorem arrAt1_5 (c : Dev nD) (G : S8192x1.Idx → Elt F .f32)
    (hG : ∀ t : Fin cfg1.N, t.val % 8 = 7 → (outsAt1 V c t.val t.isLt).2.1 = ((cfg1.win 5).blk t).view.read (Elt F) G) :
    (dat1 V c).arrAt 5 cfg1.N = G :=
  (dat1 V c).arrAt_eq_of_cover 5 G (fun t hf => by
    show (cfg1.win 5).cut (grid1.coords t) ((dat1 V c).after 5 t) = _
    rw [after1_5]
    exact hG t ((flush1_5 t).mp hf)) cover1_5

/-- The same, entry by entry. -/
theorem arrAt1_5_rows (c : Dev nD) (G : S8192x1.Idx → Elt F .f32)
    (hG : ∀ t : Fin cfg1.N, t.val % 8 = 7 → ∀ (p : Fin 1024) (z : Fin 1),
      ((outsAt1 V c t.val t.isLt).2.1 : Vec F S1024x1 .f32) (ix2 p z) = G (ix2 (qrow1 t p) z)) :
    (dat1 V c).arrAt 5 cfg1.N = G :=
  arrAt1_5 V c G fun t h7 => funext fun j => by
    obtain ⟨p, z, rfl⟩ : ∃ (p : Fin 1024) (z : Fin 1), j = ix2 p z := ⟨j 0, j 1, eq_ix2 j⟩
    exact (hG t h7 p z).trans (blk1_5_read t G p z).symm

/-- The same, query block by query block: the writing point of query block `qi` is `8 qi + 7`, its rows `1024 qi …`. -/
theorem arrAt1_5_last (c : Dev nD) (G : S8192x1.Idx → Elt F .f32)
    (hG : ∀ (qi : Fin 8) (p : Fin 1024) (z : Fin 1),
      ((outsAt1 V c (last1 qi).val (last1 qi).isLt).2.1 : Vec F S1024x1 .f32) (ix2 p z) = G (ix2 (row8 qi p) z)) :
    (dat1 V c).arrAt 5 cfg1.N = G :=
  arrAt1_5_rows V c G fun t h7 p z => by
    have hN : cfg1.N = 64 := N_1
    have hlt := t.isLt
    have e : t = last1 ⟨t.val / 8, by omega⟩ := Fin.ext (by rw [last1_val]; show t.val = 8 * (t.val / 8) + 7; omega)
    have h := hG ⟨t.val / 8, by omega⟩ p z
    rw [← e] at h
    exact h

/-- An entry of the match-count array lies in point `t`'s block iff, axis by axis, it lies in the block's range. -/
theorem mem_blk1_6 (t : Fin cfg1.N) (i : S8192x1.Idx) :
    i ∈ ((cfg1.win 6).blk t).view.set ↔ ∀ a : Fin 2, win1_6.index t a * S1024x1.size a ≤ (i a).val ∧ (i a).val < win1_6.index t a * S1024x1.size a + S1024x1.size a := by
  show i ∈ ((View.whole main_v16_2).slice (win1_6.rect t)).set ↔ _
  rw [View.set_slice_whole, Rect.mem_set_unit]
  exact Iff.rfl

/-- Every entry of the match-count array is in the block of the writing point of its query block, `row / 1024`. -/
theorem cover1_6 (i : S8192x1.Idx) : ∃ t : Fin cfg1.N, (cfg1.win 6).flush t = true ∧ i ∈ ((cfg1.win 6).blk t).view.set := by
  have hr : (i 0).val < 8192 := (i 0).isLt
  have hc : (i 1).val < 1 := (i 1).isLt
  let qi : Fin 8 := ⟨(i 0).val / 1024, by omega⟩
  have hq : qi.val = (i 0).val / 1024 := rfl
  have hd := last1_div qi
  obtain ⟨-, -, -, -, -, -, -, -, h0, h1⟩ := idxQuery1 (last1 qi)
  refine ⟨last1 qi, (flush1_6 _).mpr (last1_mod qi), ?_⟩
  rw [mem_blk1_6]
  intro a
  match a with
  | ⟨0, _⟩ => show win1_6.index (last1 qi) (0 : Fin 2) * 1024 ≤ (i 0).val ∧ (i 0).val < win1_6.index (last1 qi) (0 : Fin 2) * 1024 + 1024; rw [h0, hd, hq]; omega
  | ⟨1, _⟩ => show win1_6.index (last1 qi) (1 : Fin 2) * 1 ≤ (i 1).val ∧ (i 1).val < win1_6.index (last1 qi) (1 : Fin 2) * 1 + 1; rw [h1]; omega

/-- Point `t`'s block of a function of the whole match-count array, at a coordinate: the function at the query block's row. -/
theorem blk1_6_read (t : Fin cfg1.N) (G : S8192x1.Idx → Elt F .f32) (p : Fin 1024) (z : Fin 1) :
    (((cfg1.win 6).blk t).view.read (Elt F) G : Vec F S1024x1 .f32) (ix2 p z) = G (ix2 (qrow1 t p) z) := by
  obtain ⟨-, -, -, -, -, -, -, -, h0, h1⟩ := idxQuery1 t
  rw [View.read_apply]
  show G _ = G _
  congr 1
  funext a
  apply Fin.ext
  match a with
  | ⟨0, _⟩ => show win1_6.index t (0 : Fin 2) * 1024 + 1 * p.val = 1024 * (t.val / 8) + p.val; rw [h0]; omega
  | ⟨1, _⟩ => show win1_6.index t (1 : Fin 2) * 1 + 1 * z.val = z.val; rw [h1]; omega

/-- If every writing point (key block 7) leaves in the buffer its block of one function `G` of the whole match-count
    array, the array ends at `G`: the eight writing points' blocks tile the 8192 rows. -/
theorem arrAt1_6 (c : Dev nD) (G : S8192x1.Idx → Elt F .f32)
    (hG : ∀ t : Fin cfg1.N, t.val % 8 = 7 → (outsAt1 V c t.val t.isLt).2.2 = ((cfg1.win 6).blk t).view.read (Elt F) G) :
    (dat1 V c).arrAt 6 cfg1.N = G :=
  (dat1 V c).arrAt_eq_of_cover 6 G (fun t hf => by
    show (cfg1.win 6).cut (grid1.coords t) ((dat1 V c).after 6 t) = _
    rw [after1_6]
    exact hG t ((flush1_6 t).mp hf)) cover1_6

/-- The same, entry by entry. -/
theorem arrAt1_6_rows (c : Dev nD) (G : S8192x1.Idx → Elt F .f32)
    (hG : ∀ t : Fin cfg1.N, t.val % 8 = 7 → ∀ (p : Fin 1024) (z : Fin 1),
      ((outsAt1 V c t.val t.isLt).2.2 : Vec F S1024x1 .f32) (ix2 p z) = G (ix2 (qrow1 t p) z)) :
    (dat1 V c).arrAt 6 cfg1.N = G :=
  arrAt1_6 V c G fun t h7 => funext fun j => by
    obtain ⟨p, z, rfl⟩ : ∃ (p : Fin 1024) (z : Fin 1), j = ix2 p z := ⟨j 0, j 1, eq_ix2 j⟩
    exact (hG t h7 p z).trans (blk1_6_read t G p z).symm

/-- The same, query block by query block: the writing point of query block `qi` is `8 qi + 7`, its rows `1024 qi …`. -/
theorem arrAt1_6_last (c : Dev nD) (G : S8192x1.Idx → Elt F .f32)
    (hG : ∀ (qi : Fin 8) (p : Fin 1024) (z : Fin 1),
      ((outsAt1 V c (last1 qi).val (last1 qi).isLt).2.2 : Vec F S1024x1 .f32) (ix2 p z) = G (ix2 (row8 qi p) z)) :
    (dat1 V c).arrAt 6 cfg1.N = G :=
  arrAt1_6_rows V c G fun t h7 p z => by
    have hN : cfg1.N = 64 := N_1
    have hlt := t.isLt
    have e : t = last1 ⟨t.val / 8, by omega⟩ := Fin.ext (by rw [last1_val]; show t.val = 8 * (t.val / 8) + 7; omega)
    have h := hG ⟨t.val / 8, by omega⟩ p z
    rw [← e] at h
    exact h

end Cert.KernelIdeal.Hand

end
-- ==== Proof.ConstsK.lean ====
/-
  The kernel's named constant 1/T: the certificate's table gives the name "inv_t" the rational
  16777216 / 5033165 (the reciprocal of the temperature literal's exact value), and at the ideal
  instance a named constant is its table value.
-/
import proofs.«400644_j12893491823014_2_alg».proof.KernelIdeal
import Idealize.ShloMosaic.PureOps.IdealRules

noncomputable section

namespace Cert.ConstsK

open Idealize.ShloMosaic

/-- The named reciprocal of the temperature, as a coerced real. -/
theorem inv_t : Named.named (F := Ideal) Cert.KernelIdeal.κ "inv_t" (φ := .f32) 0x40555555#32
    = ((16777216 / 5033165 : ℝ) : EReal) :=
  IdealRules.named_const.ideal_named_scalar _ _ _ _ rfl

end Cert.ConstsK

end
-- ==== Proof.K1Val.lean ====
/-
  Kernel region 1, the three output arrays after the run.

  Only the last key block of a query block writes the carried columns back, so row i = 1024 q + p of each output array holds
  what point 8 q + 7 left for row p: the running total after all eight key blocks, which is the sum of the eight block sums less
  the diagonal term; and the eight block sums of a row add up to the sum over all 8192 rows. That is the specification's
  accumulated denominator, sum over positives and count, with the small positive literal as the floor of the lengths and the
  reciprocal of the temperature as the named constant.
-/
import proofs.«400644_j12893491823014_2_alg».proof.Proof.K1ValB
import proofs.«400644_j12893491823014_2_alg».proof.Proof.K1Arr
import proofs.«400644_j12893491823014_2_alg».proof.Proof.IdealReal
import proofs.«400644_j12893491823014_2_alg».proof.Proof.ConstsK

set_option synthInstance.maxSize 4096

noncomputable section

namespace Cert.KernelIdeal.Hand

open Idealize.ShloMosaic Idealize.ShloMosaic.TcCoe Idealize.ShloMosaic.ValueIdx Idealize.SL.Sem

/-! ## Rows of blocks -/

/-- Row p of the query block of point t. -/
theorem row_q (t : Fin cfg1.N) (p : Fin 1024) : qrow1 t p = Spec.blockEquiv (qB t.val, p) := by
  have hN : t.val < 64 := lt_of_lt_of_eq t.isLt (show cfg1.N = 64 from Gen.N_1)
  apply Fin.ext
  rw [qrow1_val, Spec.blockEquiv_val]
  show _ = 1024 * (t.val / 8 % 8) + p.val
  omega
/-- Row p of the key block of point t. -/
theorem row_k (t : Fin cfg1.N) (p : Fin 1024) : krow1 t p = Spec.blockEquiv (kB t.val, p) := by
  apply Fin.ext
  rw [krow1_val, Spec.blockEquiv_val]
  rfl
/-- Row p of query block q. -/
theorem row_8 (qi : Fin 8) (p : Fin 1024) : row8 qi p = Spec.blockEquiv (qi, p) := by
  apply Fin.ext
  rw [row8_val, Spec.blockEquiv_val]
/-- The last point of query block q has query block q, and its key block is the eighth. -/
theorem qB_last (qi : Fin 8) : qB (last1 qi).val = qi :=
  Fin.ext (by show (last1 qi).val / 8 % 8 = qi.val; rw [last1_div]; exact Nat.mod_eq_of_lt qi.isLt)
theorem last_succ (qi : Fin 8) : (last1 qi).val % 8 + 1 = 8 := by rw [last1_mod]

section Final
variable (V : (c : Dev nD) → (b : Ref sig .tc) → Buf (Elt Ideal) ((c : Thread nD τ).loc b)) (c : Dev nD)
  (x : Fin 8192 → Fin 128 → ℝ) (ℓ : Fin 8192 → Fin 1000)
  (hx : ∀ (i : Fin 8192) (k : Fin 128), (V c main_arg0 : S8192x128.Idx → Elt Ideal .f32) (ix2 i k) = ((x i k : ℝ) : EReal))
  (hcol : ∀ i : Fin 8192, (V c main_v8 : S8192x1.Idx → Elt Ideal .i32) (ix2 i (0 : Fin 1)) = BitVec.ofNat 32 (ℓ i).val)
  (hrow : ∀ i : Fin 8192, (V c main_v9 : S1x8192.Idx → Elt Ideal .i32) (ix2 (0 : Fin 1) i) = BitVec.ofNat 32 (ℓ i).val)

/-! ## The blocks a point reads, as blocks of the real arrays -/

include hx in
theorem hq_of (t : Fin cfg1.N) (p : Fin 1024) (k : Fin 128) :
    qblk V c t (ix2 p k) = ((xblk x (qB t.val) p k : ℝ) : EReal) := by
  refine (iblk1_0_apply V c t p k).trans ?_
  rw [hx, row_q]
  rfl
include hx in
theorem hk_of (t : Fin cfg1.N) (r : Fin 1024) (k : Fin 128) :
    kblk V c t (ix2 r k) = ((xblk x (kB t.val) r k : ℝ) : EReal) := by
  refine (iblk1_1_apply V c t r k).trans ?_
  rw [hx, row_k]
  rfl
include hcol in
theorem hlq_of (t : Fin cfg1.N) (p : Fin 1024) :
    qlab V c t (ix2 p (0 : Fin 1)) = BitVec.ofNat 32 (lblk ℓ (qB t.val) p).val := by
  refine (iblk1_2_apply V c t p (0 : Fin 1)).trans ?_
  rw [hcol, row_q]
  rfl
include hrow in
theorem hlk_of (t : Fin cfg1.N) (r : Fin 1024) :
    klab V c t (ix2 (0 : Fin 1) r) = BitVec.ofNat 32 (lblk ℓ (kB t.val) r).val := by
  refine (iblk1_3_apply V c t (0 : Fin 1) r).trans ?_
  rw [hrow, row_k]
  rfl

/-- The named constant is the reciprocal of the temperature. -/
theorem inv_temp : (16777216 / 5033165 : ℝ) = 1 / (5033165 / 16777216) := by norm_num

include hx hcol hrow in
/-- What the last point of each query block leaves, row by row: the three totals of the specification. -/
theorem last_totals (qi : Fin 8) (p : Fin 1024) :
    (outsAt1 V c (last1 qi).val (last1 qi).isLt).1 (ix2 p (0 : Fin 1))
      = ((Spec.bottomK Cert.IdealReal.tiny (5033165 / 16777216) x (Spec.blockEquiv (qi, p)) : ℝ) : EReal)
    ∧ (outsAt1 V c (last1 qi).val (last1 qi).isLt).2.1 (ix2 p (0 : Fin 1))
      = ((Spec.possumK Cert.IdealReal.tiny (5033165 / 16777216) x ℓ (Spec.blockEquiv (qi, p)) : ℝ) : EReal)
    ∧ (outsAt1 V c (last1 qi).val (last1 qi).isLt).2.2 (ix2 p (0 : Fin 1))
      = ((Spec.cntK ℓ (Spec.blockEquiv (qi, p)) : ℝ) : EReal) := by
  obtain ⟨e4, e5, e6⟩ := outs_inv Cert.IdealReal.tiny (5033165 / 16777216) (16777216 / 5033165) x ℓ
    Cert.IdealReal.ofBits_tiny Cert.IdealReal.tiny_pos Cert.ConstsK.inv_t Cert.IdealReal.ofBits_one inv_temp V c
    (hq_of V c x hx) (hk_of V c x hx) (hlq_of V c ℓ hcol) (hlk_of V c ℓ hrow) (last1 qi).val (last1 qi).isLt p
  rw [last_succ, qB_last, Spec.fold_blocks] at e4 e5 e6
  refine ⟨e4.trans (congrArg _ ?_), e5.trans (congrArg _ ?_), e6.trans (congrArg _ ?_)⟩
  · unfold Spec.bottomK S4
    rw [Spec.sum_blocks (fun j => Real.exp (Spec.sim Cert.IdealReal.tiny (5033165 / 16777216) x (Spec.blockEquiv (qi, p)) j))]
  · unfold Spec.possumK S5
    rw [Spec.sum_blocks (fun j => if ℓ (Spec.blockEquiv (qi, p)) = ℓ j then Spec.sim Cert.IdealReal.tiny (5033165 / 16777216) x (Spec.blockEquiv (qi, p)) j else 0)]
  · unfold Spec.cntK S6
    rw [Spec.sum_blocks (fun j => if ℓ (Spec.blockEquiv (qi, p)) = ℓ j then (1 : ℝ) else 0)]

include hx hcol hrow in
/-- The denominator array after the run. -/
theorem k1_bottomK :
    (dat1 V c).arrAt 4 cfg1.N = fun idx : S8192x1.Idx => ((Spec.bottomK Cert.IdealReal.tiny (5033165 / 16777216) x (idx 0) : ℝ) : EReal) := by
  refine arrAt1_4_last V c _ (fun qi p z => ?_)
  obtain rfl : z = 0 := Subsingleton.elim _ _
  refine (last_totals V c x ℓ hx hcol hrow qi p).1.trans ?_
  rw [← row_8]

include hx hcol hrow in
/-- The sum-over-positives array after the run. -/
theorem k1_possumK :
    (dat1 V c).arrAt 5 cfg1.N = fun idx : S8192x1.Idx => ((Spec.possumK Cert.IdealReal.tiny (5033165 / 16777216) x ℓ (idx 0) : ℝ) : EReal) := by
  refine arrAt1_5_last V c _ (fun qi p z => ?_)
  obtain rfl : z = 0 := Subsingleton.elim _ _
  refine (last_totals V c x ℓ hx hcol hrow qi p).2.1.trans ?_
  rw [← row_8]

include hx hcol hrow in
/-- The count array after the run. -/
theorem k1_cntK :
    (dat1 V c).arrAt 6 cfg1.N = fun idx : S8192x1.Idx => ((Spec.cntK ℓ (idx 0) : ℝ) : EReal) := by
  refine arrAt1_6_last V c _ (fun qi p z => ?_)
  obtain rfl : z = 0 := Subsingleton.elim _ _
  refine (last_totals V c x ℓ hx hcol hrow qi p).2.2.trans ?_
  rw [← row_8]

end Final

end Cert.KernelIdeal.Hand

end
-- ==== Proof.KFinal.lean ====
/-
  The kernel program's two results, on real inputs.

  The program's run threads the buffers' contents through eight steps: two host stretches, the first region, a host
  stretch, the second region, three host stretches. With real features, real class means and labels below 1000 in
  the launch memory, every step's results are coerced reals: the first stretches give the unit class means, their
  squared lengths and the labels laid out; the first region gives minus half the squared distances, the rows'
  negated log-probabilities of the true class and the rows' squared distances to their class's unit mean; the
  middle stretch averages the last two; the second region gives each row's contrastive denominator, its sum of
  similarities over the positives and its count of positives; the last stretches form the contrastive loss from
  them and the weighted sum of the three scalars. The mean of the negated log-probabilities is the cross entropy
  (a sign moved through the sum); everything else meets the specification term for term.
-/
import proofs.«400644_j12893491823014_2_alg».proof.Proof.Frames
import proofs.«400644_j12893491823014_2_alg».proof.Proof.KHost
import proofs.«400644_j12893491823014_2_alg».proof.Proof.Bridge
import proofs.«400644_j12893491823014_2_alg».proof.Proof.K0ValC
import proofs.«400644_j12893491823014_2_alg».proof.Proof.K0ValD
import proofs.«400644_j12893491823014_2_alg».proof.Proof.K1Val
import proofs.«400644_j12893491823014_2_alg».proof.Proof.IdealReal

noncomputable section

namespace Cert.KernelIdeal.Hand

open Cert.KernelIdeal Cert.KernelIdeal.Gen
open Idealize.ShloMosaic Idealize.ShloMosaic.TcCoe Idealize.SL.Sem Idealize.SL.RA

open Idealize.ShloMosaic.ValueIdx
open scoped BigOperators

/-- The mean of the negated terms is minus the mean of the terms. -/
theorem kernel_mean_neg (f : Fin 8192 → ℝ) : (∑ i, -(f i)) / 8192 = -((∑ i, f i) / 8192) := by
  rw [Finset.sum_neg_distrib, neg_div]

/-- With real features, real class means and labels below 1000 in the launch memory, the run's last valuation holds
    minus half the squared distances in the first result and the weighted loss in the second. -/
theorem kernel_values (m : (ℓ : Loc nD τ sig) → Buf (Elt Ideal) ℓ) (c : Dev nD)
    (x : Fin 8192 → Fin 128 → ℝ) (μ : Fin 1000 → Fin 128 → ℝ) (ℓ : Fin 8192 → Fin 1000)
    (hx : ∀ p q, (m ((c.tc : Thread nD τ).loc main_arg0) : S8192x128.Idx → EReal) (ix2 p q) = ((x p q : ℝ) : EReal))
    (hμ : ∀ p q, (m ((c.tc : Thread nD τ).loc main_arg2) : S1000x128.Idx → EReal) (ix2 p q) = ((μ p q : ℝ) : EReal))
    (hℓ : ∀ i, (m ((c.tc : Thread nD τ).loc main_arg1) : S8192.Idx → BitVec 32) (ix1 i) = BitVec.ofNat 32 (ℓ i).val) :
    (∀ p q, (Wfin m c main_v10_0 : S8192x1000.Idx → EReal) (ix2 p q)
        = ((Cert.Spec.negdist Cert.IdealReal.tiny x μ p q : ℝ) : EReal))
    ∧ (∀ j : S_.Idx, (Wfin m c main_v36 : S_.Idx → EReal) j
        = ((Cert.Spec.loss Cert.IdealReal.c09 Cert.IdealReal.c01 (1 / 2) (Cert.Spec.ce Cert.IdealReal.tiny x μ ℓ)
            (Cert.Spec.sclK Cert.IdealReal.tiny (5033165 / 16777216) x ℓ) (Cert.Spec.lm Cert.IdealReal.tiny x μ ℓ) : ℝ) : EReal)) := by
  -- the launch memory, read as the first valuation of the fold
  have hμ0 : ∀ (q : Fin 1000) (k : Fin 128),
      (V0 m c (Proc.devRef .tc main_arg2) : S1000x128.Idx → EReal) (ix2 q k) = ((μ q k : ℝ) : EReal) := hμ
  have hℓ0 : ∀ i : Fin 8192,
      (V0 m c (Proc.devRef .tc main_arg1) : S8192.Idx → BitVec 32) (ix1 i) = (fun i => BitVec.ofNat 32 (ℓ i).val) i := hℓ
  -- what region 0 is entered at: the arguments as launched, the unit means, their squared lengths, the labels
  have a0 : Ent0 m c main_arg0 = m ((c.tc : Thread nD τ).loc main_arg0) :=
    (V2_of m c main_arg0 (by decide)).trans ((V1_of m c main_arg0 (by decide)).trans rfl)
  have a2 : Ent0 m c main_arg2 = m ((c.tc : Thread nD τ).loc main_arg2) :=
    (V2_of m c main_arg2 (by decide)).trans ((V1_of m c main_arg2 (by decide)).trans rfl)
  have hx0 : ∀ i k, (Ent0 m c main_arg0 : S8192x128.Idx → Elt Ideal .f32) (ix2 i k) = ((x i k : ℝ) : EReal) :=
    fun i k => by rw [a0]; exact hx i k
  have hμ0' : ∀ q k, (Ent0 m c main_arg2 : S1000x128.Idx → Elt Ideal .f32) (ix2 q k) = ((μ q k : ℝ) : EReal) :=
    fun q k => by rw [a2]; exact hμ q k
  have hν : ∀ q k, (Ent0 m c main_v4 : S1000x128.Idx → Elt Ideal .f32) (ix2 q k)
      = ((Spec.unit Cert.IdealReal.tiny μ q k : ℝ) : EReal) := fun q k => by
    have h := host0_v4 (V0 m c) μ hμ0 q k
    rw [StableHlo.after_append] at h; exact h
  have hyy : ∀ q, (Ent0 m c main_v7 : S1x1000.Idx → Elt Ideal .f32) (ix2 (0 : Fin 1) q)
      = ((∑ k, μ q k * μ q k : ℝ) : EReal) := fun q => by
    have h := host0_v7 (V0 m c) μ hμ0 q
    rw [StableHlo.after_append] at h; exact h
  have hcol0 : ∀ i, (Ent0 m c main_v8 : S8192x1.Idx → Elt Ideal .i32) (ix2 i (0 : Fin 1)) = BitVec.ofNat 32 (ℓ i).val :=
    fun i => by
      have h := host0_v8 (V0 m c) (fun i => BitVec.ofNat 32 (ℓ i).val) hℓ0 i
      rw [StableHlo.after_append] at h; exact h
  have hrow0 : ∀ i, (Ent0 m c main_v9 : S1x8192.Idx → Elt Ideal .i32) (ix2 (0 : Fin 1) i) = BitVec.ofNat 32 (ℓ i).val :=
    fun i => by
      have h := host0_v9 (V0 m c) (fun i => BitVec.ofNat 32 (ℓ i).val) hℓ0 i
      rw [StableHlo.after_append] at h; exact h
  -- region 0's three results
  have A5 := arrAt0_5_eq (Ent0 m) Cert.IdealReal.tiny Cert.IdealReal.ofBits_tiny Cert.IdealReal.tiny_pos x μ c hx0 hμ0' hyy
  have A6 := arrAt0_6_eq (Ent0 m) Cert.IdealReal.tiny Cert.IdealReal.ofBits_tiny Cert.IdealReal.tiny_pos x μ ℓ c hx0 hμ0' hyy hcol0
  have A7 := arrAt0_7_eq (Ent0 m) Cert.IdealReal.tiny Cert.IdealReal.ofBits_tiny Cert.IdealReal.tiny_pos x μ ℓ c hx0 hν hcol0
  refine ⟨fun p q => ?_, fun j => ?_⟩
  · have r5 := (Wend_main_v10_0 (D0 (F := Ideal)) (D1 (F := Ideal)) m c).trans A5
    exact congrFun r5 (ix2 p q)
  · -- the two means
    have r6 := (W3_main_v10_1 (D0 (F := Ideal)) m c).trans A6
    have r7 := (W3_main_v10_2 (D0 (F := Ideal)) m c).trans A7
    have h12 := hostOps1_v12 (W3 (D0 (F := Ideal)) m c) (fun i => -(Spec.logp Cert.IdealReal.tiny x μ ℓ i (ℓ i)))
      (fun i => by rw [r6])
    have h15 := hostOps1_v15 (W3 (D0 (F := Ideal)) m c)
      (fun i => ∑ k, (Spec.unit Cert.IdealReal.tiny x i k - Spec.unit Cert.IdealReal.tiny μ (ℓ i) k)
        * (Spec.unit Cert.IdealReal.tiny x i k - Spec.unit Cert.IdealReal.tiny μ (ℓ i) k))
      (fun i => by rw [r7])
    -- what region 1 is entered at
    have b0 : Ent1 (D0 (F := Ideal)) m c main_arg0 = m ((c.tc : Thread nD τ).loc main_arg0) :=
      (W4_of D0 m c main_arg0 (by decide)).trans ((W3_of D0 m c main_arg0 (by decide)).trans a0)
    have b8 : Ent1 (D0 (F := Ideal)) m c main_v8 = Ent0 m c main_v8 :=
      (W4_of D0 m c main_v8 (by decide)).trans (W3_of D0 m c main_v8 (by decide))
    have b9 : Ent1 (D0 (F := Ideal)) m c main_v9 = Ent0 m c main_v9 :=
      (W4_of D0 m c main_v9 (by decide)).trans (W3_of D0 m c main_v9 (by decide))
    have hx1 : ∀ (i : Fin 8192) (k : Fin 128),
        (Ent1 (D0 (F := Ideal)) m c main_arg0 : S8192x128.Idx → Elt Ideal .f32) (ix2 i k) = ((x i k : ℝ) : EReal) :=
      fun i k => by rw [b0]; exact hx i k
    have hcol1 : ∀ i : Fin 8192,
        (Ent1 (D0 (F := Ideal)) m c main_v8 : S8192x1.Idx → Elt Ideal .i32) (ix2 i (0 : Fin 1)) = BitVec.ofNat 32 (ℓ i).val :=
      fun i => by rw [b8]; exact hcol0 i
    have hrow1 : ∀ i : Fin 8192,
        (Ent1 (D0 (F := Ideal)) m c main_v9 : S1x8192.Idx → Elt Ideal .i32) (ix2 (0 : Fin 1) i) = BitVec.ofNat 32 (ℓ i).val :=
      fun i => by rw [b9]; exact hrow0 i
    -- region 1's three results
    have r16_0 := (W5_main_v16_0 (D0 (F := Ideal)) (D1 (F := Ideal)) m c).trans
      (k1_bottomK (Ent1 (D0 (F := Ideal)) m) c x ℓ hx1 hcol1 hrow1)
    have r16_1 := (W5_main_v16_1 (D0 (F := Ideal)) (D1 (F := Ideal)) m c).trans
      (k1_possumK (Ent1 (D0 (F := Ideal)) m) c x ℓ hx1 hcol1 hrow1)
    have r16_2 := (W5_main_v16_2 (D0 (F := Ideal)) (D1 (F := Ideal)) m c).trans
      (k1_cntK (Ent1 (D0 (F := Ideal)) m) c x ℓ hx1 hcol1 hrow1)
    have c12 : W5 (D0 (F := Ideal)) (D1 (F := Ideal)) m c main_v12 = W4 (D0 (F := Ideal)) m c main_v12 :=
      W5_of D0 D1 m c main_v12 (by decide)
    have c15 : W5 (D0 (F := Ideal)) (D1 (F := Ideal)) m c main_v15 = W4 (D0 (F := Ideal)) m c main_v15 :=
      W5_of D0 D1 m c main_v15 (by decide)
    -- the last three stretches
    have h36 := host2_v36 (W5 (D0 (F := Ideal)) (D1 (F := Ideal)) m c)
      (fun i => Spec.bottomK Cert.IdealReal.tiny (5033165 / 16777216) x i)
      (fun i => Spec.possumK Cert.IdealReal.tiny (5033165 / 16777216) x ℓ i)
      (fun i => Spec.cntK ℓ i)
      (Spec.ce Cert.IdealReal.tiny x μ ℓ) (Spec.lm Cert.IdealReal.tiny x μ ℓ)
      (fun i => by rw [r16_0])
      (fun i => Cert.Spec.bottomK_pos Cert.IdealReal.tiny (5033165 / 16777216) x i)
      (fun i => by rw [r16_1])
      (fun i => by rw [r16_2])
      (fun j => (congrFun (c12.trans h12) j).trans (congrArg (fun r : ℝ => (r : EReal)) (kernel_mean_neg _)))
      (fun j => congrFun (c15.trans h15) j)
    rw [StableHlo.after_append, StableHlo.after_append] at h36
    exact congrFun h36 j

end Cert.KernelIdeal.Hand

end
-- ==== Proof.RefVal1.lean ====
/-
  The reference's first result and its cross-entropy scalar, on real inputs.

  Every feature entry is a real x p q, every mean entry a real μ c q, every label a word below 1000. Then every
  intermediate array of the reference at the ideal instance is a coerced real, and stage by stage it is the real the
  specification names: the unit feature rows, minus half the squared distance to each mean (the first result), the
  margin logits, their log-softmax, the entry of each row at its own label, and minus the mean of those (the cross
  entropy).
-/
import proofs.«400644_j12893491823014_2_alg».proof.Proof.RefReadP
import proofs.«400644_j12893491823014_2_alg».proof.Proof.Gen.ReferenceIdeal
import proofs.«400644_j12893491823014_2_alg».proof.Proof.Spec
import proofs.«400644_j12893491823014_2_alg».proof.Proof.IdealReal
import Idealize.ShloMosaic.Lib.Pipeline.Value
import Idealize.ShloMosaic.Lib.ValueIdx
import Idealize.ShloMosaic.Lib.ValueIdxRank1
import Idealize.ShloMosaic.PureOps.Ideal.Laws

noncomputable section

namespace Cert.ReferenceIdeal.Hand

open Cert.ReferenceIdeal Cert.ReferenceIdeal.Gen Cert.ReferenceIdeal.Read Cert.IdealReal
open Idealize.ShloMosaic Idealize.ShloMosaic.ValueIdx
open scoped BigOperators

/-! ## The reference's first result, minus half the squared distance, on real inputs

Every entry of the features is a real (x p q) and every entry of the means a real (μ c q). Row by row the
program takes the sum of squares, its root floored at the small positive literal (the row's length), the row over its
length (the unit row), the inner products of unit rows with means, the squared norms of both, and from these
-1/2 · (⟨f, f⟩ - 2 ⟨f, μ⟩ + ⟨μ, μ⟩). Each stage is a coerced real, the one the specification names. -/

section Floats

variable (x0 : (⟨S8192x128, .f32⟩ : BufTy).Contents (Elt Ideal)) (x2 : (⟨S1000x128, .f32⟩ : BufTy).Contents (Elt Ideal))
  (x : Fin 8192 → Fin 128 → ℝ) (μ : Fin 1000 → Fin 128 → ℝ)

/-! ### The coordinates each layout stage reads -/

theorem idx_call0_v1 (p : Fin 8192) (k : Fin 128) : idx_main_call0_v1 (ix1 p) k = ix2 p k := by
  funext a; match a with | ⟨0, _⟩ => rfl | ⟨1, _⟩ => rfl
theorem idx_call0_v2 (p : Fin 8192) (z : Fin 1) : idx_main_call0_v2 (ix2 p z) = ix1 p := by
  funext a; match a with | ⟨0, _⟩ => rfl
theorem idx_v3 (p : Fin 8192) (q : Fin 128) : idx_main_v3 (ix2 p q) = ix2 p (⟨0, Nat.one_pos⟩ : Fin 1) := by
  funext a; match a with | ⟨0, _⟩ => rfl | ⟨1, _⟩ => rfl
theorem lidx_v6 (p : Fin 8192) (c : Fin 1000) (k : Fin 128) : lidx_main_v6 (ix2 p c) k = ix2 p k := by
  funext a; match a with | ⟨0, _⟩ => rfl | ⟨1, _⟩ => rfl
theorem ridx_v6 (p : Fin 8192) (c : Fin 1000) (k : Fin 128) : ridx_main_v6 (ix2 p c) k = ix2 k c := by
  funext a; match a with | ⟨0, _⟩ => rfl | ⟨1, _⟩ => rfl
theorem idx_v5 (k : Fin 128) (c : Fin 1000) : idx_main_v5 (ix2 k c) = ix2 c k := by
  funext a; match a with | ⟨0, _⟩ => rfl | ⟨1, _⟩ => rfl
theorem idx_v8 (p : Fin 8192) (k : Fin 128) : idx_main_v8 (ix1 p) k = ix2 p k := by
  funext a; match a with | ⟨0, _⟩ => rfl | ⟨1, _⟩ => rfl
theorem idx_v9 (p : Fin 8192) (z : Fin 1) : idx_main_v9 (ix2 p z) = ix1 p := by
  funext a; match a with | ⟨0, _⟩ => rfl
theorem idx_v11 (c : Fin 1000) (k : Fin 128) : idx_main_v11 (ix1 c) k = ix2 c k := by
  funext a; match a with | ⟨0, _⟩ => rfl | ⟨1, _⟩ => rfl
theorem idx_v12 (z : Fin 1) (c : Fin 1000) : idx_main_v12 (ix2 z c) = ix1 c := by
  funext a; match a with | ⟨0, _⟩ => rfl
theorem idx_v15 (p : Fin 8192) (c : Fin 1000) : idx_main_v15 (ix2 p c) = ix2 p (⟨0, Nat.one_pos⟩ : Fin 1) := by
  funext a; match a with | ⟨0, _⟩ => rfl | ⟨1, _⟩ => rfl
theorem idx_v17 (p : Fin 8192) (c : Fin 1000) : idx_main_v17 (ix2 p c) = ix2 (⟨0, Nat.one_pos⟩ : Fin 1) c := by
  funext a; match a with | ⟨0, _⟩ => rfl | ⟨1, _⟩ => rfl

/-! ### Lengths and unit rows -/

/-- The sum of squares of feature row p. -/
theorem call0_v1_at (hx : ∀ p q, x0 (ix2 p q) = ((x p q : ℝ) : EReal)) (p : Fin 8192) :
    val_main_call0_v1 (F := Ideal) x0 (ix1 p) = ((∑ k, x p k * x p k : ℝ) : EReal) := by
  have h : ∀ k : Fin 128, val_main_call0_v0 (F := Ideal) x0 (idx_main_call0_v1 (ix1 p) k) = ((x p k * x p k : ℝ) : EReal) := by
    intro k; rw [idx_call0_v1, val_main_call0_v0_apply, hx, mulf_coe]
  rw [val_main_call0_v1_apply, val_main_call0_cst_apply]
  simp only [h]
  rw [Ideal.ofBits_def, ofBits_zero, coe_sum, add_coe, zero_add]

/-- The length of feature row p: the root of the sum of squares, floored at the small literal. -/
theorem v2_at (hx : ∀ p q, x0 (ix2 p q) = ((x p q : ℝ) : EReal)) (p : Fin 8192) (z : Fin 1) :
    val_main_v2 (F := Ideal) x0 (ix2 p z) = ((Spec.len tiny x p : ℝ) : EReal) := by
  rw [val_main_v2_apply, val_main_v0_apply, val_main_call0_v2_apply, idx_call0_v2, call0_v1_at x0 x hx p,
    val_main_v1_apply, val_main_cst_apply, Ideal.ofBits_def, ofBits_tiny,
    hostSqrt_coe (Finset.sum_nonneg fun k _ => mul_self_nonneg (x p k)), maximumf_coe]
  rfl

/-- A floored length is positive. -/
theorem len_pos {n : ℕ} (a : Fin n → Fin 128 → ℝ) (i : Fin n) : 0 < Spec.len tiny a i :=
  lt_of_lt_of_le tiny_pos (le_max_right _ _)

/-- The unit feature rows (main_v4). -/
theorem v4_at (hx : ∀ p q, x0 (ix2 p q) = ((x p q : ℝ) : EReal)) (p : Fin 8192) (q : Fin 128) :
    val_main_v4 (F := Ideal) x0 (ix2 p q) = ((Spec.unit tiny x p q : ℝ) : EReal) := by
  rw [val_main_v4_apply, val_main_v3_apply, idx_v3, v2_at x0 x hx, hx, hostDivf_coe _ (len_pos x p).ne']
  rfl

/-! ### The three inner products -/

/-- ⟨f p, μ c⟩ (main_v6, the contraction over the 128 columns). -/
theorem v6_at (hx : ∀ p q, x0 (ix2 p q) = ((x p q : ℝ) : EReal)) (hμ : ∀ c q, x2 (ix2 c q) = ((μ c q : ℝ) : EReal))
    (p : Fin 8192) (c : Fin 1000) :
    val_main_v6 (F := Ideal) x0 x2 (ix2 p c) = ((∑ k, Spec.unit tiny x p k * μ c k : ℝ) : EReal) := by
  have h : ∀ k : Fin 128, val_main_v4 (F := Ideal) x0 (lidx_main_v6 (ix2 p c) k) * val_main_v5 (F := Ideal) x2 (ridx_main_v6 (ix2 p c) k)
      = ((Spec.unit tiny x p k * μ c k : ℝ) : EReal) := by
    intro k; rw [lidx_v6, v4_at x0 x hx, val_main_v5_apply, ridx_v6, idx_v5, hμ, mul_coe]
  rw [val_main_v6_apply]
  simp only [h]
  rw [coe_sum]

/-- ⟨f p, f p⟩ (main_v8). -/
theorem v8_at (hx : ∀ p q, x0 (ix2 p q) = ((x p q : ℝ) : EReal)) (p : Fin 8192) :
    val_main_v8 (F := Ideal) x0 (ix1 p) = ((∑ k, Spec.unit tiny x p k * Spec.unit tiny x p k : ℝ) : EReal) := by
  have h : ∀ k : Fin 128, val_main_v7 (F := Ideal) x0 (idx_main_v8 (ix1 p) k)
      = ((Spec.unit tiny x p k * Spec.unit tiny x p k : ℝ) : EReal) := by
    intro k; rw [idx_v8, val_main_v7_apply, v4_at x0 x hx, mulf_coe]
  rw [val_main_v8_apply, val_main_cst_0_apply]
  simp only [h]
  rw [Ideal.ofBits_def, ofBits_zero, coe_sum, add_coe, zero_add]

/-- ⟨μ c, μ c⟩ (main_v11). -/
theorem v11_at (hμ : ∀ c q, x2 (ix2 c q) = ((μ c q : ℝ) : EReal)) (c : Fin 1000) :
    val_main_v11 (F := Ideal) x2 (ix1 c) = ((∑ k, μ c k * μ c k : ℝ) : EReal) := by
  have h : ∀ k : Fin 128, val_main_v10 (F := Ideal) x2 (idx_main_v11 (ix1 c) k) = ((μ c k * μ c k : ℝ) : EReal) := by
    intro k; rw [idx_v11, val_main_v10_apply, hμ, mulf_coe]
  rw [val_main_v11_apply, val_main_cst_1_apply]
  simp only [h]
  rw [Ideal.ofBits_def, ofBits_zero, coe_sum, add_coe, zero_add]

/-! ### Minus half the squared distance -/

/-- main_v20 at row p, class c: -1/2 · (⟨f, f⟩ - 2 ⟨f, μ⟩ + ⟨μ, μ⟩). -/
theorem v20_at (hx : ∀ p q, x0 (ix2 p q) = ((x p q : ℝ) : EReal)) (hμ : ∀ c q, x2 (ix2 c q) = ((μ c q : ℝ) : EReal))
    (p : Fin 8192) (c : Fin 1000) :
    val_main_v20 (F := Ideal) x0 x2 (ix2 p c) = ((Spec.negdist tiny x μ p c : ℝ) : EReal) := by
  rw [val_main_v20_apply, val_main_v19_apply, val_main_cst_3_apply, val_main_v18_apply, val_main_v16_apply,
    val_main_v15_apply, idx_v15, val_main_v9_apply, idx_v9, v8_at x0 x hx,
    val_main_v14_apply, val_main_v13_apply, val_main_cst_2_apply, v6_at x0 x2 x μ hx hμ,
    val_main_v17_apply, idx_v17, val_main_v12_apply, idx_v12, v11_at x2 μ hμ,
    Ideal.ofBits_def, Ideal.ofBits_def, ofBits_neg_half, ofBits_two, mulf_coe, subf_coe, addf_coe, mulf_coe]
  rfl

/-- The first result as one function of its index. -/
theorem v20_eq (hx : ∀ p q, x0 (ix2 p q) = ((x p q : ℝ) : EReal)) (hμ : ∀ c q, x2 (ix2 c q) = ((μ c q : ℝ) : EReal)) :
    val_main_v20 (F := Ideal) x0 x2 = fun idx : S8192x1000.Idx => ((Spec.negdist tiny x μ (idx 0) (idx 1) : ℝ) : EReal) := by
  funext idx
  obtain ⟨p, c, rfl⟩ : ∃ (p : Fin 8192) (c : Fin 1000), idx = ix2 p c := ⟨idx 0, idx 1, eq_ix2 idx⟩
  exact v20_at x0 x2 x μ hx hμ p c

end Floats

/-! ## The margin logits and their log-softmax

The one-hot mask compares each row's label word with the class number: both are below 2^32, so the words are equal
exactly when the numbers are. The true class's entry is stretched by 1 + 1/2. The log-softmax is the inlined one: the
row maximum from minus infinity (a maximum of 1000 reals: a real), the shift, the exponentials' sum (positive), its
logarithm, the difference. -/

section Softmax

variable (x0 : (⟨S8192x128, .f32⟩ : BufTy).Contents (Elt Ideal)) (x1 : (⟨S8192, .i32⟩ : BufTy).Contents (Elt Ideal))
  (x2 : (⟨S1000x128, .f32⟩ : BufTy).Contents (Elt Ideal))
  (x : Fin 8192 → Fin 128 → ℝ) (μ : Fin 1000 → Fin 128 → ℝ) (ℓ : Fin 8192 → Fin 1000)

theorem idx_call1_v2 (p : Fin 8192) (c : Fin 1000) : idx_main_call1_v2 (ix2 p c) = ix2 p (⟨0, Nat.one_pos⟩ : Fin 1) := by
  funext a; match a with | ⟨0, _⟩ => rfl | ⟨1, _⟩ => rfl
theorem idx_call1_v0 (p : Fin 8192) (z : Fin 1) : idx_main_call1_v0 (ix2 p z) = ix1 p := by
  funext a; match a with | ⟨0, _⟩ => rfl
theorem idx_call1_v3 (p : Fin 8192) (c : Fin 1000) : idx_main_call1_v3 (ix2 p c) = ix2 (⟨0, Nat.one_pos⟩ : Fin 1) c := by
  funext a; match a with | ⟨0, _⟩ => rfl | ⟨1, _⟩ => rfl
theorem idx_call2_v4 (p : Fin 8192) (c : Fin 1000) : idx_main_call2_v4 (ix2 p c) = ix2 p (⟨0, Nat.one_pos⟩ : Fin 1) := by
  funext a; match a with | ⟨0, _⟩ => rfl | ⟨1, _⟩ => rfl
theorem idx_call2_v3 (p : Fin 8192) (z : Fin 1) : idx_main_call2_v3 (ix2 p z) = ix1 p := by
  funext a; match a with | ⟨0, _⟩ => rfl
theorem idx_call2_v7 (p : Fin 8192) (k : Fin 1000) : idx_main_call2_v7 (ix1 p) k = ix2 p k := by
  funext a; match a with | ⟨0, _⟩ => rfl | ⟨1, _⟩ => rfl
theorem idx_call2_v8 (p : Fin 8192) (z : Fin 1) : idx_main_call2_v8 (ix2 p z) = ix1 p := by
  funext a; match a with | ⟨0, _⟩ => rfl
theorem idx_call2_v10 (p : Fin 8192) (c : Fin 1000) : idx_main_call2_v10 (ix2 p c) = ix2 p (⟨0, Nat.one_pos⟩ : Fin 1) := by
  funext a; match a with | ⟨0, _⟩ => rfl | ⟨1, _⟩ => rfl

/-- Two numbers below 2^32 have equal 32-bit words exactly when they are equal. -/
theorem ofNat32_beq (a b : ℕ) (ha : a < 2 ^ 32) (hb : b < 2 ^ 32) :
    (BitVec.ofNat 32 a == BitVec.ofNat 32 b) = decide (a = b) := by
  by_cases h : a = b
  · subst h; simp
  · have hne : BitVec.ofNat 32 a ≠ BitVec.ofNat 32 b := fun e => h (by
      have e' := congrArg BitVec.toNat e
      rw [BitVec.toNat_ofNat, BitVec.toNat_ofNat, Nat.mod_eq_of_lt ha, Nat.mod_eq_of_lt hb] at e'
      exact e')
    simp [h, hne]

/-- The one-hot mask (main_v21): 1 at the row's own class, 0 elsewhere. -/
theorem v21_at (hℓ : ∀ i, x1 (ix1 i) = BitVec.ofNat 32 (ℓ i).val) (p : Fin 8192) (c : Fin 1000) :
    val_main_v21 (F := Ideal) x1 (ix2 p c) = (((if c = ℓ p then 1 else 0 : ℝ)) : EReal) := by
  rw [val_main_v21_apply, val_main_call1_v4_apply, val_main_call1_v2_apply, idx_call1_v2, val_main_call1_v0_apply,
    idx_call1_v0, hℓ, val_main_call1_v3_apply, idx_call1_v3, val_main_call1_v1_apply]
  show FloatOps.uitofp (F := Ideal) .f32 (BitVec.ofBool (BitVec.ofNat 32 (ℓ p).val == BitVec.ofNat 32 c.val)) = _
  have h1 := (ℓ p).isLt
  have h2 := c.isLt
  rw [ofNat32_beq _ _ (by omega) (by omega), uitofp_ofBool]
  have e : ((ℓ p).val = c.val) ↔ c = ℓ p := ⟨fun h => Fin.ext h.symm, fun h => by rw [h]⟩
  simp only [decide_eq_true_eq, e]

/-- The stretch factor (main_v25): 1 + 1/2 at the row's own class, 1 elsewhere. -/
theorem v25_at (hℓ : ∀ i, x1 (ix1 i) = BitVec.ofNat 32 (ℓ i).val) (p : Fin 8192) (c : Fin 1000) :
    val_main_v25 (F := Ideal) x1 (ix2 p c) = ((1 + (1 / 2 : ℝ) * (if c = ℓ p then 1 else 0) : ℝ) : EReal) := by
  rw [val_main_v25_apply, val_main_v24_apply, val_main_cst_5_apply, val_main_v23_apply, val_main_v22_apply,
    val_main_cst_4_apply, v21_at x1 ℓ hℓ, Ideal.ofBits_def, Ideal.ofBits_def, ofBits_one, ofBits_half, mulf_coe, addf_coe]

/-- The margin logits (main_v26). -/
theorem v26_at (hx : ∀ p q, x0 (ix2 p q) = ((x p q : ℝ) : EReal)) (hμ : ∀ c q, x2 (ix2 c q) = ((μ c q : ℝ) : EReal))
    (hℓ : ∀ i, x1 (ix1 i) = BitVec.ofNat 32 (ℓ i).val) (p : Fin 8192) (c : Fin 1000) :
    val_main_v26 (F := Ideal) x0 x1 x2 (ix2 p c) = ((Spec.logit tiny x μ ℓ p c : ℝ) : EReal) := by
  rw [val_main_v26_apply, v20_at x0 x2 x μ hx hμ, v25_at x1 ℓ hℓ, mulf_coe]
  rfl

/-- Row p of the logits with column k put back: the index (p, k). -/
theorem lift_row (h : S8192x1000.Reduces [1] S8192) (p : Fin 8192) (k : Fin (S8192x1000.size 1)) :
    h.lift (ix1 p) k = ix2 p (⟨k.val, k.isLt⟩ : Fin 1000) := by
  funext c; apply Fin.ext; rw [h.lift_val]
  match c with
  | ⟨0, _⟩ => rfl
  | ⟨1, _⟩ => rfl

/-- The row maximum from minus infinity (the max-reduce over the 1000 classes): the largest logit of the row. -/
theorem call2_v0_at (hx : ∀ p q, x0 (ix2 p q) = ((x p q : ℝ) : EReal)) (hμ : ∀ c q, x2 (ix2 c q) = ((μ c q : ℝ) : EReal))
    (hℓ : ∀ i, x1 (ix1 i) = BitVec.ofNat 32 (ℓ i).val) (p : Fin 8192) :
    val_main_call2_v0 (F := Ideal) x0 x1 x2 (ix1 p) = ((Spec.rowmax tiny x μ ℓ p : ℝ) : EReal) := by
  unfold val_main_call2_v0
  have h : S8192x1000.Reduces [1] S8192 := by decide
  refine (Host_reduce_maximumf_coe (val_main_v26 (F := Ideal) x0 x1 x2) (val_main_call2_cst (F := Ideal))
    reducesTo_S8192x1000_S8192_d1 h h_S_ (ix1 p) ⟨⟨0, by decide⟩, Finset.mem_univ _⟩
    (fun k => Spec.logit tiny x μ ℓ p (⟨k.val, k.isLt⟩ : Fin 1000)) ?_ ?_).trans ?_
  · rw [val_main_call2_cst_apply, Ideal.ofBits_def, ofBits_neg_inf]
  · intro k; rw [lift_row, v26_at x0 x1 x2 x μ ℓ hx hμ hℓ]
  · rfl

/-- A maximum with minus infinity changes nothing (main_call2_v2). -/
theorem call2_v2_at (hx : ∀ p q, x0 (ix2 p q) = ((x p q : ℝ) : EReal)) (hμ : ∀ c q, x2 (ix2 c q) = ((μ c q : ℝ) : EReal))
    (hℓ : ∀ i, x1 (ix1 i) = BitVec.ofNat 32 (ℓ i).val) (p : Fin 8192) :
    val_main_call2_v2 (F := Ideal) x0 x1 x2 (ix1 p) = ((Spec.rowmax tiny x μ ℓ p : ℝ) : EReal) := by
  rw [val_main_call2_v2_apply, val_main_call2_v1_apply, val_main_call2_cst_0_apply, call2_v0_at x0 x1 x2 x μ ℓ hx hμ hℓ,
    Ideal.ofBits_def, ofBits_neg_inf, Ideal.maximumf_def]
  exact max_eq_right bot_le

/-- The shifted logits (main_call2_v5). -/
theorem call2_v5_at (hx : ∀ p q, x0 (ix2 p q) = ((x p q : ℝ) : EReal)) (hμ : ∀ c q, x2 (ix2 c q) = ((μ c q : ℝ) : EReal))
    (hℓ : ∀ i, x1 (ix1 i) = BitVec.ofNat 32 (ℓ i).val) (p : Fin 8192) (c : Fin 1000) :
    val_main_call2_v5 (F := Ideal) x0 x1 x2 (ix2 p c) = ((Spec.shifted tiny x μ ℓ p c : ℝ) : EReal) := by
  rw [val_main_call2_v5_apply, v26_at x0 x1 x2 x μ ℓ hx hμ hℓ, val_main_call2_v4_apply, idx_call2_v4,
    val_main_call2_v3_apply, idx_call2_v3, call2_v2_at x0 x1 x2 x μ ℓ hx hμ hℓ, subf_coe]
  rfl

/-- The row's partition sum after the shift (main_call2_v7). -/
theorem call2_v7_at (hx : ∀ p q, x0 (ix2 p q) = ((x p q : ℝ) : EReal)) (hμ : ∀ c q, x2 (ix2 c q) = ((μ c q : ℝ) : EReal))
    (hℓ : ∀ i, x1 (ix1 i) = BitVec.ofNat 32 (ℓ i).val) (p : Fin 8192) :
    val_main_call2_v7 (F := Ideal) x0 x1 x2 (ix1 p) = ((∑ c, Real.exp (Spec.shifted tiny x μ ℓ p c) : ℝ) : EReal) := by
  have h : ∀ k : Fin 1000, val_main_call2_v6 (F := Ideal) x0 x1 x2 (idx_main_call2_v7 (ix1 p) k)
      = ((Real.exp (Spec.shifted tiny x μ ℓ p k) : ℝ) : EReal) := by
    intro k; rw [idx_call2_v7, val_main_call2_v6_apply, call2_v5_at x0 x1 x2 x μ ℓ hx hμ hℓ, hostExp_coe]
  rw [val_main_call2_v7_apply, val_main_call2_cst_1_apply]
  simp only [h]
  rw [Ideal.ofBits_def, ofBits_zero, coe_sum, add_coe, zero_add]

/-- The log-softmax (main_v27). -/
theorem v27_at (hx : ∀ p q, x0 (ix2 p q) = ((x p q : ℝ) : EReal)) (hμ : ∀ c q, x2 (ix2 c q) = ((μ c q : ℝ) : EReal))
    (hℓ : ∀ i, x1 (ix1 i) = BitVec.ofNat 32 (ℓ i).val) (p : Fin 8192) (c : Fin 1000) :
    val_main_v27 (F := Ideal) x0 x1 x2 (ix2 p c) = ((Spec.logp tiny x μ ℓ p c : ℝ) : EReal) := by
  have hpos : 0 < ∑ c, Real.exp (Spec.shifted tiny x μ ℓ p c) :=
    Finset.sum_pos (fun c _ => Real.exp_pos _) Finset.univ_nonempty
  rw [val_main_v27_apply, call2_v5_at x0 x1 x2 x μ ℓ hx hμ hℓ, val_main_call2_v10_apply, idx_call2_v10,
    val_main_call2_v9_apply, val_main_call2_v8_apply, idx_call2_v8, call2_v7_at x0 x1 x2 x μ ℓ hx hμ hℓ,
    hostLog_coe hpos, subf_coe]
  rfl

/-- The log-softmax as one function of its index. -/
theorem v27_eq (hx : ∀ p q, x0 (ix2 p q) = ((x p q : ℝ) : EReal)) (hμ : ∀ c q, x2 (ix2 c q) = ((μ c q : ℝ) : EReal))
    (hℓ : ∀ i, x1 (ix1 i) = BitVec.ofNat 32 (ℓ i).val) :
    val_main_v27 (F := Ideal) x0 x1 x2 = fun idx : S8192x1000.Idx => ((Spec.logp tiny x μ ℓ (idx 0) (idx 1) : ℝ) : EReal) := by
  funext idx
  obtain ⟨p, c, rfl⟩ : ∃ (p : Fin 8192) (c : Fin 1000), idx = ix2 p c := ⟨idx 0, idx 1, eq_ix2 idx⟩
  exact v27_at x0 x1 x2 x μ ℓ hx hμ hℓ p c

end Softmax

/-! ## The true class's log-probability and the cross entropy

The gather reads log_p at (i, label of i). Its start indices are two columns: the row number and the label, each first
passed through a wrap of negative values (add the extent when below zero). Both are below 2^31, so as signed words
they are not negative and the wrap leaves them alone; read back signed and clamped to the axis they are themselves.
The mean over the 8192 rows, negated, is the cross entropy. -/

section Gather

variable (x0 : (⟨S8192x128, .f32⟩ : BufTy).Contents (Elt Ideal)) (x1 : (⟨S8192, .i32⟩ : BufTy).Contents (Elt Ideal))
  (x2 : (⟨S1000x128, .f32⟩ : BufTy).Contents (Elt Ideal))
  (x : Fin 8192 → Fin 128 → ℝ) (μ : Fin 1000 → Fin 128 → ℝ) (ℓ : Fin 8192 → Fin 1000)

theorem idx_v39 (p : Fin 8192) (z : Fin 1) : idx_main_v39 (ix2 p z) = ix1 p := by
  funext a; match a with | ⟨0, _⟩ => rfl
theorem idx_v40 (p : Fin 8192) (z : Fin 1) : idx_main_v40 (ix2 p z) = ix1 p := by
  funext a; match a with | ⟨0, _⟩ => rfl

/-- A number below 2^31, as a 32-bit word read signed, is itself. -/
theorem ofNat32_toInt (n : ℕ) (hn : n < 2 ^ 31) : (BitVec.ofNat 32 n).toInt = (n : ℤ) := by
  have h1 : (BitVec.ofNat 32 n).toNat = n := by rw [BitVec.toNat_ofNat]; exact Nat.mod_eq_of_lt (by omega)
  rw [BitVec.toInt_eq_toNat_cond, h1, if_pos (by omega)]

/-- Such a word is not below zero. -/
theorem ofNat32_slt_zero (n : ℕ) (hn : n < 2 ^ 31) : IntOp.cmpi .slt (BitVec.ofNat 32 n) 0#32 = 0#1 := by
  show BitVec.ofBool ((BitVec.ofNat 32 n).slt 0#32) = 0#1
  have h : (BitVec.ofNat 32 n).slt 0#32 = false := by
    rw [BitVec.slt, ofNat32_toInt n hn, BitVec.toInt_zero]; exact decide_eq_false (by omega)
  rw [h]; rfl

/-- Read signed and clamped to an axis that holds it, it is itself. -/
theorem clamp_word (n N : ℕ) (hn : n < 2 ^ 31) (hN : n ≤ N) : min (BitVec.ofNat 32 n).toInt.toNat N = n := by
  rw [ofNat32_toInt n hn, Int.toNat_natCast]; exact Nat.min_eq_left hN

/-- The row-number column after the wrap (main_v33): the row number. -/
theorem v33_at (p : Fin 8192) : val_main_v33 (F := Ideal) (ix1 p) = BitVec.ofNat 32 p.val := by
  have hp := p.isLt
  rw [val_main_v33_apply, val_main_v30_apply, val_main_v28_apply, val_main_v29_apply, val_main_c_apply]
  show Scalar.select (IntOp.cmpi .slt (BitVec.ofNat 32 p.val) 0#32) _ _ = _
  rw [ofNat32_slt_zero _ (by omega), select_zero]

/-- The label column after the wrap (main_v38): the label. -/
theorem v38_at (hℓ : ∀ i, x1 (ix1 i) = BitVec.ofNat 32 (ℓ i).val) (p : Fin 8192) :
    val_main_v38 (F := Ideal) x1 (ix1 p) = BitVec.ofNat 32 (ℓ p).val := by
  have hp := (ℓ p).isLt
  rw [val_main_v38_apply, val_main_v35_apply, val_main_v34_apply, val_main_c_7_apply, hℓ,
    ofNat32_slt_zero _ (by omega), select_zero]

/-- The two columns side by side (main_v41): column 0 is the first piece … -/
theorem v41_at0 (p : Fin 8192) : val_main_v41 (F := Ideal) x1 (ix2 p (0 : Fin 2)) = BitVec.ofNat 32 p.val := by
  unfold val_main_v41
  rw [concatenate_pair_apply_left (1 : Fin S8192x2.rank) (val_main_v39 (F := Ideal)) (val_main_v40 (F := Ideal) x1)
    concatenates_S8192x1_S8192x1_S8192x2_d1 (ix2 p (0 : Fin 2)) rfl (ix2 p (⟨0, Nat.one_pos⟩ : Fin 1))
    (fun b => match b with | ⟨0, _⟩ => rfl | ⟨1, _⟩ => rfl)]
  rw [val_main_v39_apply, idx_v39, v33_at]

/-- … and column 1 the second. -/
theorem v41_at1 (hℓ : ∀ i, x1 (ix1 i) = BitVec.ofNat 32 (ℓ i).val) (p : Fin 8192) :
    val_main_v41 (F := Ideal) x1 (ix2 p (1 : Fin 2)) = BitVec.ofNat 32 (ℓ p).val := by
  unfold val_main_v41
  rw [concatenate_pair_apply_right (1 : Fin S8192x2.rank) (val_main_v39 (F := Ideal)) (val_main_v40 (F := Ideal) x1)
    concatenates_S8192x1_S8192x1_S8192x2_d1 (ix2 p (1 : Fin 2)) rfl rfl (ix2 p (⟨0, Nat.one_pos⟩ : Fin 1))
    (fun b hb => match b, hb with
      | ⟨0, _⟩, _ => rfl
      | ⟨1, _⟩, hb => absurd (Fin.ext rfl) hb)
    rfl]
  rw [val_main_v40_apply, idx_v40, v38_at x1 ℓ hℓ]

/-- The operand index the gather reads for row p, on the row axis: the first start-index column, read signed and
    clamped (no batching axis, and the axis is collapsed, so nothing is added). -/
theorem gather_coord0 (idx : IVec S8192x2 32) (p : Fin 8192)
    (h0 : idx (ix2 p (0 : Fin 2)) = BitVec.ofNat 32 p.val) :
    (gather_S8192x1000_S8192x2_S8192_n_01_n_n_01_1_11.operandIdx (ix1 p) idx (0 : Fin S8192x1000.rank)).val = p.val := by
  have hp := p.isLt
  show gather_S8192x1000_S8192x2_S8192_n_01_n_n_01_1_11.start (ix1 p) idx 0 + gather_S8192x1000_S8192x2_S8192_n_01_n_n_01_1_11.batchCoord (ix1 p) 0 + gather_S8192x1000_S8192x2_S8192_n_01_n_n_01_1_11.offCoord (ix1 p) 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin S8192x1000.rank) ∈ gather_S8192x1000_S8192x2_S8192_n_01_n_n_01_1_11.startIndexMap by decide)]
  have hsi : gather_S8192x1000_S8192x2_S8192_n_01_n_n_01_1_11.siIdx (ix1 p) ⟨List.idxOf (0 : Fin S8192x1000.rank) gather_S8192x1000_S8192x2_S8192_n_01_n_n_01_1_11.startIndexMap,
      List.idxOf_lt_length_iff.2 (by decide)⟩ = ix2 p (0 : Fin 2) := by
    funext b; refine Fin.ext ?_
    match b with
    | ⟨0, _⟩ => rfl
    | ⟨1, _⟩ => rfl
  rw [hsi, h0]
  exact clamp_word p.val (8192 - 1) (by omega) (by omega)

/-- The same on the class axis: the second start-index column. -/
theorem gather_coord1 (idx : IVec S8192x2 32) (p : Fin 8192) (c : Fin 1000)
    (h1 : idx (ix2 p (1 : Fin 2)) = BitVec.ofNat 32 c.val) :
    (gather_S8192x1000_S8192x2_S8192_n_01_n_n_01_1_11.operandIdx (ix1 p) idx (1 : Fin S8192x1000.rank)).val = c.val := by
  have hc := c.isLt
  show gather_S8192x1000_S8192x2_S8192_n_01_n_n_01_1_11.start (ix1 p) idx 1 + gather_S8192x1000_S8192x2_S8192_n_01_n_n_01_1_11.batchCoord (ix1 p) 1 + gather_S8192x1000_S8192x2_S8192_n_01_n_n_01_1_11.offCoord (ix1 p) 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin S8192x1000.rank) ∈ gather_S8192x1000_S8192x2_S8192_n_01_n_n_01_1_11.startIndexMap by decide)]
  have hsi : gather_S8192x1000_S8192x2_S8192_n_01_n_n_01_1_11.siIdx (ix1 p) ⟨List.idxOf (1 : Fin S8192x1000.rank) gather_S8192x1000_S8192x2_S8192_n_01_n_n_01_1_11.startIndexMap,
      List.idxOf_lt_length_iff.2 (by decide)⟩ = ix2 p (1 : Fin 2) := by
    funext b; refine Fin.ext ?_
    match b with
    | ⟨0, _⟩ => rfl
    | ⟨1, _⟩ => rfl
  rw [hsi, h1]
  exact clamp_word c.val (1000 - 1) (by omega) (by omega)

/-- So the gather reads the operand at (p, c) when the columns hold p and c. -/
theorem gather_operandIdx (idx : IVec S8192x2 32) (p : Fin 8192) (c : Fin 1000)
    (h0 : idx (ix2 p (0 : Fin 2)) = BitVec.ofNat 32 p.val) (h1 : idx (ix2 p (1 : Fin 2)) = BitVec.ofNat 32 c.val) :
    gather_S8192x1000_S8192x2_S8192_n_01_n_n_01_1_11.operandIdx (ix1 p) idx = ix2 p c := by
  funext a
  refine Fin.ext ?_
  match a with
  | ⟨0, _⟩ => exact gather_coord0 idx p h0
  | ⟨1, _⟩ => exact gather_coord1 idx p c h1

/-- The gathered log-probabilities (main_v42): row p's entry at its own label. -/
theorem v42_at (hx : ∀ p q, x0 (ix2 p q) = ((x p q : ℝ) : EReal)) (hμ : ∀ c q, x2 (ix2 c q) = ((μ c q : ℝ) : EReal))
    (hℓ : ∀ i, x1 (ix1 i) = BitVec.ofNat 32 (ℓ i).val) (p : Fin 8192) :
    val_main_v42 (F := Ideal) x0 x1 x2 (ix1 p) = ((Spec.logp tiny x μ ℓ p (ℓ p) : ℝ) : EReal) := by
  unfold val_main_v42 Host.gather
  rw [gather_operandIdx (val_main_v41 (F := Ideal) x1) p (ℓ p) (v41_at0 x1 p) (v41_at1 x1 ℓ hℓ p),
    v27_at x0 x1 x2 x μ ℓ hx hμ hℓ]

/-- The gathered column as one function of its index. -/
theorem v42_eq (hx : ∀ p q, x0 (ix2 p q) = ((x p q : ℝ) : EReal)) (hμ : ∀ c q, x2 (ix2 c q) = ((μ c q : ℝ) : EReal))
    (hℓ : ∀ i, x1 (ix1 i) = BitVec.ofNat 32 (ℓ i).val) :
    val_main_v42 (F := Ideal) x0 x1 x2 = fun idx : S8192.Idx => ((Spec.logp tiny x μ ℓ (idx 0) (ℓ (idx 0)) : ℝ) : EReal) := by
  funext idx
  obtain ⟨p, rfl⟩ : ∃ p : Fin 8192, idx = ix1 p := ⟨idx 0, eq_ix1 idx⟩
  exact v42_at x0 x1 x2 x μ ℓ hx hμ hℓ p

/-- Their sum over the 8192 rows (main_v43). -/
theorem v43_at (hx : ∀ p q, x0 (ix2 p q) = ((x p q : ℝ) : EReal)) (hμ : ∀ c q, x2 (ix2 c q) = ((μ c q : ℝ) : EReal))
    (hℓ : ∀ i, x1 (ix1 i) = BitVec.ofNat 32 (ℓ i).val) (i : S_.Idx) :
    val_main_v43 (F := Ideal) x0 x1 x2 i = ((∑ p, Spec.logp tiny x μ ℓ p (ℓ p) : ℝ) : EReal) := by
  have h : ∀ j : S8192.Idx, val_main_v42 (F := Ideal) x0 x1 x2 j
      = ((Spec.logp tiny x μ ℓ (idxEquiv1 j) (ℓ (idxEquiv1 j)) : ℝ) : EReal) := by
    intro j
    obtain ⟨p, rfl⟩ : ∃ p : Fin 8192, j = ix1 p := ⟨j 0, eq_ix1 j⟩
    exact v42_at x0 x1 x2 x μ ℓ hx hμ hℓ p
  rw [val_main_v43_apply, val_main_cst_9_apply]
  simp only [h]
  rw [Ideal.ofBits_def, ofBits_zero, coe_sum, add_coe, zero_add]
  exact congrArg Real.toEReal (Equiv.sum_comp idxEquiv1 fun p : Fin 8192 => Spec.logp tiny x μ ℓ p (ℓ p))

/-- The cross-entropy scalar (main_v45): minus the mean of the true classes' log-probabilities. -/
theorem v45_eq (hx : ∀ p q, x0 (ix2 p q) = ((x p q : ℝ) : EReal)) (hμ : ∀ c q, x2 (ix2 c q) = ((μ c q : ℝ) : EReal))
    (hℓ : ∀ i, x1 (ix1 i) = BitVec.ofNat 32 (ℓ i).val) :
    val_main_v45 (F := Ideal) x0 x1 x2 = fun _ : S_.Idx => ((Spec.ce tiny x μ ℓ : ℝ) : EReal) := by
  funext i
  rw [val_main_v45_apply, val_main_v44_apply, v43_at x0 x1 x2 x μ ℓ hx hμ hℓ, val_main_cst_10_apply,
    Ideal.ofBits_def, ofBits_8192, hostDivf_coe _ (by norm_num), hostNegf_coe]
  rfl

end Gather

end Cert.ReferenceIdeal.Hand

end
-- ==== Proof.RefVal2.lean ====
/-
  The reference's margin scalar, read in the real numbers.

  Every entry of the feature matrix and of the class means is a real number and every label is a word below 1000.
  Then each intermediate array of the reference is a coerced real, stage by stage:
  the rows of both matrices scaled to unit length (the length a square root of a sum of squares, floored at the
  positive `ε`, so the division is by a nonzero real); the label index, which is never negative, so its wrap by
  `+1000` is never taken and the row gather reads the unit mean of the row's class; the difference of each unit
  feature row and that mean, squared, summed over both axes (a sum over the rank-2 index set is the double sum over
  the coordinates), halved and divided by the 8192 rows. The result is `Spec.lm`.
-/
import proofs.«400644_j12893491823014_2_alg».proof.Proof.RefReadP
import proofs.«400644_j12893491823014_2_alg».proof.Proof.Spec
import proofs.«400644_j12893491823014_2_alg».proof.Proof.IdealReal
import Idealize.ShloMosaic.Lib.ValueIdx
import Idealize.ShloMosaic.Lib.StableHlo.Predicate

noncomputable section

namespace Cert.ReferenceIdeal.Hand

open Cert.ReferenceIdeal Cert.ReferenceIdeal.Gen Cert.ReferenceIdeal.Read Idealize.ShloMosaic Idealize.ShloMosaic.ValueIdx
  Idealize.ShloMosaic.StableHlo Cert.IdealReal
open scoped BigOperators

/-- The floored length of a row is positive, because the floor is. -/
private theorem len_pos {n : ℕ} (a : Fin n → Fin 128 → ℝ) (i : Fin n) : 0 < Cert.Spec.len tiny a i :=
  lt_max_of_lt_right tiny_pos

/-! ### The unit feature rows: `x p q / max (sqrt (∑ k, x p k ^ 2)) ε` -/

section Feat
variable (x0 : (⟨S8192x128, .f32⟩ : BufTy).Contents (Elt Ideal)) (x : Fin 8192 → Fin 128 → ℝ)
  (hx : ∀ p q, x0 (ix2 p q) = ((x p q : ℝ) : EReal))
include hx

/-- The sum of squares of feature row `p`. -/
private theorem feat_sq_sum (p : Fin 8192) :
    Read.val_main_call0_v1 (F := Ideal) x0 (ix1 p) = ((∑ k, x p k * x p k : ℝ) : EReal) := by
  rw [val_main_call0_v1_apply, val_main_call0_cst_apply, Ideal.ofBits_def, ofBits_zero]
  have e : ∀ k : Fin 128, Read.val_main_call0_v0 (F := Ideal) x0 (idx_main_call0_v1 (ix1 p) k)
      = ((x p k * x p k : ℝ) : EReal) := fun k => by
    rw [val_main_call0_v0_apply,
      show idx_main_call0_v1 (ix1 p) k = ix2 p k from
        funext fun a => Fin.ext (by match a with | ⟨0, _⟩ => rfl | ⟨1, _⟩ => rfl),
      hx, Ideal.mulf_def, mul_coe]
  rw [Finset.sum_congr rfl (fun k _ => e k), coe_sum, add_coe, zero_add]

/-- The floored length of feature row `p`, kept as a column. -/
private theorem feat_len (p : Fin 8192) :
    Read.val_main_v2 (F := Ideal) x0 (ix2 p (0 : Fin 1)) = ((Cert.Spec.len tiny x p : ℝ) : EReal) := by
  rw [val_main_v2_apply, val_main_v0_apply, val_main_call0_v2_apply, val_main_v1_apply, val_main_cst_apply,
    show idx_main_call0_v2 (ix2 p (0 : Fin 1)) = ix1 p from
      funext fun a => Fin.ext (by match a with | ⟨0, _⟩ => rfl),
    feat_sq_sum x0 x hx p, Ideal.hostUnary_sqrt_def,
    sqrt_coe (Finset.sum_nonneg fun k _ => mul_self_nonneg _), Ideal.ofBits_def, ofBits_tiny,
    Ideal.maximumf_def, max_coe]
  rfl

/-- Entry `(p, q)` of the scaled feature matrix is the real `x p q / len ε x p`. -/
private theorem val_main_v4_real (p : Fin 8192) (q : Fin 128) :
    Read.val_main_v4 (F := Ideal) x0 (ix2 p q) = ((Cert.Spec.unit tiny x p q : ℝ) : EReal) := by
  rw [val_main_v4_apply, val_main_v3_apply,
    show idx_main_v3 (ix2 p q) = ix2 p (0 : Fin 1) from
      funext fun a => Fin.ext (by match a with | ⟨0, _⟩ => rfl | ⟨1, _⟩ => rfl),
    feat_len x0 x hx p, hx, Ideal.hostDivf_def, div_coe _ (ne_of_gt (len_pos x p))]
  rfl

end Feat

/-! ### The unit means: the same scaling of the 1000 class means -/

section Means
variable (x2 : (⟨S1000x128, .f32⟩ : BufTy).Contents (Elt Ideal)) (μ : Fin 1000 → Fin 128 → ℝ)
  (hμ : ∀ p q, x2 (ix2 p q) = ((μ p q : ℝ) : EReal))
include hμ

/-- The sum of squares of mean row `c`. -/
theorem mean_sq_sum (c : Fin 1000) :
    Read.val_main_call3_v1 (F := Ideal) x2 (ix1 c) = ((∑ k, μ c k * μ c k : ℝ) : EReal) := by
  rw [val_main_call3_v1_apply, val_main_call3_cst_apply, Ideal.ofBits_def, ofBits_zero]
  have e : ∀ k : Fin 128, Read.val_main_call3_v0 (F := Ideal) x2 (idx_main_call3_v1 (ix1 c) k)
      = ((μ c k * μ c k : ℝ) : EReal) := fun k => by
    rw [val_main_call3_v0_apply,
      show idx_main_call3_v1 (ix1 c) k = ix2 c k from
        funext fun a => Fin.ext (by match a with | ⟨0, _⟩ => rfl | ⟨1, _⟩ => rfl),
      hμ, Ideal.mulf_def, mul_coe]
  rw [Finset.sum_congr rfl (fun k _ => e k), coe_sum, add_coe, zero_add]

/-- The floored length of mean row `c`, kept as a column. -/
theorem mean_len (c : Fin 1000) :
    Read.val_main_v48 (F := Ideal) x2 (ix2 c (0 : Fin 1)) = ((Cert.Spec.len tiny μ c : ℝ) : EReal) := by
  rw [val_main_v48_apply, val_main_v46_apply, val_main_call3_v2_apply, val_main_v47_apply, val_main_cst_11_apply,
    show idx_main_call3_v2 (ix2 c (0 : Fin 1)) = ix1 c from
      funext fun a => Fin.ext (by match a with | ⟨0, _⟩ => rfl),
    mean_sq_sum x2 μ hμ c, Ideal.hostUnary_sqrt_def,
    sqrt_coe (Finset.sum_nonneg fun k _ => mul_self_nonneg _), Ideal.ofBits_def, ofBits_tiny,
    Ideal.maximumf_def, max_coe]
  rfl

/-- Entry `(c, q)` of the scaled means is the real `μ c q / len ε μ c`. -/
theorem val_main_v50_real (c : Fin 1000) (q : Fin 128) :
    Read.val_main_v50 (F := Ideal) x2 (ix2 c q) = ((Cert.Spec.unit tiny μ c q : ℝ) : EReal) := by
  rw [val_main_v50_apply, val_main_v49_apply,
    show idx_main_v49 (ix2 c q) = ix2 c (0 : Fin 1) from
      funext fun a => Fin.ext (by match a with | ⟨0, _⟩ => rfl | ⟨1, _⟩ => rfl),
    mean_len x2 μ hμ c, hμ, Ideal.hostDivf_def, div_coe _ (ne_of_gt (len_pos μ c))]
  rfl

end Means

/-! ### The row gather: row `i` of the result is the operand's row at the start index, clamped into the table -/

/-- The dimension numbers of the row gather (one start index per result row, naming the operand's row;
    the 128 columns are the slice). -/
abbrev rowsDims : GatherDims S1000x128 S8192x1 S8192x128 := gather_S1000x128_S8192x1_S8192x128_1_0_n_n_0_1_1128

/-- Entry `(i, k)` of the gathered rows is the table's entry `(r, k)`, `r` the start index of row `i` read signed and
    clamped into `[0, 999]`. -/
theorem gather_rows_apply {α : Type} (t : S1000x128.Idx → α) (idx : IVec S8192x1 32) (i : Fin 8192) (k : Fin 128)
    (r : Fin 1000) (hr : min (idx (ix2 i (0 : Fin 1))).toInt.toNat 999 = r.val) :
    Host.gather rowsDims t idx (ix2 i k) = t (ix2 r k) := by
  unfold Host.gather
  refine congrArg t (funext fun a => Fin.ext ?_)
  match a with
  | ⟨0, _⟩ =>
    show GatherDims.start rowsDims (ix2 i k) idx 0 + GatherDims.batchCoord rowsDims (ix2 i k) 0
      + GatherDims.offCoord rowsDims (ix2 i k) 0 = r.val
    rw [GatherDims.batchCoord_eq_zero _ _ _ (by decide), GatherDims.offCoord_eq_zero _ _ _ (by decide)]
    simp only [Nat.add_zero]
    unfold GatherDims.start
    rw [dif_pos (show (0 : Fin 2) ∈ rowsDims.startIndexMap from by decide)]
    have hsi : rowsDims.siIdx (ix2 i k) ⟨List.idxOf (0 : Fin 2) rowsDims.startIndexMap,
        List.idxOf_lt_length_iff.2 (by decide)⟩ = ix2 i (0 : Fin 1) := by
      funext b; refine Fin.ext ?_
      match b with
      | ⟨0, _⟩ => rfl
      | ⟨1, _⟩ => rfl
    rw [hsi]
    exact hr
  | ⟨1, _⟩ =>
    show GatherDims.start rowsDims (ix2 i k) idx 1 + GatherDims.batchCoord rowsDims (ix2 i k) 1
      + GatherDims.offCoord rowsDims (ix2 i k) 1 = k.val
    rw [GatherDims.batchCoord_eq_zero _ _ _ (by decide)]
    unfold GatherDims.start
    rw [dif_neg (show ¬ (1 : Fin 2) ∈ rowsDims.startIndexMap from by decide)]
    unfold GatherDims.offCoord
    rw [dif_pos (show (1 : Fin 2) ∈ rowsDims.sKept from by decide)]
    simp only [Nat.zero_add]
    rfl

/-! ### The label index and the gathered means -/

section Label
variable (x1 : (⟨S8192, .i32⟩ : BufTy).Contents (Elt Ideal)) (ℓ : Fin 8192 → Fin 1000)
  (hℓ : ∀ i, x1 (ix1 i) = BitVec.ofNat 32 (ℓ i).val)
include hℓ

/-- A label below 1000 is not negative, so the wrap by `+1000` is never taken: the index is the label's word. -/
theorem val_main_v55_real (i : Fin 8192) :
    Read.val_main_v55 (F := Ideal) x1 (ix1 i) = BitVec.ofNat 32 (ℓ i).val := by
  rw [val_main_v55_apply, val_main_v52_apply, val_main_v51_apply, val_main_c_12_apply, hℓ]
  have hlt : (BitVec.ofNat 32 (ℓ i).val).toNat < 2 ^ 31 := by
    have := (ℓ i).isLt; rw [BitVec.toNat_ofNat]; omega
  have h : IntOp.cmpi .slt (BitVec.ofNat 32 (ℓ i).val) 0#32 = 0#1 :=
    eq_zero_of_ne_one fun h1 => Nat.not_lt_zero _ ((Predicate.slt_iff_toNat hlt (by decide)).mp h1)
  rw [h, select_zero]

/-- The start index of row `i`, read signed and clamped into the table of 1000 means, is the label. -/
theorem start_row (i : Fin 8192) :
    min ((Read.val_main_v56 (F := Ideal) x1) (ix2 i (0 : Fin 1))).toInt.toNat 999 = (ℓ i).val := by
  rw [val_main_v56_apply,
    show idx_main_v56 (ix2 i (0 : Fin 1)) = ix1 i from
      funext fun a => Fin.ext (by match a with | ⟨0, _⟩ => rfl),
    val_main_v55_real x1 ℓ hℓ i, Predicate.toInt_ofNat_small _ (by have := (ℓ i).isLt; omega), Int.toNat_natCast]
  have := (ℓ i).isLt; omega

/-- The gathered means: row `i` is the unit mean of row `i`'s class. -/
theorem val_main_v57_real (x2 : (⟨S1000x128, .f32⟩ : BufTy).Contents (Elt Ideal)) (μ : Fin 1000 → Fin 128 → ℝ)
    (hμ : ∀ p q, x2 (ix2 p q) = ((μ p q : ℝ) : EReal)) (i : Fin 8192) (k : Fin 128) :
    Read.val_main_v57 (F := Ideal) x1 x2 (ix2 i k) = ((Cert.Spec.unit tiny μ (ℓ i) k : ℝ) : EReal) := by
  unfold Read.val_main_v57
  exact (gather_rows_apply _ _ i k (ℓ i) (start_row x1 ℓ hℓ i)).trans (val_main_v50_real x2 μ hμ (ℓ i) k)

end Label

/-! ### The margin scalar: half the mean squared distance from each unit row to its class's unit mean -/

section Margin
variable (x0 : (⟨S8192x128, .f32⟩ : BufTy).Contents (Elt Ideal)) (x1 : (⟨S8192, .i32⟩ : BufTy).Contents (Elt Ideal))
  (x2 : (⟨S1000x128, .f32⟩ : BufTy).Contents (Elt Ideal))
  (x : Fin 8192 → Fin 128 → ℝ) (μ : Fin 1000 → Fin 128 → ℝ) (ℓ : Fin 8192 → Fin 1000)
  (hx : ∀ p q, x0 (ix2 p q) = ((x p q : ℝ) : EReal)) (hμ : ∀ p q, x2 (ix2 p q) = ((μ p q : ℝ) : EReal))
  (hℓ : ∀ i, x1 (ix1 i) = BitVec.ofNat 32 (ℓ i).val)
include hx hμ hℓ

/-- The difference of the unit row and its class's unit mean, entry `(i, k)`. -/
theorem val_main_v58_real (i : Fin 8192) (k : Fin 128) :
    Read.val_main_v58 (F := Ideal) x0 x1 x2 (ix2 i k)
      = ((Cert.Spec.unit tiny x i k - Cert.Spec.unit tiny μ (ℓ i) k : ℝ) : EReal) := by
  rw [val_main_v58_apply, val_main_v4_real x0 x hx i k, val_main_v57_real x1 ℓ hℓ x2 μ hμ i k, Ideal.subf_def, sub_coe]

/-- Its square. -/
theorem val_main_v59_real (i : Fin 8192) (k : Fin 128) :
    Read.val_main_v59 (F := Ideal) x0 x1 x2 (ix2 i k)
      = (((Cert.Spec.unit tiny x i k - Cert.Spec.unit tiny μ (ℓ i) k)
          * (Cert.Spec.unit tiny x i k - Cert.Spec.unit tiny μ (ℓ i) k) : ℝ) : EReal) := by
  rw [val_main_v59_apply, val_main_v58_real x0 x1 x2 x μ ℓ hx hμ hℓ i k, Ideal.mulf_def, mul_coe]

/-- The sum over both axes: a sum over the rank-2 index set is the double sum over the coordinates. -/
theorem val_main_v60_real (j : S_.Idx) :
    Read.val_main_v60 (F := Ideal) x0 x1 x2 j
      = ((∑ i, ∑ k, (Cert.Spec.unit tiny x i k - Cert.Spec.unit tiny μ (ℓ i) k)
          * (Cert.Spec.unit tiny x i k - Cert.Spec.unit tiny μ (ℓ i) k) : ℝ) : EReal) := by
  rw [val_main_v60_apply, val_main_cst_14_apply, Ideal.ofBits_def, ofBits_zero, sum_idx2]
  rw [Finset.sum_congr rfl (fun i _ => (Finset.sum_congr rfl
      (fun k _ => val_main_v59_real x0 x1 x2 x μ ℓ hx hμ hℓ i k)).trans (coe_sum _ _)),
    coe_sum, add_coe, zero_add]

/-- The reference's margin scalar is the real `lm`. -/
theorem val_main_v62_real :
    Read.val_main_v62 (F := Ideal) x0 x1 x2 = fun _ => ((Cert.Spec.lm tiny x μ ℓ : ℝ) : EReal) := by
  funext j
  rw [val_main_v62_apply, val_main_v61_apply, val_main_v60_real x0 x1 x2 x μ ℓ hx hμ hℓ j, val_main_cst_15_apply,
    val_main_cst_16_apply, Ideal.ofBits_def, Ideal.ofBits_def, ofBits_two, ofBits_8192, Ideal.hostDivf_def,
    Ideal.hostDivf_def, div_coe _ (by norm_num), div_coe _ (by norm_num)]
  rfl

end Margin

end Cert.ReferenceIdeal.Hand

end
-- ==== Proof.RefVal3.lean ====
/-
  The reference's contrastive scalar, read stage by stage at real inputs.

  With every entry of feat a real number and every label a class number, each array the reference forms on the way to
  its contrastive term is an array of coerced reals (or of small words) and equals the matching function of the
  real-valued specification: the unit rows `unit`; the similarity matrix `sim` = ⟨f i, f j⟩ / τ; the identity mask from
  two iotas; exp sim with the diagonal struck out and its row sums `bottom` (positive: there is another row and every
  exponential is positive, so log bottom is a real); the positives mask "same label, off the diagonal" and its integer
  row count `cnt` (8192 words in {0, 1} do not wrap); the row sums `sumlog` of the log-ratios over the positives;
  `per` = sumlog / max(cnt, 1) on the rows that have a positive, else 0; the integer number `nsample` of such rows;
  and the scalar `scl` = −Σ per / max(nsample, 1).
-/
import proofs.«400644_j12893491823014_2_alg».proof.Proof.RefReadP
import proofs.«400644_j12893491823014_2_alg».proof.Proof.IdealReal
import proofs.«400644_j12893491823014_2_alg».proof.Proof.Spec
import Idealize.ShloMosaic.Lib.StableHlo.Predicate
import Idealize.ShloMosaic.Lib.IndicatorCount
import Idealize.ShloMosaic.Lib.IdealHost
import Idealize.ShloMosaic.Lib.ValueIdxRank1
import Idealize.ShloMosaic.Lib.Affine

noncomputable section

namespace Cert.ReferenceIdeal.Hand.Contrast

open Idealize.ShloMosaic Idealize.ShloMosaic.ValueIdx
open scoped BigOperators

/-! ## One-bit words and small 32-bit words -/

/-- A select on a one-bit word that is 1 exactly when `p` holds is the `if` on `p`. -/
theorem select_of_iff {α : Type} {c : BitVec 1} {p : Prop} [Decidable p] (h : c = 1#1 ↔ p) (a b : α) :
    Scalar.select c a b = if p then a else b := by
  by_cases hp : p
  · rw [h.2 hp, select_one, if_pos hp]
  · rw [eq_zero_of_ne_one (fun hc => hp (h.1 hc)), select_zero, if_neg hp]

/-- Two naturals below 2³² have the same 32-bit word only if they are equal. -/
theorem ofNat_inj_of_lt {a b : ℕ} (ha : a < 2 ^ 32) (hb : b < 2 ^ 32) :
    BitVec.ofNat 32 a = BitVec.ofNat 32 b ↔ a = b := by
  constructor
  · intro h
    have t := congrArg BitVec.toNat h
    rwa [BitVec.toNat_ofNat, BitVec.toNat_ofNat, Nat.mod_eq_of_lt ha, Nat.mod_eq_of_lt hb] at t
  · intro h; rw [h]

/-- A 32-bit word is the word of its value. -/
theorem word_of_toNat {w : BitVec 32} {n : ℕ} (h : w.toNat = n) : w = BitVec.ofNat 32 n := by
  apply BitVec.eq_of_toNat_eq
  rw [BitVec.toNat_ofNat, ← h]
  exact (Nat.mod_eq_of_lt w.isLt).symm

/-- The word of a natural below 2³¹ is above the zero word, read signed, exactly when the natural is positive. -/
theorem sgt_zero_iff {n : ℕ} (hn : n < 2 ^ 31) : IntOp.cmpi .sgt (BitVec.ofNat 32 n) 0#32 = 1#1 ↔ 0 < n := by
  rw [IntOp.cmpi_sgt, StableHlo.Predicate.toInt_ofNat_small n hn, show (0#32 : BitVec 32).toInt = 0 by decide]
  exact Nat.cast_pos

/-- The signed maximum of the word of a natural below 2³¹ and the word 1 is the word of the maximum. -/
theorem maxsi_one {n : ℕ} (hn : n < 2 ^ 31) : IntOp.maxsi (BitVec.ofNat 32 n) 1#32 = BitVec.ofNat 32 (max n 1) := by
  unfold IntOp.maxsi
  have h1 : (1#32 : BitVec 32).toInt = 1 := by decide
  by_cases h : 1 < n
  · rw [if_pos (by simp only [BitVec.slt, h1, StableHlo.Predicate.toInt_ofNat_small n hn, decide_eq_true_eq]; omega),
      max_eq_left (by omega)]
  · rw [if_neg (by simp only [BitVec.slt, h1, StableHlo.Predicate.toInt_ofNat_small n hn, decide_eq_true_eq]; omega),
      max_eq_right (by omega)]

/-! ## The unit rows: main_v4 -/

/-- The row sums of squares. -/
theorem sumsq_at (x0 : (⟨S8192x128, .f32⟩ : BufTy).Contents (Elt Ideal)) (x : Fin 8192 → Fin 128 → ℝ)
    (hx : ∀ p q, x0 (ix2 p q) = ((x p q : ℝ) : EReal)) (p : Fin 8192) :
    Read.val_main_call0_v1 (F := Ideal) x0 (ix1 p) = ((∑ k, x p k * x p k : ℝ) : EReal) := by
  rw [Read.val_main_call0_v1_apply, Read.val_main_call0_cst_apply, Ideal.ofBits_def, Ideal.ofBits_zero_f32, zero_add,
    ← IdealReal.coe_sum]
  refine Finset.sum_congr rfl fun k _ => ?_
  have e : Read.idx_main_call0_v1 (ix1 p) k = ix2 p k := funext fun a => by match a with | ⟨0, _⟩ => rfl | ⟨1, _⟩ => rfl
  rw [Read.val_main_call0_v0_apply, e, hx p k, IdealReal.mulf_coe]

/-- The floored row lengths, kept as a column. -/
theorem len_at (ε : ℝ) (x0 : (⟨S8192x128, .f32⟩ : BufTy).Contents (Elt Ideal)) (x : Fin 8192 → Fin 128 → ℝ)
    (hx : ∀ p q, x0 (ix2 p q) = ((x p q : ℝ) : EReal))
    (hε : Ideal.ofBits .f32 0x2B8CBCCC#32 = ((ε : ℝ) : EReal)) (hεpos : 0 < ε) (p : Fin 8192) :
    Read.val_main_v2 (F := Ideal) x0 (ix2 p (0 : Fin 1)) = ((Spec.len ε x p : ℝ) : EReal) := by
  have e : Read.idx_main_call0_v2 (ix2 p (0 : Fin 1)) = ix1 p := funext fun a => by match a with | ⟨0, _⟩ => rfl
  rw [Read.val_main_v2_apply, Read.val_main_v0_apply, Read.val_main_call0_v2_apply, e, sumsq_at x0 x hx p,
    IdealReal.hostSqrt_coe (Finset.sum_nonneg fun k _ => mul_self_nonneg (x p k)),
    Read.val_main_v1_apply, Read.val_main_cst_apply, Ideal.ofBits_def, hε, IdealReal.maximumf_coe]
  rfl

theorem len_pos (ε : ℝ) (x : Fin 8192 → Fin 128 → ℝ) (hεpos : 0 < ε) (p : Fin 8192) : 0 < Spec.len ε x p :=
  lt_of_lt_of_le hεpos (le_max_right _ _)

/-- Each row over its floored length. -/
theorem unit_at (ε : ℝ) (x0 : (⟨S8192x128, .f32⟩ : BufTy).Contents (Elt Ideal)) (x : Fin 8192 → Fin 128 → ℝ)
    (hx : ∀ p q, x0 (ix2 p q) = ((x p q : ℝ) : EReal))
    (hε : Ideal.ofBits .f32 0x2B8CBCCC#32 = ((ε : ℝ) : EReal)) (hεpos : 0 < ε) (p : Fin 8192) (q : Fin 128) :
    Read.val_main_v4 (F := Ideal) x0 (ix2 p q) = ((Spec.unit ε x p q : ℝ) : EReal) := by
  have e : Read.idx_main_v3 (ix2 p q) = ix2 p (0 : Fin 1) := funext fun a => by match a with | ⟨0, _⟩ => rfl | ⟨1, _⟩ => rfl
  rw [Read.val_main_v4_apply, Read.val_main_v3_apply, e, len_at ε x0 x hx hε hεpos p, hx p q,
    IdealReal.hostDivf_coe _ (ne_of_gt (len_pos ε x hεpos p))]
  rfl

/-! ## The similarity matrix: main_v63 … main_v66 -/

/-- The inner products of unit rows over the temperature. -/
theorem sim_at (ε τ : ℝ) (x0 : (⟨S8192x128, .f32⟩ : BufTy).Contents (Elt Ideal)) (x : Fin 8192 → Fin 128 → ℝ)
    (hx : ∀ p q, x0 (ix2 p q) = ((x p q : ℝ) : EReal))
    (hε : Ideal.ofBits .f32 0x2B8CBCCC#32 = ((ε : ℝ) : EReal)) (hεpos : 0 < ε)
    (hτ : Ideal.ofBits .f32 0x3E99999A#32 = ((τ : ℝ) : EReal)) (hτ0 : τ ≠ 0) (i j : Fin 8192) :
    Read.val_main_v66 (F := Ideal) x0 (ix2 i j) = ((Spec.sim ε τ x i j : ℝ) : EReal) := by
  have hdot : Read.val_main_v64 (F := Ideal) x0 (ix2 i j)
      = ((∑ k, Spec.unit ε x i k * Spec.unit ε x j k : ℝ) : EReal) := by
    rw [Read.val_main_v64_apply, ← IdealReal.coe_sum]
    refine Finset.sum_congr rfl fun k _ => ?_
    have el : Read.lidx_main_v64 (ix2 i j) k = ix2 i k := funext fun a => by match a with | ⟨0, _⟩ => rfl | ⟨1, _⟩ => rfl
    have er : Read.idx_main_v63 (Read.ridx_main_v64 (ix2 i j) k) = ix2 j k := funext fun a => by match a with | ⟨0, _⟩ => rfl | ⟨1, _⟩ => rfl
    rw [Read.val_main_v63_apply, el, er, unit_at ε x0 x hx hε hεpos i k, unit_at ε x0 x hx hε hεpos j k, IdealReal.mul_coe]
  rw [Read.val_main_v66_apply, hdot, Read.val_main_v65_apply, Read.val_main_cst_17_apply, Ideal.ofBits_def, hτ,
    IdealReal.hostDivf_coe _ hτ0]
  rfl

/-! ## The identity mask: main_v67 … main_v71 -/

/-- The two iotas agree exactly on the diagonal. -/
theorem eye_at (i j : Fin 8192) : Read.val_main_v71 (F := Ideal) (ix2 i j) = 1#1 ↔ i = j := by
  rw [Read.val_main_v71_apply, Read.val_main_v70_apply, Read.val_main_v67_apply, Read.val_main_v69_apply,
    Read.val_main_c_18_apply, Read.val_main_v68_apply, IntOp.cmpi_eq]
  show BitVec.ofNat 32 i.val + 0#32 = BitVec.ofNat 32 j.val ↔ i = j
  rw [BitVec.add_zero, ofNat_inj_of_lt (by have := i.isLt; omega) (by have := j.isLt; omega), Fin.val_inj]

end Cert.ReferenceIdeal.Hand.Contrast

namespace Cert.ReferenceIdeal.Hand.Contrast

open Idealize.ShloMosaic Idealize.ShloMosaic.ValueIdx
open scoped BigOperators

/-! ## The contrastive denominator: main_v72 … main_v78 -/

/-- where(eye, 0, exp sim): the exponentials with the diagonal struck out. -/
theorem offdiag_exp_at (ε τ : ℝ) (x0 : (⟨S8192x128, .f32⟩ : BufTy).Contents (Elt Ideal)) (x : Fin 8192 → Fin 128 → ℝ)
    (hx : ∀ p q, x0 (ix2 p q) = ((x p q : ℝ) : EReal))
    (hε : Ideal.ofBits .f32 0x2B8CBCCC#32 = ((ε : ℝ) : EReal)) (hεpos : 0 < ε)
    (hτ : Ideal.ofBits .f32 0x3E99999A#32 = ((τ : ℝ) : EReal)) (hτ0 : τ ≠ 0) (i j : Fin 8192) :
    Read.val_main_v73 (F := Ideal) x0 (ix2 i j)
      = (((if j = i then 0 else Real.exp (Spec.sim ε τ x i j)) : ℝ) : EReal) := by
  rw [Read.val_main_v73_apply, select_of_iff (eye_at i j), Read.val_main_call4_v1_apply, Read.val_main_call4_v0_apply,
    Read.val_main_cst_19_apply, Ideal.ofBits_def, Ideal.ofBits_zero_f32, Read.val_main_v72_apply, sim_at ε τ x0 x hx hε hεpos hτ hτ0 i j,
    IdealReal.hostExp_coe]
  by_cases h : i = j
  · rw [if_pos h, if_pos h.symm, EReal.coe_zero]
  · rw [if_neg h, if_neg (fun e => h e.symm)]

/-- Its row sums: the sum of exp sim over the OTHER rows. -/
theorem bottom_at (ε τ : ℝ) (x0 : (⟨S8192x128, .f32⟩ : BufTy).Contents (Elt Ideal)) (x : Fin 8192 → Fin 128 → ℝ)
    (hx : ∀ p q, x0 (ix2 p q) = ((x p q : ℝ) : EReal))
    (hε : Ideal.ofBits .f32 0x2B8CBCCC#32 = ((ε : ℝ) : EReal)) (hεpos : 0 < ε)
    (hτ : Ideal.ofBits .f32 0x3E99999A#32 = ((τ : ℝ) : EReal)) (hτ0 : τ ≠ 0) (i : Fin 8192) :
    Read.val_main_v74 (F := Ideal) x0 (ix1 i) = ((Spec.bottom ε τ x i : ℝ) : EReal) := by
  rw [Read.val_main_v74_apply, Read.val_main_cst_20_apply, Ideal.ofBits_def, Ideal.ofBits_zero_f32, zero_add]
  unfold Spec.bottom
  rw [← IdealReal.coe_sum]
  refine Finset.sum_congr rfl fun k _ => ?_
  have e : Read.idx_main_v74 (ix1 i) k = ix2 i k := funext fun a => by match a with | ⟨0, _⟩ => rfl | ⟨1, _⟩ => rfl
  rw [e, offdiag_exp_at ε τ x0 x hx hε hεpos hτ hτ0 i k]

/-- There is another row, and every exponential is positive: the denominator is positive. -/
theorem bottom_pos (ε τ : ℝ) (x : Fin 8192 → Fin 128 → ℝ) (i : Fin 8192) : 0 < Spec.bottom ε τ x i := by
  unfold Spec.bottom
  obtain ⟨j, hj⟩ := exists_ne i
  refine Finset.sum_pos' (fun k _ => ?_) ⟨j, Finset.mem_univ _, ?_⟩
  · by_cases h : k = i
    · rw [if_pos h]
    · rw [if_neg h]; exact (Real.exp_pos _).le
  · rw [if_neg hj]; exact Real.exp_pos _

/-- Its logarithm, broadcast along the rows. -/
theorem logbottom_at (ε τ : ℝ) (x0 : (⟨S8192x128, .f32⟩ : BufTy).Contents (Elt Ideal)) (x : Fin 8192 → Fin 128 → ℝ)
    (hx : ∀ p q, x0 (ix2 p q) = ((x p q : ℝ) : EReal))
    (hε : Ideal.ofBits .f32 0x2B8CBCCC#32 = ((ε : ℝ) : EReal)) (hεpos : 0 < ε)
    (hτ : Ideal.ofBits .f32 0x3E99999A#32 = ((τ : ℝ) : EReal)) (hτ0 : τ ≠ 0) (i j : Fin 8192) :
    Read.val_main_v77 (F := Ideal) x0 (ix2 i j) = ((Real.log (Spec.bottom ε τ x i) : ℝ) : EReal) := by
  have e1 : Read.idx_main_v77 (ix2 i j) = ix2 i (0 : Fin 1) := funext fun a => by match a with | ⟨0, _⟩ => rfl | ⟨1, _⟩ => rfl
  have e2 : Read.idx_main_v76 (ix2 i (0 : Fin 1)) = ix1 i := funext fun a => by match a with | ⟨0, _⟩ => rfl
  rw [Read.val_main_v77_apply, e1, Read.val_main_v76_apply, e2, Read.val_main_v75_apply, bottom_at ε τ x0 x hx hε hεpos hτ hτ0 i,
    IdealReal.hostLog_coe (bottom_pos ε τ x i)]

/-- The log-ratio sim − log bottom. -/
theorem logratio_at (ε τ : ℝ) (x0 : (⟨S8192x128, .f32⟩ : BufTy).Contents (Elt Ideal)) (x : Fin 8192 → Fin 128 → ℝ)
    (hx : ∀ p q, x0 (ix2 p q) = ((x p q : ℝ) : EReal))
    (hε : Ideal.ofBits .f32 0x2B8CBCCC#32 = ((ε : ℝ) : EReal)) (hεpos : 0 < ε)
    (hτ : Ideal.ofBits .f32 0x3E99999A#32 = ((τ : ℝ) : EReal)) (hτ0 : τ ≠ 0) (i j : Fin 8192) :
    Read.val_main_v78 (F := Ideal) x0 (ix2 i j)
      = ((Spec.sim ε τ x i j - Real.log (Spec.bottom ε τ x i) : ℝ) : EReal) := by
  rw [Read.val_main_v78_apply, sim_at ε τ x0 x hx hε hεpos hτ hτ0 i j, logbottom_at ε τ x0 x hx hε hεpos hτ hτ0 i j, IdealReal.subf_coe]

/-! ## The positives mask and its row count: main_v79 … main_v87 -/

/-- The labels column against the labels row. -/
theorem same_at (x1 : (⟨S8192, .i32⟩ : BufTy).Contents (Elt Ideal)) (ℓ : Fin 8192 → Fin 1000)
    (hℓ : ∀ i, x1 (ix1 i) = BitVec.ofNat 32 (ℓ i).val) (i j : Fin 8192) :
    Read.val_main_v83 (F := Ideal) x1 (ix2 i j) = 1#1 ↔ ℓ i = ℓ j := by
  have a1 : Read.idx_main_v79 (Read.idx_main_v81 (ix2 i j)) = ix1 i := funext fun a => by match a with | ⟨0, _⟩ => rfl
  have a2 : Read.idx_main_v80 (Read.idx_main_v82 (ix2 i j)) = ix1 j := funext fun a => by match a with | ⟨0, _⟩ => rfl
  rw [Read.val_main_v83_apply, Read.val_main_v81_apply, Read.val_main_v79_apply, a1, Read.val_main_v82_apply,
    Read.val_main_v80_apply, a2, hℓ i, hℓ j, IntOp.cmpi_eq,
    ofNat_inj_of_lt (by have := (ℓ i).isLt; omega) (by have := (ℓ j).isLt; omega), Fin.val_inj]

/-- Same label and off the diagonal: a positive. -/
theorem pos_at (x1 : (⟨S8192, .i32⟩ : BufTy).Contents (Elt Ideal)) (ℓ : Fin 8192 → Fin 1000)
    (hℓ : ∀ i, x1 (ix1 i) = BitVec.ofNat 32 (ℓ i).val) (i j : Fin 8192) :
    Read.val_main_v85 (F := Ideal) x1 (ix2 i j) = 1#1 ↔ Spec.pos ℓ i j := by
  rw [Read.val_main_v85_apply, IntOp.andi_eq_one, same_at x1 ℓ hℓ i j, Read.val_main_v84_apply, IntOp.not_eq_one,
    eye_at i j]
  unfold Spec.pos
  constructor <;> rintro ⟨h1, h2⟩ <;> exact ⟨h1, fun e => h2 e.symm⟩

theorem cnt_le (ℓ : Fin 8192 → Fin 1000) (i : Fin 8192) : Spec.cnt ℓ i ≤ 8192 := by
  unfold Spec.cnt
  exact (Finset.card_le_univ _).trans (le_of_eq (Fintype.card_fin 8192))

/-- The integer row sum of the widened mask: 8192 words in {0, 1} do not wrap, so the sum is the number of positives. -/
theorem cnt_at (x1 : (⟨S8192, .i32⟩ : BufTy).Contents (Elt Ideal)) (ℓ : Fin 8192 → Fin 1000)
    (hℓ : ∀ i, x1 (ix1 i) = BitVec.ofNat 32 (ℓ i).val) (i : Fin 8192) :
    Read.val_main_v87 (F := Ideal) x1 (ix1 i) = BitVec.ofNat 32 (Spec.cnt ℓ i) := by
  apply word_of_toNat
  have hm : ∀ q : Fin 8192, Read.val_main_v85 (F := Ideal) x1 (StableHlo.Predicate.ij i q) = 1#1 ↔ Spec.pos ℓ i q := fun q => by
    have e : StableHlo.Predicate.ij i q = ix2 i q := funext fun a => by match a with | ⟨0, _⟩ => rfl | ⟨1, _⟩ => rfl
    rw [e]; exact pos_at x1 ℓ hℓ i q
  unfold Read.val_main_v87 Read.val_main_v86 Read.val_main_c_21
  refine (StableHlo.Predicate.toNat_reduce_count_cols (by decide) (Read.val_main_v85 (F := Ideal) x1) Gen.natLt_1_32
    Gen.reducesTo_S8192x8192_S8192_d1 Gen.h_S_ (ix1 i)).trans ?_
  unfold Spec.cnt
  exact congrArg Finset.card (Finset.filter_congr fun q _ => hm q)

/-- valid: the count is positive (a signed compare of small words). -/
theorem valid_at (x1 : (⟨S8192, .i32⟩ : BufTy).Contents (Elt Ideal)) (ℓ : Fin 8192 → Fin 1000)
    (hℓ : ∀ i, x1 (ix1 i) = BitVec.ofNat 32 (ℓ i).val) (i : Fin 8192) :
    Read.val_main_v91 (F := Ideal) x1 (ix1 i) = 1#1 ↔ 0 < Spec.cnt ℓ i := by
  rw [Read.val_main_v91_apply, cnt_at x1 ℓ hℓ i, Read.val_main_v90_apply, Read.val_main_c_24_apply]
  exact sgt_zero_iff (by have := cnt_le ℓ i; omega)

/-- max(cnt, 1), converted. -/
theorem den_at (x1 : (⟨S8192, .i32⟩ : BufTy).Contents (Elt Ideal)) (ℓ : Fin 8192 → Fin 1000)
    (hℓ : ∀ i, x1 (ix1 i) = BitVec.ofNat 32 (ℓ i).val) (i : Fin 8192) :
    Read.val_main_v94 (F := Ideal) x1 (ix1 i) = ((max (Spec.cnt ℓ i : ℝ) 1 : ℝ) : EReal) := by
  rw [Read.val_main_v94_apply, Read.val_main_v93_apply, cnt_at x1 ℓ hℓ i, Read.val_main_v92_apply, Read.val_main_c_25_apply,
    maxsi_one (by have := cnt_le ℓ i; omega), IdealReal.sitofp_coe,
    StableHlo.Predicate.toInt_ofNat_small _ (by have := cnt_le ℓ i; omega)]
  congr 1
  push_cast
  rfl

/-! ## The rows' terms: main_v88 … main_v96 -/

/-- where(pos, log-ratio, 0). -/
theorem poslog_at (ε τ : ℝ) (x0 : (⟨S8192x128, .f32⟩ : BufTy).Contents (Elt Ideal)) (x1 : (⟨S8192, .i32⟩ : BufTy).Contents (Elt Ideal)) (x : Fin 8192 → Fin 128 → ℝ) (ℓ : Fin 8192 → Fin 1000)
    (hx : ∀ p q, x0 (ix2 p q) = ((x p q : ℝ) : EReal))
    (hℓ : ∀ i, x1 (ix1 i) = BitVec.ofNat 32 (ℓ i).val)
    (hε : Ideal.ofBits .f32 0x2B8CBCCC#32 = ((ε : ℝ) : EReal)) (hεpos : 0 < ε)
    (hτ : Ideal.ofBits .f32 0x3E99999A#32 = ((τ : ℝ) : EReal)) (hτ0 : τ ≠ 0) (i j : Fin 8192) :
    Read.val_main_v88 (F := Ideal) x0 x1 (ix2 i j)
      = (((if Spec.pos ℓ i j then Spec.sim ε τ x i j - Real.log (Spec.bottom ε τ x i) else 0) : ℝ) : EReal) := by
  rw [Read.val_main_v88_apply, select_of_iff (pos_at x1 ℓ hℓ i j), logratio_at ε τ x0 x hx hε hεpos hτ hτ0 i j, Read.val_main_call5_v1_apply,
    Read.val_main_call5_v0_apply, Read.val_main_cst_22_apply, Ideal.ofBits_def, Ideal.ofBits_zero_f32]
  by_cases h : Spec.pos ℓ i j
  · rw [if_pos h, if_pos h]
  · rw [if_neg h, if_neg h, EReal.coe_zero]

/-- Its row sums. -/
theorem sumlog_at (ε τ : ℝ) (x0 : (⟨S8192x128, .f32⟩ : BufTy).Contents (Elt Ideal)) (x1 : (⟨S8192, .i32⟩ : BufTy).Contents (Elt Ideal)) (x : Fin 8192 → Fin 128 → ℝ) (ℓ : Fin 8192 → Fin 1000)
    (hx : ∀ p q, x0 (ix2 p q) = ((x p q : ℝ) : EReal))
    (hℓ : ∀ i, x1 (ix1 i) = BitVec.ofNat 32 (ℓ i).val)
    (hε : Ideal.ofBits .f32 0x2B8CBCCC#32 = ((ε : ℝ) : EReal)) (hεpos : 0 < ε)
    (hτ : Ideal.ofBits .f32 0x3E99999A#32 = ((τ : ℝ) : EReal)) (hτ0 : τ ≠ 0) (i : Fin 8192) :
    Read.val_main_v89 (F := Ideal) x0 x1 (ix1 i) = ((Spec.sumlog ε τ x ℓ i : ℝ) : EReal) := by
  rw [Read.val_main_v89_apply, Read.val_main_cst_23_apply, Ideal.ofBits_def, Ideal.ofBits_zero_f32, zero_add]
  unfold Spec.sumlog
  rw [← IdealReal.coe_sum]
  refine Finset.sum_congr rfl fun k _ => ?_
  have e : Read.idx_main_v89 (ix1 i) k = ix2 i k := funext fun a => by match a with | ⟨0, _⟩ => rfl | ⟨1, _⟩ => rfl
  rw [e, poslog_at ε τ x0 x1 x ℓ hx hℓ hε hεpos hτ hτ0 i k]

theorem den_ne (ℓ : Fin 8192 → Fin 1000) (i : Fin 8192) : max (Spec.cnt ℓ i : ℝ) 1 ≠ 0 :=
  ne_of_gt (lt_of_lt_of_le one_pos (le_max_right _ _))

/-- The row's mean over its positives where it has one, else zero. -/
theorem per_at (ε τ : ℝ) (x0 : (⟨S8192x128, .f32⟩ : BufTy).Contents (Elt Ideal)) (x1 : (⟨S8192, .i32⟩ : BufTy).Contents (Elt Ideal)) (x : Fin 8192 → Fin 128 → ℝ) (ℓ : Fin 8192 → Fin 1000)
    (hx : ∀ p q, x0 (ix2 p q) = ((x p q : ℝ) : EReal))
    (hℓ : ∀ i, x1 (ix1 i) = BitVec.ofNat 32 (ℓ i).val)
    (hε : Ideal.ofBits .f32 0x2B8CBCCC#32 = ((ε : ℝ) : EReal)) (hεpos : 0 < ε)
    (hτ : Ideal.ofBits .f32 0x3E99999A#32 = ((τ : ℝ) : EReal)) (hτ0 : τ ≠ 0) (i : Fin 8192) :
    Read.val_main_v96 (F := Ideal) x0 x1 (ix1 i) = ((Spec.per ε τ x ℓ i : ℝ) : EReal) := by
  rw [Read.val_main_v96_apply, select_of_iff (valid_at x1 ℓ hℓ i), Read.val_main_v95_apply, sumlog_at ε τ x0 x1 x ℓ hx hℓ hε hεpos hτ hτ0 i,
    den_at x1 ℓ hℓ i, IdealReal.hostDivf_coe _ (den_ne ℓ i), Read.val_main_call6_v1_apply, Read.val_main_call6_v0_apply,
    Read.val_main_cst_26_apply, Ideal.ofBits_def, Ideal.ofBits_zero_f32]
  unfold Spec.per
  by_cases h : 0 < Spec.cnt ℓ i
  · rw [if_pos h, if_pos h]
  · rw [if_neg h, if_neg h, EReal.coe_zero]

/-! ## The mean over the rows that have a positive: main_v97 … main_v103 -/

theorem nsample_le (ℓ : Fin 8192 → Fin 1000) : Spec.nsample ℓ ≤ 8192 := by
  unfold Spec.nsample
  exact (Finset.card_le_univ _).trans (le_of_eq (Fintype.card_fin 8192))

/-- The integer sum of the widened valid bits: the number of rows that have a positive. -/
theorem nsample_at (x1 : (⟨S8192, .i32⟩ : BufTy).Contents (Elt Ideal)) (ℓ : Fin 8192 → Fin 1000)
    (hℓ : ∀ i, x1 (ix1 i) = BitVec.ofNat 32 (ℓ i).val) :
    Read.val_main_v98 (F := Ideal) x1 ix0 = BitVec.ofNat 32 (Spec.nsample ℓ) := by
  unfold Read.val_main_v98 Read.val_main_v97 Read.val_main_c_27
  rw [Host.reduce_eq_fold, Finset.filter_true_of_mem (fun i _ => funext fun a => a.elim0)]
  show Finset.fold IntOp.addi 0#32 (fun k => (Read.val_main_v91 (F := Ideal) x1 k).setWidth 32) Finset.univ = _
  rw [IndicatorCount.fold_addi_setWidth_eq_card]
  refine congrArg (BitVec.ofNat 32) ?_
  unfold Spec.nsample
  refine Finset.card_equiv idxEquiv1 fun k => ?_
  obtain ⟨i, rfl⟩ : ∃ i : Fin 8192, k = ix1 i := ⟨k 0, eq_ix1 k⟩
  simp only [Finset.mem_filter, Finset.mem_univ, true_and]
  exact valid_at x1 ℓ hℓ i

/-- The sum of the rows' terms. -/
theorem total_at (ε τ : ℝ) (x0 : (⟨S8192x128, .f32⟩ : BufTy).Contents (Elt Ideal)) (x1 : (⟨S8192, .i32⟩ : BufTy).Contents (Elt Ideal)) (x : Fin 8192 → Fin 128 → ℝ) (ℓ : Fin 8192 → Fin 1000)
    (hx : ∀ p q, x0 (ix2 p q) = ((x p q : ℝ) : EReal))
    (hℓ : ∀ i, x1 (ix1 i) = BitVec.ofNat 32 (ℓ i).val)
    (hε : Ideal.ofBits .f32 0x2B8CBCCC#32 = ((ε : ℝ) : EReal)) (hεpos : 0 < ε)
    (hτ : Ideal.ofBits .f32 0x3E99999A#32 = ((τ : ℝ) : EReal)) (hτ0 : τ ≠ 0) :
    Read.val_main_v99 (F := Ideal) x0 x1 ix0 = ((∑ i, Spec.per ε τ x ℓ i : ℝ) : EReal) := by
  rw [Read.val_main_v99_apply, Read.val_main_cst_28_apply, Ideal.ofBits_def, Ideal.ofBits_zero_f32, zero_add,
    ← Equiv.sum_comp (idxEquiv1 (n := 8192)).symm, ← IdealReal.coe_sum]
  exact Finset.sum_congr rfl fun i _ => per_at ε τ x0 x1 x ℓ hx hℓ hε hεpos hτ hτ0 i

/-- max(n_sample, 1), converted. -/
theorem nden_at (x1 : (⟨S8192, .i32⟩ : BufTy).Contents (Elt Ideal)) (ℓ : Fin 8192 → Fin 1000)
    (hℓ : ∀ i, x1 (ix1 i) = BitVec.ofNat 32 (ℓ i).val) :
    Read.val_main_v102 (F := Ideal) x1 ix0 = ((max (Spec.nsample ℓ : ℝ) 1 : ℝ) : EReal) := by
  rw [Read.val_main_v102_apply, Read.val_main_v101_apply, nsample_at x1 ℓ hℓ, Read.val_main_c_29_apply,
    maxsi_one (by have := nsample_le ℓ; omega), IdealReal.sitofp_coe,
    StableHlo.Predicate.toInt_ofNat_small _ (by have := nsample_le ℓ; omega)]
  congr 1
  push_cast
  rfl

end Cert.ReferenceIdeal.Hand.Contrast

namespace Cert.ReferenceIdeal.Hand

open Idealize.ShloMosaic Idealize.ShloMosaic.ValueIdx Contrast
open scoped BigOperators

/-- THE REFERENCE'S CONTRASTIVE SCALAR (main_v103): minus the sum of the rows' terms over max(n_sample, 1), for any
    positive floor ε and nonzero temperature τ that the two float literals denote. -/
theorem scl_of_literals (ε τ : ℝ) (x0 : (⟨S8192x128, .f32⟩ : BufTy).Contents (Elt Ideal)) (x1 : (⟨S8192, .i32⟩ : BufTy).Contents (Elt Ideal)) (x : Fin 8192 → Fin 128 → ℝ) (ℓ : Fin 8192 → Fin 1000)
    (hx : ∀ p q, x0 (ix2 p q) = ((x p q : ℝ) : EReal))
    (hℓ : ∀ i, x1 (ix1 i) = BitVec.ofNat 32 (ℓ i).val)
    (hε : Ideal.ofBits .f32 0x2B8CBCCC#32 = ((ε : ℝ) : EReal)) (hεpos : 0 < ε)
    (hτ : Ideal.ofBits .f32 0x3E99999A#32 = ((τ : ℝ) : EReal)) (hτ0 : τ ≠ 0) :
    Read.val_main_v103 (F := Ideal) x0 x1 = fun _ => ((Spec.scl ε τ x ℓ : ℝ) : EReal) := by
  funext idx
  obtain rfl : idx = ix0 := eq_ix0 idx
  rw [Read.val_main_v103_apply, Read.val_main_v100_apply, total_at ε τ x0 x1 x ℓ hx hℓ hε hεpos hτ hτ0, IdealReal.hostNegf_coe, nden_at x1 ℓ hℓ,
    IdealReal.hostDivf_coe _ (ne_of_gt (lt_of_lt_of_le one_pos (le_max_right _ _)))]
  rfl

/-- The same at the literals' values: ε the real the word 0x2B8CBCCC denotes, τ = 5033165/16777216. -/
theorem val_main_v103_eq (x0 : (⟨S8192x128, .f32⟩ : BufTy).Contents (Elt Ideal)) (x1 : (⟨S8192, .i32⟩ : BufTy).Contents (Elt Ideal)) (x : Fin 8192 → Fin 128 → ℝ) (ℓ : Fin 8192 → Fin 1000)
    (hx : ∀ p q, x0 (ix2 p q) = ((x p q : ℝ) : EReal))
    (hℓ : ∀ i, x1 (ix1 i) = BitVec.ofNat 32 (ℓ i).val) :
    Read.val_main_v103 (F := Ideal) x0 x1
      = fun _ => ((Spec.scl IdealReal.tiny (5033165 / 16777216) x ℓ : ℝ) : EReal) :=
  scl_of_literals IdealReal.tiny (5033165 / 16777216) x0 x1 x ℓ hx hℓ IdealReal.ofBits_tiny IdealReal.tiny_pos
    IdealReal.ofBits_temp (by norm_num)

/-- The unit rows (main_v4) at the same ε. -/
theorem val_main_v4_eq_unit (x0 : (⟨S8192x128, .f32⟩ : BufTy).Contents (Elt Ideal)) (x : Fin 8192 → Fin 128 → ℝ)
    (hx : ∀ p q, x0 (ix2 p q) = ((x p q : ℝ) : EReal)) (p : Fin 8192) (q : Fin 128) :
    Read.val_main_v4 (F := Ideal) x0 (ix2 p q) = ((Spec.unit IdealReal.tiny x p q : ℝ) : EReal) :=
  unit_at IdealReal.tiny x0 x hx IdealReal.ofBits_tiny IdealReal.tiny_pos p q

end Cert.ReferenceIdeal.Hand

end
-- ==== Proof.RefTail.lean ====
/-
  The reference's last five operations: the loss is the weighted sum of its three parts,
  w₁ · ce + w₂ · scl + w₃ · lm, with the three float literals as weights. Given that the three parts are
  (coerced) reals, the result is the coerced real weighted sum: products and sums of reals stay real.
-/
import proofs.«400644_j12893491823014_2_alg».proof.Proof.RefReadP
import proofs.«400644_j12893491823014_2_alg».proof.Proof.IdealReal
import proofs.«400644_j12893491823014_2_alg».proof.Proof.Spec

noncomputable section

namespace Cert.ReferenceIdeal.Hand

open Idealize.ShloMosaic Cert.ReferenceIdeal Cert.ReferenceIdeal.Gen Cert.IdealReal

/-- The weighted sum of three reals by the three literals, in the ideal instance's own operations: the
    shape both programs' last operations have (a product by each literal, then two sums). -/
theorem loss_literals (ce scl lm : ℝ) :
    FloatOps.addf (F := Ideal) (φ := .f32)
        (FloatOps.addf (FloatOps.mulf (FloatOps.ofBits .f32 0x3F666666#32) ((ce : ℝ) : EReal))
          (FloatOps.mulf (FloatOps.ofBits .f32 0x3DCCCCCD#32) ((scl : ℝ) : EReal)))
        (FloatOps.mulf (FloatOps.ofBits .f32 0x3F000000#32) ((lm : ℝ) : EReal))
      = ((Cert.Spec.loss c09 c01 (1 / 2) ce scl lm : ℝ) : EReal) := by
  rw [Ideal.ofBits_def, Ideal.ofBits_def, Ideal.ofBits_def, ofBits_c09, ofBits_c01, ofBits_half,
    mulf_coe, mulf_coe, mulf_coe, addf_coe, addf_coe]
  rfl

/-- The reference's result scalar from its three parts. -/
theorem tail (x0 : (⟨S8192x128, .f32⟩ : BufTy).Contents (Elt Ideal)) (x1 : (⟨S8192, .i32⟩ : BufTy).Contents (Elt Ideal))
    (x2 : (⟨S1000x128, .f32⟩ : BufTy).Contents (Elt Ideal)) (ce scl lm : ℝ)
    (h45 : ∀ i, Read.val_main_v45 (F := Ideal) x0 x1 x2 i = ((ce : ℝ) : EReal))
    (h103 : ∀ i, Read.val_main_v103 (F := Ideal) x0 x1 i = ((scl : ℝ) : EReal))
    (h62 : ∀ i, Read.val_main_v62 (F := Ideal) x0 x1 x2 i = ((lm : ℝ) : EReal)) :
    ∀ i, Read.val_main_v108 (F := Ideal) x0 x1 x2 i = ((Cert.Spec.loss c09 c01 (1 / 2) ce scl lm : ℝ) : EReal) := by
  intro i
  rw [Read.val_main_v108_apply, Read.val_main_v106_apply, Read.val_main_v104_apply, Read.val_main_v105_apply,
    Read.val_main_v107_apply, Read.val_main_cst_30_apply, Read.val_main_cst_31_apply, Read.val_main_cst_32_apply,
    h45 i, h103 i, h62 i]
  exact loss_literals ce scl lm

end Cert.ReferenceIdeal.Hand

end
-- ==== Proof.RFinal.lean ====
/-
  The reference's two results as real numbers. The first is the matrix of minus half the squared distances from the
  unit feature rows to the class means. The second is the loss scalar: the weighted sum, by the three float literals,
  of the mean cross entropy, the contrastive term and the margin term, each of which is a real number of the
  specification; products and sums of reals stay real.
-/
import proofs.«400644_j12893491823014_2_alg».proof.Proof.RefReadP
import proofs.«400644_j12893491823014_2_alg».proof.Proof.RefVal1
import proofs.«400644_j12893491823014_2_alg».proof.Proof.RefVal2
import proofs.«400644_j12893491823014_2_alg».proof.Proof.RefVal3
import proofs.«400644_j12893491823014_2_alg».proof.Proof.RefTail
import proofs.«400644_j12893491823014_2_alg».proof.Proof.Spec
import proofs.«400644_j12893491823014_2_alg».proof.Proof.IdealReal
import Idealize.ShloMosaic.Lib.ValueIdx

noncomputable section

namespace Cert.ReferenceIdeal.Hand

open Idealize.ShloMosaic Idealize.ShloMosaic.ValueIdx Cert.ReferenceIdeal Cert.ReferenceIdeal.Gen

/-- Both results of the reference, from inputs that hold real numbers and labels below 1000: the distance matrix entry
    by entry, and the loss at the scalar's one index. -/
theorem ref_values (x0 : (⟨S8192x128, .f32⟩ : BufTy).Contents (Elt Ideal)) (x1 : (⟨S8192, .i32⟩ : BufTy).Contents (Elt Ideal))
    (x2 : (⟨S1000x128, .f32⟩ : BufTy).Contents (Elt Ideal))
    (x : Fin 8192 → Fin 128 → ℝ) (μ : Fin 1000 → Fin 128 → ℝ) (ℓ : Fin 8192 → Fin 1000)
    (hx : ∀ p q, x0 (ix2 p q) = ((x p q : ℝ) : EReal)) (hμ : ∀ p q, x2 (ix2 p q) = ((μ p q : ℝ) : EReal))
    (hℓ : ∀ i, x1 (ix1 i) = BitVec.ofNat 32 (ℓ i).val) :
    (∀ p q, Cert.ReferenceIdeal.Read.val_main_v20 (F := Ideal) x0 x2 (ix2 p q)
        = ((Cert.Spec.negdist Cert.IdealReal.tiny x μ p q : ℝ) : EReal))
    ∧ (∀ j : S_.Idx, Cert.ReferenceIdeal.Read.val_main_v108 (F := Ideal) x0 x1 x2 j
        = ((Cert.Spec.loss Cert.IdealReal.c09 Cert.IdealReal.c01 (1 / 2) (Cert.Spec.ce Cert.IdealReal.tiny x μ ℓ)
            (Cert.Spec.scl Cert.IdealReal.tiny (5033165 / 16777216) x ℓ) (Cert.Spec.lm Cert.IdealReal.tiny x μ ℓ) : ℝ) : EReal)) := by
  refine ⟨fun p q => v20_at x0 x2 x μ hx hμ p q, ?_⟩
  exact tail x0 x1 x2 _ _ _
    (fun i => congrFun (v45_eq x0 x1 x2 x μ ℓ hx hμ hℓ) i)
    (fun i => congrFun (val_main_v103_eq x0 x1 x ℓ hx hℓ) i)
    (fun i => congrFun (val_main_v62_real x0 x1 x2 x μ ℓ hx hμ hℓ) i)

end Cert.ReferenceIdeal.Hand

end
-- ==== Proof.RefRunH0.lean ====
/-
  Two steps for reading one stretch of host operations at a buffer, from any start valuation: at a buffer the stretch
  writes, the operations' results composed (each operation's result at its own buffer is its function of what its operands
  held), the transports along a typed reference's own type (identities) removed, the start valuation's facts put in, and the stretch's own stages unfolded; at a buffer the stretch does not write, what was there.
-/
import proofs.«400644_j12893491823014_2_alg».proof.Proof.RefReadP
import Idealize.ShloMosaic.Lib.StableHlo.Run
import Idealize.ShloMosaic.Lib.Pipeline.Frame

namespace Cert.ReferenceIdeal.Hand

open Idealize.ShloMosaic Idealize.ShloMosaic.StableHlo

/-- Remove the transports of typed references, one fact at a time, wherever one still applies (each fact: the transport
    along a literal reference's own type is the identity). -/
syntax "strip_transports" "[" Lean.Parser.Tactic.rwRule,* "]" : tactic
macro_rules
  | `(tactic| strip_transports []) => `(tactic| skip)
  | `(tactic| strip_transports [$cs,*]) => do
      let alts ← cs.getElems.mapM fun c => `(Lean.Parser.Tactic.tacticSeq| rw [$c:rwRule])
      `(tactic| repeat (first $[| $alts]*))

/-- A buffer the stretch writes: compose the results; remove the typed references' transports (second list); rewrite the
    start facts (first list); unfold the stages of this stretch's own buffers (third list, the buffer's own stage first):
    the two sides are then the same term. -/
syntax "stage_result" "[" Lean.Parser.Tactic.rwRule,* "]" "[" Lean.Parser.Tactic.rwRule,* "]" "[" ident,* "]" : tactic
macro_rules
  | `(tactic| stage_result [] [$cs,*] [$us,*]) =>
    `(tactic| (after_results_simp; strip_transports [$cs,*]; unfold $[$(us.getElems):ident]*; rfl))
  | `(tactic| stage_result [$hs,*] [$cs,*] [$us,*]) =>
    `(tactic| (after_results_simp; strip_transports [$cs,*]; rw [$hs,*]; unfold $[$(us.getElems):ident]*; rfl))

/-- A buffer the stretch does not write keeps its fact. -/
macro "stage_keep" h:term : tactic => `(tactic| (after_results_simp; exact $h))

end Cert.ReferenceIdeal.Hand
-- ==== Proof.RefRunHT.lean ====
/- The first operations of the reference's @main (the list of Gen/ReferenceIdeal/Run.lean as RefOps.lean has it, operations 1 to 90) in stretches, and per stretch the table
   of stage facts: from the facts of the buffers live where the stretch starts, the facts of the buffers live where it ends. -/
import proofs.«400644_j12893491823014_2_alg».proof.Proof.RefRunH0

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem toBuf_main_arg0 (v : (⟨S8192x128, .f32⟩ : BufTy).Contents (Elt F)) : (TRef.of (sig := sig) (T := ⟨S8192x128, .f32⟩) main_arg0).toBuf v = v := rfl
theorem ofBuf_main_arg0 (v : (⟨S8192x128, .f32⟩ : BufTy).Contents (Elt F)) : (TRef.of (sig := sig) (T := ⟨S8192x128, .f32⟩) main_arg0).ofBuf v = v := rfl
theorem toBuf_main_call0_v0 (v : (⟨S8192x128, .f32⟩ : BufTy).Contents (Elt F)) : (TRef.of (sig := sig) (T := ⟨S8192x128, .f32⟩) main_call0_v0).toBuf v = v := rfl
theorem ofBuf_main_call0_v0 (v : (⟨S8192x128, .f32⟩ : BufTy).Contents (Elt F)) : (TRef.of (sig := sig) (T := ⟨S8192x128, .f32⟩) main_call0_v0).ofBuf v = v := rfl
theorem toBuf_main_call0_cst (v : (⟨S_, .f32⟩ : BufTy).Contents (Elt F)) : (TRef.of (sig := sig) (T := ⟨S_, .f32⟩) main_call0_cst).toBuf v = v := rfl
theorem ofBuf_main_call0_cst (v : (⟨S_, .f32⟩ : BufTy).Contents (Elt F)) : (TRef.of (sig := sig) (T := ⟨S_, .f32⟩) main_call0_cst).ofBuf v = v := rfl
theorem toBuf_main_call0_v1 (v : (⟨S8192, .f32⟩ : BufTy).Contents (Elt F)) : (TRef.of (sig := sig) (T := ⟨S8192, .f32⟩) main_call0_v1).toBuf v = v := rfl
theorem ofBuf_main_call0_v1 (v : (⟨S8192, .f32⟩ : BufTy).Contents (Elt F)) : (TRef.of (sig := sig) (T := ⟨S8192, .f32⟩) main_call0_v1).ofBuf v = v := rfl
theorem toBuf_main_call0_v2 (v : (⟨S8192x1, .f32⟩ : BufTy).Contents (Elt F)) : (TRef.of (sig := sig) (T := ⟨S8192x1, .f32⟩) main_call0_v2).toBuf v = v := rfl
theorem ofBuf_main_call0_v2 (v : (⟨S8192x1, .f32⟩ : BufTy).Contents (Elt F)) : (TRef.of (sig := sig) (T := ⟨S8192x1, .f32⟩) main_call0_v2).ofBuf v = v := rfl
theorem toBuf_main_v0 (v : (⟨S8192x1, .f32⟩ : BufTy).Contents (Elt F)) : (TRef.of (sig := sig) (T := ⟨S8192x1, .f32⟩) main_v0).toBuf v = v := rfl
theorem ofBuf_main_v0 (v : (⟨S8192x1, .f32⟩ : BufTy).Contents (Elt F)) : (TRef.of (sig := sig) (T := ⟨S8192x1, .f32⟩) main_v0).ofBuf v = v := rfl
theorem toBuf_main_arg1 (v : (⟨S8192, .i32⟩ : BufTy).Contents (Elt F)) : (TRef.of (sig := sig) (T := ⟨S8192, .i32⟩) main_arg1).toBuf v = v := rfl
theorem ofBuf_main_arg1 (v : (⟨S8192, .i32⟩ : BufTy).Contents (Elt F)) : (TRef.of (sig := sig) (T := ⟨S8192, .i32⟩) main_arg1).ofBuf v = v := rfl
theorem toBuf_main_call1_v0 (v : (⟨S8192x1, .i32⟩ : BufTy).Contents (Elt F)) : (TRef.of (sig := sig) (T := ⟨S8192x1, .i32⟩) main_call1_v0).toBuf v = v := rfl
theorem ofBuf_main_call1_v0 (v : (⟨S8192x1, .i32⟩ : BufTy).Contents (Elt F)) : (TRef.of (sig := sig) (T := ⟨S8192x1, .i32⟩) main_call1_v0).ofBuf v = v := rfl
theorem toBuf_main_call1_v1 (v : (⟨S1x1000, .i32⟩ : BufTy).Contents (Elt F)) : (TRef.of (sig := sig) (T := ⟨S1x1000, .i32⟩) main_call1_v1).toBuf v = v := rfl
theorem ofBuf_main_call1_v1 (v : (⟨S1x1000, .i32⟩ : BufTy).Contents (Elt F)) : (TRef.of (sig := sig) (T := ⟨S1x1000, .i32⟩) main_call1_v1).ofBuf v = v := rfl
theorem toBuf_main_call1_v2 (v : (⟨S8192x1000, .i32⟩ : BufTy).Contents (Elt F)) : (TRef.of (sig := sig) (T := ⟨S8192x1000, .i32⟩) main_call1_v2).toBuf v = v := rfl
theorem ofBuf_main_call1_v2 (v : (⟨S8192x1000, .i32⟩ : BufTy).Contents (Elt F)) : (TRef.of (sig := sig) (T := ⟨S8192x1000, .i32⟩) main_call1_v2).ofBuf v = v := rfl
theorem toBuf_main_call1_v3 (v : (⟨S8192x1000, .i32⟩ : BufTy).Contents (Elt F)) : (TRef.of (sig := sig) (T := ⟨S8192x1000, .i32⟩) main_call1_v3).toBuf v = v := rfl
theorem ofBuf_main_call1_v3 (v : (⟨S8192x1000, .i32⟩ : BufTy).Contents (Elt F)) : (TRef.of (sig := sig) (T := ⟨S8192x1000, .i32⟩) main_call1_v3).ofBuf v = v := rfl
theorem toBuf_main_call1_v4 (v : (⟨S8192x1000, .i1⟩ : BufTy).Contents (Elt F)) : (TRef.of (sig := sig) (T := ⟨S8192x1000, .i1⟩) main_call1_v4).toBuf v = v := rfl
theorem ofBuf_main_call1_v4 (v : (⟨S8192x1000, .i1⟩ : BufTy).Contents (Elt F)) : (TRef.of (sig := sig) (T := ⟨S8192x1000, .i1⟩) main_call1_v4).ofBuf v = v := rfl
theorem toBuf_main_v21 (v : (⟨S8192x1000, .f32⟩ : BufTy).Contents (Elt F)) : (TRef.of (sig := sig) (T := ⟨S8192x1000, .f32⟩) main_v21).toBuf v = v := rfl
theorem ofBuf_main_v21 (v : (⟨S8192x1000, .f32⟩ : BufTy).Contents (Elt F)) : (TRef.of (sig := sig) (T := ⟨S8192x1000, .f32⟩) main_v21).ofBuf v = v := rfl
theorem toBuf_main_call2_cst (v : (⟨S_, .f32⟩ : BufTy).Contents (Elt F)) : (TRef.of (sig := sig) (T := ⟨S_, .f32⟩) main_call2_cst).toBuf v = v := rfl
theorem ofBuf_main_call2_cst (v : (⟨S_, .f32⟩ : BufTy).Contents (Elt F)) : (TRef.of (sig := sig) (T := ⟨S_, .f32⟩) main_call2_cst).ofBuf v = v := rfl
theorem toBuf_main_v26 (v : (⟨S8192x1000, .f32⟩ : BufTy).Contents (Elt F)) : (TRef.of (sig := sig) (T := ⟨S8192x1000, .f32⟩) main_v26).toBuf v = v := rfl
theorem ofBuf_main_v26 (v : (⟨S8192x1000, .f32⟩ : BufTy).Contents (Elt F)) : (TRef.of (sig := sig) (T := ⟨S8192x1000, .f32⟩) main_v26).ofBuf v = v := rfl
theorem toBuf_main_call2_v0 (v : (⟨S8192, .f32⟩ : BufTy).Contents (Elt F)) : (TRef.of (sig := sig) (T := ⟨S8192, .f32⟩) main_call2_v0).toBuf v = v := rfl
theorem ofBuf_main_call2_v0 (v : (⟨S8192, .f32⟩ : BufTy).Contents (Elt F)) : (TRef.of (sig := sig) (T := ⟨S8192, .f32⟩) main_call2_v0).ofBuf v = v := rfl
theorem toBuf_main_call2_cst_0 (v : (⟨S_, .f32⟩ : BufTy).Contents (Elt F)) : (TRef.of (sig := sig) (T := ⟨S_, .f32⟩) main_call2_cst_0).toBuf v = v := rfl
theorem ofBuf_main_call2_cst_0 (v : (⟨S_, .f32⟩ : BufTy).Contents (Elt F)) : (TRef.of (sig := sig) (T := ⟨S_, .f32⟩) main_call2_cst_0).ofBuf v = v := rfl
theorem toBuf_main_call2_v1 (v : (⟨S8192, .f32⟩ : BufTy).Contents (Elt F)) : (TRef.of (sig := sig) (T := ⟨S8192, .f32⟩) main_call2_v1).toBuf v = v := rfl
theorem ofBuf_main_call2_v1 (v : (⟨S8192, .f32⟩ : BufTy).Contents (Elt F)) : (TRef.of (sig := sig) (T := ⟨S8192, .f32⟩) main_call2_v1).ofBuf v = v := rfl
theorem toBuf_main_call2_v2 (v : (⟨S8192, .f32⟩ : BufTy).Contents (Elt F)) : (TRef.of (sig := sig) (T := ⟨S8192, .f32⟩) main_call2_v2).toBuf v = v := rfl
theorem ofBuf_main_call2_v2 (v : (⟨S8192, .f32⟩ : BufTy).Contents (Elt F)) : (TRef.of (sig := sig) (T := ⟨S8192, .f32⟩) main_call2_v2).ofBuf v = v := rfl
theorem toBuf_main_call2_v3 (v : (⟨S8192x1, .f32⟩ : BufTy).Contents (Elt F)) : (TRef.of (sig := sig) (T := ⟨S8192x1, .f32⟩) main_call2_v3).toBuf v = v := rfl
theorem ofBuf_main_call2_v3 (v : (⟨S8192x1, .f32⟩ : BufTy).Contents (Elt F)) : (TRef.of (sig := sig) (T := ⟨S8192x1, .f32⟩) main_call2_v3).ofBuf v = v := rfl
theorem toBuf_main_call2_v4 (v : (⟨S8192x1000, .f32⟩ : BufTy).Contents (Elt F)) : (TRef.of (sig := sig) (T := ⟨S8192x1000, .f32⟩) main_call2_v4).toBuf v = v := rfl
theorem ofBuf_main_call2_v4 (v : (⟨S8192x1000, .f32⟩ : BufTy).Contents (Elt F)) : (TRef.of (sig := sig) (T := ⟨S8192x1000, .f32⟩) main_call2_v4).ofBuf v = v := rfl
theorem toBuf_main_call2_v5 (v : (⟨S8192x1000, .f32⟩ : BufTy).Contents (Elt F)) : (TRef.of (sig := sig) (T := ⟨S8192x1000, .f32⟩) main_call2_v5).toBuf v = v := rfl
theorem ofBuf_main_call2_v5 (v : (⟨S8192x1000, .f32⟩ : BufTy).Contents (Elt F)) : (TRef.of (sig := sig) (T := ⟨S8192x1000, .f32⟩) main_call2_v5).ofBuf v = v := rfl
theorem toBuf_main_call2_v6 (v : (⟨S8192x1000, .f32⟩ : BufTy).Contents (Elt F)) : (TRef.of (sig := sig) (T := ⟨S8192x1000, .f32⟩) main_call2_v6).toBuf v = v := rfl
theorem ofBuf_main_call2_v6 (v : (⟨S8192x1000, .f32⟩ : BufTy).Contents (Elt F)) : (TRef.of (sig := sig) (T := ⟨S8192x1000, .f32⟩) main_call2_v6).ofBuf v = v := rfl
theorem toBuf_main_call2_cst_1 (v : (⟨S_, .f32⟩ : BufTy).Contents (Elt F)) : (TRef.of (sig := sig) (T := ⟨S_, .f32⟩) main_call2_cst_1).toBuf v = v := rfl
theorem ofBuf_main_call2_cst_1 (v : (⟨S_, .f32⟩ : BufTy).Contents (Elt F)) : (TRef.of (sig := sig) (T := ⟨S_, .f32⟩) main_call2_cst_1).ofBuf v = v := rfl
theorem toBuf_main_call2_v7 (v : (⟨S8192, .f32⟩ : BufTy).Contents (Elt F)) : (TRef.of (sig := sig) (T := ⟨S8192, .f32⟩) main_call2_v7).toBuf v = v := rfl
theorem ofBuf_main_call2_v7 (v : (⟨S8192, .f32⟩ : BufTy).Contents (Elt F)) : (TRef.of (sig := sig) (T := ⟨S8192, .f32⟩) main_call2_v7).ofBuf v = v := rfl
theorem toBuf_main_call2_v8 (v : (⟨S8192x1, .f32⟩ : BufTy).Contents (Elt F)) : (TRef.of (sig := sig) (T := ⟨S8192x1, .f32⟩) main_call2_v8).toBuf v = v := rfl
theorem ofBuf_main_call2_v8 (v : (⟨S8192x1, .f32⟩ : BufTy).Contents (Elt F)) : (TRef.of (sig := sig) (T := ⟨S8192x1, .f32⟩) main_call2_v8).ofBuf v = v := rfl
theorem toBuf_main_call2_v9 (v : (⟨S8192x1, .f32⟩ : BufTy).Contents (Elt F)) : (TRef.of (sig := sig) (T := ⟨S8192x1, .f32⟩) main_call2_v9).toBuf v = v := rfl
theorem ofBuf_main_call2_v9 (v : (⟨S8192x1, .f32⟩ : BufTy).Contents (Elt F)) : (TRef.of (sig := sig) (T := ⟨S8192x1, .f32⟩) main_call2_v9).ofBuf v = v := rfl
theorem toBuf_main_call2_v10 (v : (⟨S8192x1000, .f32⟩ : BufTy).Contents (Elt F)) : (TRef.of (sig := sig) (T := ⟨S8192x1000, .f32⟩) main_call2_v10).toBuf v = v := rfl
theorem ofBuf_main_call2_v10 (v : (⟨S8192x1000, .f32⟩ : BufTy).Contents (Elt F)) : (TRef.of (sig := sig) (T := ⟨S8192x1000, .f32⟩) main_call2_v10).ofBuf v = v := rfl
theorem toBuf_main_v27 (v : (⟨S8192x1000, .f32⟩ : BufTy).Contents (Elt F)) : (TRef.of (sig := sig) (T := ⟨S8192x1000, .f32⟩) main_v27).toBuf v = v := rfl
theorem ofBuf_main_v27 (v : (⟨S8192x1000, .f32⟩ : BufTy).Contents (Elt F)) : (TRef.of (sig := sig) (T := ⟨S8192x1000, .f32⟩) main_v27).ofBuf v = v := rfl
theorem toBuf_main_arg2 (v : (⟨S1000x128, .f32⟩ : BufTy).Contents (Elt F)) : (TRef.of (sig := sig) (T := ⟨S1000x128, .f32⟩) main_arg2).toBuf v = v := rfl
theorem ofBuf_main_arg2 (v : (⟨S1000x128, .f32⟩ : BufTy).Contents (Elt F)) : (TRef.of (sig := sig) (T := ⟨S1000x128, .f32⟩) main_arg2).ofBuf v = v := rfl
theorem toBuf_main_call3_v0 (v : (⟨S1000x128, .f32⟩ : BufTy).Contents (Elt F)) : (TRef.of (sig := sig) (T := ⟨S1000x128, .f32⟩) main_call3_v0).toBuf v = v := rfl
theorem ofBuf_main_call3_v0 (v : (⟨S1000x128, .f32⟩ : BufTy).Contents (Elt F)) : (TRef.of (sig := sig) (T := ⟨S1000x128, .f32⟩) main_call3_v0).ofBuf v = v := rfl
theorem toBuf_main_call3_cst (v : (⟨S_, .f32⟩ : BufTy).Contents (Elt F)) : (TRef.of (sig := sig) (T := ⟨S_, .f32⟩) main_call3_cst).toBuf v = v := rfl
theorem ofBuf_main_call3_cst (v : (⟨S_, .f32⟩ : BufTy).Contents (Elt F)) : (TRef.of (sig := sig) (T := ⟨S_, .f32⟩) main_call3_cst).ofBuf v = v := rfl
theorem toBuf_main_call3_v1 (v : (⟨S1000, .f32⟩ : BufTy).Contents (Elt F)) : (TRef.of (sig := sig) (T := ⟨S1000, .f32⟩) main_call3_v1).toBuf v = v := rfl
theorem ofBuf_main_call3_v1 (v : (⟨S1000, .f32⟩ : BufTy).Contents (Elt F)) : (TRef.of (sig := sig) (T := ⟨S1000, .f32⟩) main_call3_v1).ofBuf v = v := rfl
theorem toBuf_main_call3_v2 (v : (⟨S1000x1, .f32⟩ : BufTy).Contents (Elt F)) : (TRef.of (sig := sig) (T := ⟨S1000x1, .f32⟩) main_call3_v2).toBuf v = v := rfl
theorem ofBuf_main_call3_v2 (v : (⟨S1000x1, .f32⟩ : BufTy).Contents (Elt F)) : (TRef.of (sig := sig) (T := ⟨S1000x1, .f32⟩) main_call3_v2).ofBuf v = v := rfl
theorem toBuf_main_v46 (v : (⟨S1000x1, .f32⟩ : BufTy).Contents (Elt F)) : (TRef.of (sig := sig) (T := ⟨S1000x1, .f32⟩) main_v46).toBuf v = v := rfl
theorem ofBuf_main_v46 (v : (⟨S1000x1, .f32⟩ : BufTy).Contents (Elt F)) : (TRef.of (sig := sig) (T := ⟨S1000x1, .f32⟩) main_v46).ofBuf v = v := rfl

/-- Operations 1 to 8. -/
abbrev opsA_1 : List (HloOp τ sig (Elt F)) :=
  [ TRef.binary (TRef.of (T := ⟨S8192x128, .f32⟩) main_arg0) (TRef.of (T := ⟨S8192x128, .f32⟩) main_arg0) (TRef.of (T := ⟨S8192x128, .f32⟩) main_call0_v0) mulf,
    TRef.nullary (TRef.of (T := ⟨S_, .f32⟩) main_call0_cst) (constant S_ .f32 0x00000000#32),
    TRef.binary (TRef.of (T := ⟨S8192x128, .f32⟩) main_call0_v0) (TRef.of (T := ⟨S_, .f32⟩) main_call0_cst) (TRef.of (T := ⟨S8192, .f32⟩) main_call0_v1) (fun x v => Host.reduceAdd x v reducesTo_S8192x128_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v0) Host.sqrt,
    nullary main_cst (constant S_ .f32 0x2B8CBCCC#32),
    unary main_cst main_v1 (broadcastInDim S8192x1 ![] bcast_S_S8192x1 : (⟨S_, .f32⟩ : BufTy).Contents (Elt F) → (⟨S8192x1, .f32⟩ : BufTy).Contents (Elt F)),
    binary main_v0 main_v1 main_v2 (maximumf : (⟨S8192x1, .f32⟩ : BufTy).Contents (Elt F) → (⟨S8192x1, .f32⟩ : BufTy).Contents (Elt F) → (⟨S8192x1, .f32⟩ : BufTy).Contents (Elt F)) ]

theorem stageA_1 (V : Valuation τ sig (Elt F)) (x0 : (⟨S8192x128, .f32⟩ : BufTy).Contents (Elt F)) (x1 : (⟨S8192, .i32⟩ : BufTy).Contents (Elt F)) (x2 : (⟨S1000x128, .f32⟩ : BufTy).Contents (Elt F))
    (h_main_arg0 : V (Proc.devRef .tc main_arg0) = x0)
    (h_main_arg1 : V (Proc.devRef .tc main_arg1) = x1)
    (h_main_arg2 : V (Proc.devRef .tc main_arg2) = x2) :
    after opsA_1 V (Proc.devRef .tc main_v2) = val_main_v2 (F := F) x0
    ∧ after opsA_1 V (Proc.devRef .tc main_arg0) = x0
    ∧ after opsA_1 V (Proc.devRef .tc main_arg1) = x1
    ∧ after opsA_1 V (Proc.devRef .tc main_arg2) = x2 :=
  ⟨by stage_result [h_main_arg0] [toBuf_main_arg0, ofBuf_main_arg0, toBuf_main_call0_v0, ofBuf_main_call0_v0, toBuf_main_call0_cst, ofBuf_main_call0_cst, toBuf_main_call0_v1, ofBuf_main_call0_v1, toBuf_main_call0_v2, ofBuf_main_call0_v2, toBuf_main_v0, ofBuf_main_v0] [val_main_v2, val_main_v1, val_main_cst, val_main_v0, val_main_call0_v2, val_main_call0_v1, val_main_call0_cst, val_main_call0_v0],
   by stage_keep h_main_arg0,
   by stage_keep h_main_arg1,
   by stage_keep h_main_arg2⟩

/-- Operations 9 to 16. -/
abbrev opsA_2 : List (HloOp τ sig (Elt F)) :=
  [ unary main_v2 main_v3 (broadcastInDim S8192x128 ![0, 1] bcast_S8192x1_S8192x128_0_1 : (⟨S8192x1, .f32⟩ : BufTy).Contents (Elt F) → (⟨S8192x128, .f32⟩ : BufTy).Contents (Elt F)),
    binary main_arg0 main_v3 main_v4 (Host.divf : (⟨S8192x128, .f32⟩ : BufTy).Contents (Elt F) → (⟨S8192x128, .f32⟩ : BufTy).Contents (Elt F) → (⟨S8192x128, .f32⟩ : BufTy).Contents (Elt F)),
    unary main_arg2 main_v5 ((transpose S128x1000 [1, 0] · transposes_S1000x128_S128x1000_1_0) : (⟨S1000x128, .f32⟩ : BufTy).Contents (Elt F) → (⟨S128x1000, .f32⟩ : BufTy).Contents (Elt F)),
    binary main_v4 main_v5 main_v6 ((fun l r => Host.dotGeneral dot_S8192x128_S128x1000_S8192x1000_1_0_0_1_n_n none l r) : (⟨S8192x128, .f32⟩ : BufTy).Contents (Elt F) → (⟨S128x1000, .f32⟩ : BufTy).Contents (Elt F) → (⟨S8192x1000, .f32⟩ : BufTy).Contents (Elt F)),
    binary main_v4 main_v4 main_v7 (mulf : (⟨S8192x128, .f32⟩ : BufTy).Contents (Elt F) → (⟨S8192x128, .f32⟩ : BufTy).Contents (Elt F) → (⟨S8192x128, .f32⟩ : BufTy).Contents (Elt F)),
    nullary main_cst_0 (constant S_ .f32 0x00000000#32),
    binary main_v7 main_cst_0 main_v8 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_v8 main_v9 (broadcastInDim S8192x1 ![0] bcast_S8192_S8192x1_0 : (⟨S8192, .f32⟩ : BufTy).Contents (Elt F) → (⟨S8192x1, .f32⟩ : BufTy).Contents (Elt F)) ]

theorem stageA_2 (V : Valuation τ sig (Elt F)) (x0 : (⟨S8192x128, .f32⟩ : BufTy).Contents (Elt F)) (x1 : (⟨S8192, .i32⟩ : BufTy).Contents (Elt F)) (x2 : (⟨S1000x128, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = val_main_v2 (F := F) x0) :
    after opsA_2 V (Proc.devRef .tc main_v4) = val_main_v4 (F := F) x0
    ∧ after opsA_2 V (Proc.devRef .tc main_v6) = val_main_v6 (F := F) x0 x2
    ∧ after opsA_2 V (Proc.devRef .tc main_v9) = val_main_v9 (F := F) x0
    ∧ after opsA_2 V (Proc.devRef .tc main_arg0) = x0
    ∧ after opsA_2 V (Proc.devRef .tc main_arg1) = x1
    ∧ after opsA_2 V (Proc.devRef .tc main_arg2) = x2 :=
  ⟨by stage_result [h_main_arg0, h_main_v2] [] [val_main_v4, val_main_v3],
   by stage_result [h_main_arg0, h_main_arg2, h_main_v2] [] [val_main_v6, val_main_v5, val_main_v4, val_main_v3],
   by stage_result [h_main_arg0, h_main_v2] [] [val_main_v9, val_main_v8, val_main_cst_0, val_main_v7, val_main_v4, val_main_v3],
   by stage_keep h_main_arg0,
   by stage_keep h_main_arg1,
   by stage_keep h_main_arg2⟩

/-- Operations 17 to 24. -/
abbrev opsA_3 : List (HloOp τ sig (Elt F)) :=
  [ binary main_arg2 main_arg2 main_v10 (mulf : (⟨S1000x128, .f32⟩ : BufTy).Contents (Elt F) → (⟨S1000x128, .f32⟩ : BufTy).Contents (Elt F) → (⟨S1000x128, .f32⟩ : BufTy).Contents (Elt F)),
    nullary main_cst_1 (constant S_ .f32 0x00000000#32),
    binary main_v10 main_cst_1 main_v11 ((fun x v => Host.reduceAdd x v reducesTo_S1000x128_S1000_d1 h_S_) : (⟨S1000x128, .f32⟩ : BufTy).Contents (Elt F) → (⟨S_, .f32⟩ : BufTy).Contents (Elt F) → (⟨S1000, .f32⟩ : BufTy).Contents (Elt F)),
    unary main_v11 main_v12 (broadcastInDim S1x1000 ![1] bcast_S1000_S1x1000_1 : (⟨S1000, .f32⟩ : BufTy).Contents (Elt F) → (⟨S1x1000, .f32⟩ : BufTy).Contents (Elt F)),
    nullary main_cst_2 (constant S_ .f32 0x40000000#32),
    unary main_cst_2 main_v13 (broadcastInDim S8192x1000 ![] bcast_S_S8192x1000 : (⟨S_, .f32⟩ : BufTy).Contents (Elt F) → (⟨S8192x1000, .f32⟩ : BufTy).Contents (Elt F)),
    binary main_v13 main_v6 main_v14 (mulf : (⟨S8192x1000, .f32⟩ : BufTy).Contents (Elt F) → (⟨S8192x1000, .f32⟩ : BufTy).Contents (Elt F) → (⟨S8192x1000, .f32⟩ : BufTy).Contents (Elt F)),
    unary main_v9 main_v15 (broadcastInDim S8192x1000 ![0, 1] bcast_S8192x1_S8192x1000_0_1 : (⟨S8192x1, .f32⟩ : BufTy).Contents (Elt F) → (⟨S8192x1000, .f32⟩ : BufTy).Contents (Elt F)) ]

theorem stageA_3 (V : Valuation τ sig (Elt F)) (x0 : (⟨S8192x128, .f32⟩ : BufTy).Contents (Elt F)) (x1 : (⟨S8192, .i32⟩ : BufTy).Contents (Elt F)) (x2 : (⟨S1000x128, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v4 : V (Proc.devRef .tc main_v4) = val_main_v4 (F := F) x0)
    (h_main_v6 : V (Proc.devRef .tc main_v6) = val_main_v6 (F := F) x0 x2)
    (h_main_v9 : V (Proc.devRef .tc main_v9) = val_main_v9 (F := F) x0) :
    after opsA_3 V (Proc.devRef .tc main_v4) = val_main_v4 (F := F) x0
    ∧ after opsA_3 V (Proc.devRef .tc main_v12) = val_main_v12 (F := F) x2
    ∧ after opsA_3 V (Proc.devRef .tc main_v14) = val_main_v14 (F := F) x0 x2
    ∧ after opsA_3 V (Proc.devRef .tc main_v15) = val_main_v15 (F := F) x0
    ∧ after opsA_3 V (Proc.devRef .tc main_arg0) = x0
    ∧ after opsA_3 V (Proc.devRef .tc main_arg1) = x1
    ∧ after opsA_3 V (Proc.devRef .tc main_arg2) = x2 :=
  ⟨by stage_keep h_main_v4,
   by stage_result [h_main_arg2] [] [val_main_v12, val_main_v11, val_main_cst_1, val_main_v10],
   by stage_result [h_main_v6] [] [val_main_v14, val_main_v13, val_main_cst_2],
   by stage_result [h_main_v9] [] [val_main_v15],
   by stage_keep h_main_arg0,
   by stage_keep h_main_arg1,
   by stage_keep h_main_arg2⟩

/-- Operations 25 to 32. -/
abbrev opsA_4 : List (HloOp τ sig (Elt F)) :=
  [ binary main_v15 main_v14 main_v16 (subf : (⟨S8192x1000, .f32⟩ : BufTy).Contents (Elt F) → (⟨S8192x1000, .f32⟩ : BufTy).Contents (Elt F) → (⟨S8192x1000, .f32⟩ : BufTy).Contents (Elt F)),
    unary main_v12 main_v17 (broadcastInDim S8192x1000 ![0, 1] bcast_S1x1000_S8192x1000_0_1 : (⟨S1x1000, .f32⟩ : BufTy).Contents (Elt F) → (⟨S8192x1000, .f32⟩ : BufTy).Contents (Elt F)),
    binary main_v16 main_v17 main_v18 (addf : (⟨S8192x1000, .f32⟩ : BufTy).Contents (Elt F) → (⟨S8192x1000, .f32⟩ : BufTy).Contents (Elt F) → (⟨S8192x1000, .f32⟩ : BufTy).Contents (Elt F)),
    nullary main_cst_3 (constant S_ .f32 0xBF000000#32),
    unary main_cst_3 main_v19 (broadcastInDim S8192x1000 ![] bcast_S_S8192x1000 : (⟨S_, .f32⟩ : BufTy).Contents (Elt F) → (⟨S8192x1000, .f32⟩ : BufTy).Contents (Elt F)),
    binary main_v19 main_v18 main_v20 (mulf : (⟨S8192x1000, .f32⟩ : BufTy).Contents (Elt F) → (⟨S8192x1000, .f32⟩ : BufTy).Contents (Elt F) → (⟨S8192x1000, .f32⟩ : BufTy).Contents (Elt F)),
    TRef.unary (TRef.of (T := ⟨S8192, .i32⟩) main_arg1) (TRef.of (T := ⟨S8192x1, .i32⟩) main_call1_v0) (broadcastInDim S8192x1 ![0] bcast_S8192_S8192x1_0),
    TRef.nullary (TRef.of (T := ⟨S1x1000, .i32⟩) main_call1_v1) (iotaInDim S1x1000 32 1) ]

theorem stageA_4 (V : Valuation τ sig (Elt F)) (x0 : (⟨S8192x128, .f32⟩ : BufTy).Contents (Elt F)) (x1 : (⟨S8192, .i32⟩ : BufTy).Contents (Elt F)) (x2 : (⟨S1000x128, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v4 : V (Proc.devRef .tc main_v4) = val_main_v4 (F := F) x0)
    (h_main_v12 : V (Proc.devRef .tc main_v12) = val_main_v12 (F := F) x2)
    (h_main_v14 : V (Proc.devRef .tc main_v14) = val_main_v14 (F := F) x0 x2)
    (h_main_v15 : V (Proc.devRef .tc main_v15) = val_main_v15 (F := F) x0) :
    after opsA_4 V (Proc.devRef .tc main_v4) = val_main_v4 (F := F) x0
    ∧ after opsA_4 V (Proc.devRef .tc main_v20) = val_main_v20 (F := F) x0 x2
    ∧ after opsA_4 V (Proc.devRef .tc main_call1_v0) = val_main_call1_v0 (F := F) x1
    ∧ after opsA_4 V (Proc.devRef .tc main_call1_v1) = val_main_call1_v1 (F := F)
    ∧ after opsA_4 V (Proc.devRef .tc main_arg0) = x0
    ∧ after opsA_4 V (Proc.devRef .tc main_arg1) = x1
    ∧ after opsA_4 V (Proc.devRef .tc main_arg2) = x2 :=
  ⟨by stage_keep h_main_v4,
   by stage_result [h_main_v12, h_main_v14, h_main_v15] [toBuf_main_arg1, ofBuf_main_arg1, toBuf_main_call1_v0, ofBuf_main_call1_v0, toBuf_main_call1_v1, ofBuf_main_call1_v1] [val_main_v20, val_main_v19, val_main_cst_3, val_main_v18, val_main_v17, val_main_v16],
   by stage_result [h_main_arg1] [toBuf_main_arg1, ofBuf_main_arg1, toBuf_main_call1_v0, ofBuf_main_call1_v0, toBuf_main_call1_v1, ofBuf_main_call1_v1] [val_main_call1_v0],
   by stage_result [] [toBuf_main_arg1, ofBuf_main_arg1, toBuf_main_call1_v0, ofBuf_main_call1_v0, toBuf_main_call1_v1, ofBuf_main_call1_v1] [val_main_call1_v1],
   by stage_keep h_main_arg0,
   by stage_keep h_main_arg1,
   by stage_keep h_main_arg2⟩

/-- Operations 33 to 40. -/
abbrev opsA_5 : List (HloOp τ sig (Elt F)) :=
  [ TRef.unary (TRef.of (T := ⟨S8192x1, .i32⟩) main_call1_v0) (TRef.of (T := ⟨S8192x1000, .i32⟩) main_call1_v2) (broadcastInDim S8192x1000 ![0, 1] bcast_S8192x1_S8192x1000_0_1),
    TRef.unary (TRef.of (T := ⟨S1x1000, .i32⟩) main_call1_v1) (TRef.of (T := ⟨S8192x1000, .i32⟩) main_call1_v3) (broadcastInDim S8192x1000 ![0, 1] bcast_S1x1000_S8192x1000_0_1),
    TRef.binary (TRef.of (T := ⟨S8192x1000, .i32⟩) main_call1_v2) (TRef.of (T := ⟨S8192x1000, .i32⟩) main_call1_v3) (TRef.of (T := ⟨S8192x1000, .i1⟩) main_call1_v4) (cmpi .eq),
    TRef.unary (TRef.of (T := ⟨S8192x1000, .i1⟩) main_call1_v4) (TRef.of (T := ⟨S8192x1000, .f32⟩) main_v21) (uitofp .f32),
    nullary main_cst_4 (constant S_ .f32 0x3F000000#32),
    unary main_cst_4 main_v22 (broadcastInDim S8192x1000 ![] bcast_S_S8192x1000 : (⟨S_, .f32⟩ : BufTy).Contents (Elt F) → (⟨S8192x1000, .f32⟩ : BufTy).Contents (Elt F)),
    binary main_v22 main_v21 main_v23 (mulf : (⟨S8192x1000, .f32⟩ : BufTy).Contents (Elt F) → (⟨S8192x1000, .f32⟩ : BufTy).Contents (Elt F) → (⟨S8192x1000, .f32⟩ : BufTy).Contents (Elt F)),
    nullary main_cst_5 (constant S_ .f32 0x3F800000#32) ]

theorem stageA_5 (V : Valuation τ sig (Elt F)) (x0 : (⟨S8192x128, .f32⟩ : BufTy).Contents (Elt F)) (x1 : (⟨S8192, .i32⟩ : BufTy).Contents (Elt F)) (x2 : (⟨S1000x128, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v4 : V (Proc.devRef .tc main_v4) = val_main_v4 (F := F) x0)
    (h_main_v20 : V (Proc.devRef .tc main_v20) = val_main_v20 (F := F) x0 x2)
    (h_main_call1_v0 : V (Proc.devRef .tc main_call1_v0) = val_main_call1_v0 (F := F) x1)
    (h_main_call1_v1 : V (Proc.devRef .tc main_call1_v1) = val_main_call1_v1 (F := F)) :
    after opsA_5 V (Proc.devRef .tc main_v4) = val_main_v4 (F := F) x0
    ∧ after opsA_5 V (Proc.devRef .tc main_v20) = val_main_v20 (F := F) x0 x2
    ∧ after opsA_5 V (Proc.devRef .tc main_v23) = val_main_v23 (F := F) x1
    ∧ after opsA_5 V (Proc.devRef .tc main_cst_5) = val_main_cst_5 (F := F)
    ∧ after opsA_5 V (Proc.devRef .tc main_arg0) = x0
    ∧ after opsA_5 V (Proc.devRef .tc main_arg1) = x1
    ∧ after opsA_5 V (Proc.devRef .tc main_arg2) = x2 :=
  ⟨by stage_keep h_main_v4,
   by stage_keep h_main_v20,
   by stage_result [h_main_call1_v0, h_main_call1_v1] [toBuf_main_call1_v0, ofBuf_main_call1_v0, toBuf_main_call1_v2, ofBuf_main_call1_v2, toBuf_main_call1_v1, ofBuf_main_call1_v1, toBuf_main_call1_v3, ofBuf_main_call1_v3, toBuf_main_call1_v4, ofBuf_main_call1_v4, toBuf_main_v21, ofBuf_main_v21] [val_main_v23, val_main_v22, val_main_cst_4, val_main_v21, val_main_call1_v4, val_main_call1_v3, val_main_call1_v2],
   by stage_result [] [toBuf_main_call1_v0, ofBuf_main_call1_v0, toBuf_main_call1_v2, ofBuf_main_call1_v2, toBuf_main_call1_v1, ofBuf_main_call1_v1, toBuf_main_call1_v3, ofBuf_main_call1_v3, toBuf_main_call1_v4, ofBuf_main_call1_v4, toBuf_main_v21, ofBuf_main_v21] [val_main_cst_5],
   by stage_keep h_main_arg0,
   by stage_keep h_main_arg1,
   by stage_keep h_main_arg2⟩

/-- Operations 41 to 48. -/
abbrev opsA_6 : List (HloOp τ sig (Elt F)) :=
  [ unary main_cst_5 main_v24 (broadcastInDim S8192x1000 ![] bcast_S_S8192x1000 : (⟨S_, .f32⟩ : BufTy).Contents (Elt F) → (⟨S8192x1000, .f32⟩ : BufTy).Contents (Elt F)),
    binary main_v24 main_v23 main_v25 (addf : (⟨S8192x1000, .f32⟩ : BufTy).Contents (Elt F) → (⟨S8192x1000, .f32⟩ : BufTy).Contents (Elt F) → (⟨S8192x1000, .f32⟩ : BufTy).Contents (Elt F)),
    binary main_v20 main_v25 main_v26 (mulf : (⟨S8192x1000, .f32⟩ : BufTy).Contents (Elt F) → (⟨S8192x1000, .f32⟩ : BufTy).Contents (Elt F) → (⟨S8192x1000, .f32⟩ : BufTy).Contents (Elt F)),
    TRef.nullary (TRef.of (T := ⟨S_, .f32⟩) main_call2_cst) (constant S_ .f32 0xFF800000#32),
    TRef.binary (TRef.of (T := ⟨S8192x1000, .f32⟩) main_v26) (TRef.of (T := ⟨S_, .f32⟩) main_call2_cst) (TRef.of (T := ⟨S8192, .f32⟩) main_call2_v0) (fun x v => Host.reduce FloatOps.maximumf x v reducesTo_S8192x1000_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf ]

theorem stageA_6 (V : Valuation τ sig (Elt F)) (x0 : (⟨S8192x128, .f32⟩ : BufTy).Contents (Elt F)) (x1 : (⟨S8192, .i32⟩ : BufTy).Contents (Elt F)) (x2 : (⟨S1000x128, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v4 : V (Proc.devRef .tc main_v4) = val_main_v4 (F := F) x0)
    (h_main_v20 : V (Proc.devRef .tc main_v20) = val_main_v20 (F := F) x0 x2)
    (h_main_v23 : V (Proc.devRef .tc main_v23) = val_main_v23 (F := F) x1)
    (h_main_cst_5 : V (Proc.devRef .tc main_cst_5) = val_main_cst_5 (F := F)) :
    after opsA_6 V (Proc.devRef .tc main_v4) = val_main_v4 (F := F) x0
    ∧ after opsA_6 V (Proc.devRef .tc main_v20) = val_main_v20 (F := F) x0 x2
    ∧ after opsA_6 V (Proc.devRef .tc main_v26) = val_main_v26 (F := F) x0 x1 x2
    ∧ after opsA_6 V (Proc.devRef .tc main_call2_v2) = val_main_call2_v2 (F := F) x0 x1 x2
    ∧ after opsA_6 V (Proc.devRef .tc main_arg0) = x0
    ∧ after opsA_6 V (Proc.devRef .tc main_arg1) = x1
    ∧ after opsA_6 V (Proc.devRef .tc main_arg2) = x2 :=
  ⟨by stage_keep h_main_v4,
   by stage_keep h_main_v20,
   by stage_result [h_main_v20, h_main_v23, h_main_cst_5] [toBuf_main_call2_cst, ofBuf_main_call2_cst, toBuf_main_v26, ofBuf_main_v26, toBuf_main_call2_v0, ofBuf_main_call2_v0, toBuf_main_call2_cst_0, ofBuf_main_call2_cst_0, toBuf_main_call2_v1, ofBuf_main_call2_v1, toBuf_main_call2_v2, ofBuf_main_call2_v2] [val_main_v26, val_main_v25, val_main_v24],
   by stage_result [h_main_v20, h_main_v23, h_main_cst_5] [toBuf_main_call2_cst, ofBuf_main_call2_cst, toBuf_main_v26, ofBuf_main_v26, toBuf_main_call2_v0, ofBuf_main_call2_v0, toBuf_main_call2_cst_0, ofBuf_main_call2_cst_0, toBuf_main_call2_v1, ofBuf_main_call2_v1, toBuf_main_call2_v2, ofBuf_main_call2_v2] [val_main_call2_v2, val_main_call2_v1, val_main_call2_cst_0, val_main_call2_v0, val_main_call2_cst, val_main_v26, val_main_v25, val_main_v24],
   by stage_keep h_main_arg0,
   by stage_keep h_main_arg1,
   by stage_keep h_main_arg2⟩

/-- Operations 49 to 56. -/
abbrev opsA_7 : List (HloOp τ sig (Elt F)) :=
  [ TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x1000, .f32⟩) main_call2_v4) (broadcastInDim S8192x1000 ![0, 1] bcast_S8192x1_S8192x1000_0_1),
    TRef.binary (TRef.of (T := ⟨S8192x1000, .f32⟩) main_v26) (TRef.of (T := ⟨S8192x1000, .f32⟩) main_call2_v4) (TRef.of (T := ⟨S8192x1000, .f32⟩) main_call2_v5) subf,
    TRef.unary (TRef.of (T := ⟨S8192x1000, .f32⟩) main_call2_v5) (TRef.of (T := ⟨S8192x1000, .f32⟩) main_call2_v6) Host.exp,
    TRef.nullary (TRef.of (T := ⟨S_, .f32⟩) main_call2_cst_1) (constant S_ .f32 0x00000000#32),
    TRef.binary (TRef.of (T := ⟨S8192x1000, .f32⟩) main_call2_v6) (TRef.of (T := ⟨S_, .f32⟩) main_call2_cst_1) (TRef.of (T := ⟨S8192, .f32⟩) main_call2_v7) (fun x v => Host.reduceAdd x v reducesTo_S8192x1000_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log ]

theorem stageA_7 (V : Valuation τ sig (Elt F)) (x0 : (⟨S8192x128, .f32⟩ : BufTy).Contents (Elt F)) (x1 : (⟨S8192, .i32⟩ : BufTy).Contents (Elt F)) (x2 : (⟨S1000x128, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v4 : V (Proc.devRef .tc main_v4) = val_main_v4 (F := F) x0)
    (h_main_v20 : V (Proc.devRef .tc main_v20) = val_main_v20 (F := F) x0 x2)
    (h_main_v26 : V (Proc.devRef .tc main_v26) = val_main_v26 (F := F) x0 x1 x2)
    (h_main_call2_v2 : V (Proc.devRef .tc main_call2_v2) = val_main_call2_v2 (F := F) x0 x1 x2) :
    after opsA_7 V (Proc.devRef .tc main_v4) = val_main_v4 (F := F) x0
    ∧ after opsA_7 V (Proc.devRef .tc main_v20) = val_main_v20 (F := F) x0 x2
    ∧ after opsA_7 V (Proc.devRef .tc main_call2_v5) = val_main_call2_v5 (F := F) x0 x1 x2
    ∧ after opsA_7 V (Proc.devRef .tc main_call2_v9) = val_main_call2_v9 (F := F) x0 x1 x2
    ∧ after opsA_7 V (Proc.devRef .tc main_arg0) = x0
    ∧ after opsA_7 V (Proc.devRef .tc main_arg1) = x1
    ∧ after opsA_7 V (Proc.devRef .tc main_arg2) = x2 :=
  ⟨by stage_keep h_main_v4,
   by stage_keep h_main_v20,
   by stage_result [h_main_v26, h_main_call2_v2] [toBuf_main_call2_v2, ofBuf_main_call2_v2, toBuf_main_call2_v3, ofBuf_main_call2_v3, toBuf_main_call2_v4, ofBuf_main_call2_v4, toBuf_main_v26, ofBuf_main_v26, toBuf_main_call2_v5, ofBuf_main_call2_v5, toBuf_main_call2_v6, ofBuf_main_call2_v6, toBuf_main_call2_cst_1, ofBuf_main_call2_cst_1, toBuf_main_call2_v7, ofBuf_main_call2_v7, toBuf_main_call2_v8, ofBuf_main_call2_v8, toBuf_main_call2_v9, ofBuf_main_call2_v9] [val_main_call2_v5, val_main_call2_v4, val_main_call2_v3],
   by stage_result [h_main_v26, h_main_call2_v2] [toBuf_main_call2_v2, ofBuf_main_call2_v2, toBuf_main_call2_v3, ofBuf_main_call2_v3, toBuf_main_call2_v4, ofBuf_main_call2_v4, toBuf_main_v26, ofBuf_main_v26, toBuf_main_call2_v5, ofBuf_main_call2_v5, toBuf_main_call2_v6, ofBuf_main_call2_v6, toBuf_main_call2_cst_1, ofBuf_main_call2_cst_1, toBuf_main_call2_v7, ofBuf_main_call2_v7, toBuf_main_call2_v8, ofBuf_main_call2_v8, toBuf_main_call2_v9, ofBuf_main_call2_v9] [val_main_call2_v9, val_main_call2_v8, val_main_call2_v7, val_main_call2_cst_1, val_main_call2_v6, val_main_call2_v5, val_main_call2_v4, val_main_call2_v3],
   by stage_keep h_main_arg0,
   by stage_keep h_main_arg1,
   by stage_keep h_main_arg2⟩

/-- Operations 57 to 64. -/
abbrev opsA_8 : List (HloOp τ sig (Elt F)) :=
  [ TRef.unary (TRef.of (T := ⟨S8192x1, .f32⟩) main_call2_v9) (TRef.of (T := ⟨S8192x1000, .f32⟩) main_call2_v10) (broadcastInDim S8192x1000 ![0, 1] bcast_S8192x1_S8192x1000_0_1),
    TRef.binary (TRef.of (T := ⟨S8192x1000, .f32⟩) main_call2_v5) (TRef.of (T := ⟨S8192x1000, .f32⟩) main_call2_v10) (TRef.of (T := ⟨S8192x1000, .f32⟩) main_v27) subf,
    nullary main_v28 (iotaInDim S8192 32 0),
    nullary main_c (constantI S_ 32 0#32),
    unary main_c main_v29 (broadcastInDim S8192 ![] bcast_S_S8192 : (⟨S_, .i32⟩ : BufTy).Contents (Elt F) → (⟨S8192, .i32⟩ : BufTy).Contents (Elt F)),
    binary main_v28 main_v29 main_v30 (cmpi .slt : (⟨S8192, .i32⟩ : BufTy).Contents (Elt F) → (⟨S8192, .i32⟩ : BufTy).Contents (Elt F) → (⟨S8192, .i1⟩ : BufTy).Contents (Elt F)),
    nullary main_c_6 (constantI S_ 32 8192#32),
    unary main_c_6 main_v31 (broadcastInDim S8192 ![] bcast_S_S8192 : (⟨S_, .i32⟩ : BufTy).Contents (Elt F) → (⟨S8192, .i32⟩ : BufTy).Contents (Elt F)) ]

theorem stageA_8 (V : Valuation τ sig (Elt F)) (x0 : (⟨S8192x128, .f32⟩ : BufTy).Contents (Elt F)) (x1 : (⟨S8192, .i32⟩ : BufTy).Contents (Elt F)) (x2 : (⟨S1000x128, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v4 : V (Proc.devRef .tc main_v4) = val_main_v4 (F := F) x0)
    (h_main_v20 : V (Proc.devRef .tc main_v20) = val_main_v20 (F := F) x0 x2)
    (h_main_call2_v5 : V (Proc.devRef .tc main_call2_v5) = val_main_call2_v5 (F := F) x0 x1 x2)
    (h_main_call2_v9 : V (Proc.devRef .tc main_call2_v9) = val_main_call2_v9 (F := F) x0 x1 x2) :
    after opsA_8 V (Proc.devRef .tc main_v4) = val_main_v4 (F := F) x0
    ∧ after opsA_8 V (Proc.devRef .tc main_v20) = val_main_v20 (F := F) x0 x2
    ∧ after opsA_8 V (Proc.devRef .tc main_v27) = val_main_v27 (F := F) x0 x1 x2
    ∧ after opsA_8 V (Proc.devRef .tc main_v28) = val_main_v28 (F := F)
    ∧ after opsA_8 V (Proc.devRef .tc main_v30) = val_main_v30 (F := F)
    ∧ after opsA_8 V (Proc.devRef .tc main_v31) = val_main_v31 (F := F)
    ∧ after opsA_8 V (Proc.devRef .tc main_arg0) = x0
    ∧ after opsA_8 V (Proc.devRef .tc main_arg1) = x1
    ∧ after opsA_8 V (Proc.devRef .tc main_arg2) = x2 :=
  ⟨by stage_keep h_main_v4,
   by stage_keep h_main_v20,
   by stage_result [h_main_call2_v5, h_main_call2_v9] [toBuf_main_call2_v9, ofBuf_main_call2_v9, toBuf_main_call2_v10, ofBuf_main_call2_v10, toBuf_main_call2_v5, ofBuf_main_call2_v5, toBuf_main_v27, ofBuf_main_v27] [val_main_v27, val_main_call2_v10],
   by stage_result [] [toBuf_main_call2_v9, ofBuf_main_call2_v9, toBuf_main_call2_v10, ofBuf_main_call2_v10, toBuf_main_call2_v5, ofBuf_main_call2_v5, toBuf_main_v27, ofBuf_main_v27] [val_main_v28],
   by stage_result [] [toBuf_main_call2_v9, ofBuf_main_call2_v9, toBuf_main_call2_v10, ofBuf_main_call2_v10, toBuf_main_call2_v5, ofBuf_main_call2_v5, toBuf_main_v27, ofBuf_main_v27] [val_main_v30, val_main_v29, val_main_c, val_main_v28],
   by stage_result [] [toBuf_main_call2_v9, ofBuf_main_call2_v9, toBuf_main_call2_v10, ofBuf_main_call2_v10, toBuf_main_call2_v5, ofBuf_main_call2_v5, toBuf_main_v27, ofBuf_main_v27] [val_main_v31, val_main_c_6],
   by stage_keep h_main_arg0,
   by stage_keep h_main_arg1,
   by stage_keep h_main_arg2⟩

/-- Operations 65 to 72. -/
abbrev opsA_9 : List (HloOp τ sig (Elt F)) :=
  [ binary main_v28 main_v31 main_v32 (addi : (⟨S8192, .i32⟩ : BufTy).Contents (Elt F) → (⟨S8192, .i32⟩ : BufTy).Contents (Elt F) → (⟨S8192, .i32⟩ : BufTy).Contents (Elt F)),
    ternary main_v30 main_v32 main_v28 main_v33 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_7 (constantI S_ 32 0#32),
    unary main_c_7 main_v34 (broadcastInDim S8192 ![] bcast_S_S8192 : (⟨S_, .i32⟩ : BufTy).Contents (Elt F) → (⟨S8192, .i32⟩ : BufTy).Contents (Elt F)),
    binary main_arg1 main_v34 main_v35 (cmpi .slt : (⟨S8192, .i32⟩ : BufTy).Contents (Elt F) → (⟨S8192, .i32⟩ : BufTy).Contents (Elt F) → (⟨S8192, .i1⟩ : BufTy).Contents (Elt F)),
    nullary main_c_8 (constantI S_ 32 1000#32),
    unary main_c_8 main_v36 (broadcastInDim S8192 ![] bcast_S_S8192 : (⟨S_, .i32⟩ : BufTy).Contents (Elt F) → (⟨S8192, .i32⟩ : BufTy).Contents (Elt F)),
    binary main_arg1 main_v36 main_v37 (addi : (⟨S8192, .i32⟩ : BufTy).Contents (Elt F) → (⟨S8192, .i32⟩ : BufTy).Contents (Elt F) → (⟨S8192, .i32⟩ : BufTy).Contents (Elt F)) ]

theorem stageA_9 (V : Valuation τ sig (Elt F)) (x0 : (⟨S8192x128, .f32⟩ : BufTy).Contents (Elt F)) (x1 : (⟨S8192, .i32⟩ : BufTy).Contents (Elt F)) (x2 : (⟨S1000x128, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v4 : V (Proc.devRef .tc main_v4) = val_main_v4 (F := F) x0)
    (h_main_v20 : V (Proc.devRef .tc main_v20) = val_main_v20 (F := F) x0 x2)
    (h_main_v27 : V (Proc.devRef .tc main_v27) = val_main_v27 (F := F) x0 x1 x2)
    (h_main_v28 : V (Proc.devRef .tc main_v28) = val_main_v28 (F := F))
    (h_main_v30 : V (Proc.devRef .tc main_v30) = val_main_v30 (F := F))
    (h_main_v31 : V (Proc.devRef .tc main_v31) = val_main_v31 (F := F)) :
    after opsA_9 V (Proc.devRef .tc main_v4) = val_main_v4 (F := F) x0
    ∧ after opsA_9 V (Proc.devRef .tc main_v20) = val_main_v20 (F := F) x0 x2
    ∧ after opsA_9 V (Proc.devRef .tc main_v27) = val_main_v27 (F := F) x0 x1 x2
    ∧ after opsA_9 V (Proc.devRef .tc main_v33) = val_main_v33 (F := F)
    ∧ after opsA_9 V (Proc.devRef .tc main_v35) = val_main_v35 (F := F) x1
    ∧ after opsA_9 V (Proc.devRef .tc main_v37) = val_main_v37 (F := F) x1
    ∧ after opsA_9 V (Proc.devRef .tc main_arg0) = x0
    ∧ after opsA_9 V (Proc.devRef .tc main_arg1) = x1
    ∧ after opsA_9 V (Proc.devRef .tc main_arg2) = x2 :=
  ⟨by stage_keep h_main_v4,
   by stage_keep h_main_v20,
   by stage_keep h_main_v27,
   by stage_result [h_main_v28, h_main_v30, h_main_v31] [] [val_main_v33, val_main_v32],
   by stage_result [h_main_arg1] [] [val_main_v35, val_main_v34, val_main_c_7],
   by stage_result [h_main_arg1] [] [val_main_v37, val_main_v36, val_main_c_8],
   by stage_keep h_main_arg0,
   by stage_keep h_main_arg1,
   by stage_keep h_main_arg2⟩

/-- Operations 73 to 75. -/
abbrev opsA_10 : List (HloOp τ sig (Elt F)) :=
  [ ternary main_v35 main_v37 main_arg1 main_v38 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v33 main_v39 (broadcastInDim S8192x1 ![0] bcast_S8192_S8192x1_0 : (⟨S8192, .i32⟩ : BufTy).Contents (Elt F) → (⟨S8192x1, .i32⟩ : BufTy).Contents (Elt F)),
    unary main_v38 main_v40 (broadcastInDim S8192x1 ![0] bcast_S8192_S8192x1_0 : (⟨S8192, .i32⟩ : BufTy).Contents (Elt F) → (⟨S8192x1, .i32⟩ : BufTy).Contents (Elt F)) ]

theorem stageA_10 (V : Valuation τ sig (Elt F)) (x0 : (⟨S8192x128, .f32⟩ : BufTy).Contents (Elt F)) (x1 : (⟨S8192, .i32⟩ : BufTy).Contents (Elt F)) (x2 : (⟨S1000x128, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v4 : V (Proc.devRef .tc main_v4) = val_main_v4 (F := F) x0)
    (h_main_v20 : V (Proc.devRef .tc main_v20) = val_main_v20 (F := F) x0 x2)
    (h_main_v27 : V (Proc.devRef .tc main_v27) = val_main_v27 (F := F) x0 x1 x2)
    (h_main_v33 : V (Proc.devRef .tc main_v33) = val_main_v33 (F := F))
    (h_main_v35 : V (Proc.devRef .tc main_v35) = val_main_v35 (F := F) x1)
    (h_main_v37 : V (Proc.devRef .tc main_v37) = val_main_v37 (F := F) x1) :
    after opsA_10 V (Proc.devRef .tc main_v4) = val_main_v4 (F := F) x0
    ∧ after opsA_10 V (Proc.devRef .tc main_v20) = val_main_v20 (F := F) x0 x2
    ∧ after opsA_10 V (Proc.devRef .tc main_v27) = val_main_v27 (F := F) x0 x1 x2
    ∧ after opsA_10 V (Proc.devRef .tc main_v39) = val_main_v39 (F := F)
    ∧ after opsA_10 V (Proc.devRef .tc main_v40) = val_main_v40 (F := F) x1
    ∧ after opsA_10 V (Proc.devRef .tc main_arg0) = x0
    ∧ after opsA_10 V (Proc.devRef .tc main_arg1) = x1
    ∧ after opsA_10 V (Proc.devRef .tc main_arg2) = x2 :=
  ⟨by stage_keep h_main_v4,
   by stage_keep h_main_v20,
   by stage_keep h_main_v27,
   by stage_result [h_main_v33] [] [val_main_v39],
   by stage_result [h_main_arg1, h_main_v35, h_main_v37] [] [val_main_v40, val_main_v38],
   by stage_keep h_main_arg0,
   by stage_keep h_main_arg1,
   by stage_keep h_main_arg2⟩

/-- Operations 76 to 83. -/
abbrev opsA_11 : List (HloOp τ sig (Elt F)) :=
  [ binary main_v39 main_v40 main_v41 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v27 main_v41 main_v42 ((fun x i => Host.gather gather_S8192x1000_S8192x2_S8192_n_01_n_n_01_1_11 x i) : (⟨S8192x1000, .f32⟩ : BufTy).Contents (Elt F) → (⟨S8192x2, .i32⟩ : BufTy).Contents (Elt F) → (⟨S8192, .f32⟩ : BufTy).Contents (Elt F)),
    nullary main_cst_9 (constant S_ .f32 0x00000000#32),
    binary main_v42 main_cst_9 main_v43 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_10 (constant S_ .f32 0x46000000#32),
    binary main_v43 main_cst_10 main_v44 (Host.divf : (⟨S_, .f32⟩ : BufTy).Contents (Elt F) → (⟨S_, .f32⟩ : BufTy).Contents (Elt F) → (⟨S_, .f32⟩ : BufTy).Contents (Elt F)),
    unary main_v44 main_v45 (Host.negf : (⟨S_, .f32⟩ : BufTy).Contents (Elt F) → (⟨S_, .f32⟩ : BufTy).Contents (Elt F)),
    TRef.binary (TRef.of (T := ⟨S1000x128, .f32⟩) main_arg2) (TRef.of (T := ⟨S1000x128, .f32⟩) main_arg2) (TRef.of (T := ⟨S1000x128, .f32⟩) main_call3_v0) mulf ]

theorem stageA_11 (V : Valuation τ sig (Elt F)) (x0 : (⟨S8192x128, .f32⟩ : BufTy).Contents (Elt F)) (x1 : (⟨S8192, .i32⟩ : BufTy).Contents (Elt F)) (x2 : (⟨S1000x128, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v4 : V (Proc.devRef .tc main_v4) = val_main_v4 (F := F) x0)
    (h_main_v20 : V (Proc.devRef .tc main_v20) = val_main_v20 (F := F) x0 x2)
    (h_main_v27 : V (Proc.devRef .tc main_v27) = val_main_v27 (F := F) x0 x1 x2)
    (h_main_v39 : V (Proc.devRef .tc main_v39) = val_main_v39 (F := F))
    (h_main_v40 : V (Proc.devRef .tc main_v40) = val_main_v40 (F := F) x1) :
    after opsA_11 V (Proc.devRef .tc main_v4) = val_main_v4 (F := F) x0
    ∧ after opsA_11 V (Proc.devRef .tc main_v20) = val_main_v20 (F := F) x0 x2
    ∧ after opsA_11 V (Proc.devRef .tc main_v45) = val_main_v45 (F := F) x0 x1 x2
    ∧ after opsA_11 V (Proc.devRef .tc main_call3_v0) = val_main_call3_v0 (F := F) x2
    ∧ after opsA_11 V (Proc.devRef .tc main_arg0) = x0
    ∧ after opsA_11 V (Proc.devRef .tc main_arg1) = x1
    ∧ after opsA_11 V (Proc.devRef .tc main_arg2) = x2 :=
  ⟨by stage_keep h_main_v4,
   by stage_keep h_main_v20,
   by stage_result [h_main_v27, h_main_v39, h_main_v40] [toBuf_main_arg2, ofBuf_main_arg2, toBuf_main_call3_v0, ofBuf_main_call3_v0] [val_main_v45, val_main_v44, val_main_cst_10, val_main_v43, val_main_cst_9, val_main_v42, val_main_v41],
   by stage_result [h_main_arg2] [toBuf_main_arg2, ofBuf_main_arg2, toBuf_main_call3_v0, ofBuf_main_call3_v0] [val_main_call3_v0],
   by stage_keep h_main_arg0,
   by stage_keep h_main_arg1,
   by stage_keep h_main_arg2⟩

/-- Operations 84 to 90. -/
abbrev opsA_12 : List (HloOp τ sig (Elt F)) :=
  [ TRef.nullary (TRef.of (T := ⟨S_, .f32⟩) main_call3_cst) (constant S_ .f32 0x00000000#32),
    TRef.binary (TRef.of (T := ⟨S1000x128, .f32⟩) main_call3_v0) (TRef.of (T := ⟨S_, .f32⟩) main_call3_cst) (TRef.of (T := ⟨S1000, .f32⟩) main_call3_v1) (fun x v => Host.reduceAdd x v reducesTo_S1000x128_S1000_d1 h_S_),
    TRef.unary (TRef.of (T := ⟨S1000, .f32⟩) main_call3_v1) (TRef.of (T := ⟨S1000x1, .f32⟩) main_call3_v2) (broadcastInDim S1000x1 ![0] bcast_S1000_S1000x1_0),
    TRef.unary (TRef.of (T := ⟨S1000x1, .f32⟩) main_call3_v2) (TRef.of (T := ⟨S1000x1, .f32⟩) main_v46) Host.sqrt,
    nullary main_cst_11 (constant S_ .f32 0x2B8CBCCC#32),
    unary main_cst_11 main_v47 (broadcastInDim S1000x1 ![] bcast_S_S1000x1 : (⟨S_, .f32⟩ : BufTy).Contents (Elt F) → (⟨S1000x1, .f32⟩ : BufTy).Contents (Elt F)),
    binary main_v46 main_v47 main_v48 (maximumf : (⟨S1000x1, .f32⟩ : BufTy).Contents (Elt F) → (⟨S1000x1, .f32⟩ : BufTy).Contents (Elt F) → (⟨S1000x1, .f32⟩ : BufTy).Contents (Elt F)) ]

theorem stageA_12 (V : Valuation τ sig (Elt F)) (x0 : (⟨S8192x128, .f32⟩ : BufTy).Contents (Elt F)) (x1 : (⟨S8192, .i32⟩ : BufTy).Contents (Elt F)) (x2 : (⟨S1000x128, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v4 : V (Proc.devRef .tc main_v4) = val_main_v4 (F := F) x0)
    (h_main_v20 : V (Proc.devRef .tc main_v20) = val_main_v20 (F := F) x0 x2)
    (h_main_v45 : V (Proc.devRef .tc main_v45) = val_main_v45 (F := F) x0 x1 x2)
    (h_main_call3_v0 : V (Proc.devRef .tc main_call3_v0) = val_main_call3_v0 (F := F) x2) :
    after opsA_12 V (Proc.devRef .tc main_v4) = val_main_v4 (F := F) x0
    ∧ after opsA_12 V (Proc.devRef .tc main_v20) = val_main_v20 (F := F) x0 x2
    ∧ after opsA_12 V (Proc.devRef .tc main_v45) = val_main_v45 (F := F) x0 x1 x2
    ∧ after opsA_12 V (Proc.devRef .tc main_v48) = val_main_v48 (F := F) x2
    ∧ after opsA_12 V (Proc.devRef .tc main_arg0) = x0
    ∧ after opsA_12 V (Proc.devRef .tc main_arg1) = x1
    ∧ after opsA_12 V (Proc.devRef .tc main_arg2) = x2 :=
  ⟨by stage_keep h_main_v4,
   by stage_keep h_main_v20,
   by stage_keep h_main_v45,
   by stage_result [h_main_call3_v0] [toBuf_main_call3_cst, ofBuf_main_call3_cst, toBuf_main_call3_v0, ofBuf_main_call3_v0, toBuf_main_call3_v1, ofBuf_main_call3_v1, toBuf_main_call3_v2, ofBuf_main_call3_v2, toBuf_main_v46, ofBuf_main_v46] [val_main_v48, val_main_v47, val_main_cst_11, val_main_v46, val_main_call3_v2, val_main_call3_v1, val_main_call3_cst],
   by stage_keep h_main_arg0,
   by stage_keep h_main_arg1,
   by stage_keep h_main_arg2⟩

end Cert.ReferenceIdeal.Hand

end
-- ==== Proof.RefRunC1.lean ====
/-
  The reference's run, operations 91 to 101. From any contents V of the buffers in which the values live before this
  stretch are their stages of the arguments (the normalised features main_v4, the distances main_v20, the first loss term
  main_v45, the class means' norms clamped below, main_v48), after the stretch the same holds of what is live after it: the stretch
  divides each class mean by that clamped norm and gathers, for every row, the normalised mean of the row's label
  (a negative label read from the end), main_v57. The other buffers it leaves alone.
-/
import proofs.«400644_j12893491823014_2_alg».proof.Proof.Gen.ReferenceIdeal
import proofs.«400644_j12893491823014_2_alg».proof.Proof.RefReadP
import Idealize.ShloMosaic.Lib.StableHlo.Run

noncomputable section

namespace Cert.ReferenceIdeal.HandB

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

local notation "δ" => Proc.devRef (sig := sig) (Proc.tc : Proc τ)

/-- Operations 91 to 101, as printed. -/
abbrev cB1 : List (HloOp τ sig (Elt F)) :=
  [ unary main_v48 main_v49 (broadcastInDim S1000x128 ![0, 1] bcast_S1000x1_S1000x128_0_1 : (⟨S1000x1, .f32⟩ : BufTy).Contents (Elt F) → (⟨S1000x128, .f32⟩ : BufTy).Contents (Elt F)),
    binary main_arg2 main_v49 main_v50 (Host.divf : (⟨S1000x128, .f32⟩ : BufTy).Contents (Elt F) → (⟨S1000x128, .f32⟩ : BufTy).Contents (Elt F) → (⟨S1000x128, .f32⟩ : BufTy).Contents (Elt F)),
    nullary main_c_12 (constantI S_ 32 0#32),
    unary main_c_12 main_v51 (broadcastInDim S8192 ![] bcast_S_S8192 : (⟨S_, .i32⟩ : BufTy).Contents (Elt F) → (⟨S8192, .i32⟩ : BufTy).Contents (Elt F)),
    binary main_arg1 main_v51 main_v52 (cmpi .slt : (⟨S8192, .i32⟩ : BufTy).Contents (Elt F) → (⟨S8192, .i32⟩ : BufTy).Contents (Elt F) → (⟨S8192, .i1⟩ : BufTy).Contents (Elt F)),
    nullary main_c_13 (constantI S_ 32 1000#32),
    unary main_c_13 main_v53 (broadcastInDim S8192 ![] bcast_S_S8192 : (⟨S_, .i32⟩ : BufTy).Contents (Elt F) → (⟨S8192, .i32⟩ : BufTy).Contents (Elt F)),
    binary main_arg1 main_v53 main_v54 (addi : (⟨S8192, .i32⟩ : BufTy).Contents (Elt F) → (⟨S8192, .i32⟩ : BufTy).Contents (Elt F) → (⟨S8192, .i32⟩ : BufTy).Contents (Elt F)),
    ternary main_v52 main_v54 main_arg1 main_v55 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v55 main_v56 (broadcastInDim S8192x1 ![0] bcast_S8192_S8192x1_0 : (⟨S8192, .i32⟩ : BufTy).Contents (Elt F) → (⟨S8192x1, .i32⟩ : BufTy).Contents (Elt F)),
    binary main_v50 main_v56 main_v57 ((fun x i => Host.gather gather_S1000x128_S8192x1_S8192x128_1_0_n_n_0_1_1128 x i) : (⟨S1000x128, .f32⟩ : BufTy).Contents (Elt F) → (⟨S8192x1, .i32⟩ : BufTy).Contents (Elt F) → (⟨S8192x128, .f32⟩ : BufTy).Contents (Elt F)) ]

/-- After operations 91 to 101 the live buffers hold their stages. -/
theorem stepB1 (V : Valuation τ sig (Elt F)) (x0 : (⟨S8192x128, .f32⟩ : BufTy).Contents (Elt F)) (x1 : (⟨S8192, .i32⟩ : BufTy).Contents (Elt F))
    (x2 : (⟨S1000x128, .f32⟩ : BufTy).Contents (Elt F))
    (h4 : V (δ main_v4) = val_main_v4 x0) (h20 : V (δ main_v20) = val_main_v20 x0 x2) (h45 : V (δ main_v45) = val_main_v45 x0 x1 x2)
    (h48 : V (δ main_v48) = val_main_v48 x2) (h0 : V (δ main_arg0) = x0) (h1 : V (δ main_arg1) = x1) (h2 : V (δ main_arg2) = x2) :
    after cB1 V (δ main_v4) = val_main_v4 x0 ∧ after cB1 V (δ main_v20) = val_main_v20 x0 x2
    ∧ after cB1 V (δ main_v45) = val_main_v45 x0 x1 x2 ∧ after cB1 V (δ main_v57) = val_main_v57 x1 x2
    ∧ after cB1 V (δ main_arg0) = x0 ∧ after cB1 V (δ main_arg1) = x1 ∧ after cB1 V (δ main_arg2) = x2 := by
  refine ⟨?_, ?_, ?_, ?_, ?_, ?_, ?_⟩
  · after_results_simp; exact h4
  · after_results_simp; exact h20
  · after_results_simp; exact h45
  · -- the gathered normalised means: a function of the means, their norms and the labels
    after_results_simp; rw [h48, h1, h2]; rfl
  · after_results_simp; exact h0
  · after_results_simp; exact h1
  · after_results_simp; exact h2

end Cert.ReferenceIdeal.HandB

end
-- ==== Proof.RefRunC2.lean ====
/-
  The reference's run, operations 102 to 114. The stretch forms the difference of each normalised feature row and its
  label's normalised mean, sums its squares over all entries and divides by two constants (the centre term main_v62), and
  multiplies the normalised features by their own transpose and divides by a constant (the similarity matrix main_v66). The normalised features and the
  gathered means are not read after it.
-/
import proofs.«400644_j12893491823014_2_alg».proof.Proof.Gen.ReferenceIdeal
import proofs.«400644_j12893491823014_2_alg».proof.Proof.RefReadP
import Idealize.ShloMosaic.Lib.StableHlo.Run

noncomputable section

namespace Cert.ReferenceIdeal.HandB

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

local notation "δ" => Proc.devRef (sig := sig) (Proc.tc : Proc τ)

/-- Operations 102 to 114, as printed. -/
abbrev cB2 : List (HloOp τ sig (Elt F)) :=
  [ binary main_v4 main_v57 main_v58 (subf : (⟨S8192x128, .f32⟩ : BufTy).Contents (Elt F) → (⟨S8192x128, .f32⟩ : BufTy).Contents (Elt F) → (⟨S8192x128, .f32⟩ : BufTy).Contents (Elt F)),
    binary main_v58 main_v58 main_v59 (mulf : (⟨S8192x128, .f32⟩ : BufTy).Contents (Elt F) → (⟨S8192x128, .f32⟩ : BufTy).Contents (Elt F) → (⟨S8192x128, .f32⟩ : BufTy).Contents (Elt F)),
    nullary main_cst_14 (constant S_ .f32 0x00000000#32),
    binary main_v59 main_cst_14 main_v60 ((fun x v => Host.reduceAdd x v reducesTo_S8192x128_S_d0_1 h_S_) : (⟨S8192x128, .f32⟩ : BufTy).Contents (Elt F) → (⟨S_, .f32⟩ : BufTy).Contents (Elt F) → (⟨S_, .f32⟩ : BufTy).Contents (Elt F)),
    nullary main_cst_15 (constant S_ .f32 0x40000000#32),
    binary main_v60 main_cst_15 main_v61 (Host.divf : (⟨S_, .f32⟩ : BufTy).Contents (Elt F) → (⟨S_, .f32⟩ : BufTy).Contents (Elt F) → (⟨S_, .f32⟩ : BufTy).Contents (Elt F)),
    nullary main_cst_16 (constant S_ .f32 0x46000000#32),
    binary main_v61 main_cst_16 main_v62 (Host.divf : (⟨S_, .f32⟩ : BufTy).Contents (Elt F) → (⟨S_, .f32⟩ : BufTy).Contents (Elt F) → (⟨S_, .f32⟩ : BufTy).Contents (Elt F)),
    unary main_v4 main_v63 ((transpose S128x8192 [1, 0] · transposes_S8192x128_S128x8192_1_0) : (⟨S8192x128, .f32⟩ : BufTy).Contents (Elt F) → (⟨S128x8192, .f32⟩ : BufTy).Contents (Elt F)),
    binary main_v4 main_v63 main_v64 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    nullary main_cst_17 (constant S_ .f32 0x3E99999A#32),
    unary main_cst_17 main_v65 (broadcastInDim S8192x8192 ![] bcast_S_S8192x8192 : (⟨S_, .f32⟩ : BufTy).Contents (Elt F) → (⟨S8192x8192, .f32⟩ : BufTy).Contents (Elt F)),
    binary main_v64 main_v65 main_v66 (Host.divf : (⟨S8192x8192, .f32⟩ : BufTy).Contents (Elt F) → (⟨S8192x8192, .f32⟩ : BufTy).Contents (Elt F) → (⟨S8192x8192, .f32⟩ : BufTy).Contents (Elt F)) ]

/-- After operations 102 to 114 the live buffers hold their stages. -/
theorem stepB2 (V : Valuation τ sig (Elt F)) (x0 : (⟨S8192x128, .f32⟩ : BufTy).Contents (Elt F)) (x1 : (⟨S8192, .i32⟩ : BufTy).Contents (Elt F))
    (x2 : (⟨S1000x128, .f32⟩ : BufTy).Contents (Elt F))
    (h4 : V (δ main_v4) = val_main_v4 x0) (h20 : V (δ main_v20) = val_main_v20 x0 x2) (h45 : V (δ main_v45) = val_main_v45 x0 x1 x2)
    (h57 : V (δ main_v57) = val_main_v57 x1 x2) (h0 : V (δ main_arg0) = x0) (h1 : V (δ main_arg1) = x1) (h2 : V (δ main_arg2) = x2) :
    after cB2 V (δ main_v20) = val_main_v20 x0 x2 ∧ after cB2 V (δ main_v45) = val_main_v45 x0 x1 x2
    ∧ after cB2 V (δ main_v62) = val_main_v62 x0 x1 x2 ∧ after cB2 V (δ main_v66) = val_main_v66 x0
    ∧ after cB2 V (δ main_arg0) = x0 ∧ after cB2 V (δ main_arg1) = x1 ∧ after cB2 V (δ main_arg2) = x2 := by
  refine ⟨?_, ?_, ?_, ?_, ?_, ?_, ?_⟩
  · after_results_simp; exact h20
  · after_results_simp; exact h45
  · -- the centre term: a function of the normalised features and the gathered means
    after_results_simp; rw [h4, h57]; rfl
  · -- the similarity matrix: a function of the normalised features
    after_results_simp; rw [h4]; rfl
  · after_results_simp; exact h0
  · after_results_simp; exact h1
  · after_results_simp; exact h2

end Cert.ReferenceIdeal.HandB

end
-- ==== Proof.RefRunC3.lean ====
/-
  The reference's operations 115 to 131, run from any buffer contents V: the diagonal mask (row index equal to
  column index), the exponentials of the similarities with the diagonal set to zero, their row sums, the logarithm,
  and the similarities minus the row's log-sum. Each buffer the stretch writes holds the stage's value of the
  arguments; the buffers it does not write keep theirs.
-/
import proofs.«400644_j12893491823014_2_alg».proof.Proof.Gen.ReferenceIdeal
import proofs.«400644_j12893491823014_2_alg».proof.Proof.RefReadP
import Idealize.ShloMosaic.Lib.StableHlo.Run

noncomputable section

namespace Cert.ReferenceIdeal.HandB

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

local notation "δ" => Proc.devRef (sig := sig) (Proc.tc : Proc τ)

/-- Operations 115–131 of the reference. -/
abbrev cB3 : List (HloOp τ sig (Elt F)) :=
  [ nullary main_v67 (iotaInDim S8192x8192 32 0),
    nullary main_v68 (iotaInDim S8192x8192 32 1),
    nullary main_c_18 (constantI S_ 32 0#32),
    unary main_c_18 main_v69 (broadcastInDim S8192x8192 ![] bcast_S_S8192x8192 : (⟨S_, .i32⟩ : BufTy).Contents (Elt F) → (⟨S8192x8192, .i32⟩ : BufTy).Contents (Elt F)),
    binary main_v67 main_v69 main_v70 (addi : (⟨S8192x8192, .i32⟩ : BufTy).Contents (Elt F) → (⟨S8192x8192, .i32⟩ : BufTy).Contents (Elt F) → (⟨S8192x8192, .i32⟩ : BufTy).Contents (Elt F)),
    binary main_v70 main_v68 main_v71 (cmpi .eq : (⟨S8192x8192, .i32⟩ : BufTy).Contents (Elt F) → (⟨S8192x8192, .i32⟩ : BufTy).Contents (Elt F) → (⟨S8192x8192, .i1⟩ : BufTy).Contents (Elt F)),
    unary main_v66 main_v72 (Host.exp : (⟨S8192x8192, .f32⟩ : BufTy).Contents (Elt F) → (⟨S8192x8192, .f32⟩ : BufTy).Contents (Elt F)),
    nullary main_cst_19 (constant S_ .f32 0x00000000#32),
    TRef.unary (TRef.of (T := ⟨S_, .f32⟩) main_cst_19) (TRef.of (T := ⟨S_, .f32⟩) main_call4_v0) id,
    TRef.unary (TRef.of (T := ⟨S_, .f32⟩) main_call4_v0) (TRef.of (T := ⟨S8192x8192, .f32⟩) main_call4_v1) (broadcastInDim S8192x8192 ![] bcast_S_S8192x8192),
    TRef.ternary (TRef.of (T := ⟨S8192x8192, .i1⟩) main_v71) (TRef.of (T := ⟨S8192x8192, .f32⟩) main_call4_v1) (TRef.of (T := ⟨S8192x8192, .f32⟩) main_v72) (TRef.of (T := ⟨S8192x8192, .f32⟩) main_v73) select,
    nullary main_cst_20 (constant S_ .f32 0x00000000#32),
    binary main_v73 main_cst_20 main_v74 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v74 main_v75 (Host.log : (⟨S8192, .f32⟩ : BufTy).Contents (Elt F) → (⟨S8192, .f32⟩ : BufTy).Contents (Elt F)),
    unary main_v75 main_v76 (broadcastInDim S8192x1 ![0] bcast_S8192_S8192x1_0 : (⟨S8192, .f32⟩ : BufTy).Contents (Elt F) → (⟨S8192x1, .f32⟩ : BufTy).Contents (Elt F)),
    unary main_v76 main_v77 (broadcastInDim S8192x8192 ![0, 1] bcast_S8192x1_S8192x8192_0_1 : (⟨S8192x1, .f32⟩ : BufTy).Contents (Elt F) → (⟨S8192x8192, .f32⟩ : BufTy).Contents (Elt F)),
    binary main_v66 main_v77 main_v78 (subf : (⟨S8192x8192, .f32⟩ : BufTy).Contents (Elt F) → (⟨S8192x8192, .f32⟩ : BufTy).Contents (Elt F) → (⟨S8192x8192, .f32⟩ : BufTy).Contents (Elt F)) ]

/-- After the stretch: the mask and the shifted similarities are their stages; the carried buffers and the
    arguments are unchanged. -/
theorem stepB3 (V : Valuation τ sig (Elt F)) (x0 : (⟨S8192x128, .f32⟩ : BufTy).Contents (Elt F)) (x1 : (⟨S8192, .i32⟩ : BufTy).Contents (Elt F)) (x2 : (⟨S1000x128, .f32⟩ : BufTy).Contents (Elt F))
    (h20 : V (δ main_v20) = val_main_v20 x0 x2) (h45 : V (δ main_v45) = val_main_v45 x0 x1 x2)
    (h62 : V (δ main_v62) = val_main_v62 x0 x1 x2) (h66 : V (δ main_v66) = val_main_v66 x0)
    (h0 : V (δ main_arg0) = x0) (h1 : V (δ main_arg1) = x1) (h2 : V (δ main_arg2) = x2) :
    after cB3 V (δ main_v20) = val_main_v20 x0 x2 ∧ after cB3 V (δ main_v45) = val_main_v45 x0 x1 x2
    ∧ after cB3 V (δ main_v62) = val_main_v62 x0 x1 x2 ∧ after cB3 V (δ main_v71) = val_main_v71 (F := F)
    ∧ after cB3 V (δ main_v78) = val_main_v78 x0
    ∧ after cB3 V (δ main_arg0) = x0 ∧ after cB3 V (δ main_arg1) = x1 ∧ after cB3 V (δ main_arg2) = x2 := by
  refine ⟨?_, ?_, ?_, ?_, ?_, ?_, ?_, ?_⟩
  · after_results_simp; exact h20
  · after_results_simp; exact h45
  · after_results_simp; exact h62
  · after_results_simp; rfl
  · after_results_simp; rw [h66]; rfl
  · after_results_simp; exact h0
  · after_results_simp; exact h1
  · after_results_simp; exact h2

end Cert.ReferenceIdeal.HandB

end
-- ==== Proof.RefRunC4.lean ====
/-
  The reference's operations 132 to 145, run from any buffer contents V: the same-label mask (row's label equal
  to column's label) with the diagonal removed, the count of each row's positives (the mask summed along the row
  as integers), and the shifted similarities kept at the positives and set to zero elsewhere.
-/
import proofs.«400644_j12893491823014_2_alg».proof.Proof.Gen.ReferenceIdeal
import proofs.«400644_j12893491823014_2_alg».proof.Proof.RefReadP
import Idealize.ShloMosaic.Lib.StableHlo.Run

noncomputable section

namespace Cert.ReferenceIdeal.HandB

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

local notation "δ" => Proc.devRef (sig := sig) (Proc.tc : Proc τ)

/-- Operations 132–145 of the reference. -/
abbrev cB4 : List (HloOp τ sig (Elt F)) :=
  [ unary main_arg1 main_v79 (broadcastInDim S8192x1 ![0] bcast_S8192_S8192x1_0 : (⟨S8192, .i32⟩ : BufTy).Contents (Elt F) → (⟨S8192x1, .i32⟩ : BufTy).Contents (Elt F)),
    unary main_arg1 main_v80 (broadcastInDim S1x8192 ![1] bcast_S8192_S1x8192_1 : (⟨S8192, .i32⟩ : BufTy).Contents (Elt F) → (⟨S1x8192, .i32⟩ : BufTy).Contents (Elt F)),
    unary main_v79 main_v81 (broadcastInDim S8192x8192 ![0, 1] bcast_S8192x1_S8192x8192_0_1 : (⟨S8192x1, .i32⟩ : BufTy).Contents (Elt F) → (⟨S8192x8192, .i32⟩ : BufTy).Contents (Elt F)),
    unary main_v80 main_v82 (broadcastInDim S8192x8192 ![0, 1] bcast_S1x8192_S8192x8192_0_1 : (⟨S1x8192, .i32⟩ : BufTy).Contents (Elt F) → (⟨S8192x8192, .i32⟩ : BufTy).Contents (Elt F)),
    binary main_v81 main_v82 main_v83 (cmpi .eq : (⟨S8192x8192, .i32⟩ : BufTy).Contents (Elt F) → (⟨S8192x8192, .i32⟩ : BufTy).Contents (Elt F) → (⟨S8192x8192, .i1⟩ : BufTy).Contents (Elt F)),
    unary main_v71 main_v84 (noti : (⟨S8192x8192, .i1⟩ : BufTy).Contents (Elt F) → (⟨S8192x8192, .i1⟩ : BufTy).Contents (Elt F)),
    binary main_v83 main_v84 main_v85 (andi : (⟨S8192x8192, .i1⟩ : BufTy).Contents (Elt F) → (⟨S8192x8192, .i1⟩ : BufTy).Contents (Elt F) → (⟨S8192x8192, .i1⟩ : BufTy).Contents (Elt F)),
    unary main_v85 main_v86 ((extui 32 · natLt_1_32) : (⟨S8192x8192, .i1⟩ : BufTy).Contents (Elt F) → (⟨S8192x8192, .i32⟩ : BufTy).Contents (Elt F)),
    nullary main_c_21 (constantI S_ 32 0#32),
    binary main_v86 main_c_21 main_v87 ((fun x v => Host.reduce IntOp.addi x v reducesTo_S8192x8192_S8192_d1 h_S_) : (⟨S8192x8192, .i32⟩ : BufTy).Contents (Elt F) → (⟨S_, .i32⟩ : BufTy).Contents (Elt F) → (⟨S8192, .i32⟩ : BufTy).Contents (Elt F)),
    nullary main_cst_22 (constant S_ .f32 0x00000000#32),
    TRef.unary (TRef.of (T := ⟨S_, .f32⟩) main_cst_22) (TRef.of (T := ⟨S_, .f32⟩) main_call5_v0) id,
    TRef.unary (TRef.of (T := ⟨S_, .f32⟩) main_call5_v0) (TRef.of (T := ⟨S8192x8192, .f32⟩) main_call5_v1) (broadcastInDim S8192x8192 ![] bcast_S_S8192x8192),
    TRef.ternary (TRef.of (T := ⟨S8192x8192, .i1⟩) main_v85) (TRef.of (T := ⟨S8192x8192, .f32⟩) main_v78) (TRef.of (T := ⟨S8192x8192, .f32⟩) main_call5_v1) (TRef.of (T := ⟨S8192x8192, .f32⟩) main_v88) select ]

/-- After the stretch: the positives' counts and the masked shifted similarities are their stages; the carried
    buffers and the arguments are unchanged. -/
theorem stepB4 (V : Valuation τ sig (Elt F)) (x0 : (⟨S8192x128, .f32⟩ : BufTy).Contents (Elt F)) (x1 : (⟨S8192, .i32⟩ : BufTy).Contents (Elt F)) (x2 : (⟨S1000x128, .f32⟩ : BufTy).Contents (Elt F))
    (h20 : V (δ main_v20) = val_main_v20 x0 x2) (h45 : V (δ main_v45) = val_main_v45 x0 x1 x2)
    (h62 : V (δ main_v62) = val_main_v62 x0 x1 x2) (h71 : V (δ main_v71) = val_main_v71 (F := F))
    (h78 : V (δ main_v78) = val_main_v78 x0)
    (h0 : V (δ main_arg0) = x0) (h1 : V (δ main_arg1) = x1) (h2 : V (δ main_arg2) = x2) :
    after cB4 V (δ main_v20) = val_main_v20 x0 x2 ∧ after cB4 V (δ main_v45) = val_main_v45 x0 x1 x2
    ∧ after cB4 V (δ main_v62) = val_main_v62 x0 x1 x2 ∧ after cB4 V (δ main_v87) = val_main_v87 x1
    ∧ after cB4 V (δ main_v88) = val_main_v88 x0 x1
    ∧ after cB4 V (δ main_arg0) = x0 ∧ after cB4 V (δ main_arg1) = x1 ∧ after cB4 V (δ main_arg2) = x2 := by
  refine ⟨?_, ?_, ?_, ?_, ?_, ?_, ?_, ?_⟩
  · after_results_simp; exact h20
  · after_results_simp; exact h45
  · after_results_simp; exact h62
  · after_results_simp; rw [h1, h71]; rfl
  · after_results_simp; rw [h1, h71, h78]; rfl
  · after_results_simp; exact h0
  · after_results_simp; exact h1
  · after_results_simp; exact h2

end Cert.ReferenceIdeal.HandB

end
-- ==== Proof.RefRunC5.lean ====
/-
  The reference's run, operations 146 to 155 of @main: the row sums of the positives' log-ratios, the signed test
  "the row has a positive", the count floored at one and converted, and the quotient. From any contents that hold the
  masked log-ratios and the row counts at their stages, the contents after these ten operations hold the validity mask
  and the rows' means at theirs; the logits, the two earlier scalars and the three arguments are not written.
-/
import proofs.«400644_j12893491823014_2_alg».proof.Proof.Gen.ReferenceIdeal
import proofs.«400644_j12893491823014_2_alg».proof.Proof.RefReadP
import Idealize.ShloMosaic.Lib.StableHlo.Run

noncomputable section

namespace Cert.ReferenceIdeal.HandB

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

local notation "δ" => Proc.devRef (sig := sig) (Proc.tc : Proc τ)

/-- Operations 146 to 155: a float row sum, two integer constants broadcast, a signed compare, a signed maximum, a
    conversion, a division. -/
abbrev cB5 : List (HloOp τ sig (Elt F)) :=
  [
    nullary main_cst_23 (constant S_ .f32 0x00000000#32),
    binary main_v88 main_cst_23 main_v89 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_c_24 (constantI S_ 32 0#32),
    unary main_c_24 main_v90 (broadcastInDim S8192 ![] bcast_S_S8192 : (⟨S_, .i32⟩ : BufTy).Contents (Elt F) → (⟨S8192, .i32⟩ : BufTy).Contents (Elt F)),
    binary main_v87 main_v90 main_v91 (cmpi .sgt : (⟨S8192, .i32⟩ : BufTy).Contents (Elt F) → (⟨S8192, .i32⟩ : BufTy).Contents (Elt F) → (⟨S8192, .i1⟩ : BufTy).Contents (Elt F)),
    nullary main_c_25 (constantI S_ 32 1#32),
    unary main_c_25 main_v92 (broadcastInDim S8192 ![] bcast_S_S8192 : (⟨S_, .i32⟩ : BufTy).Contents (Elt F) → (⟨S8192, .i32⟩ : BufTy).Contents (Elt F)),
    binary main_v87 main_v92 main_v93 (maxsi : (⟨S8192, .i32⟩ : BufTy).Contents (Elt F) → (⟨S8192, .i32⟩ : BufTy).Contents (Elt F) → (⟨S8192, .i32⟩ : BufTy).Contents (Elt F)),
    unary main_v93 main_v94 (sitofp .f32 : (⟨S8192, .i32⟩ : BufTy).Contents (Elt F) → (⟨S8192, .f32⟩ : BufTy).Contents (Elt F)),
    binary main_v89 main_v94 main_v95 (Host.divf : (⟨S8192, .f32⟩ : BufTy).Contents (Elt F) → (⟨S8192, .f32⟩ : BufTy).Contents (Elt F) → (⟨S8192, .f32⟩ : BufTy).Contents (Elt F)) ]

/-- The validity mask's and the rows' means' stages after the stretch, from the stages before it. -/
theorem stepB5 (V : Valuation τ sig (Elt F)) (x0 : (⟨S8192x128, .f32⟩ : BufTy).Contents (Elt F)) (x1 : (⟨S8192, .i32⟩ : BufTy).Contents (Elt F)) (x2 : (⟨S1000x128, .f32⟩ : BufTy).Contents (Elt F))
    (h20 : V (δ main_v20) = val_main_v20 x0 x2) (h45 : V (δ main_v45) = val_main_v45 x0 x1 x2)
    (h62 : V (δ main_v62) = val_main_v62 x0 x1 x2) (h87 : V (δ main_v87) = val_main_v87 x1)
    (h88 : V (δ main_v88) = val_main_v88 x0 x1)
    (h0 : V (δ main_arg0) = x0) (h1 : V (δ main_arg1) = x1) (h2 : V (δ main_arg2) = x2) :
    after cB5 V (δ main_v20) = val_main_v20 x0 x2 ∧ after cB5 V (δ main_v45) = val_main_v45 x0 x1 x2
    ∧ after cB5 V (δ main_v62) = val_main_v62 x0 x1 x2 ∧ after cB5 V (δ main_v91) = val_main_v91 x1
    ∧ after cB5 V (δ main_v95) = val_main_v95 x0 x1
    ∧ after cB5 V (δ main_arg0) = x0 ∧ after cB5 V (δ main_arg1) = x1 ∧ after cB5 V (δ main_arg2) = x2 := by
  refine ⟨?_, ?_, ?_, ?_, ?_, ?_, ?_, ?_⟩
  · after_results_simp
    exact h20
  · after_results_simp
    exact h45
  · after_results_simp
    exact h62
  · after_results_simp
    rw [h87]
    rfl
  · after_results_simp
    rw [h88, h87]
    rfl
  · after_results_simp
    exact h0
  · after_results_simp
    exact h1
  · after_results_simp
    exact h2

end Cert.ReferenceIdeal.HandB

end
-- ==== Proof.RefRunC6.lean ====
/-
  The reference's run, operations 156 to 169 of @main: the rows' means kept where the row has a positive and zero
  elsewhere, the integer number of such rows, the sum of the kept means negated, the number floored at one and
  converted, and the quotient: the contrastive scalar. From any contents that hold the validity mask and the rows' means
  at their stages, the contents after these fourteen operations hold the contrastive scalar at its stage; the logits,
  the two earlier scalars and the three arguments are not written.
-/
import proofs.«400644_j12893491823014_2_alg».proof.Proof.Gen.ReferenceIdeal
import proofs.«400644_j12893491823014_2_alg».proof.Proof.RefReadP
import Idealize.ShloMosaic.Lib.StableHlo.Run

noncomputable section

namespace Cert.ReferenceIdeal.HandB

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

local notation "δ" => Proc.devRef (sig := sig) (Proc.tc : Proc τ)

/-- Operations 156 to 169: a select against a broadcast zero, a widening, an integer sum, a float sum, a negation, a
    signed maximum, a conversion, a division. -/
abbrev cB6 : List (HloOp τ sig (Elt F)) :=
  [
    nullary main_cst_26 (constant S_ .f32 0x00000000#32),
    TRef.unary (TRef.of (T := ⟨S_, .f32⟩) main_cst_26) (TRef.of (T := ⟨S_, .f32⟩) main_call6_v0) id,
    TRef.unary (TRef.of (T := ⟨S_, .f32⟩) main_call6_v0) (TRef.of (T := ⟨S8192, .f32⟩) main_call6_v1) (broadcastInDim S8192 ![] bcast_S_S8192),
    TRef.ternary (TRef.of (T := ⟨S8192, .i1⟩) main_v91) (TRef.of (T := ⟨S8192, .f32⟩) main_v95) (TRef.of (T := ⟨S8192, .f32⟩) main_call6_v1) (TRef.of (T := ⟨S8192, .f32⟩) main_v96) select,
    unary main_v91 main_v97 ((extui 32 · natLt_1_32) : (⟨S8192, .i1⟩ : BufTy).Contents (Elt F) → (⟨S8192, .i32⟩ : BufTy).Contents (Elt F)),
    nullary main_c_27 (constantI S_ 32 0#32),
    binary main_v97 main_c_27 main_v98 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F)),
    nullary main_cst_28 (constant S_ .f32 0x00000000#32),
    binary main_v96 main_cst_28 main_v99 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v99 main_v100 (Host.negf : (⟨S_, .f32⟩ : BufTy).Contents (Elt F) → (⟨S_, .f32⟩ : BufTy).Contents (Elt F)),
    nullary main_c_29 (constantI S_ 32 1#32),
    binary main_v98 main_c_29 main_v101 (maxsi : (⟨S_, .i32⟩ : BufTy).Contents (Elt F) → (⟨S_, .i32⟩ : BufTy).Contents (Elt F) → (⟨S_, .i32⟩ : BufTy).Contents (Elt F)),
    unary main_v101 main_v102 (sitofp .f32 : (⟨S_, .i32⟩ : BufTy).Contents (Elt F) → (⟨S_, .f32⟩ : BufTy).Contents (Elt F)),
    binary main_v100 main_v102 main_v103 (Host.divf : (⟨S_, .f32⟩ : BufTy).Contents (Elt F) → (⟨S_, .f32⟩ : BufTy).Contents (Elt F) → (⟨S_, .f32⟩ : BufTy).Contents (Elt F)) ]

set_option maxRecDepth 8192 in
/-- The contrastive scalar's stage after the stretch, from the stages before it. -/
theorem stepB6 (V : Valuation τ sig (Elt F)) (x0 : (⟨S8192x128, .f32⟩ : BufTy).Contents (Elt F)) (x1 : (⟨S8192, .i32⟩ : BufTy).Contents (Elt F)) (x2 : (⟨S1000x128, .f32⟩ : BufTy).Contents (Elt F))
    (h20 : V (δ main_v20) = val_main_v20 x0 x2) (h45 : V (δ main_v45) = val_main_v45 x0 x1 x2)
    (h62 : V (δ main_v62) = val_main_v62 x0 x1 x2) (h91 : V (δ main_v91) = val_main_v91 x1)
    (h95 : V (δ main_v95) = val_main_v95 x0 x1)
    (h0 : V (δ main_arg0) = x0) (h1 : V (δ main_arg1) = x1) (h2 : V (δ main_arg2) = x2) :
    after cB6 V (δ main_v20) = val_main_v20 x0 x2 ∧ after cB6 V (δ main_v45) = val_main_v45 x0 x1 x2
    ∧ after cB6 V (δ main_v62) = val_main_v62 x0 x1 x2 ∧ after cB6 V (δ main_v103) = val_main_v103 x0 x1
    ∧ after cB6 V (δ main_arg0) = x0 ∧ after cB6 V (δ main_arg1) = x1 ∧ after cB6 V (δ main_arg2) = x2 := by
  refine ⟨?_, ?_, ?_, ?_, ?_, ?_, ?_⟩
  · after_results_simp
    exact h20
  · after_results_simp
    exact h45
  · after_results_simp
    exact h62
  · after_results_simp
    -- the typed references of the inlined select move contents along an equation of buffer types that holds by
    -- computation: read with the inputs still unnamed, those transports are the identity
    show Host.divf
        (Host.negf (Host.reduceAdd
          (select (V (δ main_v91)) (V (δ main_v95))
            (broadcastInDim S8192 ![] bcast_S_S8192 (id (constant S_ .f32 0x00000000#32))))
          (constant S_ .f32 0x00000000#32) reducesTo_S8192_S_d0 h_S_))
        (sitofp .f32 (maxsi
          (Host.reduce IntOp.addi (extui 32 (V (δ main_v91)) natLt_1_32) (constantI S_ 32 0#32) reducesTo_S8192_S_d0 h_S_)
          (constantI S_ 32 1#32)))
      = val_main_v103 x0 x1
    rw [h91, h95]
    rfl
  · after_results_simp
    exact h0
  · after_results_simp
    exact h1
  · after_results_simp
    exact h2

end Cert.ReferenceIdeal.HandB

end
-- ==== Proof.RefRunC7.lean ====
/-
  The reference's run, last stretch (operations 170 to 177 of @main): the loss from its three scalars,
  0.9 · ce + 0.1 · scl + 0.5 · lm. From any contents that hold the three scalars at their stages, the contents after these
  eight operations hold the loss at its stage; the logits and the three arguments are not written.
-/
import proofs.«400644_j12893491823014_2_alg».proof.Proof.Gen.ReferenceIdeal
import proofs.«400644_j12893491823014_2_alg».proof.Proof.RefReadP
import Idealize.ShloMosaic.Lib.StableHlo.Run

noncomputable section

namespace Cert.ReferenceIdeal.HandB

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

local notation "δ" => Proc.devRef (sig := sig) (Proc.tc : Proc τ)

/-- Operations 170 to 177: the three weights, the three products, the two sums. -/
abbrev cB7 : List (HloOp τ sig (Elt F)) :=
  [
    nullary main_cst_30 (constant S_ .f32 0x3F666666#32),
    binary main_cst_30 main_v45 main_v104 (mulf : (⟨S_, .f32⟩ : BufTy).Contents (Elt F) → (⟨S_, .f32⟩ : BufTy).Contents (Elt F) → (⟨S_, .f32⟩ : BufTy).Contents (Elt F)),
    nullary main_cst_31 (constant S_ .f32 0x3DCCCCCD#32),
    binary main_cst_31 main_v103 main_v105 (mulf : (⟨S_, .f32⟩ : BufTy).Contents (Elt F) → (⟨S_, .f32⟩ : BufTy).Contents (Elt F) → (⟨S_, .f32⟩ : BufTy).Contents (Elt F)),
    binary main_v104 main_v105 main_v106 (addf : (⟨S_, .f32⟩ : BufTy).Contents (Elt F) → (⟨S_, .f32⟩ : BufTy).Contents (Elt F) → (⟨S_, .f32⟩ : BufTy).Contents (Elt F)),
    nullary main_cst_32 (constant S_ .f32 0x3F000000#32),
    binary main_cst_32 main_v62 main_v107 (mulf : (⟨S_, .f32⟩ : BufTy).Contents (Elt F) → (⟨S_, .f32⟩ : BufTy).Contents (Elt F) → (⟨S_, .f32⟩ : BufTy).Contents (Elt F)),
    binary main_v106 main_v107 main_v108 (addf : (⟨S_, .f32⟩ : BufTy).Contents (Elt F) → (⟨S_, .f32⟩ : BufTy).Contents (Elt F) → (⟨S_, .f32⟩ : BufTy).Contents (Elt F)) ]

/-- The loss's stage after the stretch, from the scalars' stages before it. -/
theorem stepB7 (V : Valuation τ sig (Elt F)) (x0 : (⟨S8192x128, .f32⟩ : BufTy).Contents (Elt F)) (x1 : (⟨S8192, .i32⟩ : BufTy).Contents (Elt F)) (x2 : (⟨S1000x128, .f32⟩ : BufTy).Contents (Elt F))
    (h20 : V (δ main_v20) = val_main_v20 x0 x2) (h45 : V (δ main_v45) = val_main_v45 x0 x1 x2)
    (h62 : V (δ main_v62) = val_main_v62 x0 x1 x2) (h103 : V (δ main_v103) = val_main_v103 x0 x1)
    (h0 : V (δ main_arg0) = x0) (h1 : V (δ main_arg1) = x1) (h2 : V (δ main_arg2) = x2) :
    after cB7 V (δ main_v108) = val_main_v108 x0 x1 x2 ∧ after cB7 V (δ main_v20) = val_main_v20 x0 x2
    ∧ after cB7 V (δ main_arg0) = x0 ∧ after cB7 V (δ main_arg1) = x1 ∧ after cB7 V (δ main_arg2) = x2 := by
  refine ⟨?_, ?_, ?_, ?_, ?_⟩
  · after_results_simp
    rw [h45, h103, h62]
    rfl
  · after_results_simp
    exact h20
  · after_results_simp
    exact h0
  · after_results_simp
    exact h1
  · after_results_simp
    exact h2

end Cert.ReferenceIdeal.HandB

end
-- ==== Proof.RefRunC.lean ====
/-
  The reference's run, operations 91 to 177, assembled. The seven stretches follow one another, so the contents after
  all of them are the last stretch's results over the contents the first six leave; each stretch turns "the live buffers
  hold their stages" before it into the same after it. Hence: from contents in which the four values live after
  operation 90 (main_v4, main_v20, main_v45, main_v48) and the three arguments are the stages of (x0, x1, x2), the second
  result main_v108 ends as its stage, and the first result main_v20 and the arguments end as they were.
-/
import proofs.«400644_j12893491823014_2_alg».proof.Proof.Gen.ReferenceIdeal
import proofs.«400644_j12893491823014_2_alg».proof.Proof.RefReadP
import proofs.«400644_j12893491823014_2_alg».proof.Proof.RefRunC1
import proofs.«400644_j12893491823014_2_alg».proof.Proof.RefRunC2
import proofs.«400644_j12893491823014_2_alg».proof.Proof.RefRunC3
import proofs.«400644_j12893491823014_2_alg».proof.Proof.RefRunC4
import proofs.«400644_j12893491823014_2_alg».proof.Proof.RefRunC5
import proofs.«400644_j12893491823014_2_alg».proof.Proof.RefRunC6
import proofs.«400644_j12893491823014_2_alg».proof.Proof.RefRunC7
import Idealize.ShloMosaic.Lib.StableHlo.Run
import Idealize.ShloMosaic.Lib.Pipeline.Frame

noncomputable section

namespace Cert.ReferenceIdeal.HandB

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

local notation "δ" => Proc.devRef (sig := sig) (Proc.tc : Proc τ)

/-- Operations 91 to 177: the seven stretches in order. -/
abbrev opsB : List (HloOp τ sig (Elt F)) := cB1 ++ cB2 ++ cB3 ++ cB4 ++ cB5 ++ cB6 ++ cB7

/-- Running the seven stretches as one list is running them one after the other. -/
theorem after_opsB (W : Valuation τ sig (Elt F)) :
    after opsB W = after cB7 (after cB6 (after cB5 (after cB4 (after cB3 (after cB2 (after cB1 W)))))) := by
  show after (cB1 ++ cB2 ++ cB3 ++ cB4 ++ cB5 ++ cB6 ++ cB7) W = _
  rw [after_append, after_append, after_append, after_append, after_append, after_append]

/-- THE SECOND HALF OF THE RUN: the live values after operation 90 being their stages, the results are theirs. -/
theorem partB (W : Valuation τ sig (Elt F)) (x0 : (⟨S8192x128, .f32⟩ : BufTy).Contents (Elt F)) (x1 : (⟨S8192, .i32⟩ : BufTy).Contents (Elt F))
    (x2 : (⟨S1000x128, .f32⟩ : BufTy).Contents (Elt F))
    (h4 : W (δ main_v4) = val_main_v4 x0) (h20 : W (δ main_v20) = val_main_v20 x0 x2) (h45 : W (δ main_v45) = val_main_v45 x0 x1 x2)
    (h48 : W (δ main_v48) = val_main_v48 x2) (h0 : W (δ main_arg0) = x0) (h1 : W (δ main_arg1) = x1) (h2 : W (δ main_arg2) = x2) :
    after opsB W (δ main_v108) = val_main_v108 x0 x1 x2 ∧ after opsB W (δ main_v20) = val_main_v20 x0 x2
    ∧ after opsB W (δ main_arg0) = x0 ∧ after opsB W (δ main_arg1) = x1 ∧ after opsB W (δ main_arg2) = x2 := by
  obtain ⟨a4, a20, a45, a57, a0, a1, a2⟩ := stepB1 W x0 x1 x2 h4 h20 h45 h48 h0 h1 h2
  obtain ⟨b20, b45, b62, b66, b0, b1, b2⟩ := stepB2 (after cB1 W) x0 x1 x2 a4 a20 a45 a57 a0 a1 a2
  obtain ⟨c20, c45, c62, c71, c78, c0, c1, c2⟩ := stepB3 (after cB2 (after cB1 W)) x0 x1 x2 b20 b45 b62 b66 b0 b1 b2
  obtain ⟨d20, d45, d62, d87, d88, d0, d1, d2⟩ := stepB4 (after cB3 (after cB2 (after cB1 W))) x0 x1 x2 c20 c45 c62 c71 c78 c0 c1 c2
  obtain ⟨e20, e45, e62, e91, e95, e0, e1, e2⟩ := stepB5 (after cB4 (after cB3 (after cB2 (after cB1 W)))) x0 x1 x2 d20 d45 d62 d87 d88 d0 d1 d2
  obtain ⟨f20, f45, f62, f103, f0, f1, f2⟩ := stepB6 (after cB5 (after cB4 (after cB3 (after cB2 (after cB1 W))))) x0 x1 x2 e20 e45 e62 e91 e95 e0 e1 e2
  obtain ⟨g108, g20, g0, g1, g2⟩ := stepB7 (after cB6 (after cB5 (after cB4 (after cB3 (after cB2 (after cB1 W)))))) x0 x1 x2 f20 f45 f62 f103 f0 f1 f2
  rw [after_opsB]
  exact ⟨g108, g20, g0, g1, g2⟩

end Cert.ReferenceIdeal.HandB

end
-- ==== Proof.RefRunH.lean ====
/-
  The reference's run, stated over stages. The operation list is cut in two at the place where only four computed
  buffers are still to be read; each half is read, from ANY start valuation that has the stage facts of the buffers live at
  its start, to the stage facts of the buffers live at its end (the first half: the chain of its stretches below). The
  whole list run from the launch contents is the second half run from what the first leaves, and the run of @main ends
  every buffer at that valuation.
-/
import proofs.«400644_j12893491823014_2_alg».proof.Proof.RefOps
import proofs.«400644_j12893491823014_2_alg».proof.Proof.RefRunHT
import proofs.«400644_j12893491823014_2_alg».proof.Proof.RefRunC

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The first ninety operations: the stretches in order. -/
abbrev opsA : List (HloOp τ sig (Elt F)) :=
  opsA_1 ++ opsA_2 ++ opsA_3 ++ opsA_4 ++ opsA_5 ++ opsA_6 ++ opsA_7 ++ opsA_8 ++ opsA_9 ++ opsA_10 ++ opsA_11 ++ opsA_12

/-- From a valuation holding the three arguments, the first ninety operations leave the four buffers read later at
    their stages and the arguments as they were: each stretch's facts are the next stretch's hypotheses. -/
theorem partA (V : Valuation τ sig (Elt F)) (x0 : (⟨S8192x128, .f32⟩ : BufTy).Contents (Elt F))
    (x1 : (⟨S8192, .i32⟩ : BufTy).Contents (Elt F)) (x2 : (⟨S1000x128, .f32⟩ : BufTy).Contents (Elt F))
    (h0 : V (Proc.devRef .tc main_arg0) = x0) (h1 : V (Proc.devRef .tc main_arg1) = x1)
    (h2 : V (Proc.devRef .tc main_arg2) = x2) :
    after opsA V (Proc.devRef .tc main_v4) = val_main_v4 (F := F) x0
    ∧ after opsA V (Proc.devRef .tc main_v20) = val_main_v20 (F := F) x0 x2
    ∧ after opsA V (Proc.devRef .tc main_v45) = val_main_v45 (F := F) x0 x1 x2
    ∧ after opsA V (Proc.devRef .tc main_v48) = val_main_v48 (F := F) x2
    ∧ after opsA V (Proc.devRef .tc main_arg0) = x0
    ∧ after opsA V (Proc.devRef .tc main_arg1) = x1
    ∧ after opsA V (Proc.devRef .tc main_arg2) = x2 := by
  obtain ⟨a_v2, a0, a1, a2⟩ := stageA_1 V x0 x1 x2 h0 h1 h2
  obtain ⟨b_v4, b_v6, b_v9, b0, b1, b2⟩ := stageA_2 _ x0 x1 x2 a0 a1 a2 a_v2
  obtain ⟨c_v4, c_v12, c_v14, c_v15, c0, c1, c2⟩ := stageA_3 _ x0 x1 x2 b0 b1 b2 b_v4 b_v6 b_v9
  obtain ⟨d_v4, d_v20, d_p0, d_p1, d0, d1, d2⟩ := stageA_4 _ x0 x1 x2 c0 c1 c2 c_v4 c_v12 c_v14 c_v15
  obtain ⟨e_v4, e_v20, e_v23, e_cst5, e0, e1, e2⟩ := stageA_5 _ x0 x1 x2 d0 d1 d2 d_v4 d_v20 d_p0 d_p1
  obtain ⟨f_v4, f_v20, f_v26, f_q2, f0, f1, f2⟩ := stageA_6 _ x0 x1 x2 e0 e1 e2 e_v4 e_v20 e_v23 e_cst5
  obtain ⟨g_v4, g_v20, g_q5, g_q9, g0, g1, g2⟩ := stageA_7 _ x0 x1 x2 f0 f1 f2 f_v4 f_v20 f_v26 f_q2
  obtain ⟨i_v4, i_v20, i_v27, i_v28, i_v30, i_v31, i0, i1, i2⟩ := stageA_8 _ x0 x1 x2 g0 g1 g2 g_v4 g_v20 g_q5 g_q9
  obtain ⟨j_v4, j_v20, j_v27, j_v33, j_v35, j_v37, j0, j1, j2⟩ :=
    stageA_9 _ x0 x1 x2 i0 i1 i2 i_v4 i_v20 i_v27 i_v28 i_v30 i_v31
  obtain ⟨k_v4, k_v20, k_v27, k_v39, k_v40, k0, k1, k2⟩ :=
    stageA_10 _ x0 x1 x2 j0 j1 j2 j_v4 j_v20 j_v27 j_v33 j_v35 j_v37
  obtain ⟨l_v4, l_v20, l_v45, l_r0, l0, l1, l2⟩ := stageA_11 _ x0 x1 x2 k0 k1 k2 k_v4 k_v20 k_v27 k_v39 k_v40
  obtain ⟨n_v4, n_v20, n_v45, n_v48, n0, n1, n2⟩ := stageA_12 _ x0 x1 x2 l0 l1 l2 l_v4 l_v20 l_v45 l_r0
  simp only [opsA, StableHlo.after_append]
  exact ⟨n_v4, n_v20, n_v45, n_v48, n0, n1, n2⟩

/-- @main's operation list is the two halves in a row (the same operations, spelt twice). -/
theorem ops_eq : (Value.ops : List (HloOp τ sig (Elt F))) = opsA ++ HandB.opsB := rfl

/-- The whole list from a valuation: the second half from what the first leaves. -/
theorem after_ops (V : Valuation τ sig (Elt F)) :
    after (Value.ops (F := F)) V = after HandB.opsB (after opsA V) := by
  rw [ops_eq, StableHlo.after_append]

/-- On every device, from any memory with zero counters: every weakly fair execution of the reference's @main ends, with
    its two results at their stages of the launch contents of the arguments, and the arguments unchanged. -/
theorem run_staged (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = val_main_v20 (F := Ideal) (m ((c.tc : Thread nD τ).loc main_arg0)) (m ((c.tc : Thread nD τ).loc main_arg2))
      ∧ r.2.mem ((c.tc : Thread nD τ).loc main_v108) = val_main_v108 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
      obtain ⟨a4, a20, a45, a48, a0, a1, a2⟩ :=
        partA (launchContents m c) (m ((c.tc : Thread nD τ).loc main_arg0)) (m ((c.tc : Thread nD τ).loc main_arg1)) (m ((c.tc : Thread nD τ).loc main_arg2)) rfl rfl rfl
      obtain ⟨b108, b20, b0, b1, b2⟩ := HandB.partB _ _ _ _ a4 a20 a45 a48 a0 a1 a2
      have e : ∀ b : Ref sig .tc, r.2.mem ((c.tc : Thread nD τ).loc b)
          = after HandB.opsB (after opsA (launchContents m c)) (Proc.devRef .tc b) :=
        fun b => (h c b).trans (congrFun (after_ops (launchContents m c)) _)
      exact ⟨(e main_v20).trans b20, (e main_v108).trans b108, (e main_arg0).trans b0, (e main_arg1).trans b1,
        (e main_arg2).trans b2⟩)
    (run_seq Value.scopedRefs_eq Value.scopedSems_eq defs main (fun _ => Value.ops) Value.main_eq (fun _ => Value.ops_sub) m ρ)

end Cert.ReferenceIdeal.Hand

end
-- ==== Proof.PreDecode.lean ====
/-
  The precondition, decoded. The predicate is the conjunction of four "for every entry" statements, each printed
  as a reduction by `and` of a one-bit array from the constant 1: |feat| < +∞, |means| < +∞, 0 ≤ labels and
  labels < 1000 (both read signed). Its being all ones says: every entry of the two float arrays is a real number,
  and every label is the 32-bit word of a natural number below 1000.
-/
import proofs.«400644_j12893491823014_2_alg».proof.Pre_finite_inputs
import Idealize.ShloMosaic.PureOps.Ideal
import Idealize.ShloMosaic.Lib.Affine
import Idealize.ShloMosaic.Lib.ReduceAll
import Idealize.ShloMosaic.Lib.ValueIdx
import Mathlib.Data.EReal.Basic
import Mathlib.Tactic.Choose

noncomputable section

namespace Cert.PreDecode

open Idealize.ShloMosaic Idealize.ShloMosaic.ValueIdx
open Cert.Pre_finite_inputs

variable [Cert.Pre_finite_inputs.Facts]

/-- The rank-0 shape has one index. -/
instance : Subsingleton S_.Idx := ⟨fun a b => funext fun d => d.elim0⟩

/-- The f32 pattern with all-ones exponent and zero significand, sign clear, is +∞. -/
theorem ofBits_inf : Ideal.ofBits .f32 0x7F800000#32 = (⊤ : EReal) := by
  simp [Ideal.ofBits, Ideal.ieee]

/-- An extended real whose absolute value max x (-x) is below +∞ is a real: at ⊥ and at ⊤ the maximum is ⊤. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- A 32-bit word w with 0 ≤ w and w < 1000, both read signed, is the word of a natural number below 1000:
    nonnegative signed means the top bit is clear, so the signed and unsigned readings agree. -/
theorem word_of_range (w : BitVec 32) (h0 : IntOp.cmpi .sge w 0#32 = 1#1) (h1 : IntOp.cmpi .slt w 1000#32 = 1#1) :
    ∃ n : Fin 1000, w = BitVec.ofNat 32 n.val := by
  rw [IntOp.cmpi_sge] at h0
  rw [IntOp.cmpi_slt] at h1
  have z : (0#32 : BitVec 32).toInt = 0 := by decide
  have k : (1000#32 : BitVec 32).toInt = 1000 := by decide
  rw [z] at h0; rw [k] at h1
  have hlt : 2 * w.toNat < 2 ^ 32 := BitVec.toInt_pos_iff.1 h0
  have e : w.toInt = w.toNat := BitVec.toInt_eq_toNat_of_lt hlt
  refine ⟨⟨w.toNat, by omega⟩, ?_⟩
  simp

/-- The four conjuncts of the predicate, each read at an arbitrary entry. -/
theorem entries (a0 : FVec Ideal S8192x128 .f32) (a1 : IVec S8192 32) (a2 : FVec Ideal S1000x128 .f32)
    (h : Cert.Pre_finite_inputs.fn (F := Ideal) a0 a1 a2 = fun _ => 1#1) :
    (∀ j : S8192x128.Idx, Ideal.cmp .olt (max (a0 j) (-(a0 j))) (Ideal.ofBits .f32 0x7F800000#32) = 1#1)
    ∧ (∀ j : S1000x128.Idx, Ideal.cmp .olt (max (a2 j) (-(a2 j))) (Ideal.ofBits .f32 0x7F800000#32) = 1#1)
    ∧ (∀ j : S8192.Idx, IntOp.cmpi .sge (a1 j) 0#32 = 1#1)
    ∧ (∀ j : S8192.Idx, IntOp.cmpi .slt (a1 j) 1000#32 = 1#1) := by
  have e := congrFun h ValueIdx.ix0
  dsimp only [Cert.Pre_finite_inputs.fn, Cert.Pre_finite_inputs.fn_part1] at e
  simp only [Idealize.ShloMosaic.andi] at e
  rw [IntOp.andi_eq_one, IntOp.andi_eq_one, IntOp.andi_eq_one] at e
  obtain ⟨⟨⟨e0, e2⟩, e1a⟩, e1b⟩ := e
  exact ⟨fun j => Host.reduce_andi_all _ _ _ _ ix0 e0 j, fun j => Host.reduce_andi_all _ _ _ _ ix0 e2 j,
    fun j => Host.reduce_andi_all _ _ _ _ ix0 e1a j, fun j => Host.reduce_andi_all _ _ _ _ ix0 e1b j⟩

/-- THE PRECONDITION DECODED: feat and means are arrays of reals, labels an array of class numbers below 1000. -/
theorem decode (a0 : FVec Ideal S8192x128 .f32) (a1 : IVec S8192 32) (a2 : FVec Ideal S1000x128 .f32)
    (h : Cert.Pre_finite_inputs.fn (F := Ideal) a0 a1 a2 = fun _ => 1#1) :
    (∃ x : Fin 8192 → Fin 128 → ℝ, ∀ p q, a0 (ValueIdx.ix2 p q) = ((x p q : ℝ) : EReal))
    ∧ (∃ μ : Fin 1000 → Fin 128 → ℝ, ∀ p q, a2 (ValueIdx.ix2 p q) = ((μ p q : ℝ) : EReal))
    ∧ (∃ ℓ : Fin 8192 → Fin 1000, ∀ i, a1 (ValueIdx.ix1 i) = BitVec.ofNat 32 (ℓ i).val) := by
  obtain ⟨f0, f2, g0, g1⟩ := entries a0 a1 a2 h
  have r0 : ∀ (p : Fin 8192) (q : Fin 128), ∃ r : ℝ, a0 (ValueIdx.ix2 p q) = (r : EReal) := fun p q =>
    real_of_abs_lt_top _ (by have t := f0 (ValueIdx.ix2 p q); rwa [ofBits_inf] at t)
  have r2 : ∀ (p : Fin 1000) (q : Fin 128), ∃ r : ℝ, a2 (ValueIdx.ix2 p q) = (r : EReal) := fun p q =>
    real_of_abs_lt_top _ (by have t := f2 (ValueIdx.ix2 p q); rwa [ofBits_inf] at t)
  have r1 : ∀ i : Fin 8192, ∃ n : Fin 1000, a1 (ValueIdx.ix1 i) = BitVec.ofNat 32 n.val := fun i =>
    word_of_range _ (g0 (ValueIdx.ix1 i)) (g1 (ValueIdx.ix1 i))
  choose x hx using r0
  choose μ hμ using r2
  choose ℓ hℓ using r1
  exact ⟨⟨x, hx⟩, ⟨μ, hμ⟩, ⟨ℓ, hℓ⟩⟩

end Cert.PreDecode

end
-- ==== Proof.Claims.lean ====
/-
  The five claims, assembled.

  The three frames: each program runs to the end, faults nowhere and leaves its argument arrays as launched — for the
  kernel program (at both float families) read off the last of the values its run threads through the host
  stretches and the two kernel regions, for the reference off its run over stages.
  The idealization changes one constant: the kernel's folded reciprocal temperature is read as the exact reciprocal
  of the reference's temperature word.
  The value claim: under the precondition every entry of the feature and mean matrices is a real number and every
  label a class index, so both programs' results are real numbers: the same squared-distance table, and the same
  weighted sum of the cross entropy, the contrastive term and the margin term — the contrastive term accumulated by
  the kernel as three running sums with the diagonal taken off, by the reference as sums over the other rows, two
  arrangements of one real number.
-/
import proofs.«400644_j12893491823014_2_alg».proof.Defs
import proofs.«400644_j12893491823014_2_alg».proof.Proof.Frames
import proofs.«400644_j12893491823014_2_alg».proof.Proof.FramesK
import proofs.«400644_j12893491823014_2_alg».proof.Proof.KFinal
import proofs.«400644_j12893491823014_2_alg».proof.Proof.RFinal
import proofs.«400644_j12893491823014_2_alg».proof.Proof.RefRunH
import proofs.«400644_j12893491823014_2_alg».proof.Proof.PreDecode
import proofs.«400644_j12893491823014_2_alg».proof.Proof.Bridge
import proofs.«400644_j12893491823014_2_alg».proof.Proof.Gen.Kernel
import proofs.«400644_j12893491823014_2_alg».proof.Proof.Gen.KernelIdeal
import proofs.«400644_j12893491823014_2_alg».proof.Proof.Gen.ReferenceIdeal
import proofs.«400644_j12893491823014_2_alg».proof.Proof.Gen.Pre_finite_inputs
import Idealize.ShloMosaic.PureOps.IdealRules
import Idealize.ShloMosaic.Lib.ValueIdx

noncomputable section

namespace Cert.Proof.Claims

open Idealize.ShloMosaic Idealize.ShloMosaic.TcCoe Idealize.SL.Sem Idealize.ShloMosaic.ValueIdx

/-- The word-level kernel program runs and keeps its arguments. -/
theorem frame_kernel : Cert.frame_Kernel := fun m ρ _ => Cert.Kernel.Hand.frame m ρ

/-- The idealized kernel program runs and keeps its arguments. -/
theorem frame_kernelIdeal : Cert.frame_KernelIdeal := fun m ρ _ => Cert.KernelIdeal.Hand.frame m ρ

/-- The reference runs and keeps its arguments: its run over stages with the results forgotten. -/
theorem frame_reference : Cert.frame_ReferenceIdeal := fun m ρ _ =>
  (θ_run Cert.ReferenceIdeal.defs _ _).mono (fun _ h c => (h c).2.2) (Cert.ReferenceIdeal.Hand.run_staged m ρ)

/-- The one rewrite of the idealization: the constant named "inv_t" denotes 16777216 / 5033165, the exact reciprocal
    of the reference's temperature word 5033165 / 16777216. -/
theorem preserves : Cert.preserves_Kernel_KernelIdeal :=
  IdealRules.named_const.statement Cert.KernelIdeal.κ "inv_t" .f32 0x40555555#32 ((16777216 / 5033165 : ℝ) : EReal) rfl

/-- Both idealized programs, from memories that agree on the arguments, end with the same two results. -/
theorem algebraic : Cert.algebraic_KernelIdeal_ReferenceIdeal := by
  intro m ρ m' ρ' hpre hagree
  refine ⟨fun c => Cert.KernelIdeal.Hand.Wfin m c Cert.KernelIdeal.main_v10_0,
    fun c => Cert.KernelIdeal.Hand.Wfin m c Cert.KernelIdeal.main_v36, ?_, ?_⟩
  · -- the kernel program: its results ARE the last valuation's two result buffers
    exact (θ_run Cert.KernelIdeal.defs _ _).mono (fun r h c =>
      ⟨h c _ (Cert.KernelIdeal.Hand.mem_uc Cert.KernelIdeal.main_v10_0 (by decide)),
       h c _ (Cert.KernelIdeal.Hand.mem_uc Cert.KernelIdeal.main_v36 (by decide)),
       (h c _ (Cert.KernelIdeal.Hand.mem_uc Cert.KernelIdeal.main_arg0 (by decide))).trans (Cert.KernelIdeal.Hand.Wend_main_arg0 _ _ m c),
       (h c _ (Cert.KernelIdeal.Hand.mem_uc Cert.KernelIdeal.main_arg1 (by decide))).trans (Cert.KernelIdeal.Hand.Wend_main_arg1 _ _ m c),
       (h c _ (Cert.KernelIdeal.Hand.mem_uc Cert.KernelIdeal.main_arg2 (by decide))).trans (Cert.KernelIdeal.Hand.Wend_main_arg2 _ _ m c)⟩)
      (Cert.KernelIdeal.Hand.run_main m ρ)
  · -- the reference: its two results are the stages of the arguments, which are the same reals
    refine (θ_run Cert.ReferenceIdeal.defs _ _).mono (fun r h c => ?_) (Cert.ReferenceIdeal.Hand.run_staged m' ρ')
    obtain ⟨h20, h108, ha0, ha1, ha2⟩ := h c
    obtain ⟨⟨x, hx⟩, ⟨μ, hμ⟩, ⟨ℓ, hℓ⟩⟩ := Cert.PreDecode.decode _ _ _ (hpre c)
    have hk := Cert.KernelIdeal.Hand.kernel_values m c x μ ℓ hx hμ hℓ
    have hr := Cert.ReferenceIdeal.Hand.ref_values _ _ _ x μ ℓ hx hμ hℓ
    refine ⟨?_, ?_, ha0, ha1, ha2⟩
    · rw [h20, (hagree c).1, (hagree c).2.2]
      funext idx
      obtain ⟨p, q, rfl⟩ : ∃ (p : Fin 8192) (q : Fin 1000), idx = ix2 p q := ⟨idx 0, idx 1, eq_ix2 idx⟩
      exact (hr.1 p q).trans (hk.1 p q).symm
    · rw [h108, (hagree c).1, (hagree c).2.1, (hagree c).2.2]
      funext j
      refine (hr.2 j).trans ?_
      rw [← Cert.Spec.sclK_eq]
      exact (hk.2 j).symm

end Cert.Proof.Claims

end
-- ==== Proof.lean ====
/-
  The certificate's claim from its five parts (Proof/Claims.lean): the three frames, the one rewrite of the
  idealization, and the equality of the two idealized programs' results over the extended reals; the programs' and
  the precondition's stated side conditions are witnessed by the instances proved beside the printed programs.
-/
import proofs.«400644_j12893491823014_2_alg».proof.Defs
import proofs.«400644_j12893491823014_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_kernel, Cert.Proof.Claims.frame_kernelIdeal, Cert.Proof.Claims.frame_reference,
    Cert.Proof.Claims.preserves, Cert.Proof.Claims.algebraic⟩

end Cert.Proof

end
